-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64 .f32) (main_arg7 : FVec F S64 .f32) (main_arg8 : FVec F S64 .f32) (main_arg9 : FVec F S64x32 .f32) (main_arg10 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64 .f32) (main_arg8 : FVec F S64 .f32) (main_arg9 : FVec F S64x32 .f32) (main_arg10 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1700000x64 : Shape := ⟨2, ![1700000, 64]⟩
abbrev S1x64 : Shape := ⟨2, ![1, 64]⟩
abbrev S5000x64 : Shape := ⟨2, ![5000, 64]⟩
abbrev S5000x1 : Shape := ⟨2, ![5000, 1]⟩
abbrev S1x32 : Shape := ⟨2, ![1, 32]⟩
abbrev S128x32 : Shape := ⟨2, ![128, 32]⟩
abbrev S128x1 : Shape := ⟨2, ![128, 1]⟩
abbrev S5000x128 : Shape := ⟨2, ![5000, 128]⟩

abbrev nBuf : Space → Nat
  | .hbm => 108
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .bf16⟩
  | .hbm, ⟨43, _⟩ => ⟨S1700000x64, .f32⟩
  | .hbm, ⟨44, _⟩ => ⟨S_, .f32⟩
  | .hbm, ⟨45, _⟩ => ⟨S100000x64, .f32⟩
  | .hbm, ⟨46, _⟩ => ⟨S1700000x1, .i32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S_, .f32⟩
  | .hbm, ⟨52, _⟩ => ⟨S1x64, .f32⟩
  | .hbm, ⟨53, _⟩ => ⟨S1x64, .f32⟩
  | .hbm, ⟨54, _⟩ => ⟨S_, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S100000x64, .bf16⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .bf16⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S_, .f32⟩
  | .hbm, ⟨88, _⟩ => ⟨S1x64, .f32⟩
  | .hbm, ⟨89, _⟩ => ⟨S1x64, .f32⟩
  | .hbm, ⟨90, _⟩ => ⟨S_, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S_, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S100000x1, .i32⟩
  | .hbm, ⟨106, _⟩ => ⟨S1x32, .f32⟩
  | .hbm, ⟨107, _⟩ => ⟨S128x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .bf16⟩
  | .local _ .vmem, ⟨6, _⟩ => ⟨S10000x64, .bf16⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S64x64, .f32⟩
  | .local _ .vmem, ⟨22, _⟩ => ⟨S5000x64, .bf16⟩
  | .local _ .vmem, ⟨23, _⟩ => ⟨S5000x64, .bf16⟩
  | .local _ .vmem, ⟨24, _⟩ => ⟨S10000x64, .f32⟩
  | .local _ .vmem, ⟨25, _⟩ => ⟨S10000x64, .f32⟩
  | .local _ .vmem, ⟨26, _⟩ => ⟨S10000x1, .f32⟩
  | .local _ .vmem, ⟨27, _⟩ => ⟨S10000x1, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x1, .i32⟩
  | .local _ .vmem, ⟨39, _⟩ => ⟨S5000x1, .i32⟩
  | .local _ .vmem, ⟨40, _⟩ => ⟨S64x32, .f32⟩
  | .local _ .vmem, ⟨41, _⟩ => ⟨S1x32, .f32⟩
  | .local _ .vmem, ⟨42, _⟩ => ⟨S128x32, .f32⟩
  | .local _ .vmem, ⟨43, _⟩ => ⟨S128x64, .f32⟩
  | .local _ .vmem, ⟨44, _⟩ => ⟨S128x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58_0 : Ref sig .tc := ⟨.hbm, 85, rfl⟩
abbrev main_v58_1 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg7_0 : Ref sig .tc := ⟨.vmem, 41, rfl⟩
abbrev cc4_stg8_0 : Ref sig .tc := ⟨.vmem, 42, rfl⟩
abbrev cc4_scratch0 : Ref sig .tc := ⟨.vmem, 43, rfl⟩
abbrev cc4_scratch1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc4_sem6_0 : DmaSem sig := 40
abbrev cc4_sem7_0 : DmaSem sig := 41
abbrev cc4_sem8_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v45 : BitVec 1 := Scalar.cmpi .eq arg0 c19_i32
  let v46 : BitVec 32 := Scalar.extui v45
  let c0_i32_23 : BitVec 32 := 0#32
  let v47 : BitVec 1 := Scalar.cmpi .ne v46 c0_i32_23
  v47

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .i32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S64x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S10000x64_S10000x64 : S10000x64.ShapeCasts S10000x64
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  bcast_S64_S1x64_1 : S64.BroadcastsInDim S1x64 (![1] : Fin 1 → Fin S1x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  shapeCasts_S32_S1x32 : S32.ShapeCasts S1x32
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S5000x128_d1_w32 : S5000x128.Iotas .tc 32 [1]
  broadcasts_S5000x1_S5000x128 : S5000x1.Broadcasts S5000x128
  natLt_1_32 : 1 < 32
  broadcasts_S128x1_S128x64 : S128x1.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  scatter_S100000_S1700000x1_S1700000_n_0_0_1_wf : ScatterDims.WF S100000 S1700000x1 S1700000 [] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S5000x128_S5000x1_S128x1_0_0_1_1_n_n_wf : DotDims.WF S5000x128 S5000x1 S128x1 [0] [0] [1] [1] [] []
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .bf16 = 32 ∨ (Rect.block (s := S100000x64) S5000x64.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .i32 = 32 ∨ (Rect.block (s := S100000x1) S5000x1.size (cc4_transform_5 i) (hinb4_5 i)).WholeWords (EltTy.packing .i32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x32.size a ≤ S64x32.size a
  hwx4_6 : ∀ i : grid4.Coords, EltTy.bits .f32 = 32 ∨ (Rect.block (s := S64x32) S64x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x32.size a ≤ S128x32.size a
  hwx4_8 : ∀ i : grid4.Coords, EltTy.bits .f32 = 32 ∨ (Rect.block (s := S128x32) S128x32.size (cc4_transform_8 i) (hinb4_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58_0) S1x64.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58_1) S1x64.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S5000x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_arg9) S64x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v75) S1x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v76) S128x32.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun _ => false | 8 => fun i => !(k4_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩
abbrev S128x32 : Shape := ⟨2, ![128, 32]⟩
abbrev S1x32 : Shape := ⟨2, ![1, 32]⟩

abbrev nBuf : Space → Nat
  | .hbm => 177
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x32, .f32⟩
  | 10 => ⟨S32, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S100000x64, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x64, .f32⟩
  | 114 => ⟨S1700000x1, .f32⟩
  | 115 => ⟨S1700000x64, .f32⟩
  | 116 => ⟨S1700000x64, .f32⟩
  | 117 => ⟨S_, .f32⟩
  | 118 => ⟨S100000x64, .f32⟩
  | 119 => ⟨S1700000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S_, .f32⟩
  | 127 => ⟨S64, .f32⟩
  | _ => ⟨S100000x128, .f32⟩

abbrev hbmTy0_1 (i : Nat) : BufTy := match i % 128 with
  | 0 => ⟨S64, .f32⟩
  | 1 => ⟨S1x64, .f32⟩
  | 2 => ⟨S100000x64, .f32⟩
  | 3 => ⟨S100000x64, .f32⟩
  | 4 => ⟨S100000x64, .f32⟩
  | 5 => ⟨S_, .f32⟩
  | 6 => ⟨S64, .f32⟩
  | 7 => ⟨S_, .f32⟩
  | 8 => ⟨S64, .f32⟩
  | 9 => ⟨S64, .f32⟩
  | 10 => ⟨S1x64, .f32⟩
  | 11 => ⟨S100000x64, .f32⟩
  | 12 => ⟨S100000x64, .f32⟩
  | 13 => ⟨S_, .f32⟩
  | 14 => ⟨S64, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S_, .f32⟩
  | 30 => ⟨S128x64, .f32⟩
  | 31 => ⟨S100000x1, .i32⟩
  | 32 => ⟨S128x64, .f32⟩
  | 33 => ⟨S_, .f32⟩
  | 34 => ⟨S100000, .f32⟩
  | 35 => ⟨S_, .f32⟩
  | 36 => ⟨S128, .f32⟩
  | 37 => ⟨S100000x1, .i32⟩
  | 38 => ⟨S128, .f32⟩
  | 39 => ⟨S_, .f32⟩
  | 40 => ⟨S128, .f32⟩
  | 41 => ⟨S128, .f32⟩
  | 42 => ⟨S128x1, .f32⟩
  | 43 => ⟨S128x64, .f32⟩
  | 44 => ⟨S128x64, .f32⟩
  | 45 => ⟨S128x32, .f32⟩
  | 46 => ⟨S1x32, .f32⟩
  | 47 => ⟨S128x32, .f32⟩
  | 48 => ⟨S128x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call1_cst : Ref sig .tc := ⟨.hbm, 101, rfl⟩
abbrev main_call1_v0 : Ref sig .tc := ⟨.hbm, 102, rfl⟩
abbrev main_v72 : Ref sig .tc := ⟨.hbm, 103, rfl⟩
abbrev main_v73 : Ref sig .tc := ⟨.hbm, 104, rfl⟩
abbrev main_c_14 : Ref sig .tc := ⟨.hbm, 105, rfl⟩
abbrev main_v74 : Ref sig .tc := ⟨.hbm, 106, rfl⟩
abbrev main_v75 : Ref sig .tc := ⟨.hbm, 107, rfl⟩
abbrev main_c_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_17 : Ref sig .tc := ⟨.hbm, 124, rfl⟩
abbrev main_v90 : Ref sig .tc := ⟨.hbm, 125, rfl⟩
abbrev main_cst_18 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_21 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call2_cst : Ref sig .tc := ⟨.hbm, 154, rfl⟩
abbrev main_call2_v0 : Ref sig .tc := ⟨.hbm, 155, rfl⟩
abbrev main_v115 : Ref sig .tc := ⟨.hbm, 156, rfl⟩
abbrev main_cst_22 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_23 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_25 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x32_S128x32_1_0_0_1_n_n_wf : DotDims.WF S128x64 S64x32 S128x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.KI.R0.lean ====
import proofs.«411316_j29850022707326_3_alg».proof.Proof.Gen.KernelIdeal.Launch
import proofs.«411316_j29850022707326_3_alg».proof.Proof.Gen.KernelIdeal.Skeleton
import proofs.«411316_j29850022707326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x1 := Rect.unit (s := S10000x1) ![0, 0] S10000x1.size inb_S10000x1_S10000x1_0_0
abbrev r0_3 : Rect S10000x64 := Rect.unit (s := S10000x64) ![0, 0] S10000x64.size inb_S10000x64_S10000x64_0_0

/-! ## What the body leaves in the output window's buffer -/

/-- Window 3's staging buffer after the body, from the input windows' blocks: its one store as a piece, the
    payload the skeleton's, over the blocks as loaded. -/
def out0_3 (x0 : Vec F S10000x128 .f32) (x1 : Vec F S128x64 .f32) (x2 : Vec F S10000x1 .f32) : Vec F S10000x64 .bf16 :=
  View.canon [⟨r0_3, k0_pay1 (View.ld x0 r0_0) (View.ld x1 r0_1) (View.ld x2 r0_2)⟩]

/-- Its store tiles the buffer (checked by evaluation), so it covers it. -/
theorem cover0_3 (p0 : Vec F S10000x64 .bf16) (y : S10000x64.Idx) :
    ∃ pc ∈ ([⟨r0_3, p0⟩] : List (View.Piece (Elt F) S10000x64 .bf16)), y ∈ pc.1.set :=
  View.cover_of_tiled [⟨r0_3, p0⟩] S10000x64.size (by rfl) y

/-! ## The body's triple -/

set_option maxHeartbeats 1000000 in
/-- The kernel body on whole staging memrefs, the inputs' at read contents `xW` and the output's at anything, runs to
    the continuation holding the inputs' as they were and the output's at `out0_3` of the inputs': the printed
    function is its skeleton, which is run operation by operation. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x1 .f32) (harg3 : arg3.IsWhole) (arg4 : Memref sig .tc .vmem S10000x64 .bf16) (harg4 : arg4.IsWhole)
    (x0 : Vec F S10000x128 .f32) (x1 : Vec F S128x64 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output block as the payload of the input blocks -/

/-- The zero offsets, as a constant function. -/
theorem hz0 : (![0, 0] : Fin 2 → Nat) = fun _ => 0 := funext fun a => by fin_cases a <;> rfl

/-- The single store covers the block and every load reads a whole block, so the output buffer after the body IS the
    payload of the input blocks. -/
theorem out0_3_eq (x0 : Vec F S10000x128 .f32) (x1 : Vec F S128x64 .f32) (x2 : Vec F S10000x1 .f32) : out0_3 x0 x1 x2 = k0_pay1 x0 x1 x2 := by
  unfold out0_3
  rw [View.canon_unit_zero hz0]
  simp only [View.ld_unit_zero (S := S10000x128) hz0, View.ld_unit_zero (S := S128x64) hz0, View.ld_unit_zero (S := S10000x1) hz0]

end Cert.KernelIdeal.Hand

end
-- ==== Proof.KI.R1.lean ====
import proofs.«411316_j29850022707326_3_alg».proof.Proof.Gen.KernelIdeal.Launch
import proofs.«411316_j29850022707326_3_alg».proof.Proof.Gen.KernelIdeal.Skeleton
import proofs.«411316_j29850022707326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of @main that runs `cc1__bn_stats_kernel` (pipeline `cfg1`), at the entry contents `V`

The kernel sums the aggregated rows and their squares down the row blocks, one block a grid point, into two one-row
outputs whose block never moves: zeroed at the first point, added to at every point, written back after the last. Here:
the windows' blocks as read off the entry contents; the body's run in its two control cases (first point, later
point) with what each leaves in the two outputs; the outputs' contents after every point, by recursion on the point;
the pipeline's proof data and the body obligation; and each case's contents as the payloads of the input blocks. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the region-entry contents (`hA`) and whose body leaves the block in place (`hafter`):
    unfetched, the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the region-entry contents (`hA`) and whose body leaves the block in place (`hafter`):
    unfetched, the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the region-entry contents (`hA`) and whose body leaves the block in place (`hafter`):
    unfetched, the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if`, from the grid coordinates (the skeleton's scalar chain substituted). -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The staging memrefs -/

/-- One staging buffer of output window 3 (the running sum), through which its contents are stated. -/
abbrev VO1_3 : View sig .tc .vmem S1x64 .f32 := (Memref.whole cc1_stg3_0 : Memref sig .tc .vmem S1x64 .f32).view
/-- One staging buffer of output window 4 (the running sum of squares), through which its contents are stated. -/
abbrev VO1_4 : View sig .tc .vmem S1x64 .f32 := (Memref.whole cc1_stg4_0 : Memref sig .tc .vmem S1x64 .f32).view
/-- Each window's current staging memref at point `t`, spelled as the pipeline passes it, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
/-! ## The kernel body on any staging memrefs: the pieces its stores leave, with the proof of its run -/

set_option maxHeartbeats 1000000 in
/-- What the body's stores leave in each output's staging memref, as pieces (last first), AT THE FIRST POINT (the
    `scf.if` taken: both outputs zeroed, then the block's sums added), with the proof that on whole staging memrefs,
    the inputs' at their contents and the outputs' at anything, the body runs to the continuation holding the inputs'
    as they were and each output's buffer with its pieces written. The value is the pair: the pieces, and that proof about them. -/
noncomputable def kernelRun1_A (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__bn_stats_kernel i arg1 harg1 arg2 harg2 arg3 harg3 arg4 harg4 arg5 harg5) K } := by
  refine ⟨(?_, ?_), fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- What the body's stores leave in each output's staging memref, as pieces (last first), AT A LATER POINT (the
    `scf.if` not taken: each output is read, at the running contents `xo3`, `xo4` the point before left, before the
    block's sums are added to it), with the proof that on whole staging memrefs, the inputs' at their contents and the
    outputs' at those running contents, the body runs to the continuation holding the inputs' as they were and each
    output's buffer with its pieces written. The value is the pair: the pieces, and that proof about them. -/
noncomputable def kernelRun1_B (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__bn_stats_kernel i arg1 harg1 arg2 harg2 arg3 harg3 arg4 harg4 arg5 harg5) K } := by
  refine ⟨(?_, ?_), fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-! ## What each case leaves in the outputs -/

/-- Case A's pieces for output 3 tile its block (2 stores of `S1x64`), so they cover it. -/
theorem cover1_A_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) (y : S1x64.Idx) :
    ∃ pc ∈ (kernelRun1_A c i arg1 harg1 arg2 harg2 arg3 harg3 arg4 harg4 arg5 harg5 hc0 x0 x1 x2).1.1, y ∈ pc.1.set :=
  View.cover_of_tiledL (kernelRun1_A c i arg1 harg1 arg2 harg2 arg3 harg3 arg4 harg4 arg5 harg5 hc0 x0 x1 x2).1.1 S1x64.size (by sl_kernel_rfl) y

/-- What case A leaves in output 3's staging buffer (the running sum): its pieces read back over junk. -/
def out1_A_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) : Vec F S1x64 .f32 :=
  VO1_3.read (Elt F) (VO1_3.writes (Elt F) VO1_3.junk (kernelRun1_A c i arg1 harg1 arg2 harg2 arg3 harg3 arg4 harg4 arg5 harg5 hc0 x0 x1 x2).1.1)

/-- Case A's pieces for output 4 tile its block (2 stores of `S1x64`), so they cover it. -/
theorem cover1_A_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) (y : S1x64.Idx) :
    ∃ pc ∈ (kernelRun1_A c i arg1 harg1 arg2 harg2 arg3 harg3 arg4 harg4 arg5 harg5 hc0 x0 x1 x2).1.2, y ∈ pc.1.set :=
  View.cover_of_tiledL (kernelRun1_A c i arg1 harg1 arg2 harg2 arg3 harg3 arg4 harg4 arg5 harg5 hc0 x0 x1 x2).1.2 S1x64.size (by sl_kernel_rfl) y

/-- What case A leaves in output 4's staging buffer (the running sum of squares): its pieces read back over junk. -/
def out1_A_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) : Vec F S1x64 .f32 :=
  VO1_4.read (Elt F) (VO1_4.writes (Elt F) VO1_4.junk (kernelRun1_A c i arg1 harg1 arg2 harg2 arg3 harg3 arg4 harg4 arg5 harg5 hc0 x0 x1 x2).1.2)

/-- Case B's pieces for output 3 tile its block (1 store of `S1x64`), so they cover it. -/
theorem cover1_B_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 x2 xo3 xo4).1.1, y ∈ pc.1.set :=
  View.cover_of_tiledL (kernelRun1_B c i arg1 harg1 arg2 harg2 arg3 harg3 arg4 harg4 arg5 harg5 hc0 x0 x1 x2 xo3 xo4).1.1 S1x64.size (by sl_kernel_rfl) y

/-- What case B leaves in output 3's staging buffer (the running sum): its pieces read back over junk. -/
def out1_B_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) : Vec F S1x64 .f32 :=
  VO1_3.read (Elt F) (VO1_3.writes (Elt F) VO1_3.junk (kernelRun1_B c i arg1 harg1 arg2 harg2 arg3 harg3 arg4 harg4 arg5 harg5 hc0 x0 x1 x2 xo3 xo4).1.1)

/-- Case B's pieces for output 4 tile its block (1 store of `S1x64`), so they cover it. -/
theorem cover1_B_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 x2 xo3 xo4).1.2, y ∈ pc.1.set :=
  View.cover_of_tiledL (kernelRun1_B c i arg1 harg1 arg2 harg2 arg3 harg3 arg4 harg4 arg5 harg5 hc0 x0 x1 x2 xo3 xo4).1.2 S1x64.size (by sl_kernel_rfl) y

/-- What case B leaves in output 4's staging buffer (the running sum of squares): its pieces read back over junk. -/
def out1_B_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) : Vec F S1x64 .f32 :=
  VO1_4.read (Elt F) (VO1_4.writes (Elt F) VO1_4.junk (kernelRun1_B c i arg1 harg1 arg2 harg2 arg3 harg3 arg4 harg4 arg5 harg5 hc0 x0 x1 x2 xo3 xo4).1.2)

/-! ## What the outputs hold after each point -/

/-- THE ACCUMULATION. What the two outputs' staging buffers hold after the body at position `n` (a pair: the running
    sum, the running sum of squares): the case the closed form selects at `n`, run at the point's memrefs and input
    blocks, each output read before it is covered at what this leaves at `n - 1` (its buffer is not written back
    between: `before1_3_B`, `before1_4_B`). -/
def outsAt1 (c : Dev nD) : (n : ℕ) → n < cfg1.N → Vec F S1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 10 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- `outsAt1` at a point of case A: that case's contents. -/
theorem outsAt1_A (c : Dev nD) (t : Fin cfg1.N) (h0 : t.val % 10 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 10 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core `c`: the arrays as the region finds them (`V`); after the body
    at point `t` each input's buffer at its block and the two outputs' at `outsAt1`'s components; the invariant the
    scoped rest and the PRNG register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 3's current staging buffer holds what the body left at the point before: the point is
    not the first, the buffer was not written back between (it is written back after the last point only), the window
    is live and uncut. -/
theorem before1_3_B (c : Dev nD) (t : Fin cfg1.N) (h0 : ¬t.val % 10 = 0) (d) :
    (dat1 V c).before 3 t d = (outsAt1 V c (t.val - 1) (Nat.lt_of_le_of_lt (Nat.sub_le _ _) t.isLt)).1 := by
  have hN : t.val < 10 := lt_of_lt_of_eq t.isLt (show cfg1.N = 10 from N_1)
  rw [Dat.before_out_kept _ 3 rfl t (by omega) (Bool.eq_false_iff.mpr fun h => by have := (flush1_3 _).mp h; dsimp only at this; omega)
    (fun _ => rfl) (fun _ _ => rfl)]
  dsimp only [dat1]
/-- The same for output 4. -/
theorem before1_4_B (c : Dev nD) (t : Fin cfg1.N) (h0 : ¬t.val % 10 = 0) (d) :
    (dat1 V c).before 4 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks (`before1_W`); the closed form says which case the
    point is in; at a later point each output holds what the point before left (`before1_3_B`, `before1_4_B`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 10 := lt_of_lt_of_eq t.isLt (show cfg1.N = 10 from N_1)
  by_cases h0 : t.val % 10 = 0
  · rw [outsAt1_A V c t h0]
    unfold out1_A_3 out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _)
    unfold owns; iexists _; isplitr
    swap; · iexact H4
    ipureintro; exact View.read_writes_of_cover _ _ _ _ _ (cover1_A_4 c _ _ _ _ _ _ _ _ _ _ _ _ _ _ _)
  · rw [outsAt1_B V c t h0]
    simp only [before1_3_B V c t h0, before1_4_B V c t h0]
    unfold out1_B_3 out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Each case's pieces, read as the payloads -/

/-- The zero offsets of a rank-2 whole-buffer access, however spelt. -/
theorem hz1 : (![0, 0] : Fin 2 → Nat) = fun _ => 0 := funext fun a => by fin_cases a <;> rfl

/-- At the first point output 3 ends holding the block's sum added to the zero row: the later of its two covering
    stores, whose read-back of the first (the zero row) is a covered load. -/
theorem out1_A_3_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) :
    out1_A_3 c i arg1 harg1 arg2 harg2 arg3 harg3 arg4 harg4 arg5 harg5 hc0 x0 x1 x2 = k1_pay4 x0 x1 x2 k1_pay1 := by
  unfold out1_A_3
  rw [View.read_writes_eq_canon _ _ _ (cover1_A_3 c i arg1 harg1 arg2 harg2 arg3 harg3 arg4 harg4 arg5 harg5 hc0 x0 x1 x2)]
  unfold kernelRun1_A
  dsimp only
  sl_unfold_words
  rw [View.canon_cons_unit_zero (S := S1x64) hz1]
  simp only [View.readAt_eq_ld, harg1.read_unread, harg2.read_unread, harg3.read_unread,
    View.ld_unit_zero (S := S10000x64) hz1, View.ld_unit_zero (S := S10000x1) hz1, View.ld_unit_zero (S := S1x64) hz1,
    View.readCov_unit_zero (S := S1x64) _ hz1]

/-- At the first point output 4 ends holding the block's sum of squares added to the zero row. -/
theorem out1_A_4_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) :
    out1_A_4 c i arg1 harg1 arg2 harg2 arg3 harg3 arg4 harg4 arg5 harg5 hc0 x0 x1 x2 = k1_pay5 x0 x1 x2 k1_pay2 := by
  unfold out1_A_4
  rw [View.read_writes_eq_canon _ _ _ (cover1_A_4 c i arg1 harg1 arg2 harg2 arg3 harg3 arg4 harg4 arg5 harg5 hc0 x0 x1 x2)]
  unfold kernelRun1_A
  dsimp only
  sl_unfold_words
  rw [View.canon_cons_unit_zero (S := S1x64) hz1]
  simp only [View.readAt_eq_ld, harg1.read_unread, harg2.read_unread, harg3.read_unread,
    View.ld_unit_zero (S := S10000x64) hz1, View.ld_unit_zero (S := S10000x1) hz1, View.ld_unit_zero (S := S1x64) hz1,
    View.readCov_unit_zero (S := S1x64) _ hz1]

/-- At a later point output 3 ends holding the block's sum added to what the point before left: its one covering
    store, whose loads read the whole buffers. -/
theorem out1_B_3_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) :
    out1_B_3 c i arg1 harg1 arg2 harg2 arg3 harg3 arg4 harg4 arg5 harg5 hc0 x0 x1 x2 xo3 xo4 = k1_pay4 x0 x1 x2 xo3 := by
  unfold out1_B_3
  rw [View.read_writes_eq_canon _ _ _ (cover1_B_3 c i arg1 harg1 arg2 harg2 arg3 harg3 arg4 harg4 arg5 harg5 hc0 x0 x1 x2 xo3 xo4)]
  unfold kernelRun1_B
  dsimp only
  sl_unfold_words
  rw [View.canon_unit_zero (S := S1x64) hz1]
  simp only [View.readAt_eq_ld, harg1.read_unread, harg2.read_unread, harg3.read_unread, harg4.read_unread,
    View.ld_unit_zero (S := S10000x64) hz1, View.ld_unit_zero (S := S10000x1) hz1, View.ld_unit_zero (S := S1x64) hz1]

/-- At a later point output 4 ends holding the block's sum of squares added to what the point before left. -/
theorem out1_B_4_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) :
    out1_B_4 c i arg1 harg1 arg2 harg2 arg3 harg3 arg4 harg4 arg5 harg5 hc0 x0 x1 x2 xo3 xo4 = k1_pay5 x0 x1 x2 xo4 := by
  unfold out1_B_4
  rw [View.read_writes_eq_canon _ _ _ (cover1_B_4 c i arg1 harg1 arg2 harg2 arg3 harg3 arg4 harg4 arg5 harg5 hc0 x0 x1 x2 xo3 xo4)]
  unfold kernelRun1_B
  dsimp only
  sl_unfold_words
  rw [View.canon_unit_zero (S := S1x64) hz1]
  simp only [View.readAt_eq_ld, harg1.read_unread, harg2.read_unread, harg3.read_unread, harg5.read_unread,
    View.ld_unit_zero (S := S10000x64) hz1, View.ld_unit_zero (S := S10000x1) hz1, View.ld_unit_zero (S := S1x64) hz1]

end Cert.KernelIdeal.Hand

end
-- ==== Proof.KI.R2.lean ====
import proofs.«411316_j29850022707326_3_alg».proof.Proof.Gen.KernelIdeal.Launch
import proofs.«411316_j29850022707326_3_alg».proof.Proof.Gen.KernelIdeal.Skeleton
import proofs.«411316_j29850022707326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__bnrelu_matmul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): unfetched, the index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): unfetched, the index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): unfetched, the index has
    not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): unfetched, the index has
    not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): unfetched, the index has
    not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x1 := Rect.unit (s := S5000x1) ![0, 0] S5000x1.size inb_S5000x1_S5000x1_0_0
abbrev r2_1 : Rect S5000x64 := Rect.unit (s := S5000x64) ![0, 0] S5000x64.size inb_S5000x64_S5000x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in the output window's buffer -/

/-- Window 6's staging buffer after the body, from the input windows' blocks: its one store as a piece, the
    payload the skeleton's, over the blocks as loaded. -/
def out2_6 (x0 : Vec F S5000x64 .f32) (x1 : Vec F S5000x1 .f32) (x2 : Vec F S1x64 .f32) (x3 : Vec F S1x64 .f32) (x4 : Vec F S1x64 .f32) (x5 : Vec F S64x64 .f32) : Vec F S5000x64 .bf16 :=
  View.canon [⟨r2_1, k2_pay1 (View.ld x1 r2_0) (View.ld x0 r2_1) (View.ld x2 r2_2) (View.ld x3 r2_2) (View.ld x4 r2_2) (View.ld x5 r2_3)⟩]

/-- Its store tiles the buffer (checked by evaluation), so it covers it. -/
theorem cover2_6 (p0 : Vec F S5000x64 .bf16) (y : S5000x64.Idx) :
    ∃ pc ∈ ([⟨r2_1, p0⟩] : List (View.Piece (Elt F) S5000x64 .bf16)), y ∈ pc.1.set :=
  View.cover_of_tiled [⟨r2_1, p0⟩] S5000x64.size (by rfl) y

/-! ## The body's triple -/

set_option maxHeartbeats 1000000 in
/-- The kernel body on whole staging memrefs, the inputs' at read contents `xW` and the output's at anything, runs to
    the continuation holding the inputs' as they were and the output's at `out2_6` of the inputs': the printed
    function is its skeleton, which is run operation by operation. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S5000x64 .bf16) (harg7 : arg7.IsWhole)
    (x0 : Vec F S5000x64 .f32) (x1 : Vec F S5000x1 .f32) (x2 : Vec F S1x64 .f32) (x3 : Vec F S1x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bnrelu_matmul_kernel i arg1 harg1 arg2 harg2 arg3 harg3 arg4 harg4 arg5 harg5 arg6 harg6 arg7 harg7) K := by
  simp only [cc2__bnrelu_matmul_kernel_eq_skeleton]; unfold cc2__bnrelu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output block as the payload of the input blocks -/

/-- The zero offsets, as a constant function. -/
theorem hz2 : (![0, 0] : Fin 2 → Nat) = fun _ => 0 := funext fun a => by fin_cases a <;> rfl

/-- The single store covers the block and every load reads a whole block, so the output buffer after the body IS the
    payload of the input blocks. -/
theorem out2_6_eq (x0 : Vec F S5000x64 .f32) (x1 : Vec F S5000x1 .f32) (x2 : Vec F S1x64 .f32) (x3 : Vec F S1x64 .f32) (x4 : Vec F S1x64 .f32) (x5 : Vec F S64x64 .f32) : out2_6 x0 x1 x2 x3 x4 x5 = k2_pay1 x1 x0 x2 x3 x4 x5 := by
  unfold out2_6
  rw [View.canon_unit_zero hz2]
  simp only [View.ld_unit_zero (S := S5000x1) hz2, View.ld_unit_zero (S := S5000x64) hz2, View.ld_unit_zero (S := S1x64) hz2, View.ld_unit_zero (S := S64x64) hz2]

end Cert.KernelIdeal.Hand

end
-- ==== Proof.KI.R3.lean ====
import proofs.«411316_j29850022707326_3_alg».proof.Proof.Gen.KernelIdeal.Launch
import proofs.«411316_j29850022707326_3_alg».proof.Proof.Gen.KernelIdeal.Skeleton
import proofs.«411316_j29850022707326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of @main that runs `cc3__bn_stats_kernel` (pipeline `cfg3`), at the entry contents `V`

The kernel sums the aggregated rows and their squares down the row blocks, one block a grid point, into two one-row
outputs whose block never moves: zeroed at the first point, added to at every point, written back after the last. Here:
the windows' blocks as read off the entry contents; the body's run in its two control cases (first point, later
point) with what each leaves in the two outputs; the outputs' contents after every point, by recursion on the point;
the pipeline's proof data and the body obligation; and each case's contents as the payloads of the input blocks. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the region-entry contents (`hA`) and whose body leaves the block in place (`hafter`):
    unfetched, the block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the region-entry contents (`hA`) and whose body leaves the block in place (`hafter`):
    unfetched, the block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the region-entry contents (`hA`) and whose body leaves the block in place (`hafter`):
    unfetched, the block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one `scf.if`, from the grid coordinates (the skeleton's scalar chain substituted). -/
abbrev cond3_0 (i : grid3.Coords) : Prop := (Scalar.cmpi .ne (Scalar.extui (Scalar.cmpi .eq (BitVec.ofNat 32 (i 0).val) 0#32)) 0#32) = 1#1
/-- It holds at the first point only: decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The staging memrefs -/

/-- One staging buffer of output window 3 (the running sum), through which its contents are stated. -/
abbrev VO3_3 : View sig .tc .vmem S1x64 .f32 := (Memref.whole cc3_stg3_0 : Memref sig .tc .vmem S1x64 .f32).view
/-- One staging buffer of output window 4 (the running sum of squares), through which its contents are stated. -/
abbrev VO3_4 : View sig .tc .vmem S1x64 .f32 := (Memref.whole cc3_stg4_0 : Memref sig .tc .vmem S1x64 .f32).view
/-- Each window's current staging memref at point `t`, spelled as the pipeline passes it, and its wholeness. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
/-! ## The kernel body on any staging memrefs: the pieces its stores leave, with the proof of its run -/

set_option maxHeartbeats 1000000 in
/-- What the body's stores leave in each output's staging memref, as pieces (last first), AT THE FIRST POINT (the
    `scf.if` taken: both outputs zeroed, then the block's sums added), with the proof that on whole staging memrefs,
    the inputs' at their contents and the outputs' at anything, the body runs to the continuation holding the inputs'
    as they were and each output's buffer with its pieces written. The value is the pair: the pieces, and that proof about them. -/
noncomputable def kernelRun3_A (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc3__bn_stats_kernel i arg1 harg1 arg2 harg2 arg3 harg3 arg4 harg4 arg5 harg5) K } := by
  refine ⟨(?_, ?_), fun E K => ?run⟩
  case run =>
    simp only [cc3__bn_stats_kernel_eq_skeleton]; unfold cc3__bn_stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- What the body's stores leave in each output's staging memref, as pieces (last first), AT A LATER POINT (the
    `scf.if` not taken: each output is read, at the running contents `xo3`, `xo4` the point before left, before the
    block's sums are added to it), with the proof that on whole staging memrefs, the inputs' at their contents and the
    outputs' at those running contents, the body runs to the continuation holding the inputs' as they were and each
    output's buffer with its pieces written. The value is the pair: the pieces, and that proof about them. -/
noncomputable def kernelRun3_B (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc3__bn_stats_kernel i arg1 harg1 arg2 harg2 arg3 harg3 arg4 harg4 arg5 harg5) K } := by
  refine ⟨(?_, ?_), fun E K => ?run⟩
  case run =>
    simp only [cc3__bn_stats_kernel_eq_skeleton]; unfold cc3__bn_stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-! ## What each case leaves in the outputs -/

/-- Case A's pieces for output 3 tile its block (2 stores of `S1x64`), so they cover it. -/
theorem cover3_A_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) (y : S1x64.Idx) :
    ∃ pc ∈ (kernelRun3_A c i arg1 harg1 arg2 harg2 arg3 harg3 arg4 harg4 arg5 harg5 hc0 x0 x1 x2).1.1, y ∈ pc.1.set :=
  View.cover_of_tiledL (kernelRun3_A c i arg1 harg1 arg2 harg2 arg3 harg3 arg4 harg4 arg5 harg5 hc0 x0 x1 x2).1.1 S1x64.size (by sl_kernel_rfl) y

/-- What case A leaves in output 3's staging buffer (the running sum): its pieces read back over junk. -/
def out3_A_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) : Vec F S1x64 .f32 :=
  VO3_3.read (Elt F) (VO3_3.writes (Elt F) VO3_3.junk (kernelRun3_A c i arg1 harg1 arg2 harg2 arg3 harg3 arg4 harg4 arg5 harg5 hc0 x0 x1 x2).1.1)

/-- Case A's pieces for output 4 tile its block (2 stores of `S1x64`), so they cover it. -/
theorem cover3_A_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) (y : S1x64.Idx) :
    ∃ pc ∈ (kernelRun3_A c i arg1 harg1 arg2 harg2 arg3 harg3 arg4 harg4 arg5 harg5 hc0 x0 x1 x2).1.2, y ∈ pc.1.set :=
  View.cover_of_tiledL (kernelRun3_A c i arg1 harg1 arg2 harg2 arg3 harg3 arg4 harg4 arg5 harg5 hc0 x0 x1 x2).1.2 S1x64.size (by sl_kernel_rfl) y

/-- What case A leaves in output 4's staging buffer (the running sum of squares): its pieces read back over junk. -/
def out3_A_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) : Vec F S1x64 .f32 :=
  VO3_4.read (Elt F) (VO3_4.writes (Elt F) VO3_4.junk (kernelRun3_A c i arg1 harg1 arg2 harg2 arg3 harg3 arg4 harg4 arg5 harg5 hc0 x0 x1 x2).1.2)

/-- Case B's pieces for output 3 tile its block (1 store of `S1x64`), so they cover it. -/
theorem cover3_B_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun3_B c i arg1 harg1 arg2 harg2 arg3 harg3 arg4 harg4 arg5 harg5 hc0 x0 x1 x2 xo3 xo4).1.1, y ∈ pc.1.set :=
  View.cover_of_tiledL (kernelRun3_B c i arg1 harg1 arg2 harg2 arg3 harg3 arg4 harg4 arg5 harg5 hc0 x0 x1 x2 xo3 xo4).1.1 S1x64.size (by sl_kernel_rfl) y

/-- What case B leaves in output 3's staging buffer (the running sum): its pieces read back over junk. -/
def out3_B_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) : Vec F S1x64 .f32 :=
  VO3_3.read (Elt F) (VO3_3.writes (Elt F) VO3_3.junk (kernelRun3_B c i arg1 harg1 arg2 harg2 arg3 harg3 arg4 harg4 arg5 harg5 hc0 x0 x1 x2 xo3 xo4).1.1)

/-- Case B's pieces for output 4 tile its block (1 store of `S1x64`), so they cover it. -/
theorem cover3_B_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun3_B c i arg1 harg1 arg2 harg2 arg3 harg3 arg4 harg4 arg5 harg5 hc0 x0 x1 x2 xo3 xo4).1.2, y ∈ pc.1.set :=
  View.cover_of_tiledL (kernelRun3_B c i arg1 harg1 arg2 harg2 arg3 harg3 arg4 harg4 arg5 harg5 hc0 x0 x1 x2 xo3 xo4).1.2 S1x64.size (by sl_kernel_rfl) y

/-- What case B leaves in output 4's staging buffer (the running sum of squares): its pieces read back over junk. -/
def out3_B_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) : Vec F S1x64 .f32 :=
  VO3_4.read (Elt F) (VO3_4.writes (Elt F) VO3_4.junk (kernelRun3_B c i arg1 harg1 arg2 harg2 arg3 harg3 arg4 harg4 arg5 harg5 hc0 x0 x1 x2 xo3 xo4).1.2)

/-! ## What the outputs hold after each point -/

/-- THE ACCUMULATION. What the two outputs' staging buffers hold after the body at position `n` (a pair: the running
    sum, the running sum of squares): the case the closed form selects at `n`, run at the point's memrefs and input
    blocks, each output read before it is covered at what this leaves at `n - 1` (its buffer is not written back
    between: `before3_3_B`, `before3_4_B`). -/
def outsAt3 (c : Dev nD) : (n : ℕ) → n < cfg3.N → Vec F S1x64 .f32 × Vec F S1x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩))
  | n + 1, hn =>
    if h0 : (n + 1) % 10 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).1 (outsAt3 c n (Nat.lt_of_succ_lt hn)).2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).1 (outsAt3 c n (Nat.lt_of_succ_lt hn)).2)

/-- `outsAt3` at a point of case A: that case's contents. -/
theorem outsAt3_A (c : Dev nD) (t : Fin cfg3.N) (h0 : t.val % 10 = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)) := by
  obtain ⟨n, hn⟩ := t
  cases n with
  | zero => exact rfl
  | succ n => exact (dif_pos h0).trans rfl

/-- `outsAt3` at a point of case B: that case's contents, over what the point before left. -/
theorem outsAt3_B (c : Dev nD) (t : Fin cfg3.N) (h0 : ¬t.val % 10 = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).1 (outsAt3 V c (t.val - 1) (Nat.lt_of_le_of_lt (Nat.sub_le _ _) t.isLt)).2, out3_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core `c`: the arrays as the region finds them (`V`); after the body
    at point `t` each input's buffer at its block and the two outputs' at `outsAt3`'s components; the invariant the
    scoped rest and the PRNG register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2
  Φ _ := Pipeline.ΦA spec3 c
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a point of case B output 3's current staging buffer holds what the body left at the point before: the point is
    not the first, the buffer was not written back between (it is written back after the last point only), the window
    is live and uncut. -/
theorem before3_3_B (c : Dev nD) (t : Fin cfg3.N) (h0 : ¬t.val % 10 = 0) (d) :
    (dat3 V c).before 3 t d = (outsAt3 V c (t.val - 1) (Nat.lt_of_le_of_lt (Nat.sub_le _ _) t.isLt)).1 := by
  have hN : t.val < 10 := lt_of_lt_of_eq t.isLt (show cfg3.N = 10 from N_3)
  rw [Dat.before_out_kept _ 3 rfl t (by omega) (Bool.eq_false_iff.mpr fun h => by have := (flush3_3 _).mp h; dsimp only at this; omega)
    (fun _ => rfl) (fun _ _ => rfl)]
  dsimp only [dat3]
/-- The same for output 4. -/
theorem before3_4_B (c : Dev nD) (t : Fin cfg3.N) (h0 : ¬t.val % 10 = 0) (d) :
    (dat3 V c).before 4 t d = (outsAt3 V c (t.val - 1) (Nat.lt_of_le_of_lt (Nat.sub_le _ _) t.isLt)).2 := by
  have hN : t.val < 10 := lt_of_lt_of_eq t.isLt (show cfg3.N = 10 from N_3)
  rw [Dat.before_out_kept _ 4 rfl t (by omega) (Bool.eq_false_iff.mpr fun h => by have := (flush3_4 _).mp h; dsimp only at this; omega)
    (fun _ => rfl) (fun _ _ => rfl)]
  dsimp only [dat3]

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 800000 in
/-- The body at any point: the inputs' memrefs hold their blocks (`before3_W`); the closed form says which case the
    point is in; at a later point each output holds what the point before left (`before3_3_B`, `before3_4_B`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  have hN : t.val < 10 := lt_of_lt_of_eq t.isLt (show cfg3.N = 10 from N_3)
  by_cases h0 : t.val % 10 = 0
  · rw [outsAt3_A V c t h0]
    unfold out3_A_3 out3_A_4; (try dsimp only)
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0) (iblk3 V c 0 t) (iblk3 V c 1 t) (iblk3 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _)
    unfold owns; iexists _; isplitr
    swap; · iexact H4
    ipureintro; exact View.read_writes_of_cover _ _ _ _ _ (cover3_A_4 c _ _ _ _ _ _ _ _ _ _ _ _ _ _ _)
  · rw [outsAt3_B V c t h0]
    simp only [before3_3_B V c t h0, before3_4_B V c t h0]
    unfold out3_B_3 out3_B_4; (try dsimp only)
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h)) (iblk3 V c 0 t) (iblk3 V c 1 t) (iblk3 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _ _)
    unfold owns; iexists _; isplitr
    swap; · iexact H4
    ipureintro; exact View.read_writes_of_cover _ _ _ _ _ (cover3_B_4 c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Each case's pieces, read as the payloads -/

/-- The zero offsets of a rank-2 whole-buffer access, however spelt. -/
theorem hz3 : (![0, 0] : Fin 2 → Nat) = fun _ => 0 := funext fun a => by fin_cases a <;> rfl

/-- At the first point output 3 ends holding the block's sum added to the zero row: the later of its two covering
    stores, whose read-back of the first (the zero row) is a covered load. -/
theorem out3_A_3_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) :
    out3_A_3 c i arg1 harg1 arg2 harg2 arg3 harg3 arg4 harg4 arg5 harg5 hc0 x0 x1 x2 = k3_pay4 x0 x1 x2 k3_pay1 := by
  unfold out3_A_3
  rw [View.read_writes_eq_canon _ _ _ (cover3_A_3 c i arg1 harg1 arg2 harg2 arg3 harg3 arg4 harg4 arg5 harg5 hc0 x0 x1 x2)]
  unfold kernelRun3_A
  dsimp only
  sl_unfold_words
  rw [View.canon_cons_unit_zero (S := S1x64) hz3]
  simp only [View.readAt_eq_ld, harg1.read_unread, harg2.read_unread, harg3.read_unread,
    View.ld_unit_zero (S := S10000x64) hz3, View.ld_unit_zero (S := S10000x1) hz3, View.ld_unit_zero (S := S1x64) hz3,
    View.readCov_unit_zero (S := S1x64) _ hz3]

/-- At the first point output 4 ends holding the block's sum of squares added to the zero row. -/
theorem out3_A_4_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) :
    out3_A_4 c i arg1 harg1 arg2 harg2 arg3 harg3 arg4 harg4 arg5 harg5 hc0 x0 x1 x2 = k3_pay5 x0 x1 x2 k3_pay2 := by
  unfold out3_A_4
  rw [View.read_writes_eq_canon _ _ _ (cover3_A_4 c i arg1 harg1 arg2 harg2 arg3 harg3 arg4 harg4 arg5 harg5 hc0 x0 x1 x2)]
  unfold kernelRun3_A
  dsimp only
  sl_unfold_words
  rw [View.canon_cons_unit_zero (S := S1x64) hz3]
  simp only [View.readAt_eq_ld, harg1.read_unread, harg2.read_unread, harg3.read_unread,
    View.ld_unit_zero (S := S10000x64) hz3, View.ld_unit_zero (S := S10000x1) hz3, View.ld_unit_zero (S := S1x64) hz3,
    View.readCov_unit_zero (S := S1x64) _ hz3]

/-- At a later point output 3 ends holding the block's sum added to what the point before left: its one covering
    store, whose loads read the whole buffers. -/
theorem out3_B_3_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) :
    out3_B_3 c i arg1 harg1 arg2 harg2 arg3 harg3 arg4 harg4 arg5 harg5 hc0 x0 x1 x2 xo3 xo4 = k3_pay4 x0 x1 x2 xo3 := by
  unfold out3_B_3
  rw [View.read_writes_eq_canon _ _ _ (cover3_B_3 c i arg1 harg1 arg2 harg2 arg3 harg3 arg4 harg4 arg5 harg5 hc0 x0 x1 x2 xo3 xo4)]
  unfold kernelRun3_B
  dsimp only
  sl_unfold_words
  rw [View.canon_unit_zero (S := S1x64) hz3]
  simp only [View.readAt_eq_ld, harg1.read_unread, harg2.read_unread, harg3.read_unread, harg4.read_unread,
    View.ld_unit_zero (S := S10000x64) hz3, View.ld_unit_zero (S := S10000x1) hz3, View.ld_unit_zero (S := S1x64) hz3]

/-- At a later point output 4 ends holding the block's sum of squares added to what the point before left. -/
theorem out3_B_4_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) :
    out3_B_4 c i arg1 harg1 arg2 harg2 arg3 harg3 arg4 harg4 arg5 harg5 hc0 x0 x1 x2 xo3 xo4 = k3_pay5 x0 x1 x2 xo4 := by
  unfold out3_B_4
  rw [View.read_writes_eq_canon _ _ _ (cover3_B_4 c i arg1 harg1 arg2 harg2 arg3 harg3 arg4 harg4 arg5 harg5 hc0 x0 x1 x2 xo3 xo4)]
  unfold kernelRun3_B
  dsimp only
  sl_unfold_words
  rw [View.canon_unit_zero (S := S1x64) hz3]
  simp only [View.readAt_eq_ld, harg1.read_unread, harg2.read_unread, harg3.read_unread, harg5.read_unread,
    View.ld_unit_zero (S := S10000x64) hz3, View.ld_unit_zero (S := S10000x1) hz3, View.ld_unit_zero (S := S1x64) hz3]

end Cert.KernelIdeal.Hand

end
-- ==== Proof.KI.R4Runs.lean ====
import proofs.«411316_j29850022707326_3_alg».proof.Proof.Gen.KernelIdeal.Launch
import proofs.«411316_j29850022707326_3_alg».proof.Proof.Gen.KernelIdeal.Skeleton
import proofs.«411316_j29850022707326_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4 of @main: custom_call 4, `cc4__bnrelu_pool_linear_kernel` (pipeline 4), at the entry contents `V`:
    what its three control cases share -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): unfetched, the index has
    not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): unfetched, the index has
    not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): unfetched, the index has
    not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for ANY proof
    data whose array is `V`'s (`hA`) and whose body leaves the block in place (`hafter`): unfetched, the index has
    not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for ANY proof
    data whose array is `V`'s (`hA`) and whose body leaves the block in place (`hafter`): unfetched, the index has
    not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for ANY proof
    data whose array is `V`'s (`hA`) and whose body leaves the block in place (`hafter`): unfetched, the index has
    not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for ANY proof
    data whose array is `V`'s (`hA`) and whose body leaves the block in place (`hafter`): unfetched, the index has
    not moved; the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the reset of the two accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only: decided over the grid. -/
theorem hcond4_0 : ∀ t : Fin cfg4.N, cond4_0 (grid4.coords t) ↔ t.val % 20 = 0 :=
  (by decide +kernel : ∀ t : Fin grid4.N, cond4_0 (grid4.coords t) ↔ t.val % 20 = 0)

/-- The condition of the body's second `scf.if` (the division, the linear layer and the output's store), from the grid coordinates. -/
abbrev cond4_1 (i : grid4.Coords) : Prop := k4_cond2 i = 1#1
/-- It holds at the last point only: decided over the grid. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle (the printed configuration's table) -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- Window 6 is never idle (an input). -/
theorem liveAt4_6 : ∀ t : Fin cfg4.N, cfg4.idle 6 (grid4.coords t) = false := by decide +kernel
/-- Window 7 is never idle (an input). -/
theorem liveAt4_7 : ∀ t : Fin cfg4.N, cfg4.idle 7 (grid4.coords t) = false := by decide +kernel
/-- At the first point the configuration calls output 8 idle: the case stores nothing into it. -/
theorem idleAt4_8_A : ∀ t : Fin cfg4.N, cond4_0 (grid4.coords t) → ¬cond4_1 (grid4.coords t) → cfg4.idle 8 (grid4.coords t) = true := by decide +kernel
/-- At the first point the pipeline does not write output 8's block back. -/
theorem noFlush4_8_A : ∀ t : Fin cfg4.N, cond4_0 (grid4.coords t) → ¬cond4_1 (grid4.coords t) → (cfg4.win 8).flush t = false := by decide +kernel
/-- At the middle points the configuration calls output 8 idle: the case stores nothing into it. -/
theorem idleAt4_8_B : ∀ t : Fin cfg4.N, ¬cond4_0 (grid4.coords t) → ¬cond4_1 (grid4.coords t) → cfg4.idle 8 (grid4.coords t) = true := by decide +kernel
/-- At the middle points the pipeline does not write output 8's block back. -/
theorem noFlush4_8_B : ∀ t : Fin cfg4.N, ¬cond4_0 (grid4.coords t) → ¬cond4_1 (grid4.coords t) → (cfg4.win 8).flush t = false := by decide +kernel
/-- At the last point the configuration calls output 8 live: the case stores into it. -/
theorem liveAt4_8_C : ∀ t : Fin cfg4.N, ¬cond4_0 (grid4.coords t) → cond4_1 (grid4.coords t) → cfg4.idle 8 (grid4.coords t) = false := by decide +kernel

/-! ## The staging and scratch memrefs the body is called with -/

/-- One staging buffer of output window 8, through which its contents are stated (the choice does not matter). -/
abbrev VO4_8 : View sig .tc .vmem S128x32 .f32 := (Memref.whole cc4_stg8_0 : Memref sig .tc .vmem S128x32 .f32).view
/-- Each window's current staging memref at point `t`, spelled as the pipeline passes it, and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x1 .i32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x32 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x32 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S128x32 .f32 := win4_8.stage (cfg4.slots t 8)
abbrev hs4_8 (t : Fin cfg4.N) : (ms4_8 t).IsWhole := hstage4_8 ((cfg4.slots t 8).cast nbuf4_8)
/-- The scratch operands: whole scoped buffers of the kernel's own, passed beside the windows — the pooled sums and the counts. -/
abbrev scM4_0 : Memref sig .tc .vmem S128x64 .f32 := Memref.whole cc4_scratch0
abbrev scM4_1 : Memref sig .tc .vmem S128x1 .f32 := Memref.whole cc4_scratch1
/-- The two scratches the kernel carries between points, as views: what they hold is stated through them. -/
abbrev VS4_0 : View sig .tc .vmem S128x64 .f32 := scM4_0.view
abbrev VS4_1 : View sig .tc .vmem S128x1 .f32 := scM4_1.view

/-- The class's invariant with the two scratch operands as memrefs owned at some contents, every other scoped
    buffer carried along unopened, and the generator register: what the body obligation hands the run and takes back. -/
theorem PhiA4_eq (c : Dev nD) :
    (Pipeline.ΦA spec4 c : sProp 𝕄)
      = iprop(iprop((∃ d, owns (c : Thread nD τ) scM4_0 fullShare d) ∗ (∃ d, owns (c : Thread nD τ) scM4_1 fullShare d)
          ∗ Pipeline.scopedRestBut (Ix := Unit) (Name := ℕ) (U := UR sig nD τ) (Lvl := ℕ) (Val := Elt F) spec4 c [cc4_scratch0, cc4_scratch1])
        ∗ (∃ r, prngReg c r)) := by
  unfold Pipeline.ΦA; rw [scopedRest4_split]; simp only [scM4_0, scM4_1, owns_whole]
  exact congrArg (fun X : sProp 𝕄 => iprop(X ∗ ∃ r, prngReg c r)) (Idealize.SL.BI.sep_assoc.antisymm Idealize.SL.BI.sep_assoc')

end Cert.KernelIdeal.Hand

end
-- ==== Proof.KI.R4RunA.lean ====
import proofs.«411316_j29850022707326_3_alg».proof.Proof.KI.R4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4, case A: the body's run at the first point -/

set_option maxHeartbeats 1000000 in
/-- What the body's stores leave in the output's staging memref and in the two scratches, as pieces (last first), at
    the first point (the reset taken, the closing conditional not), WITH the proof that on whole memrefs — the inputs' at their contents, the output's at contents handed back untouched,
    the two scratches at anything — the body runs to the continuation holding the inputs' as they were and each
    scratch with its pieces written: the printed functions are their skeletons, each conditional decided by the case's
    hypotheses. The value is the pair: the pieces, and that proof about them. -/
noncomputable def kernelRun4_A (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) :
    Σ' (L8 : List (View.Piece (Elt F) S128x32 .f32)) (LS0 : List (View.Piece (Elt F) S128x64 .f32)), { LS1 : List (View.Piece (Elt F) S128x1 .f32) //
      ∀ (xi8 : Vec F S128x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__bnrelu_pool_linear_kernel i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc4__bnrelu_pool_linear_kernel_eq_skeleton]; unfold cc4__bnrelu_pool_linear_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.R4RunB.lean ====
import proofs.«411316_j29850022707326_3_alg».proof.Proof.KI.R4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4, case B: the body's run at a middle point -/

set_option maxHeartbeats 1000000 in
/-- What the body's stores leave in the output's staging memref and in the two scratches, as pieces (last first), at
    a middle point (neither conditional taken), WITH the proof that on whole memrefs — the inputs' at their contents, the output's at contents handed back untouched,
    the two scratches at what the point before left — the body runs to the continuation holding the inputs' as they were and each
    scratch with its pieces written: the printed functions are their skeletons, each conditional decided by the case's
    hypotheses. The value is the pair: the pieces, and that proof about them. -/
noncomputable def kernelRun4_B (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    Σ' (L8 : List (View.Piece (Elt F) S128x32 .f32)) (LS0 : List (View.Piece (Elt F) S128x64 .f32)), { LS1 : List (View.Piece (Elt F) S128x1 .f32) //
      ∀ (xi8 : Vec F S128x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__bnrelu_pool_linear_kernel i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc4__bnrelu_pool_linear_kernel_eq_skeleton]; unfold cc4__bnrelu_pool_linear_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.R4RunC.lean ====
import proofs.«411316_j29850022707326_3_alg».proof.Proof.KI.R4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4, case C: the body's run at the last point -/

set_option maxHeartbeats 1000000 in
/-- What the body's stores leave in the output's staging memref and in the two scratches, as pieces (last first), at
    the last point (the reset not taken, the closing conditional taken), WITH the proof that on whole memrefs — the inputs' at their contents, the output's at anything,
    the two scratches at what the point before left — the body runs to the continuation holding the inputs' as they were, the output's with its pieces written and each
    scratch with its pieces written: the printed functions are their skeletons, each conditional decided by the case's
    hypotheses. The value is the pair: the pieces, and that proof about them. -/
noncomputable def kernelRun4_C (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    Σ' (L8 : List (View.Piece (Elt F) S128x32 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__bnrelu_pool_linear_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc4__bnrelu_pool_linear_kernel_eq_skeleton]; unfold cc4__bnrelu_pool_linear_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.KernelIdeal.Hand

end
-- ==== Proof.KI.R4.lean ====
import proofs.«411316_j29850022707326_3_alg».proof.Proof.KI.R4RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4 of @main: custom_call 4, `cc4__bnrelu_pool_linear_kernel` (pipeline 4), at the entry contents `V`:
    what each case leaves, the accumulation point by point, the proof data and the body obligation -/

/-- At the first point the body stores nothing into output 8 (the window is idle there and not written back): no pieces — a
    placeholder (junk read back) that nothing consults. -/
def out4_A_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) : Vec F S128x32 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1)

/-- At the first point the body's pieces for scratch 0 (the pooled sums), which the kernel carries between points, cover it. -/
theorem scover4_A_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (y : S128x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S128x64.size (by sl_kernel_rfl) y

/-- What the first point leaves in scratch 0 (the pooled sums): its pieces read back over junk. -/
def sout4_A_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) : Vec F S128x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1)

/-- At the first point the body's pieces for scratch 1 (the counts), which the kernel carries between points, cover it. -/
theorem scover4_A_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (y : S128x1.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 S128x1.size (by sl_kernel_rfl) y

/-- What the first point leaves in scratch 1 (the counts): its pieces read back over junk. -/
def sout4_A_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) : Vec F S128x1 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1)

/-- At a middle point the body stores nothing into output 8 (the window is idle there and not written back): no pieces — a
    placeholder (junk read back) that nothing consults. -/
def out4_B_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x32 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- At a middle point the body's pieces for scratch 0 (the pooled sums), which the kernel carries between points, cover it. -/
theorem scover4_B_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 S128x64.size (by sl_kernel_rfl) y

/-- What a middle point leaves in scratch 0 (the pooled sums): its pieces read back over junk. -/
def sout4_B_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- At a middle point the body's pieces for scratch 1 (the counts), which the kernel carries between points, cover it. -/
theorem scover4_B_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x1.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 S128x1.size (by sl_kernel_rfl) y

/-- What a middle point leaves in scratch 1 (the counts): its pieces read back over junk. -/
def sout4_B_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x1 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-- At the last point the body's pieces for output 8 tile its block (one store of the whole block), so they cover it. -/
theorem cover4_C_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x32.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1 S128x32.size (by sl_kernel_rfl) y

/-- What the last point leaves in output 8's staging buffer: its pieces read back over junk. -/
def out4_C_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x32 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- At the last point the body's pieces for scratch 0 (the pooled sums), which the kernel carries between points, cover it. -/
theorem scover4_C_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 S128x64.size (by sl_kernel_rfl) y

/-- What the last point leaves in scratch 0 (the pooled sums): its pieces read back over junk. -/
def sout4_C_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- At the last point the body's pieces for scratch 1 (the counts), which the kernel carries between points, cover it. -/
theorem scover4_C_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x1.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 S128x1.size (by sl_kernel_rfl) y

/-- What the last point leaves in scratch 1 (the counts): its pieces read back over junk. -/
def sout4_C_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x1 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-! ## What the output and the two scratches hold after each point -/

/-- THE ACCUMULATION. What output 8's staging buffer and the two scratches the kernel carries between points hold after
    the body at position `n` (the output, then the pair of scratches): the case the closed forms select at `n`, run at
    the point's memrefs and input blocks, the scratches it reads before covering at what this leaves at `n - 1`. An
    assignment of the conditions no point meets is no case. -/
def outsAt4 (c : Dev nD) : (n : ℕ) → n < cfg4.N → Vec F S128x32 .f32 × (Vec F S128x64 .f32 × Vec F S128x1 .f32)
  | 0, hn => (out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩)))
  | n + 1, hn =>
    if h0 : (n + 1) % 20 = 0 then
      if h1 : (n + 1) % 20 = 19 then
        False.elim (by omega)
      else
        (out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), (sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩)))
    else
      if h1 : (n + 1) % 20 = 19 then
        (out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2))
      else
        (out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2))

/-- `outsAt4` at the first point: that case's contents. -/
theorem outsAt4_A (c : Dev nD) (t : Fin cfg4.N) (h0 : t.val % 20 = 0) (h1 : ¬t.val % 20 = 19) :
    outsAt4 V c t.val t.isLt = (out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t), (sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t))) := by
  obtain ⟨n, hn⟩ := t
  cases n with
  | zero => exact rfl
  | succ n => exact (dif_pos h0).trans ((dif_neg h1).trans rfl)

/-- `outsAt4` at a middle point: that case's contents, over what the point before left in the scratches. -/
theorem outsAt4_B (c : Dev nD) (t : Fin cfg4.N) (h0 : ¬t.val % 20 = 0) (h1 : ¬t.val % 20 = 19) :
    outsAt4 V c t.val t.isLt = (out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, (sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: that case's contents, over what the point before left in the scratches. -/
theorem outsAt4_C (c : Dev nD) (t : Fin cfg4.N) (h0 : ¬t.val % 20 = 0) (h1 : t.val % 20 = 19) :
    outsAt4 V c t.val t.isLt = (out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, (sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the two scratches the kernel CARRIES between points: before the first
    point the class's (every scratch at anything); afterwards each carried scratch at what the point before left in it
    (`outsAt4`'s scratch components), every other scoped buffer carried along unopened, and the generator register at
    some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.1) ∗ owns (c : Thread nD τ) scM4_1 fullShare ((outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r))

/-- Before the first point: the class's invariant. -/
theorem PhiS4_zero (c : Dev nD) (n : ℕ) (h : n ≤ cfg4.N) (hz : n = 0) : PhiS4 V c n h = Pipeline.ΦA spec4 c := by
  subst hz; rfl

/-- After point `n` (before point `n + 1`): the carried scratches at that point's contents. -/
theorem PhiS4_succ (c : Dev nD) (n : ℕ) (hn : n < cfg4.N) :
    PhiS4 V c (n + 1) hn = iprop(iprop(owns (c : Thread nD τ) scM4_0 fullShare ((outsAt4 V c n hn).2.1) ∗ owns (c : Thread nD τ) scM4_1 fullShare ((outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the carried scratches at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2.1) ∗ owns (c : Thread nD τ) scM4_1 fullShare ((outsAt4 V c (n - 1) (by omega)).2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4` (the class's
    before the first point, then the carried scratches at `outsAt4`'s components); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point: the inputs' memrefs hold their blocks; the closed forms say which case the point is in; so the
    case's run applies; the invariant hands the body the two carried scratches at what the point before left (at anything
    at the first point), every other scoped buffer and the generator register pass through unread, and it takes the
    scratches back at this point's contents (their pieces cover them); output 8 is handed back untouched where the case
    stores nothing into it, and at its pieces read back at the last point; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 20 = 0
  · by_cases h1 : t.val % 20 = 19
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t], after4_7]
      rw [Dat.leavesExact_idle (dat4 V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold sout4_A_0 sout4_A_1; (try dsimp only)
      have hz : t.val = 0 := by omega
      rw [PhiS4_castSucc V c t, PhiS4_zero V c _ _ hz, PhiA4_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

  · by_cases h1 : t.val % 20 = 19
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t], after4_7]
      rw [show (dat4 V c).leavesExact 8 t = owns (c : Thread nD τ) (ms4_8 t) fullShare ((dat4 V c).after 8 t) from by
        unfold Dat.leavesExact; rw [liveAt4_8_C t (fun h => h0 ((hcond4_0 t).mp h)) ((hcond4_1 t).mpr h1)], after4_8]
      rw [outsAt4_C V c t h0 h1]
      unfold out4_C_8 sout4_C_0 sout4_C_1; (try dsimp only)
      have hz : t.val ≠ 0 := by omega
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _ _ _)

    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t], after4_7]
      rw [Dat.leavesExact_idle (dat4 V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold sout4_B_0 sout4_B_1; (try dsimp only)
      have hz : t.val ≠ 0 := by omega
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the carried scratches' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HS1, HR⟩, Hg⟩
  isplitr [Hg]
  · isplitl [HS0]; · iexists _; iexact HS0
    isplitl [HS1]; · iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

/-! ## What each case leaves, as terms of the point's input blocks and of what the point before left -/

/-- The zero offsets, however spelt. -/
theorem hz4 : (![0, 0] : Fin 2 → Nat) = fun _ => 0 := funext fun a => by fin_cases a <;> rfl

/-- The first point leaves in the pooled sums its block's contribution added onto the zeros it has just stored there. -/
theorem sout4_A_0_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) :
    sout4_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k4_pay1 (k4_pay8 x0 x1 x2 x3 x4 x5 k4_pay4) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun4_A
  dsimp only
  sl_unfold_words
  rw [View.canon_cons_unit_zero (S := S128x64) hz4, View.readCov_unit_zero (S := S128x64) _ hz4]
  simp only [View.readAt_eq_ld, harg1.read_unread, harg2.read_unread, harg3.read_unread, harg4.read_unread, harg5.read_unread, harg6.read_unread, View.ld_unit_zero (S := S5000x64) hz4, View.ld_unit_zero (S := S5000x1) hz4, View.ld_unit_zero (S := S1x64) hz4]

/-- The first point leaves in the counts its block's counts added onto the zeros it has just stored there. -/
theorem sout4_A_1_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) :
    sout4_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k4_pay2 (k4_pay7 x5) k4_pay5 := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun4_A
  dsimp only
  sl_unfold_words
  rw [View.canon_cons_unit_zero (S := S128x1) hz4, View.readCov_unit_zero (S := S128x1) _ hz4]
  simp only [View.readAt_eq_ld, harg6.read_unread, View.ld_unit_zero (S := S5000x1) hz4]

/-- A middle point leaves in the pooled sums its block's contribution added onto what the point before left. -/
theorem sout4_B_0_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay1 (k4_pay8 x0 x1 x2 x3 x4 x5 xs0) := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_B
  dsimp only
  sl_unfold_words
  rw [View.canon_unit_zero (S := S128x64) hz4]
  simp only [View.readAt_eq_ld, harg1.read_unread, harg2.read_unread, harg3.read_unread, harg4.read_unread, harg5.read_unread, harg6.read_unread, harg10.read_unread, View.ld_unit_zero (S := S5000x64) hz4, View.ld_unit_zero (S := S5000x1) hz4, View.ld_unit_zero (S := S1x64) hz4, View.ld_unit_zero (S := S128x64) hz4]

/-- A middle point leaves in the counts its block's counts added onto what the point before left. -/
theorem sout4_B_1_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay2 (k4_pay7 x5) xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_B
  dsimp only
  sl_unfold_words
  rw [View.canon_unit_zero (S := S128x1) hz4]
  simp only [View.readAt_eq_ld, harg6.read_unread, harg11.read_unread, View.ld_unit_zero (S := S5000x1) hz4, View.ld_unit_zero (S := S128x1) hz4]

/-- The last point leaves in the pooled sums its block's contribution added onto what the point before left. -/
theorem sout4_C_0_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay1 (k4_pay8 x0 x1 x2 x3 x4 x5 xs0) := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_C
  dsimp only
  sl_unfold_words
  rw [View.canon_unit_zero (S := S128x64) hz4]
  simp only [View.readAt_eq_ld, harg1.read_unread, harg2.read_unread, harg3.read_unread, harg4.read_unread, harg5.read_unread, harg6.read_unread, harg10.read_unread, View.ld_unit_zero (S := S5000x64) hz4, View.ld_unit_zero (S := S5000x1) hz4, View.ld_unit_zero (S := S1x64) hz4, View.ld_unit_zero (S := S128x64) hz4]

/-- The last point leaves in the counts its block's counts added onto what the point before left. -/
theorem sout4_C_1_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay2 (k4_pay7 x5) xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_C
  dsimp only
  sl_unfold_words
  rw [View.canon_unit_zero (S := S128x1) hz4]
  simp only [View.readAt_eq_ld, harg6.read_unread, harg11.read_unread, View.ld_unit_zero (S := S5000x1) hz4, View.ld_unit_zero (S := S128x1) hz4]

/-- What the last point stores into the output: the mean pool and the linear layer of the two scratches as it has just left them. -/
theorem out4_C_8_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    out4_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay3 (k4_pay2 (k4_pay7 x5) xs1) (k4_pay1 (k4_pay8 x0 x1 x2 x3 x4 x5 xs0)) x6 x7 := by
  unfold out4_C_8
  rw [View.read_writes_eq_canon _ _ _ (cover4_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_C
  dsimp only
  sl_unfold_words
  rw [View.canon_unit_zero (S := S128x32) hz4]
  simp only [View.readAt_eq_ld, harg1.read_unread, harg2.read_unread, harg3.read_unread, harg4.read_unread, harg5.read_unread, harg6.read_unread, harg7.read_unread, harg8.read_unread, harg10.read_unread, harg11.read_unread, View.ld_unit_zero (S := S5000x64) hz4, View.ld_unit_zero (S := S5000x1) hz4, View.ld_unit_zero (S := S1x64) hz4, View.ld_unit_zero (S := S128x64) hz4, View.ld_unit_zero (S := S128x1) hz4, View.ld_unit_zero (S := S64x32) hz4, View.ld_unit_zero (S := S1x32) hz4, View.readCov_unit_zero (S := S128x64) _ hz4, View.readCov_unit_zero (S := S128x1) _ hz4]

end Cert.KernelIdeal.Hand

end
-- ==== Proof.KI.Run.lean ====
import proofs.«411316_j29850022707326_3_alg».proof.Proof.KI.R0
import proofs.«411316_j29850022707326_3_alg».proof.Proof.KI.R1
import proofs.«411316_j29850022707326_3_alg».proof.Proof.KI.R2
import proofs.«411316_j29850022707326_3_alg».proof.Proof.KI.R3
import proofs.«411316_j29850022707326_3_alg».proof.Proof.KI.R4
import proofs.«411316_j29850022707326_3_alg».proof.Proof.Gen.KernelIdeal.Regions

set_option maxRecDepth 16384

/-! # The launch of the five regions

@main is twelve items: three stretches of host operations (degrees and their inverse square roots, the mask of isolated
nodes, the reshape to a column), then five kernel regions with a stretch of host operations before each of the last
four (gather and scatter-add over the edges; the batch statistics turned into a scale and a shift). The buffer contents
at each boundary are a fold from the launch memory: a stretch applies its operations, a region leaves its windows'
arrays at what its write-backs fold to and every other buffer as it found it. The run ends with every unscoped buffer
at the last of these valuations, which is where both the frame (no argument is ever written) and the value of the
result are read. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations, -/
abbrev W1 : Dev nD → Valuation τ sig (Elt F) := fun c => StableHlo.after hostOps0 (W0 m ρ c)
/-- after the selection that masks isolated nodes, -/
abbrev W2 : Dev nD → Valuation τ sig (Elt F) := fun c => StableHlo.after hostOps0_1 (W1 m ρ c)
/-- and after the reshape to a column: region 0's entry. -/
abbrev W3 : Dev nD → Valuation τ sig (Elt F) := fun c => StableHlo.after hostOps0_2 (W2 m ρ c)
/-- The same read at the TensorCore's references: what region 0's proof data take. -/
abbrev B3 : (c : Dev nD) → (b : Ref sig .tc) → Buf (Elt F) ((c : Thread nD τ).loc b) := fun c b => W3 m ρ c b
/-- At region 0's exit: its windows' arrays at what the pipeline leaves (an input as entered, an output its write-backs
    folded), every other buffer as entered. -/
def W4 (c : Dev nD) : Valuation τ sig (Elt F) :=
  Pipeline.withArrays spec0 c (W3 m ρ c) fun w => (dat0 (B3 m ρ) c).arrAt w cfg0.N
theorem W4_arr (c : Dev nD) (w : Fin cfg0.W) :
    W4 m ρ c (Proc.devRef .tc (Pipeline.arrRef spec0 w)) = (dat0 (B3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev B4 : (c : Dev nD) → (b : Ref sig .tc) → Buf (Elt F) ((c : Thread nD τ).loc b) := fun c b => W4 m ρ c b
theorem hF0 (c : Dev nD) (w : Fin cfg0.W) : (dat0 (B3 m ρ) c).arrAt w cfg0.N = B4 m ρ c (Pipeline.arrRef spec0 w) :=
  (W4_arr m ρ c w).symm
theorem hrest0 (c : Dev nD) : ∀ b, b ∉ Finset.univ.image (Pipeline.arrRef spec0) → B4 m ρ c b = B3 m ρ c b :=
  fun b hb => W4_of_ne m ρ c b fun w e => hb (Finset.mem_image.mpr ⟨w, Finset.mem_univ _, e⟩)
/-- A buffer that is not an output array of region 0 is the same after the region: an input window's array is handed back as it
    was found, and a buffer no window stages is not touched. -/
theorem W4_keep (c : Dev nD) (b : Ref sig .tc) (hb : ∀ w : Fin cfg0.W, (cfg0.win w).isOut = true → Pipeline.arrRef spec0 w ≠ b) :
    W4 m ρ c (Proc.devRef .tc b) = W3 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (W4_arr m ρ c w).trans (((dat0 (B3 m ρ) c).arrAt_in w hin _).trans (A_eq0 (B3 m ρ) c w))
  · exact W4_of_ne m ρ c b fun w e => h ⟨w, e⟩
/-- After the host operations between regions 0 and 1: region 1's entry. -/
abbrev W5 : Dev nD → Valuation τ sig (Elt F) := fun c => StableHlo.after hostOps1 (W4 m ρ c)
/-- The same read at the TensorCore's references: what region 1's proof data take. -/
abbrev B5 : (c : Dev nD) → (b : Ref sig .tc) → Buf (Elt F) ((c : Thread nD τ).loc b) := fun c b => W5 m ρ c b
/-- At region 1's exit: its windows' arrays at what the pipeline leaves (an input as entered, an output its write-backs
    folded), every other buffer as entered. -/
def W6 (c : Dev nD) : Valuation τ sig (Elt F) :=
  Pipeline.withArrays spec1 c (W5 m ρ c) fun w => (dat1 (B5 m ρ) c).arrAt w cfg1.N
theorem W6_arr (c : Dev nD) (w : Fin cfg1.W) :
    W6 m ρ c (Proc.devRef .tc (Pipeline.arrRef spec1 w)) = (dat1 (B5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev B6 : (c : Dev nD) → (b : Ref sig .tc) → Buf (Elt F) ((c : Thread nD τ).loc b) := fun c b => W6 m ρ c b
theorem hF1 (c : Dev nD) (w : Fin cfg1.W) : (dat1 (B5 m ρ) c).arrAt w cfg1.N = B6 m ρ c (Pipeline.arrRef spec1 w) :=
  (W6_arr m ρ c w).symm
theorem hrest1 (c : Dev nD) : ∀ b, b ∉ Finset.univ.image (Pipeline.arrRef spec1) → B6 m ρ c b = B5 m ρ c b :=
  fun b hb => W6_of_ne m ρ c b fun w e => hb (Finset.mem_image.mpr ⟨w, Finset.mem_univ _, e⟩)
/-- A buffer that is not an output array of region 1 is the same after the region: an input window's array is handed back as it
    was found, and a buffer no window stages is not touched. -/
theorem W6_keep (c : Dev nD) (b : Ref sig .tc) (hb : ∀ w : Fin cfg1.W, (cfg1.win w).isOut = true → Pipeline.arrRef spec1 w ≠ b) :
    W6 m ρ c (Proc.devRef .tc b) = W5 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (W6_arr m ρ c w).trans (((dat1 (B5 m ρ) c).arrAt_in w hin _).trans (A_eq1 (B5 m ρ) c w))
  · exact W6_of_ne m ρ c b fun w e => h ⟨w, e⟩
/-- After the host operations between regions 1 and 2: region 2's entry. -/
abbrev W7 : Dev nD → Valuation τ sig (Elt F) := fun c => StableHlo.after hostOps2 (W6 m ρ c)
/-- The same read at the TensorCore's references: what region 2's proof data take. -/
abbrev B7 : (c : Dev nD) → (b : Ref sig .tc) → Buf (Elt F) ((c : Thread nD τ).loc b) := fun c b => W7 m ρ c b
/-- At region 2's exit: its windows' arrays at what the pipeline leaves (an input as entered, an output its write-backs
    folded), every other buffer as entered. -/
def W8 (c : Dev nD) : Valuation τ sig (Elt F) :=
  Pipeline.withArrays spec2 c (W7 m ρ c) fun w => (dat2 (B7 m ρ) c).arrAt w cfg2.N
theorem W8_arr (c : Dev nD) (w : Fin cfg2.W) :
    W8 m ρ c (Proc.devRef .tc (Pipeline.arrRef spec2 w)) = (dat2 (B7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev B8 : (c : Dev nD) → (b : Ref sig .tc) → Buf (Elt F) ((c : Thread nD τ).loc b) := fun c b => W8 m ρ c b
theorem hF2 (c : Dev nD) (w : Fin cfg2.W) : (dat2 (B7 m ρ) c).arrAt w cfg2.N = B8 m ρ c (Pipeline.arrRef spec2 w) :=
  (W8_arr m ρ c w).symm
theorem hrest2 (c : Dev nD) : ∀ b, b ∉ Finset.univ.image (Pipeline.arrRef spec2) → B8 m ρ c b = B7 m ρ c b :=
  fun b hb => W8_of_ne m ρ c b fun w e => hb (Finset.mem_image.mpr ⟨w, Finset.mem_univ _, e⟩)
/-- A buffer that is not an output array of region 2 is the same after the region: an input window's array is handed back as it
    was found, and a buffer no window stages is not touched. -/
theorem W8_keep (c : Dev nD) (b : Ref sig .tc) (hb : ∀ w : Fin cfg2.W, (cfg2.win w).isOut = true → Pipeline.arrRef spec2 w ≠ b) :
    W8 m ρ c (Proc.devRef .tc b) = W7 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (W8_arr m ρ c w).trans (((dat2 (B7 m ρ) c).arrAt_in w hin _).trans (A_eq2 (B7 m ρ) c w))
  · exact W8_of_ne m ρ c b fun w e => h ⟨w, e⟩
/-- After the host operations between regions 2 and 3: region 3's entry. -/
abbrev W9 : Dev nD → Valuation τ sig (Elt F) := fun c => StableHlo.after hostOps3 (W8 m ρ c)
/-- The same read at the TensorCore's references: what region 3's proof data take. -/
abbrev B9 : (c : Dev nD) → (b : Ref sig .tc) → Buf (Elt F) ((c : Thread nD τ).loc b) := fun c b => W9 m ρ c b
/-- At region 3's exit: its windows' arrays at what the pipeline leaves (an input as entered, an output its write-backs
    folded), every other buffer as entered. -/
def W10 (c : Dev nD) : Valuation τ sig (Elt F) :=
  Pipeline.withArrays spec3 c (W9 m ρ c) fun w => (dat3 (B9 m ρ) c).arrAt w cfg3.N
theorem W10_arr (c : Dev nD) (w : Fin cfg3.W) :
    W10 m ρ c (Proc.devRef .tc (Pipeline.arrRef spec3 w)) = (dat3 (B9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev B10 : (c : Dev nD) → (b : Ref sig .tc) → Buf (Elt F) ((c : Thread nD τ).loc b) := fun c b => W10 m ρ c b
theorem hF3 (c : Dev nD) (w : Fin cfg3.W) : (dat3 (B9 m ρ) c).arrAt w cfg3.N = B10 m ρ c (Pipeline.arrRef spec3 w) :=
  (W10_arr m ρ c w).symm
theorem hrest3 (c : Dev nD) : ∀ b, b ∉ Finset.univ.image (Pipeline.arrRef spec3) → B10 m ρ c b = B9 m ρ c b :=
  fun b hb => W10_of_ne m ρ c b fun w e => hb (Finset.mem_image.mpr ⟨w, Finset.mem_univ _, e⟩)
/-- A buffer that is not an output array of region 3 is the same after the region: an input window's array is handed back as it
    was found, and a buffer no window stages is not touched. -/
theorem W10_keep (c : Dev nD) (b : Ref sig .tc) (hb : ∀ w : Fin cfg3.W, (cfg3.win w).isOut = true → Pipeline.arrRef spec3 w ≠ b) :
    W10 m ρ c (Proc.devRef .tc b) = W9 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (W10_arr m ρ c w).trans (((dat3 (B9 m ρ) c).arrAt_in w hin _).trans (A_eq3 (B9 m ρ) c w))
  · exact W10_of_ne m ρ c b fun w e => h ⟨w, e⟩
/-- After the host operations between regions 3 and 4: region 4's entry. -/
abbrev W11 : Dev nD → Valuation τ sig (Elt F) := fun c => StableHlo.after hostOps4 (W10 m ρ c)
/-- The same read at the TensorCore's references: what region 4's proof data take. -/
abbrev B11 : (c : Dev nD) → (b : Ref sig .tc) → Buf (Elt F) ((c : Thread nD τ).loc b) := fun c b => W11 m ρ c b
/-- At region 4's exit: its windows' arrays at what the pipeline leaves (an input as entered, an output its write-backs
    folded), every other buffer as entered. -/
def W12 (c : Dev nD) : Valuation τ sig (Elt F) :=
  Pipeline.withArrays spec4 c (W11 m ρ c) fun w => (dat4 (B11 m ρ) c).arrAt w cfg4.N
theorem W12_arr (c : Dev nD) (w : Fin cfg4.W) :
    W12 m ρ c (Proc.devRef .tc (Pipeline.arrRef spec4 w)) = (dat4 (B11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev B12 : (c : Dev nD) → (b : Ref sig .tc) → Buf (Elt F) ((c : Thread nD τ).loc b) := fun c b => W12 m ρ c b
theorem hF4 (c : Dev nD) (w : Fin cfg4.W) : (dat4 (B11 m ρ) c).arrAt w cfg4.N = B12 m ρ c (Pipeline.arrRef spec4 w) :=
  (W12_arr m ρ c w).symm
theorem hrest4 (c : Dev nD) : ∀ b, b ∉ Finset.univ.image (Pipeline.arrRef spec4) → B12 m ρ c b = B11 m ρ c b :=
  fun b hb => W12_of_ne m ρ c b fun w e => hb (Finset.mem_image.mpr ⟨w, Finset.mem_univ _, e⟩)
/-- A buffer that is not an output array of region 4 is the same after the region: an input window's array is handed back as it
    was found, and a buffer no window stages is not touched. -/
theorem W12_keep (c : Dev nD) (b : Ref sig .tc) (hb : ∀ w : Fin cfg4.W, (cfg4.win w).isOut = true → Pipeline.arrRef spec4 w ≠ b) :
    W12 m ρ c (Proc.devRef .tc b) = W11 m ρ c (Proc.devRef .tc b) := by
  by_cases h : ∃ w, Pipeline.arrRef spec4 w = b
  · obtain ⟨w, rfl⟩ := h
    have hin : (cfg4.win w).isOut = false := by
      cases hw : (cfg4.win w).isOut with
      | false => rfl
      | true => exact absurd rfl (hb w hw)
    exact (W12_arr m ρ c w).trans (((dat4 (B11 m ρ) c).arrAt_in w hin _).trans (A_eq4 (B11 m ρ) c w))
  · exact W12_of_ne m ρ c b fun w e => h ⟨w, e⟩

/-! ## The proof data family and the thread state -/

/-- No pipeline has a prefetched table. -/
abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (B3 m ρ) c
  | ⟨1, _⟩ => fun c => dat1 (B5 m ρ) c
  | ⟨2, _⟩ => fun c => dat2 (B7 m ρ) c
  | ⟨3, _⟩ => fun c => dat3 (B9 m ρ) c
  | ⟨4, _⟩ => fun c => dat4 (B11 m ρ) c
abbrev VarH : Variants := Variants.none
/-- No core owes another anything: no level is assigned. -/
abbrev LH : GSem nD τ sig → Finset Unit := fun _ => ∅
abbrev lvH : GSem nD τ sig → Unit → ℕ := fun _ _ => 0
/-- What rides beside the buffers through every item: the generator register at some state, and the core owing nothing. -/
abbrev Rst (c : Dev nD) : sProp 𝕄 := iprop((∃ r, prngReg c r) ∗ ∃ W, owes (c : Thread nD τ) (0 : CellTallies nD τ sig Unit) W)
/-- A stretch of host operations as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tend (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered with every unscoped buffer at `W3`, left with them at `W4`. Its windows' arrays
    are split out of the unscoped buffers at entry and put back, at what the write-backs leave, at exit; the generator
    register goes into the region's invariant and comes back; the core owes nothing; the kernel has no semaphore of its own. -/
def reg0 : Pipeline.RegionSeg (pcfgs (F := F)) admH (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (B3 m ρ) c).loose
  hwaits := Pipeline.hwaits_of_owed_zero _ _ _ _ LH lvH 0 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (B3 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (B3 m ρ c) (B4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its windows' arrays
    are split out of the unscoped buffers at entry and put back, at what the write-backs leave, at exit; the generator
    register goes into the region's invariant and comes back; the core owes nothing; the kernel has no semaphore of its own. -/
def reg1 : Pipeline.RegionSeg (pcfgs (F := F)) admH (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (B5 m ρ) c).loose
  hwaits := Pipeline.hwaits_of_owed_zero _ _ _ _ LH lvH 1 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (B5 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (B5 m ρ c) (B6 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its windows' arrays
    are split out of the unscoped buffers at entry and put back, at what the write-backs leave, at exit; the generator
    register goes into the region's invariant and comes back; the core owes nothing; the kernel has no semaphore of its own. -/
def reg2 : Pipeline.RegionSeg (pcfgs (F := F)) admH (pdatsH m ρ) () defs₀ VarH LH lvH 2 where
  win := launch2.win.to₀
  block_pos := launch2.block_pos
  stage_whole := launch2.stage_whole
  K := PEmpty
  osem k := k.elim
  ho := Pipeline.OwnSemFacts.none _
  hbody c := (body_obligation2 (B7 m ρ) c).loose
  hwaits := Pipeline.hwaits_of_owed_zero _ _ _ _ LH lvH 2 fun _ _ => rfl
  pre c := iprop(StableHlo.held (c : Thread nD τ) (Pipeline.ucRefs τ sig) (W7 m ρ c) ∗ Rst c)
  post c := iprop(StableHlo.held (c : Thread nD τ) (Pipeline.ucRefs τ sig) (W8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (B7 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (B7 m ρ c) (B8 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its windows' arrays
    are split out of the unscoped buffers at entry and put back, at what the write-backs leave, at exit; the generator
    register goes into the region's invariant and comes back; the core owes nothing; the kernel has no semaphore of its own. -/
def reg3 : Pipeline.RegionSeg (pcfgs (F := F)) admH (pdatsH m ρ) () defs₀ VarH LH lvH 3 where
  win := launch3.win.to₀
  block_pos := launch3.block_pos
  stage_whole := launch3.stage_whole
  K := PEmpty
  osem k := k.elim
  ho := Pipeline.OwnSemFacts.none _
  hbody c := (body_obligation3 (B9 m ρ) c).loose
  hwaits := Pipeline.hwaits_of_owed_zero _ _ _ _ LH lvH 3 fun _ _ => rfl
  pre c := iprop(StableHlo.held (c : Thread nD τ) (Pipeline.ucRefs τ sig) (W9 m ρ c) ∗ Rst c)
  post c := iprop(StableHlo.held (c : Thread nD τ) (Pipeline.ucRefs τ sig) (W10 m ρ c) ∗ Rst c)
  X c := iprop(∃ r, prngReg c r)
  Y c := iprop(∃ r, prngReg c r)
  Z c := Pipeline.unscopedRest (Ix := Unit) (Name := ℕ) (U := UR sig nD τ) (Lvl := ℕ) spec3 c (B9 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (B9 m ρ c) (B10 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W11`, left with them at `W12`. Its windows' arrays
    are split out of the unscoped buffers at entry and put back, at what the write-backs leave, at exit; the generator
    register goes into the region's invariant and comes back; the core owes nothing; the kernel has no semaphore of its own. -/
def reg4 : Pipeline.RegionSeg (pcfgs (F := F)) admH (pdatsH m ρ) () defs₀ VarH LH lvH 4 where
  win := launch4.win.to₀
  block_pos := launch4.block_pos
  stage_whole := launch4.stage_whole
  K := PEmpty
  osem k := k.elim
  ho := Pipeline.OwnSemFacts.none _
  hbody c := (body_obligation4 (B11 m ρ) c).loose
  hwaits := Pipeline.hwaits_of_owed_zero _ _ _ _ LH lvH 4 fun _ _ => rfl
  pre c := iprop(StableHlo.held (c : Thread nD τ) (Pipeline.ucRefs τ sig) (W11 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (B11 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 4).pre c (fun _ => fullShare) (admH 4).1 ∗ Pipeline.scopedRest (Ix := Unit) (Name := ℕ) (U := UR sig nD τ) (Lvl := ℕ) (Val := Elt F) spec4 c) ⊢ (Pipeline.ΦA spec4 c : sProp 𝕄) from ?_).trans (hin4 (B11 m ρ) c)
    unfold Pipeline.ΦA
    iintro ⟨Hp, -, Hr⟩
    isplitl [Hr]; · iexact Hr
    iexact Hp
  hout c := by
    rw [Pipeline.ownSems0_none]
    refine (hout4 (B11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (B11 m ρ c) (B12 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ VarH LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0 m ρ),
    .host (hsegH hostOps1 hostOps1_sub hostOps1_fresh (W4 m ρ)),
    .region (reg1 m ρ),
    .host (hsegH hostOps2 hostOps2_sub hostOps2_fresh (W6 m ρ)),
    .region (reg2 m ρ),
    .host (hsegH hostOps3 hostOps3_sub hostOps3_fresh (W8 m ρ)),
    .region (reg3 m ρ),
    .host (hsegH hostOps4 hostOps4_sub hostOps4_fresh (W10 m ρ)),
    .region (reg4 m ρ) ]

set_option backward.isDefEq.respectTransparency.types false in
/-- THE RUN. From any memory with zero counters, every weakly fair execution of @main terminates without a fault, and in the
    final memory every unscoped buffer of every core holds the last boundary's contents `W12`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) admH (pdatsH m ρ) () cellOf_inj emb₁ defs₀ VarH LH lvH m ρ main (segsH m ρ)
    (fun c Q => by
      rewrite [main_chain c, Pipeline.Seg.run_eq_chain,
        show (segsH m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KI.FrameOf.lean ====
import proofs.«411316_j29850022707326_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame and the result, read off the run

The run ends with every unscoped buffer at the last boundary's contents. An argument array is written by no stretch of
host operations and is an output array of no region, so step by step down the boundaries its contents are the launch
memory's; the result array is region 4's last window, so its contents are what that region's write-backs fold to. -/

/-- A buffer that no stretch of host operations writes and that is an output array of no region holds at the last
    boundary what the launch memory holds: twelve steps, a region's by its keeping every buffer that is not one of its
    output arrays, a host stretch's by the list of references it writes. -/
theorem W12_keep_arg (c : Dev nD) (b : Ref sig .tc)
    (h0 : b ∉ hostOps0_W) (h1 : b ∉ hostOps0_1_W) (h2 : b ∉ hostOps0_2_W) (h3 : b ∉ hostOps1_W)
    (h4 : b ∉ hostOps2_W) (h5 : b ∉ hostOps3_W) (h6 : b ∉ hostOps4_W)
    (k0 : ∀ w : Fin cfg0.W, (cfg0.win w).isOut = true → Pipeline.arrRef spec0 w ≠ b)
    (k1 : ∀ w : Fin cfg1.W, (cfg1.win w).isOut = true → Pipeline.arrRef spec1 w ≠ b)
    (k2 : ∀ w : Fin cfg2.W, (cfg2.win w).isOut = true → Pipeline.arrRef spec2 w ≠ b)
    (k3 : ∀ w : Fin cfg3.W, (cfg3.win w).isOut = true → Pipeline.arrRef spec3 w ≠ b)
    (k4 : ∀ w : Fin cfg4.W, (cfg4.win w).isOut = true → Pipeline.arrRef spec4 w ≠ b) :
    W12 m ρ c (Proc.devRef .tc b) = m ((c : Thread nD τ).loc b) :=
  (W12_keep m ρ c b k4).trans <|
  (StableHlo.after_of_writes_sub hostOps4 (W10 m ρ c) hostOps4_writes h6).trans <|
  (W10_keep m ρ c b k3).trans <|
  (StableHlo.after_of_writes_sub hostOps3 (W8 m ρ c) hostOps3_writes h5).trans <|
  (W8_keep m ρ c b k2).trans <|
  (StableHlo.after_of_writes_sub hostOps2 (W6 m ρ c) hostOps2_writes h4).trans <|
  (W6_keep m ρ c b k1).trans <|
  (StableHlo.after_of_writes_sub hostOps1 (W4 m ρ c) hostOps1_writes h3).trans <|
  (W4_keep m ρ c b k0).trans <|
  (StableHlo.after_of_writes_sub hostOps0_2 (W2 m ρ c) hostOps0_2_writes h2).trans <|
  (StableHlo.after_of_writes_sub hostOps0_1 (W1 m ρ c) hostOps0_1_writes h1).trans <|
  (StableHlo.after_of_writes_sub hostOps0 (W0 m ρ c) hostOps0_writes h0).trans rfl

/-- THE FRAME. From any memory with zero counters, every weakly fair execution of @main terminates without a fault, and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (W12_keep_arg m ρ c main_arg0 (by decide) (by decide) (by decide) (by decide) (by decide) (by decide) (by decide) (by decide) (by decide) (by decide) (by decide) (by decide)),
     (h c _ (mem_ucH main_arg1 (by decide))).trans (W12_keep_arg m ρ c main_arg1 (by decide) (by decide) (by decide) (by decide) (by decide) (by decide) (by decide) (by decide) (by decide) (by decide) (by decide) (by decide)),
     (h c _ (mem_ucH main_arg2 (by decide))).trans (W12_keep_arg m ρ c main_arg2 (by decide) (by decide) (by decide) (by decide) (by decide) (by decide) (by decide) (by decide) (by decide) (by decide) (by decide) (by decide)),
     (h c _ (mem_ucH main_arg3 (by decide))).trans (W12_keep_arg m ρ c main_arg3 (by decide) (by decide) (by decide) (by decide) (by decide) (by decide) (by decide) (by decide) (by decide) (by decide) (by decide) (by decide)),
     (h c _ (mem_ucH main_arg4 (by decide))).trans (W12_keep_arg m ρ c main_arg4 (by decide) (by decide) (by decide) (by decide) (by decide) (by decide) (by decide) (by decide) (by decide) (by decide) (by decide) (by decide)),
     (h c _ (mem_ucH main_arg5 (by decide))).trans (W12_keep_arg m ρ c main_arg5 (by decide) (by decide) (by decide) (by decide) (by decide) (by decide) (by decide) (by decide) (by decide) (by decide) (by decide) (by decide)),
     (h c _ (mem_ucH main_arg6 (by decide))).trans (W12_keep_arg m ρ c main_arg6 (by decide) (by decide) (by decide) (by decide) (by decide) (by decide) (by decide) (by decide) (by decide) (by decide) (by decide) (by decide)),
     (h c _ (mem_ucH main_arg7 (by decide))).trans (W12_keep_arg m ρ c main_arg7 (by decide) (by decide) (by decide) (by decide) (by decide) (by decide) (by decide) (by decide) (by decide) (by decide) (by decide) (by decide)),
     (h c _ (mem_ucH main_arg8 (by decide))).trans (W12_keep_arg m ρ c main_arg8 (by decide) (by decide) (by decide) (by decide) (by decide) (by decide) (by decide) (by decide) (by decide) (by decide) (by decide) (by decide)),
     (h c _ (mem_ucH main_arg9 (by decide))).trans (W12_keep_arg m ρ c main_arg9 (by decide) (by decide) (by decide) (by decide) (by decide) (by decide) (by decide) (by decide) (by decide) (by decide) (by decide) (by decide)),
     (h c _ (mem_ucH main_arg10 (by decide))).trans (W12_keep_arg m ρ c main_arg10 (by decide) (by decide) (by decide) (by decide) (by decide) (by decide) (by decide) (by decide) (by decide) (by decide) (by decide) (by decide))⟩) (run m ρ)

/-- The result array at the last boundary: region 4's last window's array after all its write-backs. -/
theorem W12_result (c : Dev nD) : W12 m ρ c (Proc.devRef .tc main_v76) = (dat4 (B11 m ρ) c).arrAt 8 cfg4.N :=
  W12_arr m ρ c 8

end Cert.KernelIdeal.Hand

end
-- ==== Proof.KB.R0.lean ====
import proofs.«411316_j29850022707326_3_alg».proof.Proof.Gen.Kernel.Launch
import proofs.«411316_j29850022707326_3_alg».proof.Proof.Gen.Kernel.Skeleton
import proofs.«411316_j29850022707326_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 0 of @main: custom_call 0, `cc0__matmul_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S10000x1 := Rect.unit (s := S10000x1) ![0, 0] S10000x1.size inb_S10000x1_S10000x1_0_0
abbrev r0_3 : Rect S10000x64 := Rect.unit (s := S10000x64) ![0, 0] S10000x64.size inb_S10000x64_S10000x64_0_0

/-! ## What the body leaves in the output window's buffer -/

/-- Window 3's staging buffer after the body, from the input windows' blocks: its one store as a piece, the
    payload the skeleton's, over the blocks as loaded. -/
def out0_3 (x0 : Vec F S10000x128 .f32) (x1 : Vec F S128x64 .f32) (x2 : Vec F S10000x1 .f32) : Vec F S10000x64 .bf16 :=
  View.canon [⟨r0_3, k0_pay1 (View.ld x0 r0_0) (View.ld x1 r0_1) (View.ld x2 r0_2)⟩]

/-- Its store tiles the buffer (checked by evaluation), so it covers it. -/
theorem cover0_3 (p0 : Vec F S10000x64 .bf16) (y : S10000x64.Idx) :
    ∃ pc ∈ ([⟨r0_3, p0⟩] : List (View.Piece (Elt F) S10000x64 .bf16)), y ∈ pc.1.set :=
  View.cover_of_tiled [⟨r0_3, p0⟩] S10000x64.size (by rfl) y

/-! ## The body's triple -/

set_option maxHeartbeats 1000000 in
/-- The kernel body on whole staging memrefs, the inputs' at read contents `xW` and the output's at anything, runs to
    the continuation holding the inputs' as they were and the output's at `out0_3` of the inputs': the printed
    function is its skeleton, which is run operation by operation. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S10000x1 .f32) (harg3 : arg3.IsWhole) (arg4 : Memref sig .tc .vmem S10000x64 .bf16) (harg4 : arg4.IsWhole)
    (x0 : Vec F S10000x128 .f32) (x1 : Vec F S128x64 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output block as the payload of the input blocks -/

/-- The zero offsets, as a constant function. -/
theorem hz0 : (![0, 0] : Fin 2 → Nat) = fun _ => 0 := funext fun a => by fin_cases a <;> rfl

/-- The single store covers the block and every load reads a whole block, so the output buffer after the body IS the
    payload of the input blocks. -/
theorem out0_3_eq (x0 : Vec F S10000x128 .f32) (x1 : Vec F S128x64 .f32) (x2 : Vec F S10000x1 .f32) : out0_3 x0 x1 x2 = k0_pay1 x0 x1 x2 := by
  unfold out0_3
  rw [View.canon_unit_zero hz0]
  simp only [View.ld_unit_zero (S := S10000x128) hz0, View.ld_unit_zero (S := S128x64) hz0, View.ld_unit_zero (S := S10000x1) hz0]

end Cert.Kernel.Hand

end
-- ==== Proof.KB.R1.lean ====
import proofs.«411316_j29850022707326_3_alg».proof.Proof.Gen.Kernel.Launch
import proofs.«411316_j29850022707326_3_alg».proof.Proof.Gen.Kernel.Skeleton
import proofs.«411316_j29850022707326_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of @main that runs `cc1__bn_stats_kernel` (pipeline `cfg1`), at the entry contents `V`

The kernel sums the aggregated rows and their squares down the row blocks, one block a grid point, into two one-row
outputs whose block never moves: zeroed at the first point, added to at every point, written back after the last. Here:
the windows' blocks as read off the entry contents; the body's run in its two control cases (first point, later
point) with what each leaves in the two outputs; the outputs' contents after every point, by recursion on the point;
the pipeline's proof data and the body obligation; and each case's contents as the payloads of the input blocks. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the region-entry contents (`hA`) and whose body leaves the block in place (`hafter`):
    unfetched, the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the region-entry contents (`hA`) and whose body leaves the block in place (`hafter`):
    unfetched, the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the region-entry contents (`hA`) and whose body leaves the block in place (`hafter`):
    unfetched, the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one `scf.if`, from the grid coordinates (the skeleton's scalar chain substituted). -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The staging memrefs -/

/-- One staging buffer of output window 3 (the running sum), through which its contents are stated. -/
abbrev VO1_3 : View sig .tc .vmem S1x64 .f32 := (Memref.whole cc1_stg3_0 : Memref sig .tc .vmem S1x64 .f32).view
/-- One staging buffer of output window 4 (the running sum of squares), through which its contents are stated. -/
abbrev VO1_4 : View sig .tc .vmem S1x64 .f32 := (Memref.whole cc1_stg4_0 : Memref sig .tc .vmem S1x64 .f32).view
/-- Each window's current staging memref at point `t`, spelled as the pipeline passes it, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
/-! ## The kernel body on any staging memrefs: the pieces its stores leave, with the proof of its run -/

set_option maxHeartbeats 1000000 in
/-- What the body's stores leave in each output's staging memref, as pieces (last first), AT THE FIRST POINT (the
    `scf.if` taken: both outputs zeroed, then the block's sums added), with the proof that on whole staging memrefs,
    the inputs' at their contents and the outputs' at anything, the body runs to the continuation holding the inputs'
    as they were and each output's buffer with its pieces written. The value is the pair: the pieces, and that proof about them. -/
noncomputable def kernelRun1_A (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__bn_stats_kernel i arg1 harg1 arg2 harg2 arg3 harg3 arg4 harg4 arg5 harg5) K } := by
  refine ⟨(?_, ?_), fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- What the body's stores leave in each output's staging memref, as pieces (last first), AT A LATER POINT (the
    `scf.if` not taken: each output is read, at the running contents `xo3`, `xo4` the point before left, before the
    block's sums are added to it), with the proof that on whole staging memrefs, the inputs' at their contents and the
    outputs' at those running contents, the body runs to the continuation holding the inputs' as they were and each
    output's buffer with its pieces written. The value is the pair: the pieces, and that proof about them. -/
noncomputable def kernelRun1_B (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc1__bn_stats_kernel i arg1 harg1 arg2 harg2 arg3 harg3 arg4 harg4 arg5 harg5) K } := by
  refine ⟨(?_, ?_), fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-! ## What each case leaves in the outputs -/

/-- Case A's pieces for output 3 tile its block (2 stores of `S1x64`), so they cover it. -/
theorem cover1_A_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) (y : S1x64.Idx) :
    ∃ pc ∈ (kernelRun1_A c i arg1 harg1 arg2 harg2 arg3 harg3 arg4 harg4 arg5 harg5 hc0 x0 x1 x2).1.1, y ∈ pc.1.set :=
  View.cover_of_tiledL (kernelRun1_A c i arg1 harg1 arg2 harg2 arg3 harg3 arg4 harg4 arg5 harg5 hc0 x0 x1 x2).1.1 S1x64.size (by sl_kernel_rfl) y

/-- What case A leaves in output 3's staging buffer (the running sum): its pieces read back over junk. -/
def out1_A_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) : Vec F S1x64 .f32 :=
  VO1_3.read (Elt F) (VO1_3.writes (Elt F) VO1_3.junk (kernelRun1_A c i arg1 harg1 arg2 harg2 arg3 harg3 arg4 harg4 arg5 harg5 hc0 x0 x1 x2).1.1)

/-- Case A's pieces for output 4 tile its block (2 stores of `S1x64`), so they cover it. -/
theorem cover1_A_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) (y : S1x64.Idx) :
    ∃ pc ∈ (kernelRun1_A c i arg1 harg1 arg2 harg2 arg3 harg3 arg4 harg4 arg5 harg5 hc0 x0 x1 x2).1.2, y ∈ pc.1.set :=
  View.cover_of_tiledL (kernelRun1_A c i arg1 harg1 arg2 harg2 arg3 harg3 arg4 harg4 arg5 harg5 hc0 x0 x1 x2).1.2 S1x64.size (by sl_kernel_rfl) y

/-- What case A leaves in output 4's staging buffer (the running sum of squares): its pieces read back over junk. -/
def out1_A_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) : Vec F S1x64 .f32 :=
  VO1_4.read (Elt F) (VO1_4.writes (Elt F) VO1_4.junk (kernelRun1_A c i arg1 harg1 arg2 harg2 arg3 harg3 arg4 harg4 arg5 harg5 hc0 x0 x1 x2).1.2)

/-- Case B's pieces for output 3 tile its block (1 store of `S1x64`), so they cover it. -/
theorem cover1_B_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 x2 xo3 xo4).1.1, y ∈ pc.1.set :=
  View.cover_of_tiledL (kernelRun1_B c i arg1 harg1 arg2 harg2 arg3 harg3 arg4 harg4 arg5 harg5 hc0 x0 x1 x2 xo3 xo4).1.1 S1x64.size (by sl_kernel_rfl) y

/-- What case B leaves in output 3's staging buffer (the running sum): its pieces read back over junk. -/
def out1_B_3 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) : Vec F S1x64 .f32 :=
  VO1_3.read (Elt F) (VO1_3.writes (Elt F) VO1_3.junk (kernelRun1_B c i arg1 harg1 arg2 harg2 arg3 harg3 arg4 harg4 arg5 harg5 hc0 x0 x1 x2 xo3 xo4).1.1)

/-- Case B's pieces for output 4 tile its block (1 store of `S1x64`), so they cover it. -/
theorem cover1_B_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun1_B c i arg1 harg1 arg2 harg2 arg3 harg3 arg4 harg4 arg5 harg5 hc0 x0 x1 x2 xo3 xo4).1.2, y ∈ pc.1.set :=
  View.cover_of_tiledL (kernelRun1_B c i arg1 harg1 arg2 harg2 arg3 harg3 arg4 harg4 arg5 harg5 hc0 x0 x1 x2 xo3 xo4).1.2 S1x64.size (by sl_kernel_rfl) y

/-- What case B leaves in output 4's staging buffer (the running sum of squares): its pieces read back over junk. -/
def out1_B_4 (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) : Vec F S1x64 .f32 :=
  VO1_4.read (Elt F) (VO1_4.writes (Elt F) VO1_4.junk (kernelRun1_B c i arg1 harg1 arg2 harg2 arg3 harg3 arg4 harg4 arg5 harg5 hc0 x0 x1 x2 xo3 xo4).1.2)

/-! ## What the outputs hold after each point -/

/-- THE ACCUMULATION. What the two outputs' staging buffers hold after the body at position `n` (a pair: the running
    sum, the running sum of squares): the case the closed form selects at `n`, run at the point's memrefs and input
    blocks, each output read before it is covered at what this leaves at `n - 1` (its buffer is not written back
    between: `before1_3_B`, `before1_4_B`). -/
def outsAt1 (c : Dev nD) : (n : ℕ) → n < cfg1.N → Vec F S1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 10 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

/-- `outsAt1` at a point of case A: that case's contents. -/
theorem outsAt1_A (c : Dev nD) (t : Fin cfg1.N) (h0 : t.val % 10 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 10 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2, out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core `c`: the arrays as the region finds them (`V`); after the body
    at point `t` each input's buffer at its block and the two outputs' at `outsAt1`'s components; the invariant the
    scoped rest and the PRNG register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 3's current staging buffer holds what the body left at the point before: the point is
    not the first, the buffer was not written back between (it is written back after the last point only), the window
    is live and uncut. -/
theorem before1_3_B (c : Dev nD) (t : Fin cfg1.N) (h0 : ¬t.val % 10 = 0) (d) :
    (dat1 V c).before 3 t d = (outsAt1 V c (t.val - 1) (Nat.lt_of_le_of_lt (Nat.sub_le _ _) t.isLt)).1 := by
  have hN : t.val < 10 := lt_of_lt_of_eq t.isLt (show cfg1.N = 10 from N_1)
  rw [Dat.before_out_kept _ 3 rfl t (by omega) (Bool.eq_false_iff.mpr fun h => by have := (flush1_3 _).mp h; dsimp only at this; omega)
    (fun _ => rfl) (fun _ _ => rfl)]
  dsimp only [dat1]
/-- The same for output 4. -/
theorem before1_4_B (c : Dev nD) (t : Fin cfg1.N) (h0 : ¬t.val % 10 = 0) (d) :
    (dat1 V c).before 4 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks (`before1_W`); the closed form says which case the
    point is in; at a later point each output holds what the point before left (`before1_3_B`, `before1_4_B`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 10 := lt_of_lt_of_eq t.isLt (show cfg1.N = 10 from N_1)
  by_cases h0 : t.val % 10 = 0
  · rw [outsAt1_A V c t h0]
    unfold out1_A_3 out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _)
    unfold owns; iexists _; isplitr
    swap; · iexact H4
    ipureintro; exact View.read_writes_of_cover _ _ _ _ _ (cover1_A_4 c _ _ _ _ _ _ _ _ _ _ _ _ _ _ _)
  · rw [outsAt1_B V c t h0]
    simp only [before1_3_B V c t h0, before1_4_B V c t h0]
    unfold out1_B_3 out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _)
    unfold owns; iexists _; isplitr
    swap; · iexact H4
    ipureintro; exact View.read_writes_of_cover _ _ _ _ _ (cover1_B_4 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Each case's pieces, read as the payloads -/

/-- The zero offsets of a rank-2 whole-buffer access, however spelt. -/
theorem hz1 : (![0, 0] : Fin 2 → Nat) = fun _ => 0 := funext fun a => by fin_cases a <;> rfl

/-- At the first point output 3 ends holding the block's sum added to the zero row: the later of its two covering
    stores, whose read-back of the first (the zero row) is a covered load. -/
theorem out1_A_3_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) :
    out1_A_3 c i arg1 harg1 arg2 harg2 arg3 harg3 arg4 harg4 arg5 harg5 hc0 x0 x1 x2 = k1_pay4 x0 x1 x2 k1_pay1 := by
  unfold out1_A_3
  rw [View.read_writes_eq_canon _ _ _ (cover1_A_3 c i arg1 harg1 arg2 harg2 arg3 harg3 arg4 harg4 arg5 harg5 hc0 x0 x1 x2)]
  unfold kernelRun1_A
  dsimp only
  sl_unfold_words
  rw [View.canon_cons_unit_zero (S := S1x64) hz1]
  simp only [View.readAt_eq_ld, harg1.read_unread, harg2.read_unread, harg3.read_unread,
    View.ld_unit_zero (S := S10000x64) hz1, View.ld_unit_zero (S := S10000x1) hz1, View.ld_unit_zero (S := S1x64) hz1,
    View.readCov_unit_zero (S := S1x64) _ hz1]

/-- At the first point output 4 ends holding the block's sum of squares added to the zero row. -/
theorem out1_A_4_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i)
    (x0 : Vec F S10000x64 .f32) (x1 : Vec F S10000x1 .f32) (x2 : Vec F S1x64 .f32) :
    out1_A_4 c i arg1 harg1 arg2 harg2 arg3 harg3 arg4 harg4 arg5 harg5 hc0 x0 x1 x2 = k1_pay5 x0 x1 x2 k1_pay2 := by
  unfold out1_A_4
  rw [View.read_writes_eq_canon _ _ _ (cover1_A_4 c i arg1 harg1 arg2 harg2 arg3 harg3 arg4 harg4 arg5 harg5 hc0 x0 x1 x2)]
  unfold kernelRun1_A
  dsimp only
  sl_unfold_words
  rw [View.canon_cons_unit_zero (S := S1x64) hz1]
  simp only [View.readAt_eq_ld, harg1.read_unread, harg2.read_unread, harg3.read_unread,
    View.ld_unit_zero (S := S10000x64) hz1, View.ld_unit_zero (S := S10000x1) hz1, View.ld_unit_zero (S := S1x64) hz1,
    View.readCov_unit_zero (S := S1x64) _ hz1]

/-- At a later point output 3 ends holding the block's sum added to what the point before left: its one covering
    store, whose loads read the whole buffers. -/
theorem out1_B_3_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) :
    out1_B_3 c i arg1 harg1 arg2 harg2 arg3 harg3 arg4 harg4 arg5 harg5 hc0 x0 x1 x2 xo3 xo4 = k1_pay4 x0 x1 x2 xo3 := by
  unfold out1_B_3
  rw [View.read_writes_eq_canon _ _ _ (cover1_B_3 c i arg1 harg1 arg2 harg2 arg3 harg3 arg4 harg4 arg5 harg5 hc0 x0 x1 x2 xo3 xo4)]
  unfold kernelRun1_B
  dsimp only
  sl_unfold_words
  rw [View.canon_unit_zero (S := S1x64) hz1]
  simp only [View.readAt_eq_ld, harg1.read_unread, harg2.read_unread, harg3.read_unread, harg4.read_unread,
    View.ld_unit_zero (S := S10000x64) hz1, View.ld_unit_zero (S := S10000x1) hz1, View.ld_unit_zero (S := S1x64) hz1]

/-- At a later point output 4 ends holding the block's sum of squares added to what the point before left. -/
theorem out1_B_4_eq (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i)
    (x0 : Vec F S10000x64 .f32) (x1 : Vec F S10000x1 .f32) (x2 : Vec F S1x64 .f32) (xo3 : Vec F S1x64 .f32) (xo4 : Vec F S1x64 .f32) :
    out1_B_4 c i arg1 harg1 arg2 harg2 arg3 harg3 arg4 harg4 arg5 harg5 hc0 x0 x1 x2 xo3 xo4 = k1_pay5 x0 x1 x2 xo4 := by
  unfold out1_B_4
  rw [View.read_writes_eq_canon _ _ _ (cover1_B_4 c i arg1 harg1 arg2 harg2 arg3 harg3 arg4 harg4 arg5 harg5 hc0 x0 x1 x2 xo3 xo4)]
  unfold kernelRun1_B
  dsimp only
  sl_unfold_words
  rw [View.canon_unit_zero (S := S1x64) hz1]
  simp only [View.readAt_eq_ld, harg1.read_unread, harg2.read_unread, harg3.read_unread, harg5.read_unread,
    View.ld_unit_zero (S := S10000x64) hz1, View.ld_unit_zero (S := S10000x1) hz1, View.ld_unit_zero (S := S1x64) hz1]

end Cert.Kernel.Hand

end
-- ==== Proof.KB.R2.lean ====
import proofs.«411316_j29850022707326_3_alg».proof.Proof.Gen.Kernel.Launch
import proofs.«411316_j29850022707326_3_alg».proof.Proof.Gen.Kernel.Skeleton
import proofs.«411316_j29850022707326_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 2 of @main: custom_call 2, `cc2__bnrelu_matmul_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): unfetched, the index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): unfetched, the index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): unfetched, the index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): unfetched, the index has
    not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): unfetched, the index has
    not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): unfetched, the index has
    not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x1 := Rect.unit (s := S5000x1) ![0, 0] S5000x1.size inb_S5000x1_S5000x1_0_0
abbrev r2_1 : Rect S5000x64 := Rect.unit (s := S5000x64) ![0, 0] S5000x64.size inb_S5000x64_S5000x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in the output window's buffer -/

/-- Window 6's staging buffer after the body, from the input windows' blocks: its one store as a piece, the
    payload the skeleton's, over the blocks as loaded. -/
def out2_6 (x0 : Vec F S5000x64 .f32) (x1 : Vec F S5000x1 .f32) (x2 : Vec F S1x64 .f32) (x3 : Vec F S1x64 .f32) (x4 : Vec F S1x64 .f32) (x5 : Vec F S64x64 .f32) : Vec F S5000x64 .bf16 :=
  View.canon [⟨r2_1, k2_pay1 (View.ld x1 r2_0) (View.ld x0 r2_1) (View.ld x2 r2_2) (View.ld x3 r2_2) (View.ld x4 r2_2) (View.ld x5 r2_3)⟩]

/-- Its store tiles the buffer (checked by evaluation), so it covers it. -/
theorem cover2_6 (p0 : Vec F S5000x64 .bf16) (y : S5000x64.Idx) :
    ∃ pc ∈ ([⟨r2_1, p0⟩] : List (View.Piece (Elt F) S5000x64 .bf16)), y ∈ pc.1.set :=
  View.cover_of_tiled [⟨r2_1, p0⟩] S5000x64.size (by rfl) y

/-! ## The body's triple -/

set_option maxHeartbeats 1000000 in
/-- The kernel body on whole staging memrefs, the inputs' at read contents `xW` and the output's at anything, runs to
    the continuation holding the inputs' as they were and the output's at `out2_6` of the inputs': the printed
    function is its skeleton, which is run operation by operation. -/
theorem sound_kernel2 (c : Dev nD) (E : Set ℕ) (i : grid2.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S5000x64 .bf16) (harg7 : arg7.IsWhole)
    (x0 : Vec F S5000x64 .f32) (x1 : Vec F S5000x1 .f32) (x2 : Vec F S1x64 .f32) (x3 : Vec F S1x64 .f32) (x4 : Vec F S1x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bnrelu_matmul_kernel i arg1 harg1 arg2 harg2 arg3 harg3 arg4 harg4 arg5 harg5 arg6 harg6 arg7 harg7) K := by
  simp only [cc2__bnrelu_matmul_kernel_eq_skeleton]; unfold cc2__bnrelu_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of pipeline 2 on core `c`: the arrays as the region finds them (`V`); after the body at
    point `t` each input's buffer at its block and the output's at `out2_6` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output block as the payload of the input blocks -/

/-- The zero offsets, as a constant function. -/
theorem hz2 : (![0, 0] : Fin 2 → Nat) = fun _ => 0 := funext fun a => by fin_cases a <;> rfl

/-- The single store covers the block and every load reads a whole block, so the output buffer after the body IS the
    payload of the input blocks. -/
theorem out2_6_eq (x0 : Vec F S5000x64 .f32) (x1 : Vec F S5000x1 .f32) (x2 : Vec F S1x64 .f32) (x3 : Vec F S1x64 .f32) (x4 : Vec F S1x64 .f32) (x5 : Vec F S64x64 .f32) : out2_6 x0 x1 x2 x3 x4 x5 = k2_pay1 x1 x0 x2 x3 x4 x5 := by
  unfold out2_6
  rw [View.canon_unit_zero hz2]
  simp only [View.ld_unit_zero (S := S5000x1) hz2, View.ld_unit_zero (S := S5000x64) hz2, View.ld_unit_zero (S := S1x64) hz2, View.ld_unit_zero (S := S64x64) hz2]

end Cert.Kernel.Hand

end
-- ==== Proof.KB.R3.lean ====
import proofs.«411316_j29850022707326_3_alg».proof.Proof.Gen.Kernel.Launch
import proofs.«411316_j29850022707326_3_alg».proof.Proof.Gen.Kernel.Skeleton
import proofs.«411316_j29850022707326_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The region of @main that runs `cc3__bn_stats_kernel` (pipeline `cfg3`), at the entry contents `V`

The kernel sums the aggregated rows and their squares down the row blocks, one block a grid point, into two one-row
outputs whose block never moves: zeroed at the first point, added to at every point, written back after the last. Here:
the windows' blocks as read off the entry contents; the body's run in its two control cases (first point, later
point) with what each leaves in the two outputs; the outputs' contents after every point, by recursion on the point;
the pipeline's proof data and the body obligation; and each case's contents as the payloads of the input blocks. -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is the region-entry contents (`hA`) and whose body leaves the block in place (`hafter`):
    unfetched, the block index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is the region-entry contents (`hA`) and whose body leaves the block in place (`hafter`):
    unfetched, the block index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is the region-entry contents (`hA`) and whose body leaves the block in place (`hafter`):
    unfetched, the block index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one `scf.if`, from the grid coordinates (the skeleton's scalar chain substituted). -/
abbrev cond3_0 (i : grid3.Coords) : Prop := (Scalar.cmpi .ne (Scalar.extui (Scalar.cmpi .eq (BitVec.ofNat 32 (i 0).val) 0#32)) 0#32) = 1#1
/-- It holds at the first point only: decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The staging memrefs -/

/-- One staging buffer of output window 3 (the running sum), through which its contents are stated. -/
abbrev VO3_3 : View sig .tc .vmem S1x64 .f32 := (Memref.whole cc3_stg3_0 : Memref sig .tc .vmem S1x64 .f32).view
/-- One staging buffer of output window 4 (the running sum of squares), through which its contents are stated. -/
abbrev VO3_4 : View sig .tc .vmem S1x64 .f32 := (Memref.whole cc3_stg4_0 : Memref sig .tc .vmem S1x64 .f32).view
/-- Each window's current staging memref at point `t`, spelled as the pipeline passes it, and its wholeness. -/
abbrev ms3_0 (t : Fin cfg3.N) : Memref sig .tc .vmem S10000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
/-! ## The kernel body on any staging memrefs: the pieces its stores leave, with the proof of its run -/

set_option maxHeartbeats 1000000 in
/-- What the body's stores leave in each output's staging memref, as pieces (last first), AT THE FIRST POINT (the
    `scf.if` taken: both outputs zeroed, then the block's sums added), with the proof that on whole staging memrefs,
    the inputs' at their contents and the outputs' at anything, the body runs to the continuation holding the inputs'
    as they were and each output's buffer with its pieces written. The value is the pair: the pieces, and that proof about them. -/
noncomputable def kernelRun3_A (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc3__bn_stats_kernel i arg1 harg1 arg2 harg2 arg3 harg3 arg4 harg4 arg5 harg5) K } := by
  refine ⟨(?_, ?_), fun E K => ?run⟩
  case run =>
    simp only [cc3__bn_stats_kernel_eq_skeleton]; unfold cc3__bn_stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- What the body's stores leave in each output's staging memref, as pieces (last first), AT A LATER POINT (the
    `scf.if` not taken: each output is read, at the running contents `xo3`, `xo4` the point before left, before the
    block's sums are added to it), with the proof that on whole staging memrefs, the inputs' at their contents and the
    outputs' at those running contents, the body runs to the continuation holding the inputs' as they were and each
    output's buffer with its pieces written. The value is the pair: the pieces, and that proof about them. -/
noncomputable def kernelRun3_B (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) :
    { L : List (View.Piece (Elt F) S1x64 .f32) × List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc3__bn_stats_kernel i arg1 harg1 arg2 harg2 arg3 harg3 arg4 harg4 arg5 harg5) K } := by
  refine ⟨(?_, ?_), fun E K => ?run⟩
  case run =>
    simp only [cc3__bn_stats_kernel_eq_skeleton]; unfold cc3__bn_stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-! ## What each case leaves in the outputs -/

/-- Case A's pieces for output 3 tile its block (2 stores of `S1x64`), so they cover it. -/
theorem cover3_A_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) (y : S1x64.Idx) :
    ∃ pc ∈ (kernelRun3_A c i arg1 harg1 arg2 harg2 arg3 harg3 arg4 harg4 arg5 harg5 hc0 x0 x1 x2).1.1, y ∈ pc.1.set :=
  View.cover_of_tiledL (kernelRun3_A c i arg1 harg1 arg2 harg2 arg3 harg3 arg4 harg4 arg5 harg5 hc0 x0 x1 x2).1.1 S1x64.size (by sl_kernel_rfl) y

/-- What case A leaves in output 3's staging buffer (the running sum): its pieces read back over junk. -/
def out3_A_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) : Vec F S1x64 .f32 :=
  VO3_3.read (Elt F) (VO3_3.writes (Elt F) VO3_3.junk (kernelRun3_A c i arg1 harg1 arg2 harg2 arg3 harg3 arg4 harg4 arg5 harg5 hc0 x0 x1 x2).1.1)

/-- Case A's pieces for output 4 tile its block (2 stores of `S1x64`), so they cover it. -/
theorem cover3_A_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) (y : S1x64.Idx) :
    ∃ pc ∈ (kernelRun3_A c i arg1 harg1 arg2 harg2 arg3 harg3 arg4 harg4 arg5 harg5 hc0 x0 x1 x2).1.2, y ∈ pc.1.set :=
  View.cover_of_tiledL (kernelRun3_A c i arg1 harg1 arg2 harg2 arg3 harg3 arg4 harg4 arg5 harg5 hc0 x0 x1 x2).1.2 S1x64.size (by sl_kernel_rfl) y

/-- What case A leaves in output 4's staging buffer (the running sum of squares): its pieces read back over junk. -/
def out3_A_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) : Vec F S1x64 .f32 :=
  VO3_4.read (Elt F) (VO3_4.writes (Elt F) VO3_4.junk (kernelRun3_A c i arg1 harg1 arg2 harg2 arg3 harg3 arg4 harg4 arg5 harg5 hc0 x0 x1 x2).1.2)

/-- Case B's pieces for output 3 tile its block (1 store of `S1x64`), so they cover it. -/
theorem cover3_B_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun3_B c i arg1 harg1 arg2 harg2 arg3 harg3 arg4 harg4 arg5 harg5 hc0 x0 x1 x2 xo3 xo4).1.1, y ∈ pc.1.set :=
  View.cover_of_tiledL (kernelRun3_B c i arg1 harg1 arg2 harg2 arg3 harg3 arg4 harg4 arg5 harg5 hc0 x0 x1 x2 xo3 xo4).1.1 S1x64.size (by sl_kernel_rfl) y

/-- What case B leaves in output 3's staging buffer (the running sum): its pieces read back over junk. -/
def out3_B_3 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) : Vec F S1x64 .f32 :=
  VO3_3.read (Elt F) (VO3_3.writes (Elt F) VO3_3.junk (kernelRun3_B c i arg1 harg1 arg2 harg2 arg3 harg3 arg4 harg4 arg5 harg5 hc0 x0 x1 x2 xo3 xo4).1.1)

/-- Case B's pieces for output 4 tile its block (1 store of `S1x64`), so they cover it. -/
theorem cover3_B_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) (y : S1x64.Idx) :
    ∃ pc ∈ (kernelRun3_B c i arg1 harg1 arg2 harg2 arg3 harg3 arg4 harg4 arg5 harg5 hc0 x0 x1 x2 xo3 xo4).1.2, y ∈ pc.1.set :=
  View.cover_of_tiledL (kernelRun3_B c i arg1 harg1 arg2 harg2 arg3 harg3 arg4 harg4 arg5 harg5 hc0 x0 x1 x2 xo3 xo4).1.2 S1x64.size (by sl_kernel_rfl) y

/-- What case B leaves in output 4's staging buffer (the running sum of squares): its pieces read back over junk. -/
def out3_B_4 (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) : Vec F S1x64 .f32 :=
  VO3_4.read (Elt F) (VO3_4.writes (Elt F) VO3_4.junk (kernelRun3_B c i arg1 harg1 arg2 harg2 arg3 harg3 arg4 harg4 arg5 harg5 hc0 x0 x1 x2 xo3 xo4).1.2)

/-! ## What the outputs hold after each point -/

/-- THE ACCUMULATION. What the two outputs' staging buffers hold after the body at position `n` (a pair: the running
    sum, the running sum of squares): the case the closed form selects at `n`, run at the point's memrefs and input
    blocks, each output read before it is covered at what this leaves at `n - 1` (its buffer is not written back
    between: `before3_3_B`, `before3_4_B`). -/
def outsAt3 (c : Dev nD) : (n : ℕ) → n < cfg3.N → Vec F S1x64 .f32 × Vec F S1x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) ((hcond3_0 ⟨0, hn⟩).mpr (Nat.zero_mod _)) (iblk3 V c 0 ⟨0, hn⟩) (iblk3 V c 1 ⟨0, hn⟩) (iblk3 V c 2 ⟨0, hn⟩))
  | n + 1, hn =>
    if h0 : (n + 1) % 10 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) ((hcond3_0 ⟨n + 1, hn⟩).mpr h0) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).1 (outsAt3 c n (Nat.lt_of_succ_lt hn)).2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).1 (outsAt3 c n (Nat.lt_of_succ_lt hn)).2)

/-- `outsAt3` at a point of case A: that case's contents. -/
theorem outsAt3_A (c : Dev nD) (t : Fin cfg3.N) (h0 : t.val % 10 = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t) (iblk3 V c 2 t)) := by
  obtain ⟨n, hn⟩ := t
  cases n with
  | zero => exact rfl
  | succ n => exact (dif_pos h0).trans rfl

/-- `outsAt3` at a point of case B: that case's contents, over what the point before left. -/
theorem outsAt3_B (c : Dev nD) (t : Fin cfg3.N) (h0 : ¬t.val % 10 = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).1 (outsAt3 V c (t.val - 1) (Nat.lt_of_le_of_lt (Nat.sub_le _ _) t.isLt)).2, out3_B_4 c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) (iblk3 V c 2 t) (outsAt3 V c (t.val - 1) (Nat.lt_of_le_of_lt (Nat.sub_le _ _) t.isLt)).1 (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this region's pipeline on core `c`: the arrays as the region finds them (`V`); after the body
    at point `t` each input's buffer at its block and the two outputs' at `outsAt3`'s components; the invariant the
    scoped rest and the PRNG register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2
  Φ _ := Pipeline.ΦA spec3 c
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a point of case B output 3's current staging buffer holds what the body left at the point before: the point is
    not the first, the buffer was not written back between (it is written back after the last point only), the window
    is live and uncut. -/
theorem before3_3_B (c : Dev nD) (t : Fin cfg3.N) (h0 : ¬t.val % 10 = 0) (d) :
    (dat3 V c).before 3 t d = (outsAt3 V c (t.val - 1) (Nat.lt_of_le_of_lt (Nat.sub_le _ _) t.isLt)).1 := by
  have hN : t.val < 10 := lt_of_lt_of_eq t.isLt (show cfg3.N = 10 from N_3)
  rw [Dat.before_out_kept _ 3 rfl t (by omega) (Bool.eq_false_iff.mpr fun h => by have := (flush3_3 _).mp h; dsimp only at this; omega)
    (fun _ => rfl) (fun _ _ => rfl)]
  dsimp only [dat3]
/-- The same for output 4. -/
theorem before3_4_B (c : Dev nD) (t : Fin cfg3.N) (h0 : ¬t.val % 10 = 0) (d) :
    (dat3 V c).before 4 t d = (outsAt3 V c (t.val - 1) (Nat.lt_of_le_of_lt (Nat.sub_le _ _) t.isLt)).2 := by
  have hN : t.val < 10 := lt_of_lt_of_eq t.isLt (show cfg3.N = 10 from N_3)
  rw [Dat.before_out_kept _ 4 rfl t (by omega) (Bool.eq_false_iff.mpr fun h => by have := (flush3_4 _).mp h; dsimp only at this; omega)
    (fun _ => rfl) (fun _ _ => rfl)]
  dsimp only [dat3]

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

set_option maxHeartbeats 800000 in
/-- The body at any point: the inputs' memrefs hold their blocks (`before3_W`); the closed form says which case the
    point is in; at a later point each output holds what the point before left (`before3_3_B`, `before3_4_B`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  have hN : t.val < 10 := lt_of_lt_of_eq t.isLt (show cfg3.N = 10 from N_3)
  by_cases h0 : t.val % 10 = 0
  · rw [outsAt3_A V c t h0]
    unfold out3_A_3 out3_A_4; (try dsimp only)
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0) (iblk3 V c 0 t) (iblk3 V c 1 t) (iblk3 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _)
    unfold owns; iexists _; isplitr
    swap; · iexact H4
    ipureintro; exact View.read_writes_of_cover _ _ _ _ _ (cover3_A_4 c _ _ _ _ _ _ _ _ _ _ _ _ _ _ _)
  · rw [outsAt3_B V c t h0]
    simp only [before3_3_B V c t h0, before3_4_B V c t h0]
    unfold out3_B_3 out3_B_4; (try dsimp only)
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h)) (iblk3 V c 0 t) (iblk3 V c 1 t) (iblk3 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _ _)
    unfold owns; iexists _; isplitr
    swap; · iexact H4
    ipureintro; exact View.read_writes_of_cover _ _ _ _ _ (cover3_B_4 c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## Each case's pieces, read as the payloads -/

/-- The zero offsets of a rank-2 whole-buffer access, however spelt. -/
theorem hz3 : (![0, 0] : Fin 2 → Nat) = fun _ => 0 := funext fun a => by fin_cases a <;> rfl

/-- At the first point output 3 ends holding the block's sum added to the zero row: the later of its two covering
    stores, whose read-back of the first (the zero row) is a covered load. -/
theorem out3_A_3_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) :
    out3_A_3 c i arg1 harg1 arg2 harg2 arg3 harg3 arg4 harg4 arg5 harg5 hc0 x0 x1 x2 = k3_pay4 x0 x1 x2 k3_pay1 := by
  unfold out3_A_3
  rw [View.read_writes_eq_canon _ _ _ (cover3_A_3 c i arg1 harg1 arg2 harg2 arg3 harg3 arg4 harg4 arg5 harg5 hc0 x0 x1 x2)]
  unfold kernelRun3_A
  dsimp only
  sl_unfold_words
  rw [View.canon_cons_unit_zero (S := S1x64) hz3]
  simp only [View.readAt_eq_ld, harg1.read_unread, harg2.read_unread, harg3.read_unread,
    View.ld_unit_zero (S := S10000x64) hz3, View.ld_unit_zero (S := S10000x1) hz3, View.ld_unit_zero (S := S1x64) hz3,
    View.readCov_unit_zero (S := S1x64) _ hz3]

/-- At the first point output 4 ends holding the block's sum of squares added to the zero row. -/
theorem out3_A_4_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond3_0 i)
    (x0 : Vec F S10000x64 .f32) (x1 : Vec F S10000x1 .f32) (x2 : Vec F S1x64 .f32) :
    out3_A_4 c i arg1 harg1 arg2 harg2 arg3 harg3 arg4 harg4 arg5 harg5 hc0 x0 x1 x2 = k3_pay5 x0 x1 x2 k3_pay2 := by
  unfold out3_A_4
  rw [View.read_writes_eq_canon _ _ _ (cover3_A_4 c i arg1 harg1 arg2 harg2 arg3 harg3 arg4 harg4 arg5 harg5 hc0 x0 x1 x2)]
  unfold kernelRun3_A
  dsimp only
  sl_unfold_words
  rw [View.canon_cons_unit_zero (S := S1x64) hz3]
  simp only [View.readAt_eq_ld, harg1.read_unread, harg2.read_unread, harg3.read_unread,
    View.ld_unit_zero (S := S10000x64) hz3, View.ld_unit_zero (S := S10000x1) hz3, View.ld_unit_zero (S := S1x64) hz3,
    View.readCov_unit_zero (S := S1x64) _ hz3]

/-- At a later point output 3 ends holding the block's sum added to what the point before left: its one covering
    store, whose loads read the whole buffers. -/
theorem out3_B_3_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) :
    out3_B_3 c i arg1 harg1 arg2 harg2 arg3 harg3 arg4 harg4 arg5 harg5 hc0 x0 x1 x2 xo3 xo4 = k3_pay4 x0 x1 x2 xo3 := by
  unfold out3_B_3
  rw [View.read_writes_eq_canon _ _ _ (cover3_B_3 c i arg1 harg1 arg2 harg2 arg3 harg3 arg4 harg4 arg5 harg5 hc0 x0 x1 x2 xo3 xo4)]
  unfold kernelRun3_B
  dsimp only
  sl_unfold_words
  rw [View.canon_unit_zero (S := S1x64) hz3]
  simp only [View.readAt_eq_ld, harg1.read_unread, harg2.read_unread, harg3.read_unread, harg4.read_unread,
    View.ld_unit_zero (S := S10000x64) hz3, View.ld_unit_zero (S := S10000x1) hz3, View.ld_unit_zero (S := S1x64) hz3]

/-- At a later point output 4 ends holding the block's sum of squares added to what the point before left. -/
theorem out3_B_4_eq (c : Dev nD) (i : grid3.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond3_0 i)
    (x0 : Vec F S10000x64 .f32) (x1 : Vec F S10000x1 .f32) (x2 : Vec F S1x64 .f32) (xo3 : Vec F S1x64 .f32) (xo4 : Vec F S1x64 .f32) :
    out3_B_4 c i arg1 harg1 arg2 harg2 arg3 harg3 arg4 harg4 arg5 harg5 hc0 x0 x1 x2 xo3 xo4 = k3_pay5 x0 x1 x2 xo4 := by
  unfold out3_B_4
  rw [View.read_writes_eq_canon _ _ _ (cover3_B_4 c i arg1 harg1 arg2 harg2 arg3 harg3 arg4 harg4 arg5 harg5 hc0 x0 x1 x2 xo3 xo4)]
  unfold kernelRun3_B
  dsimp only
  sl_unfold_words
  rw [View.canon_unit_zero (S := S1x64) hz3]
  simp only [View.readAt_eq_ld, harg1.read_unread, harg2.read_unread, harg3.read_unread, harg5.read_unread,
    View.ld_unit_zero (S := S10000x64) hz3, View.ld_unit_zero (S := S10000x1) hz3, View.ld_unit_zero (S := S1x64) hz3]

end Cert.Kernel.Hand

end
-- ==== Proof.KB.R4Runs.lean ====
import proofs.«411316_j29850022707326_3_alg».proof.Proof.Gen.Kernel.Launch
import proofs.«411316_j29850022707326_3_alg».proof.Proof.Gen.Kernel.Skeleton
import proofs.«411316_j29850022707326_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4 of @main: custom_call 4, `cc4__bnrelu_pool_linear_kernel` (pipeline 4), at the entry contents `V`:
    what its three control cases share -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): unfetched, the index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for ANY proof
    data whose array is `V`'s (`hA`) and whose body leaves the block in place (`hafter`): unfetched, the index has
    not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for ANY proof
    data whose array is `V`'s (`hA`) and whose body leaves the block in place (`hafter`): unfetched, the index has
    not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for ANY proof
    data whose array is `V`'s (`hA`) and whose body leaves the block in place (`hafter`): unfetched, the index has
    not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for ANY proof
    data whose array is `V`'s (`hA`) and whose body leaves the block in place (`hafter`): unfetched, the index has
    not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for ANY proof
    data whose array is `V`'s (`hA`) and whose body leaves the block in place (`hafter`): unfetched, the index has
    not moved; the window is uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-- Input window 6's current staging buffer holds its block at every point, fetched there or not, for ANY proof
    data whose array is `V`'s (`hA`) and whose body leaves the block in place (`hafter`): unfetched, the index has
    not moved; the window is uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-- Input window 7's current staging buffer holds its block at every point, fetched there or not, for ANY proof
    data whose array is `V`'s (`hA`) and whose body leaves the block in place (`hafter`): unfetched, the index has
    not moved; the window is uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first `scf.if` (the reset of the two accumulators), from the grid coordinates. -/
abbrev cond4_0 (i : grid4.Coords) : Prop := (Scalar.cmpi .ne (Scalar.extui (Scalar.cmpi .eq (BitVec.ofNat 32 (i 0).val) 0#32)) 0#32) = 1#1
/-- It holds at the first point only: decided over the grid. -/
theorem hcond4_0 : ∀ t : Fin cfg4.N, cond4_0 (grid4.coords t) ↔ t.val % 20 = 0 :=
  (by decide +kernel : ∀ t : Fin grid4.N, cond4_0 (grid4.coords t) ↔ t.val % 20 = 0)

/-- The condition of the body's second `scf.if` (the division, the linear layer and the output's store), from the grid coordinates. -/
abbrev cond4_1 (i : grid4.Coords) : Prop := k4_cond2 i = 1#1
/-- It holds at the last point only: decided over the grid. -/
theorem hcond4_1 : ∀ t : Fin cfg4.N, cond4_1 (grid4.coords t) ↔ t.val % 20 = 19 :=
  (by decide +kernel : ∀ t : Fin grid4.N, cond4_1 (grid4.coords t) ↔ t.val % 20 = 19)

/-! ## Where the windows are idle (the printed configuration's table) -/

/-- Window 0 is never idle (an input). -/
theorem liveAt4_0 : ∀ t : Fin cfg4.N, cfg4.idle 0 (grid4.coords t) = false := by decide +kernel
/-- Window 1 is never idle (an input). -/
theorem liveAt4_1 : ∀ t : Fin cfg4.N, cfg4.idle 1 (grid4.coords t) = false := by decide +kernel
/-- Window 2 is never idle (an input). -/
theorem liveAt4_2 : ∀ t : Fin cfg4.N, cfg4.idle 2 (grid4.coords t) = false := by decide +kernel
/-- Window 3 is never idle (an input). -/
theorem liveAt4_3 : ∀ t : Fin cfg4.N, cfg4.idle 3 (grid4.coords t) = false := by decide +kernel
/-- Window 4 is never idle (an input). -/
theorem liveAt4_4 : ∀ t : Fin cfg4.N, cfg4.idle 4 (grid4.coords t) = false := by decide +kernel
/-- Window 5 is never idle (an input). -/
theorem liveAt4_5 : ∀ t : Fin cfg4.N, cfg4.idle 5 (grid4.coords t) = false := by decide +kernel
/-- Window 6 is never idle (an input). -/
theorem liveAt4_6 : ∀ t : Fin cfg4.N, cfg4.idle 6 (grid4.coords t) = false := by decide +kernel
/-- Window 7 is never idle (an input). -/
theorem liveAt4_7 : ∀ t : Fin cfg4.N, cfg4.idle 7 (grid4.coords t) = false := by decide +kernel
/-- At the first point the configuration calls output 8 idle: the case stores nothing into it. -/
theorem idleAt4_8_A : ∀ t : Fin cfg4.N, cond4_0 (grid4.coords t) → ¬cond4_1 (grid4.coords t) → cfg4.idle 8 (grid4.coords t) = true := by decide +kernel
/-- At the first point the pipeline does not write output 8's block back. -/
theorem noFlush4_8_A : ∀ t : Fin cfg4.N, cond4_0 (grid4.coords t) → ¬cond4_1 (grid4.coords t) → (cfg4.win 8).flush t = false := by decide +kernel
/-- At the middle points the configuration calls output 8 idle: the case stores nothing into it. -/
theorem idleAt4_8_B : ∀ t : Fin cfg4.N, ¬cond4_0 (grid4.coords t) → ¬cond4_1 (grid4.coords t) → cfg4.idle 8 (grid4.coords t) = true := by decide +kernel
/-- At the middle points the pipeline does not write output 8's block back. -/
theorem noFlush4_8_B : ∀ t : Fin cfg4.N, ¬cond4_0 (grid4.coords t) → ¬cond4_1 (grid4.coords t) → (cfg4.win 8).flush t = false := by decide +kernel
/-- At the last point the configuration calls output 8 live: the case stores into it. -/
theorem liveAt4_8_C : ∀ t : Fin cfg4.N, ¬cond4_0 (grid4.coords t) → cond4_1 (grid4.coords t) → cfg4.idle 8 (grid4.coords t) = false := by decide +kernel

/-! ## The staging and scratch memrefs the body is called with -/

/-- One staging buffer of output window 8, through which its contents are stated (the choice does not matter). -/
abbrev VO4_8 : View sig .tc .vmem S128x32 .f32 := (Memref.whole cc4_stg8_0 : Memref sig .tc .vmem S128x32 .f32).view
/-- Each window's current staging memref at point `t`, spelled as the pipeline passes it, and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x1 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x64 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x1 .i32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S64x32 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x32 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S128x32 .f32 := win4_8.stage (cfg4.slots t 8)
abbrev hs4_8 (t : Fin cfg4.N) : (ms4_8 t).IsWhole := hstage4_8 ((cfg4.slots t 8).cast nbuf4_8)
/-- The scratch operands: whole scoped buffers of the kernel's own, passed beside the windows — the pooled sums and the counts. -/
abbrev scM4_0 : Memref sig .tc .vmem S128x64 .f32 := Memref.whole cc4_scratch0
abbrev scM4_1 : Memref sig .tc .vmem S128x1 .f32 := Memref.whole cc4_scratch1
/-- The two scratches the kernel carries between points, as views: what they hold is stated through them. -/
abbrev VS4_0 : View sig .tc .vmem S128x64 .f32 := scM4_0.view
abbrev VS4_1 : View sig .tc .vmem S128x1 .f32 := scM4_1.view

/-- The class's invariant with the two scratch operands as memrefs owned at some contents, every other scoped
    buffer carried along unopened, and the generator register: what the body obligation hands the run and takes back. -/
theorem PhiA4_eq (c : Dev nD) :
    (Pipeline.ΦA spec4 c : sProp 𝕄)
      = iprop(iprop((∃ d, owns (c : Thread nD τ) scM4_0 fullShare d) ∗ (∃ d, owns (c : Thread nD τ) scM4_1 fullShare d)
          ∗ Pipeline.scopedRestBut (Ix := Unit) (Name := ℕ) (U := UR sig nD τ) (Lvl := ℕ) (Val := Elt F) spec4 c [cc4_scratch0, cc4_scratch1])
        ∗ (∃ r, prngReg c r)) := by
  unfold Pipeline.ΦA; rw [scopedRest4_split]; simp only [scM4_0, scM4_1, owns_whole]
  exact congrArg (fun X : sProp 𝕄 => iprop(X ∗ ∃ r, prngReg c r)) (Idealize.SL.BI.sep_assoc.antisymm Idealize.SL.BI.sep_assoc')

end Cert.Kernel.Hand

end
-- ==== Proof.KB.R4RunA.lean ====
import proofs.«411316_j29850022707326_3_alg».proof.Proof.KB.R4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4, case A: the body's run at the first point -/

set_option maxHeartbeats 1000000 in
/-- What the body's stores leave in the output's staging memref and in the two scratches, as pieces (last first), at
    the first point (the reset taken, the closing conditional not), WITH the proof that on whole memrefs — the inputs' at their contents, the output's at contents handed back untouched,
    the two scratches at anything — the body runs to the continuation holding the inputs' as they were and each
    scratch with its pieces written: the printed functions are their skeletons, each conditional decided by the case's
    hypotheses. The value is the pair: the pieces, and that proof about them. -/
noncomputable def kernelRun4_A (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) :
    Σ' (L8 : List (View.Piece (Elt F) S128x32 .f32)) (LS0 : List (View.Piece (Elt F) S128x64 .f32)), { LS1 : List (View.Piece (Elt F) S128x1 .f32) //
      ∀ (xi8 : Vec F S128x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__bnrelu_pool_linear_kernel i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc4__bnrelu_pool_linear_kernel_eq_skeleton]; unfold cc4__bnrelu_pool_linear_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KB.R4RunB.lean ====
import proofs.«411316_j29850022707326_3_alg».proof.Proof.KB.R4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4, case B: the body's run at a middle point -/

set_option maxHeartbeats 1000000 in
/-- What the body's stores leave in the output's staging memref and in the two scratches, as pieces (last first), at
    a middle point (neither conditional taken), WITH the proof that on whole memrefs — the inputs' at their contents, the output's at contents handed back untouched,
    the two scratches at what the point before left — the body runs to the continuation holding the inputs' as they were and each
    scratch with its pieces written: the printed functions are their skeletons, each conditional decided by the case's
    hypotheses. The value is the pair: the pieces, and that proof about them. -/
noncomputable def kernelRun4_B (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    Σ' (L8 : List (View.Piece (Elt F) S128x32 .f32)) (LS0 : List (View.Piece (Elt F) S128x64 .f32)), { LS1 : List (View.Piece (Elt F) S128x1 .f32) //
      ∀ (xi8 : Vec F S128x32 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__bnrelu_pool_linear_kernel i arg1 harg1 arg2 harg2 arg3 harg3 arg4 harg4 arg5 harg5 arg6 harg6 arg7 harg7 arg8 harg8 arg9 harg9 arg10 harg10 arg11 harg11) K } := by
  refine ⟨[], ?_, ?_, fun xi8 E K => ?run⟩
  case run =>
    simp only [cc4__bnrelu_pool_linear_kernel_eq_skeleton]; unfold cc4__bnrelu_pool_linear_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.KB.R4RunC.lean ====
import proofs.«411316_j29850022707326_3_alg».proof.Proof.KB.R4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4, case C: the body's run at the last point -/

set_option maxHeartbeats 1000000 in
/-- What the body's stores leave in the output's staging memref and in the two scratches, as pieces (last first), at
    the last point (the reset not taken, the closing conditional taken), WITH the proof that on whole memrefs — the inputs' at their contents, the output's at anything,
    the two scratches at what the point before left — the body runs to the continuation holding the inputs' as they were, the output's with its pieces written and each
    scratch with its pieces written: the printed functions are their skeletons, each conditional decided by the case's
    hypotheses. The value is the pair: the pieces, and that proof about them. -/
noncomputable def kernelRun4_C (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    Σ' (L8 : List (View.Piece (Elt F) S128x32 .f32)) (LS0 : List (View.Piece (Elt F) S128x64 .f32)), { LS1 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__bnrelu_pool_linear_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc4__bnrelu_pool_linear_kernel_eq_skeleton]; unfold cc4__bnrelu_pool_linear_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]; · iexists _; iexact HS0
    iexists _; iexact HS1

end Cert.Kernel.Hand

end
-- ==== Proof.KB.R4.lean ====
import proofs.«411316_j29850022707326_3_alg».proof.Proof.KB.R4RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 4 of @main: custom_call 4, `cc4__bnrelu_pool_linear_kernel` (pipeline 4), at the entry contents `V`:
    what each case leaves, the accumulation point by point, the proof data and the body obligation -/

/-- At the first point the body stores nothing into output 8 (the window is idle there and not written back): no pieces — a
    placeholder (junk read back) that nothing consults. -/
def out4_A_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) : Vec F S128x32 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1)

/-- At the first point the body's pieces for scratch 0 (the pooled sums), which the kernel carries between points, cover it. -/
theorem scover4_A_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (y : S128x64.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S128x64.size (by sl_kernel_rfl) y

/-- What the first point leaves in scratch 0 (the pooled sums): its pieces read back over junk. -/
def sout4_A_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) : Vec F S128x64 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1)

/-- At the first point the body's pieces for scratch 1 (the counts), which the kernel carries between points, cover it. -/
theorem scover4_A_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (y : S128x1.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1 S128x1.size (by sl_kernel_rfl) y

/-- What the first point leaves in scratch 1 (the counts): its pieces read back over junk. -/
def sout4_A_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) : Vec F S128x1 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.2.1)

/-- At a middle point the body stores nothing into output 8 (the window is idle there and not written back): no pieces — a
    placeholder (junk read back) that nothing consults. -/
def out4_B_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x32 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- At a middle point the body's pieces for scratch 0 (the pooled sums), which the kernel carries between points, cover it. -/
theorem scover4_B_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x64.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 S128x64.size (by sl_kernel_rfl) y

/-- What a middle point leaves in scratch 0 (the pooled sums): its pieces read back over junk. -/
def sout4_B_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x64 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- At a middle point the body's pieces for scratch 1 (the counts), which the kernel carries between points, cover it. -/
theorem scover4_B_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x1.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 S128x1.size (by sl_kernel_rfl) y

/-- What a middle point leaves in scratch 1 (the counts): its pieces read back over junk. -/
def sout4_B_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x1 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-- At the last point the body's pieces for output 8 tile its block (one store of the whole block), so they cover it. -/
theorem cover4_C_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x32.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1 S128x32.size (by sl_kernel_rfl) y

/-- What the last point leaves in output 8's staging buffer: its pieces read back over junk. -/
def out4_C_8 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x32 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).1)

/-- At the last point the body's pieces for scratch 0 (the pooled sums), which the kernel carries between points, cover it. -/
theorem scover4_C_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x64.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1 S128x64.size (by sl_kernel_rfl) y

/-- What the last point leaves in scratch 0 (the pooled sums): its pieces read back over junk. -/
def sout4_C_0 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x64 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.1)

/-- At the last point the body's pieces for scratch 1 (the counts), which the kernel carries between points, cover it. -/
theorem scover4_C_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) (y : S128x1.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1 S128x1.size (by sl_kernel_rfl) y

/-- What the last point leaves in scratch 1 (the counts): its pieces read back over junk. -/
def sout4_C_1 (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) : Vec F S128x1 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1).2.2.1)

/-! ## What the output and the two scratches hold after each point -/

/-- THE ACCUMULATION. What output 8's staging buffer and the two scratches the kernel carries between points hold after
    the body at position `n` (the output, then the pair of scratches): the case the closed forms select at `n`, run at
    the point's memrefs and input blocks, the scratches it reads before covering at what this leaves at `n - 1`. An
    assignment of the conditions no point meets is no case. -/
def outsAt4 (c : Dev nD) : (n : ℕ) → n < cfg4.N → Vec F S128x32 .f32 × (Vec F S128x64 .f32 × Vec F S128x1 .f32)
  | 0, hn => (out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩) (iblk4 V c 7 ⟨0, hn⟩)))
  | n + 1, hn =>
    if h0 : (n + 1) % 20 = 0 then
      if h1 : (n + 1) % 20 = 19 then
        False.elim (by omega)
      else
        (out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), (sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩)))
    else
      if h1 : (n + 1) % 20 = 19 then
        (out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2))
      else
        (out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) (iblk4 V c 7 ⟨n + 1, hn⟩) (outsAt4 c n (Nat.lt_of_succ_lt hn)).2.1 (outsAt4 c n (Nat.lt_of_succ_lt hn)).2.2))

/-- `outsAt4` at the first point: that case's contents. -/
theorem outsAt4_A (c : Dev nD) (t : Fin cfg4.N) (h0 : t.val % 20 = 0) (h1 : ¬t.val % 20 = 19) :
    outsAt4 V c t.val t.isLt = (out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t), (sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t))) := by
  obtain ⟨n, hn⟩ := t
  cases n with
  | zero => exact rfl
  | succ n => exact (dif_pos h0).trans ((dif_neg h1).trans rfl)

/-- `outsAt4` at a middle point: that case's contents, over what the point before left in the scratches. -/
theorem outsAt4_B (c : Dev nD) (t : Fin cfg4.N) (h0 : ¬t.val % 20 = 0) (h1 : ¬t.val % 20 = 19) :
    outsAt4 V c t.val t.isLt = (out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, (sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_neg h1).trans rfl)

/-- `outsAt4` at the last point: that case's contents, over what the point before left in the scratches. -/
theorem outsAt4_C (c : Dev nD) (t : Fin cfg4.N) (h0 : ¬t.val % 20 = 0) (h1 : t.val % 20 = 19) :
    outsAt4 V c t.val t.isLt = (out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, (sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) (outsAt4 V c (t.val - 1) (Nat.lt_of_le_of_lt (Nat.sub_le _ _) t.isLt)).2.1 (outsAt4 V c (t.val - 1) (Nat.lt_of_le_of_lt (Nat.sub_le _ _) t.isLt)).2.2)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the two scratches the kernel CARRIES between points: before the first
    point the class's (every scratch at anything); afterwards each carried scratch at what the point before left in it
    (`outsAt4`'s scratch components), every other scoped buffer carried along unopened, and the generator register at
    some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.1) ∗ owns (c : Thread nD τ) scM4_1 fullShare ((outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r))

/-- Before the first point: the class's invariant. -/
theorem PhiS4_zero (c : Dev nD) (n : ℕ) (h : n ≤ cfg4.N) (hz : n = 0) : PhiS4 V c n h = Pipeline.ΦA spec4 c := by
  subst hz; rfl

/-- After point `n` (before point `n + 1`): the carried scratches at that point's contents. -/
theorem PhiS4_succ (c : Dev nD) (n : ℕ) (hn : n < cfg4.N) :
    PhiS4 V c (n + 1) hn = iprop(iprop(owns (c : Thread nD τ) scM4_0 fullShare ((outsAt4 V c n hn).2.1) ∗ owns (c : Thread nD τ) scM4_1 fullShare ((outsAt4 V c n hn).2.2)
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the carried scratches at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2.1) ∗ owns (c : Thread nD τ) scM4_1 fullShare ((outsAt4 V c (n - 1) (by omega)).2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block and the output's at `outsAt4`'s first component; the invariant `PhiS4` (the class's
    before the first point, then the carried scratches at `outsAt4`'s components); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-! ## The body obligation, at a generic point -/

/-- What the body is called with at point `t` (the obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point: the inputs' memrefs hold their blocks; the closed forms say which case the point is in; so the
    case's run applies; the invariant hands the body the two carried scratches at what the point before left (at anything
    at the first point), every other scoped buffer and the generator register pass through unread, and it takes the
    scratches back at this point's contents (their pieces cover them); output 8 is handed back untouched where the case
    stores nothing into it, and at its pieces read back at the last point; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 20 = 0
  · by_cases h1 : t.val % 20 = 19
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t], after4_7]
      rw [Dat.leavesExact_idle (dat4 V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold sout4_A_0 sout4_A_1; (try dsimp only)
      have hz : t.val = 0 := by omega
      rw [PhiS4_castSucc V c t, PhiS4_zero V c _ _ hz, PhiA4_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

  · by_cases h1 : t.val % 20 = 19
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t], after4_7]
      rw [show (dat4 V c).leavesExact 8 t = owns (c : Thread nD τ) (ms4_8 t) fullShare ((dat4 V c).after 8 t) from by
        unfold Dat.leavesExact; rw [liveAt4_8_C t (fun h => h0 ((hcond4_0 t).mp h)) ((hcond4_1 t).mpr h1)], after4_8]
      rw [outsAt4_C V c t h0 h1]
      unfold out4_C_8 sout4_C_0 sout4_C_1; (try dsimp only)
      have hz : t.val ≠ 0 := by omega
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) (iblk4 V c 7 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover4_C_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _ _ _)

    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t], after4_4]
      rw [show (dat4 V c).leavesExact 5 t = owns (c : Thread nD τ) (ms4_5 t) fullShare ((dat4 V c).after 5 t) from by
        unfold Dat.leavesExact; rw [liveAt4_5 t], after4_5]
      rw [show (dat4 V c).leavesExact 6 t = owns (c : Thread nD τ) (ms4_6 t) fullShare ((dat4 V c).after 6 t) from by
        unfold Dat.leavesExact; rw [liveAt4_6 t], after4_6]
      rw [show (dat4 V c).leavesExact 7 t = owns (c : Thread nD τ) (ms4_7 t) fullShare ((dat4 V c).after 7 t) from by
        unfold Dat.leavesExact; rw [liveAt4_7 t], after4_7]
      rw [Dat.leavesExact_idle (dat4 V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold sout4_B_0 sout4_B_1; (try dsimp only)
      have hz : t.val ≠ 0 := by omega
      rw [PhiS4_castSucc V c t, PhiS4_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) (iblk4 V c 7 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, ⟨%es0, HS0⟩, ⟨%es1, HS1⟩⟩
      isplitl [HS0 HS1 HR Hg]
      · isplitr [Hg]
        · isplitl [HS0]
          · unfold owns; iexists _; isplitr
            swap; · iexact HS0
            ipureintro; exact View.read_writes_of_cover _ _ _ _ _ (scover4_B_0 c _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the carried scratches' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HS1, HR⟩, Hg⟩
  isplitr [Hg]
  · isplitl [HS0]; · iexists _; iexact HS0
    isplitl [HS1]; · iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

/-! ## What each case leaves, as terms of the point's input blocks and of what the point before left -/

/-- The zero offsets, however spelt. -/
theorem hz4 : (![0, 0] : Fin 2 → Nat) = fun _ => 0 := funext fun a => by fin_cases a <;> rfl

/-- The first point leaves in the pooled sums its block's contribution added onto the zeros it has just stored there. -/
theorem sout4_A_0_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) :
    sout4_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k4_pay1 (k4_pay8 x0 x1 x2 x3 x4 x5 k4_pay4) := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun4_A
  dsimp only
  sl_unfold_words
  rw [View.canon_cons_unit_zero (S := S128x64) hz4, View.readCov_unit_zero (S := S128x64) _ hz4]
  simp only [View.readAt_eq_ld, harg1.read_unread, harg2.read_unread, harg3.read_unread, harg4.read_unread, harg5.read_unread, harg6.read_unread, View.ld_unit_zero (S := S5000x64) hz4, View.ld_unit_zero (S := S5000x1) hz4, View.ld_unit_zero (S := S1x64) hz4]

/-- The first point leaves in the counts its block's counts added onto the zeros it has just stored there. -/
theorem sout4_A_1_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) :
    sout4_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k4_pay2 (k4_pay7 x5) k4_pay5 := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun4_A
  dsimp only
  sl_unfold_words
  rw [View.canon_cons_unit_zero (S := S128x1) hz4, View.readCov_unit_zero (S := S128x1) _ hz4]
  simp only [View.readAt_eq_ld, harg6.read_unread, View.ld_unit_zero (S := S5000x1) hz4]

/-- A middle point leaves in the pooled sums its block's contribution added onto what the point before left. -/
theorem sout4_B_0_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay1 (k4_pay8 x0 x1 x2 x3 x4 x5 xs0) := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_B
  dsimp only
  sl_unfold_words
  rw [View.canon_unit_zero (S := S128x64) hz4]
  simp only [View.readAt_eq_ld, harg1.read_unread, harg2.read_unread, harg3.read_unread, harg4.read_unread, harg5.read_unread, harg6.read_unread, harg10.read_unread, View.ld_unit_zero (S := S5000x64) hz4, View.ld_unit_zero (S := S5000x1) hz4, View.ld_unit_zero (S := S1x64) hz4, View.ld_unit_zero (S := S128x64) hz4]

/-- A middle point leaves in the counts its block's counts added onto what the point before left. -/
theorem sout4_B_1_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : ¬cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay2 (k4_pay7 x5) xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_B
  dsimp only
  sl_unfold_words
  rw [View.canon_unit_zero (S := S128x1) hz4]
  simp only [View.readAt_eq_ld, harg6.read_unread, harg11.read_unread, View.ld_unit_zero (S := S5000x1) hz4, View.ld_unit_zero (S := S128x1) hz4]

/-- The last point leaves in the pooled sums its block's contribution added onto what the point before left. -/
theorem sout4_C_0_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay1 (k4_pay8 x0 x1 x2 x3 x4 x5 xs0) := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_C
  dsimp only
  sl_unfold_words
  rw [View.canon_unit_zero (S := S128x64) hz4]
  simp only [View.readAt_eq_ld, harg1.read_unread, harg2.read_unread, harg3.read_unread, harg4.read_unread, harg5.read_unread, harg6.read_unread, harg10.read_unread, View.ld_unit_zero (S := S5000x64) hz4, View.ld_unit_zero (S := S5000x1) hz4, View.ld_unit_zero (S := S1x64) hz4, View.ld_unit_zero (S := S128x64) hz4]

/-- The last point leaves in the counts its block's counts added onto what the point before left. -/
theorem sout4_C_1_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    sout4_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay2 (k4_pay7 x5) xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_C
  dsimp only
  sl_unfold_words
  rw [View.canon_unit_zero (S := S128x1) hz4]
  simp only [View.readAt_eq_ld, harg6.read_unread, harg11.read_unread, View.ld_unit_zero (S := S5000x1) hz4, View.ld_unit_zero (S := S128x1) hz4]

/-- What the last point stores into the output: the mean pool and the linear layer of the two scratches as it has just left them. -/
theorem out4_C_8_eq (c : Dev nD) (i : grid4.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S64x32 .f32) (harg7 : arg7.IsWhole) (arg8 : Memref sig .tc .vmem S1x32 .f32) (harg8 : arg8.IsWhole) (arg9 : Memref sig .tc .vmem S128x32 .f32) (harg9 : arg9.IsWhole) (arg10 : Memref sig .tc .vmem S128x64 .f32) (harg10 : arg10.IsWhole) (arg11 : Memref sig .tc .vmem S128x1 .f32) (harg11 : arg11.IsWhole) (hc0 : ¬cond4_0 i) (hc1 : cond4_1 i)
    (x0 : Vec F S5000x64 .f32) (x1 : Vec F S5000x1 .f32) (x2 : Vec F S1x64 .f32) (x3 : Vec F S1x64 .f32) (x4 : Vec F S1x64 .f32) (x5 : Vec F S5000x1 .i32) (x6 : Vec F S64x32 .f32) (x7 : Vec F S1x32 .f32) (xs0 : Vec F S128x64 .f32) (xs1 : Vec F S128x1 .f32) :
    out4_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 = k4_pay3 (k4_pay2 (k4_pay7 x5) xs1) (k4_pay1 (k4_pay8 x0 x1 x2 x3 x4 x5 xs0)) x6 x7 := by
  unfold out4_C_8
  rw [View.read_writes_eq_canon _ _ _ (cover4_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1)]
  unfold kernelRun4_C
  dsimp only
  sl_unfold_words
  rw [View.canon_unit_zero (S := S128x32) hz4]
  simp only [View.readAt_eq_ld, harg1.read_unread, harg2.read_unread, harg3.read_unread, harg4.read_unread, harg5.read_unread, harg6.read_unread, harg7.read_unread, harg8.read_unread, harg10.read_unread, harg11.read_unread, View.ld_unit_zero (S := S5000x64) hz4, View.ld_unit_zero (S := S5000x1) hz4, View.ld_unit_zero (S := S1x64) hz4, View.ld_unit_zero (S := S128x64) hz4, View.ld_unit_zero (S := S128x1) hz4, View.ld_unit_zero (S := S64x32) hz4, View.ld_unit_zero (S := S1x32) hz4, View.readCov_unit_zero (S := S128x64) _ hz4, View.readCov_unit_zero (S := S128x1) _ hz4]

end Cert.Kernel.Hand

end
-- ==== Proof.KB.Run.lean ====
import proofs.«411316_j29850022707326_3_alg».proof.Proof.KB.R0
import proofs.«411316_j29850022707326_3_alg».proof.Proof.KB.R1
import proofs.«411316_j29850022707326_3_alg».proof.Proof.KB.R2
import proofs.«411316_j29850022707326_3_alg».proof.Proof.KB.R3
import proofs.«411316_j29850022707326_3_alg».proof.Proof.KB.R4
import proofs.«411316_j29850022707326_3_alg».proof.Proof.Gen.Kernel.Regions

set_option maxRecDepth 16384

/-! # The launch of the five regions

@main is twelve items: three stretches of host operations (degrees and their inverse square roots, the mask of isolated
nodes, the reshape to a column), then five kernel regions with a stretch of host operations before each of the last
four (gather and scatter-add over the edges; the batch statistics turned into a scale and a shift). The buffer contents
at each boundary are a fold from the launch memory: a stretch applies its operations, a region leaves its windows'
arrays at what its write-backs fold to and every other buffer as it found it. The run ends with every unscoped buffer
at the last of these valuations, which is where both the frame (no argument is ever written) and the value of the
result are read. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations, -/
abbrev W1 : Dev nD → Valuation τ sig (Elt F) := fun c => StableHlo.after hostOps0 (W0 m ρ c)
/-- after the selection that masks isolated nodes, -/
abbrev W2 : Dev nD → Valuation τ sig (Elt F) := fun c => StableHlo.after hostOps0_1 (W1 m ρ c)
/-- and after the reshape to a column: region 0's entry. -/
abbrev W3 : Dev nD → Valuation τ sig (Elt F) := fun c => StableHlo.after hostOps0_2 (W2 m ρ c)
/-- The same read at the TensorCore's references: what region 0's proof data take. -/
abbrev B3 : (c : Dev nD) → (b : Ref sig .tc) → Buf (Elt F) ((c : Thread nD τ).loc b) := fun c b => W3 m ρ c b
/-- At region 0's exit: its windows' arrays at what the pipeline leaves (an input as entered, an output its write-backs
    folded), every other buffer as entered. -/
def W4 (c : Dev nD) : Valuation τ sig (Elt F) :=
  Pipeline.withArrays spec0 c (W3 m ρ c) fun w => (dat0 (B3 m ρ) c).arrAt w cfg0.N
theorem W4_arr (c : Dev nD) (w : Fin cfg0.W) :
    W4 m ρ c (Proc.devRef .tc (Pipeline.arrRef spec0 w)) = (dat0 (B3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev B4 : (c : Dev nD) → (b : Ref sig .tc) → Buf (Elt F) ((c : Thread nD τ).loc b) := fun c b => W4 m ρ c b
theorem hF0 (c : Dev nD) (w : Fin cfg0.W) : (dat0 (B3 m ρ) c).arrAt w cfg0.N = B4 m ρ c (Pipeline.arrRef spec0 w) :=
  (W4_arr m ρ c w).symm
theorem hrest0 (c : Dev nD) : ∀ b, b ∉ Finset.univ.image (Pipeline.arrRef spec0) → B4 m ρ c b = B3 m ρ c b :=
  fun b hb => W4_of_ne m ρ c b fun w e => hb (Finset.mem_image.mpr ⟨w, Finset.mem_univ _, e⟩)
/-- A buffer that is not an output array of region 0 is the same after the region: an input window's array is handed back as it
    was found, and a buffer no window stages is not touched. -/
theorem W4_keep (c : Dev nD) (b : Ref sig .tc) (hb : ∀ w : Fin cfg0.W, (cfg0.win w).isOut = true → Pipeline.arrRef spec0 w ≠ b) :
    W4 m ρ c (Proc.devRef .tc b) = W3 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (W4_arr m ρ c w).trans (((dat0 (B3 m ρ) c).arrAt_in w hin _).trans (A_eq0 (B3 m ρ) c w))
  · exact W4_of_ne m ρ c b fun w e => h ⟨w, e⟩
/-- After the host operations between regions 0 and 1: region 1's entry. -/
abbrev W5 : Dev nD → Valuation τ sig (Elt F) := fun c => StableHlo.after hostOps1 (W4 m ρ c)
/-- The same read at the TensorCore's references: what region 1's proof data take. -/
abbrev B5 : (c : Dev nD) → (b : Ref sig .tc) → Buf (Elt F) ((c : Thread nD τ).loc b) := fun c b => W5 m ρ c b
/-- At region 1's exit: its windows' arrays at what the pipeline leaves (an input as entered, an output its write-backs
    folded), every other buffer as entered. -/
def W6 (c : Dev nD) : Valuation τ sig (Elt F) :=
  Pipeline.withArrays spec1 c (W5 m ρ c) fun w => (dat1 (B5 m ρ) c).arrAt w cfg1.N
theorem W6_arr (c : Dev nD) (w : Fin cfg1.W) :
    W6 m ρ c (Proc.devRef .tc (Pipeline.arrRef spec1 w)) = (dat1 (B5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev B6 : (c : Dev nD) → (b : Ref sig .tc) → Buf (Elt F) ((c : Thread nD τ).loc b) := fun c b => W6 m ρ c b
theorem hF1 (c : Dev nD) (w : Fin cfg1.W) : (dat1 (B5 m ρ) c).arrAt w cfg1.N = B6 m ρ c (Pipeline.arrRef spec1 w) :=
  (W6_arr m ρ c w).symm
theorem hrest1 (c : Dev nD) : ∀ b, b ∉ Finset.univ.image (Pipeline.arrRef spec1) → B6 m ρ c b = B5 m ρ c b :=
  fun b hb => W6_of_ne m ρ c b fun w e => hb (Finset.mem_image.mpr ⟨w, Finset.mem_univ _, e⟩)
/-- A buffer that is not an output array of region 1 is the same after the region: an input window's array is handed back as it
    was found, and a buffer no window stages is not touched. -/
theorem W6_keep (c : Dev nD) (b : Ref sig .tc) (hb : ∀ w : Fin cfg1.W, (cfg1.win w).isOut = true → Pipeline.arrRef spec1 w ≠ b) :
    W6 m ρ c (Proc.devRef .tc b) = W5 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (W6_arr m ρ c w).trans (((dat1 (B5 m ρ) c).arrAt_in w hin _).trans (A_eq1 (B5 m ρ) c w))
  · exact W6_of_ne m ρ c b fun w e => h ⟨w, e⟩
/-- After the host operations between regions 1 and 2: region 2's entry. -/
abbrev W7 : Dev nD → Valuation τ sig (Elt F) := fun c => StableHlo.after hostOps2 (W6 m ρ c)
/-- The same read at the TensorCore's references: what region 2's proof data take. -/
abbrev B7 : (c : Dev nD) → (b : Ref sig .tc) → Buf (Elt F) ((c : Thread nD τ).loc b) := fun c b => W7 m ρ c b
/-- At region 2's exit: its windows' arrays at what the pipeline leaves (an input as entered, an output its write-backs
    folded), every other buffer as entered. -/
def W8 (c : Dev nD) : Valuation τ sig (Elt F) :=
  Pipeline.withArrays spec2 c (W7 m ρ c) fun w => (dat2 (B7 m ρ) c).arrAt w cfg2.N
theorem W8_arr (c : Dev nD) (w : Fin cfg2.W) :
    W8 m ρ c (Proc.devRef .tc (Pipeline.arrRef spec2 w)) = (dat2 (B7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev B8 : (c : Dev nD) → (b : Ref sig .tc) → Buf (Elt F) ((c : Thread nD τ).loc b) := fun c b => W8 m ρ c b
theorem hF2 (c : Dev nD) (w : Fin cfg2.W) : (dat2 (B7 m ρ) c).arrAt w cfg2.N = B8 m ρ c (Pipeline.arrRef spec2 w) :=
  (W8_arr m ρ c w).symm
theorem hrest2 (c : Dev nD) : ∀ b, b ∉ Finset.univ.image (Pipeline.arrRef spec2) → B8 m ρ c b = B7 m ρ c b :=
  fun b hb => W8_of_ne m ρ c b fun w e => hb (Finset.mem_image.mpr ⟨w, Finset.mem_univ _, e⟩)
/-- A buffer that is not an output array of region 2 is the same after the region: an input window's array is handed back as it
    was found, and a buffer no window stages is not touched. -/
theorem W8_keep (c : Dev nD) (b : Ref sig .tc) (hb : ∀ w : Fin cfg2.W, (cfg2.win w).isOut = true → Pipeline.arrRef spec2 w ≠ b) :
    W8 m ρ c (Proc.devRef .tc b) = W7 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (W8_arr m ρ c w).trans (((dat2 (B7 m ρ) c).arrAt_in w hin _).trans (A_eq2 (B7 m ρ) c w))
  · exact W8_of_ne m ρ c b fun w e => h ⟨w, e⟩
/-- After the host operations between regions 2 and 3: region 3's entry. -/
abbrev W9 : Dev nD → Valuation τ sig (Elt F) := fun c => StableHlo.after hostOps3 (W8 m ρ c)
/-- The same read at the TensorCore's references: what region 3's proof data take. -/
abbrev B9 : (c : Dev nD) → (b : Ref sig .tc) → Buf (Elt F) ((c : Thread nD τ).loc b) := fun c b => W9 m ρ c b
/-- At region 3's exit: its windows' arrays at what the pipeline leaves (an input as entered, an output its write-backs
    folded), every other buffer as entered. -/
def W10 (c : Dev nD) : Valuation τ sig (Elt F) :=
  Pipeline.withArrays spec3 c (W9 m ρ c) fun w => (dat3 (B9 m ρ) c).arrAt w cfg3.N
theorem W10_arr (c : Dev nD) (w : Fin cfg3.W) :
    W10 m ρ c (Proc.devRef .tc (Pipeline.arrRef spec3 w)) = (dat3 (B9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev B10 : (c : Dev nD) → (b : Ref sig .tc) → Buf (Elt F) ((c : Thread nD τ).loc b) := fun c b => W10 m ρ c b
theorem hF3 (c : Dev nD) (w : Fin cfg3.W) : (dat3 (B9 m ρ) c).arrAt w cfg3.N = B10 m ρ c (Pipeline.arrRef spec3 w) :=
  (W10_arr m ρ c w).symm
theorem hrest3 (c : Dev nD) : ∀ b, b ∉ Finset.univ.image (Pipeline.arrRef spec3) → B10 m ρ c b = B9 m ρ c b :=
  fun b hb => W10_of_ne m ρ c b fun w e => hb (Finset.mem_image.mpr ⟨w, Finset.mem_univ _, e⟩)
/-- A buffer that is not an output array of region 3 is the same after the region: an input window's array is handed back as it
    was found, and a buffer no window stages is not touched. -/
theorem W10_keep (c : Dev nD) (b : Ref sig .tc) (hb : ∀ w : Fin cfg3.W, (cfg3.win w).isOut = true → Pipeline.arrRef spec3 w ≠ b) :
    W10 m ρ c (Proc.devRef .tc b) = W9 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (W10_arr m ρ c w).trans (((dat3 (B9 m ρ) c).arrAt_in w hin _).trans (A_eq3 (B9 m ρ) c w))
  · exact W10_of_ne m ρ c b fun w e => h ⟨w, e⟩
/-- After the host operations between regions 3 and 4: region 4's entry. -/
abbrev W11 : Dev nD → Valuation τ sig (Elt F) := fun c => StableHlo.after hostOps4 (W10 m ρ c)
/-- The same read at the TensorCore's references: what region 4's proof data take. -/
abbrev B11 : (c : Dev nD) → (b : Ref sig .tc) → Buf (Elt F) ((c : Thread nD τ).loc b) := fun c b => W11 m ρ c b
/-- At region 4's exit: its windows' arrays at what the pipeline leaves (an input as entered, an output its write-backs
    folded), every other buffer as entered. -/
def W12 (c : Dev nD) : Valuation τ sig (Elt F) :=
  Pipeline.withArrays spec4 c (W11 m ρ c) fun w => (dat4 (B11 m ρ) c).arrAt w cfg4.N
theorem W12_arr (c : Dev nD) (w : Fin cfg4.W) :
    W12 m ρ c (Proc.devRef .tc (Pipeline.arrRef spec4 w)) = (dat4 (B11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev B12 : (c : Dev nD) → (b : Ref sig .tc) → Buf (Elt F) ((c : Thread nD τ).loc b) := fun c b => W12 m ρ c b
theorem hF4 (c : Dev nD) (w : Fin cfg4.W) : (dat4 (B11 m ρ) c).arrAt w cfg4.N = B12 m ρ c (Pipeline.arrRef spec4 w) :=
  (W12_arr m ρ c w).symm
theorem hrest4 (c : Dev nD) : ∀ b, b ∉ Finset.univ.image (Pipeline.arrRef spec4) → B12 m ρ c b = B11 m ρ c b :=
  fun b hb => W12_of_ne m ρ c b fun w e => hb (Finset.mem_image.mpr ⟨w, Finset.mem_univ _, e⟩)
/-- A buffer that is not an output array of region 4 is the same after the region: an input window's array is handed back as it
    was found, and a buffer no window stages is not touched. -/
theorem W12_keep (c : Dev nD) (b : Ref sig .tc) (hb : ∀ w : Fin cfg4.W, (cfg4.win w).isOut = true → Pipeline.arrRef spec4 w ≠ b) :
    W12 m ρ c (Proc.devRef .tc b) = W11 m ρ c (Proc.devRef .tc b) := by
  by_cases h : ∃ w, Pipeline.arrRef spec4 w = b
  · obtain ⟨w, rfl⟩ := h
    have hin : (cfg4.win w).isOut = false := by
      cases hw : (cfg4.win w).isOut with
      | false => rfl
      | true => exact absurd rfl (hb w hw)
    exact (W12_arr m ρ c w).trans (((dat4 (B11 m ρ) c).arrAt_in w hin _).trans (A_eq4 (B11 m ρ) c w))
  · exact W12_of_ne m ρ c b fun w e => h ⟨w, e⟩

/-! ## The proof data family and the thread state -/

/-- No pipeline has a prefetched table. -/
abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (B3 m ρ) c
  | ⟨1, _⟩ => fun c => dat1 (B5 m ρ) c
  | ⟨2, _⟩ => fun c => dat2 (B7 m ρ) c
  | ⟨3, _⟩ => fun c => dat3 (B9 m ρ) c
  | ⟨4, _⟩ => fun c => dat4 (B11 m ρ) c
abbrev VarH : Variants := Variants.none
/-- No core owes another anything: no level is assigned. -/
abbrev LH : GSem nD τ sig → Finset Unit := fun _ => ∅
abbrev lvH : GSem nD τ sig → Unit → ℕ := fun _ _ => 0
/-- What rides beside the buffers through every item: the generator register at some state, and the core owing nothing. -/
abbrev Rst (c : Dev nD) : sProp 𝕄 := iprop((∃ r, prngReg c r) ∗ ∃ W, owes (c : Thread nD τ) (0 : CellTallies nD τ sig Unit) W)
/-- A stretch of host operations as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ VarH LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tend (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered with every unscoped buffer at `W3`, left with them at `W4`. Its windows' arrays
    are split out of the unscoped buffers at entry and put back, at what the write-backs leave, at exit; the generator
    register goes into the region's invariant and comes back; the core owes nothing; the kernel has no semaphore of its own. -/
def reg0 : Pipeline.RegionSeg (pcfgs (F := F)) admH (pdatsH m ρ) () defs₀ VarH LH lvH 0 where
  win := launch0.win.to₀
  block_pos := launch0.block_pos
  stage_whole := launch0.stage_whole
  K := PEmpty
  osem k := k.elim
  ho := Pipeline.OwnSemFacts.none _
  hbody c := (body_obligation0 (B3 m ρ) c).loose
  hwaits := Pipeline.hwaits_of_owed_zero _ _ _ _ LH lvH 0 fun _ _ => rfl
  pre c := iprop(StableHlo.held (c : Thread nD τ) (Pipeline.ucRefs τ sig) (W3 m ρ c) ∗ Rst c)
  post c := iprop(StableHlo.held (c : Thread nD τ) (Pipeline.ucRefs τ sig) (W4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (B3 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (B3 m ρ c) (B4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its windows' arrays
    are split out of the unscoped buffers at entry and put back, at what the write-backs leave, at exit; the generator
    register goes into the region's invariant and comes back; the core owes nothing; the kernel has no semaphore of its own. -/
def reg1 : Pipeline.RegionSeg (pcfgs (F := F)) admH (pdatsH m ρ) () defs₀ VarH LH lvH 1 where
  win := launch1.win.to₀
  block_pos := launch1.block_pos
  stage_whole := launch1.stage_whole
  K := PEmpty
  osem k := k.elim
  ho := Pipeline.OwnSemFacts.none _
  hbody c := (body_obligation1 (B5 m ρ) c).loose
  hwaits := Pipeline.hwaits_of_owed_zero _ _ _ _ LH lvH 1 fun _ _ => rfl
  pre c := iprop(StableHlo.held (c : Thread nD τ) (Pipeline.ucRefs τ sig) (W5 m ρ c) ∗ Rst c)
  post c := iprop(StableHlo.held (c : Thread nD τ) (Pipeline.ucRefs τ sig) (W6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (B5 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (B5 m ρ c) (B6 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its windows' arrays
    are split out of the unscoped buffers at entry and put back, at what the write-backs leave, at exit; the generator
    register goes into the region's invariant and comes back; the core owes nothing; the kernel has no semaphore of its own. -/
def reg2 : Pipeline.RegionSeg (pcfgs (F := F)) admH (pdatsH m ρ) () defs₀ VarH LH lvH 2 where
  win := launch2.win.to₀
  block_pos := launch2.block_pos
  stage_whole := launch2.stage_whole
  K := PEmpty
  osem k := k.elim
  ho := Pipeline.OwnSemFacts.none _
  hbody c := (body_obligation2 (B7 m ρ) c).loose
  hwaits := Pipeline.hwaits_of_owed_zero _ _ _ _ LH lvH 2 fun _ _ => rfl
  pre c := iprop(StableHlo.held (c : Thread nD τ) (Pipeline.ucRefs τ sig) (W7 m ρ c) ∗ Rst c)
  post c := iprop(StableHlo.held (c : Thread nD τ) (Pipeline.ucRefs τ sig) (W8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (B7 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (B7 m ρ c) (B8 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its windows' arrays
    are split out of the unscoped buffers at entry and put back, at what the write-backs leave, at exit; the generator
    register goes into the region's invariant and comes back; the core owes nothing; the kernel has no semaphore of its own. -/
def reg3 : Pipeline.RegionSeg (pcfgs (F := F)) admH (pdatsH m ρ) () defs₀ VarH LH lvH 3 where
  win := launch3.win.to₀
  block_pos := launch3.block_pos
  stage_whole := launch3.stage_whole
  K := PEmpty
  osem k := k.elim
  ho := Pipeline.OwnSemFacts.none _
  hbody c := (body_obligation3 (B9 m ρ) c).loose
  hwaits := Pipeline.hwaits_of_owed_zero _ _ _ _ LH lvH 3 fun _ _ => rfl
  pre c := iprop(StableHlo.held (c : Thread nD τ) (Pipeline.ucRefs τ sig) (W9 m ρ c) ∗ Rst c)
  post c := iprop(StableHlo.held (c : Thread nD τ) (Pipeline.ucRefs τ sig) (W10 m ρ c) ∗ Rst c)
  X c := iprop(∃ r, prngReg c r)
  Y c := iprop(∃ r, prngReg c r)
  Z c := Pipeline.unscopedRest (Ix := Unit) (Name := ℕ) (U := UR sig nD τ) (Lvl := ℕ) spec3 c (B9 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (B9 m ρ c) (B10 m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W11`, left with them at `W12`. Its windows' arrays
    are split out of the unscoped buffers at entry and put back, at what the write-backs leave, at exit; the generator
    register goes into the region's invariant and comes back; the core owes nothing; the kernel has no semaphore of its own. -/
def reg4 : Pipeline.RegionSeg (pcfgs (F := F)) admH (pdatsH m ρ) () defs₀ VarH LH lvH 4 where
  win := launch4.win.to₀
  block_pos := launch4.block_pos
  stage_whole := launch4.stage_whole
  K := PEmpty
  osem k := k.elim
  ho := Pipeline.OwnSemFacts.none _
  hbody c := (body_obligation4 (B11 m ρ) c).loose
  hwaits := Pipeline.hwaits_of_owed_zero _ _ _ _ LH lvH 4 fun _ _ => rfl
  pre c := iprop(StableHlo.held (c : Thread nD τ) (Pipeline.ucRefs τ sig) (W11 m ρ c) ∗ Rst c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (B11 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 4).pre c (fun _ => fullShare) (admH 4).1 ∗ Pipeline.scopedRest (Ix := Unit) (Name := ℕ) (U := UR sig nD τ) (Lvl := ℕ) (Val := Elt F) spec4 c) ⊢ (Pipeline.ΦA spec4 c : sProp 𝕄) from ?_).trans (hin4 (B11 m ρ) c)
    unfold Pipeline.ΦA
    iintro ⟨Hp, -, Hr⟩
    isplitl [Hr]; · iexact Hr
    iexact Hp
  hout c := by
    rw [Pipeline.ownSems0_none]
    refine (hout4 (B11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (B11 m ρ c) (B12 m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ VarH LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0 m ρ),
    .host (hsegH hostOps1 hostOps1_sub hostOps1_fresh (W4 m ρ)),
    .region (reg1 m ρ),
    .host (hsegH hostOps2 hostOps2_sub hostOps2_fresh (W6 m ρ)),
    .region (reg2 m ρ),
    .host (hsegH hostOps3 hostOps3_sub hostOps3_fresh (W8 m ρ)),
    .region (reg3 m ρ),
    .host (hsegH hostOps4 hostOps4_sub hostOps4_fresh (W10 m ρ)),
    .region (reg4 m ρ) ]

set_option backward.isDefEq.respectTransparency.types false in
/-- THE RUN. From any memory with zero counters, every weakly fair execution of @main terminates without a fault, and in the
    final memory every unscoped buffer of every core holds the last boundary's contents `W12`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) admH (pdatsH m ρ) () cellOf_inj emb₁ defs₀ VarH LH lvH m ρ main (segsH m ρ)
    (fun c Q => by
      rewrite [main_chain c, Pipeline.Seg.run_eq_chain,
        show (segsH m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rst c)) (Tₙ := Tend m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.KB.FrameOf.lean ====
import proofs.«411316_j29850022707326_3_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The frame and the result, read off the run

The run ends with every unscoped buffer at the last boundary's contents. An argument array is written by no stretch of
host operations and is an output array of no region, so step by step down the boundaries its contents are the launch
memory's; the result array is region 4's last window, so its contents are what that region's write-backs fold to. -/

/-- A buffer that no stretch of host operations writes and that is an output array of no region holds at the last
    boundary what the launch memory holds: twelve steps, a region's by its keeping every buffer that is not one of its
    output arrays, a host stretch's by the list of references it writes. -/
theorem W12_keep_arg (c : Dev nD) (b : Ref sig .tc)
    (h0 : b ∉ hostOps0_W) (h1 : b ∉ hostOps0_1_W) (h2 : b ∉ hostOps0_2_W) (h3 : b ∉ hostOps1_W)
    (h4 : b ∉ hostOps2_W) (h5 : b ∉ hostOps3_W) (h6 : b ∉ hostOps4_W)
    (k0 : ∀ w : Fin cfg0.W, (cfg0.win w).isOut = true → Pipeline.arrRef spec0 w ≠ b)
    (k1 : ∀ w : Fin cfg1.W, (cfg1.win w).isOut = true → Pipeline.arrRef spec1 w ≠ b)
    (k2 : ∀ w : Fin cfg2.W, (cfg2.win w).isOut = true → Pipeline.arrRef spec2 w ≠ b)
    (k3 : ∀ w : Fin cfg3.W, (cfg3.win w).isOut = true → Pipeline.arrRef spec3 w ≠ b)
    (k4 : ∀ w : Fin cfg4.W, (cfg4.win w).isOut = true → Pipeline.arrRef spec4 w ≠ b) :
    W12 m ρ c (Proc.devRef .tc b) = m ((c : Thread nD τ).loc b) :=
  (W12_keep m ρ c b k4).trans <|
  (StableHlo.after_of_writes_sub hostOps4 (W10 m ρ c) hostOps4_writes h6).trans <|
  (W10_keep m ρ c b k3).trans <|
  (StableHlo.after_of_writes_sub hostOps3 (W8 m ρ c) hostOps3_writes h5).trans <|
  (W8_keep m ρ c b k2).trans <|
  (StableHlo.after_of_writes_sub hostOps2 (W6 m ρ c) hostOps2_writes h4).trans <|
  (W6_keep m ρ c b k1).trans <|
  (StableHlo.after_of_writes_sub hostOps1 (W4 m ρ c) hostOps1_writes h3).trans <|
  (W4_keep m ρ c b k0).trans <|
  (StableHlo.after_of_writes_sub hostOps0_2 (W2 m ρ c) hostOps0_2_writes h2).trans <|
  (StableHlo.after_of_writes_sub hostOps0_1 (W1 m ρ c) hostOps0_1_writes h1).trans <|
  (StableHlo.after_of_writes_sub hostOps0 (W0 m ρ c) hostOps0_writes h0).trans rfl

/-- THE FRAME. From any memory with zero counters, every weakly fair execution of @main terminates without a fault, and
    every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucH main_arg0 (by decide))).trans (W12_keep_arg m ρ c main_arg0 (by decide) (by decide) (by decide) (by decide) (by decide) (by decide) (by decide) (by decide) (by decide) (by decide) (by decide) (by decide)),
     (h c _ (mem_ucH main_arg1 (by decide))).trans (W12_keep_arg m ρ c main_arg1 (by decide) (by decide) (by decide) (by decide) (by decide) (by decide) (by decide) (by decide) (by decide) (by decide) (by decide) (by decide)),
     (h c _ (mem_ucH main_arg2 (by decide))).trans (W12_keep_arg m ρ c main_arg2 (by decide) (by decide) (by decide) (by decide) (by decide) (by decide) (by decide) (by decide) (by decide) (by decide) (by decide) (by decide)),
     (h c _ (mem_ucH main_arg3 (by decide))).trans (W12_keep_arg m ρ c main_arg3 (by decide) (by decide) (by decide) (by decide) (by decide) (by decide) (by decide) (by decide) (by decide) (by decide) (by decide) (by decide)),
     (h c _ (mem_ucH main_arg4 (by decide))).trans (W12_keep_arg m ρ c main_arg4 (by decide) (by decide) (by decide) (by decide) (by decide) (by decide) (by decide) (by decide) (by decide) (by decide) (by decide) (by decide)),
     (h c _ (mem_ucH main_arg5 (by decide))).trans (W12_keep_arg m ρ c main_arg5 (by decide) (by decide) (by decide) (by decide) (by decide) (by decide) (by decide) (by decide) (by decide) (by decide) (by decide) (by decide)),
     (h c _ (mem_ucH main_arg6 (by decide))).trans (W12_keep_arg m ρ c main_arg6 (by decide) (by decide) (by decide) (by decide) (by decide) (by decide) (by decide) (by decide) (by decide) (by decide) (by decide) (by decide)),
     (h c _ (mem_ucH main_arg7 (by decide))).trans (W12_keep_arg m ρ c main_arg7 (by decide) (by decide) (by decide) (by decide) (by decide) (by decide) (by decide) (by decide) (by decide) (by decide) (by decide) (by decide)),
     (h c _ (mem_ucH main_arg8 (by decide))).trans (W12_keep_arg m ρ c main_arg8 (by decide) (by decide) (by decide) (by decide) (by decide) (by decide) (by decide) (by decide) (by decide) (by decide) (by decide) (by decide)),
     (h c _ (mem_ucH main_arg9 (by decide))).trans (W12_keep_arg m ρ c main_arg9 (by decide) (by decide) (by decide) (by decide) (by decide) (by decide) (by decide) (by decide) (by decide) (by decide) (by decide) (by decide)),
     (h c _ (mem_ucH main_arg10 (by decide))).trans (W12_keep_arg m ρ c main_arg10 (by decide) (by decide) (by decide) (by decide) (by decide) (by decide) (by decide) (by decide) (by decide) (by decide) (by decide) (by decide))⟩) (run m ρ)

/-- The result array at the last boundary: region 4's last window's array after all its write-backs. -/
theorem W12_result (c : Dev nD) : W12 m ρ c (Proc.devRef .tc main_v76) = (dat4 (B11 m ρ) c).arrAt 8 cfg4.N :=
  W12_arr m ρ c 8

end Cert.Kernel.Hand

end
-- ==== Proof.Spec.lean ====
import Idealize.ShloMosaic.PureOps.Ideal

/-! # Two layers of graph convolution, batch normalisation, mean pooling and a linear map, two ways

Everything here is plain mathematics over the extended reals with indices in `Fin`: no program is mentioned.

A graph is given by its edge list after self loops are added: edge `e` reads node `g e` and lands on every node `n`
with `e ∈ S n` (an edge whose target is out of range lands nowhere; `gd e` is the target as a gather reads it, which
on an edge that lands on `n` is `n`). `dis n` is the inverse square root of node `n`'s in-degree (zero for an
isolated node), a nonnegative real. A batch of graphs is given by `T q`, the nodes of graph `q`, and by `oh n q`,
which is one on those nodes and zero elsewhere.

* `ref…` is the textbook order: project, scale each message by `dis (source) * dis (target)`, sum the messages at
  the target, add the bias; normalise with the batch mean and the mean squared deviation; pool by summing over each
  graph's nodes and dividing by the node count (at least one); apply the linear map.
* `ker…` is the factored order: scale the projected row by `dis (source)` before the edge sum and by `dis (target)`
  after it; take the variance as the mean of squares minus the squared mean; fold the normalisation into one scale and
  one shift per column; pool by a product with the one-hot matrix.

`c` is the node count as the programs spell it, `ε` the variance offset, `one` the pooling floor and the unit the
reference counts with, `oneb` the unit the factored order counts with. Division and the inverse square root are the
extended reals' as the idealized programs read them (`Ideal.div`, `Ideal.rsqrt`). -/

noncomputable section

namespace Cert.Spec

open scoped BigOperators
open Idealize.ShloMosaic (Ideal)

variable {N E D H O Q : ℕ}

/-- The rectifier. -/
def relu (x : EReal) : EReal := max x 0

/-- A dense product: row `n` of `a` against column `j` of `w`. -/
def mm {A B C : ℕ} (a : Fin A → Fin B → EReal) (w : Fin B → Fin C → EReal) : Fin A → Fin C → EReal :=
  fun n j => ∑ k : Fin B, a n k * w k j

/-! ## The textbook order -/

/-- One convolution: messages `(a w)[g e] * (dis (g e) * dis (gd e))` summed over the edges landing on `n`, plus the bias. -/
def refConv (g gd : Fin E → Fin N) (S : Fin N → Finset (Fin E)) (dis : Fin N → EReal)
    (a : Fin N → Fin D → EReal) (w : Fin D → Fin H → EReal) (b : Fin H → EReal) : Fin N → Fin H → EReal :=
  fun n j => (0 + ∑ e ∈ S n, mm a w (g e) j * (dis (g e) * dis (gd e))) + b j

/-- The batch mean of each column. -/
def refMean (c : EReal) (a : Fin N → Fin H → EReal) : Fin H → EReal := fun j => Ideal.div (0 + ∑ n : Fin N, a n j) c

/-- The mean squared deviation of each column. -/
def refVar (c : EReal) (a : Fin N → Fin H → EReal) : Fin H → EReal :=
  fun j => Ideal.div (0 + ∑ n : Fin N, (a n j - refMean c a j) * (a n j - refMean c a j)) c

/-- Batch normalisation followed by the rectifier. -/
def refBn (c ε : EReal) (γ β : Fin H → EReal) (a : Fin N → Fin H → EReal) : Fin N → Fin H → EReal :=
  fun n j => relu (((a n j - refMean c a j) * Ideal.rsqrt (refVar c a j + ε)) * γ j + β j)

/-- Mean pooling over each graph's nodes, then the linear map. -/
def refHead (T : Fin Q → Finset (Fin N)) (one : EReal) (a : Fin N → Fin H → EReal) (lw : Fin H → Fin O → EReal)
    (lb : Fin O → EReal) : Fin Q → Fin O → EReal :=
  fun q o => (∑ h : Fin H, Ideal.div (0 + ∑ n ∈ T q, a n h) (max (0 + ∑ n ∈ T q, one) one) * lw h o) + lb o

/-- The whole textbook computation. -/
def refOut (g gd : Fin E → Fin N) (S : Fin N → Finset (Fin E)) (dis : Fin N → EReal) (T : Fin Q → Finset (Fin N))
    (c ε one : EReal)
    (x : Fin N → Fin D → EReal) (w1 : Fin D → Fin H → EReal) (b1 : Fin H → EReal) (w2 : Fin H → Fin H → EReal) (b2 : Fin H → EReal)
    (γ β : Fin H → EReal) (lw : Fin H → Fin O → EReal) (lb : Fin O → EReal) : Fin Q → Fin O → EReal :=
  refHead T one
    (refBn c ε γ β (refConv g gd S dis (refBn c ε γ β (refConv g gd S dis x w1 b1)) w2 b2)) lw lb

/-! ## The factored order -/

/-- The projected rows scaled by `dis` of their own node. -/
def kerPre (dis : Fin N → EReal) (a : Fin N → Fin D → EReal) (w : Fin D → Fin H → EReal) : Fin N → Fin H → EReal :=
  fun n j => mm a w n j * dis n

/-- The plain edge sum of pre-scaled rows. -/
def kerRaw (g : Fin E → Fin N) (S : Fin N → Finset (Fin E)) (p : Fin N → Fin H → EReal) : Fin N → Fin H → EReal :=
  fun n j => 0 + ∑ e ∈ S n, p (g e) j

/-- The edge sum scaled by `dis` of the target, plus the bias. -/
def kerAgg (dis : Fin N → EReal) (raw : Fin N → Fin H → EReal) (b : Fin H → EReal) : Fin N → Fin H → EReal :=
  fun n j => raw n j * dis n + b j

/-- Column sums and column sums of squares. -/
def kerSum (a : Fin N → Fin H → EReal) : Fin H → EReal := fun j => ∑ n : Fin N, a n j
def kerSq (a : Fin N → Fin H → EReal) : Fin H → EReal := fun j => ∑ n : Fin N, a n j * a n j

/-- The scale and the shift the statistics fold into. -/
def kerScale (c ε : EReal) (γ : Fin H → EReal) (s q : Fin H → EReal) : Fin H → EReal :=
  fun j => γ j * Ideal.rsqrt ((Ideal.div (q j) c - Ideal.div (s j) c * Ideal.div (s j) c) + ε)
def kerShift (c ε : EReal) (γ β : Fin H → EReal) (s q : Fin H → EReal) : Fin H → EReal :=
  fun j => β j - Ideal.div (s j) c * kerScale c ε γ s q j

/-- Normalisation as one scale and one shift, then the rectifier. -/
def kerBn (sc sh : Fin H → EReal) (a : Fin N → Fin H → EReal) : Fin N → Fin H → EReal :=
  fun n j => relu (a n j * sc j + sh j)

/-- One aggregated, normalised layer from the edge sum `raw`. -/
def kerLayer (dis : Fin N → EReal) (c ε : EReal) (γ β : Fin H → EReal)
    (raw : Fin N → Fin H → EReal) (b : Fin H → EReal) : Fin N → Fin H → EReal :=
  kerBn (kerScale c ε γ (kerSum (kerAgg dis raw b)) (kerSq (kerAgg dis raw b)))
    (kerShift c ε γ β (kerSum (kerAgg dis raw b)) (kerSq (kerAgg dis raw b))) (kerAgg dis raw b)

/-- Pooling by the one-hot product, the node count likewise, then the linear map. -/
def kerHead (oh : Fin N → Fin Q → EReal) (one oneb : EReal) (a : Fin N → Fin H → EReal) (lw : Fin H → Fin O → EReal)
    (lb : Fin O → EReal) : Fin Q → Fin O → EReal :=
  fun q o => (∑ h : Fin H, Ideal.div (∑ n : Fin N, oh n q * a n h) (max (∑ n : Fin N, oh n q * oneb) one) * lw h o) + lb o

/-- The whole factored computation. -/
def kerOut (g : Fin E → Fin N) (S : Fin N → Finset (Fin E)) (dis : Fin N → EReal) (oh : Fin N → Fin Q → EReal)
    (c ε one oneb : EReal)
    (x : Fin N → Fin D → EReal) (w1 : Fin D → Fin H → EReal) (b1 : Fin H → EReal) (w2 : Fin H → Fin H → EReal) (b2 : Fin H → EReal)
    (γ β : Fin H → EReal) (lw : Fin H → Fin O → EReal) (lb : Fin O → EReal) : Fin Q → Fin O → EReal :=
  kerHead oh one oneb
    (kerLayer dis c ε γ β (kerRaw g S (kerPre dis (kerLayer dis c ε γ β (kerRaw g S (kerPre dis x w1)) b1) w2)) b2) lw lb

end Cert.Spec

end
-- ==== Proof.KI.Val0.lean ====
import proofs.«411316_j29850022707326_3_alg».proof.Proof.KI.R0
import proofs.«411316_j29850022707326_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! # The first product's output array, entry by entry, at the ideal instance

The region multiplies the node features by the weights a row block at a time and scales each row by its own node's
factor. Read at an entry, the body's result on a block is the row of the features against the column of the weights,
times the row's factor; a block's rows are consecutive rows of the arrays; the output's blocks tile its array; so after
the region the output array holds, at every entry, the scaled projection of the arrays the region found. -/

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a row block with the weights, at an entry -/

/-- The product's operand indices, coordinate by coordinate: at output entry `i` and contraction position `q` the left
    operand is read at row `i 0` … -/
theorem lhs_mm0_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … column `q`; -/
theorem lhs_mm0_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- the right operand at row `q` … -/
theorem rhs_mm0_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- … column `i 1`. -/
theorem rhs_mm0_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The matrix unit's product into a zero accumulator, at entry `(p, q)`: row `p` of the left operand against column
    `q` of the right one, summed over the 128 contracted coordinates. -/
theorem mm0_apply (a : FVec Ideal S10000x128 .bf16) (w : FVec Ideal S128x64 .bf16) (p : Fin 10000) (q : Fin 64) :
    matmul dot_S10000x128_S128x64_S10000x64_1_0_0_1_n_n none a w (constant (F := Ideal) S10000x64 .f32 0x00000000#32) (ix2 p q)
      = ∑ k : Fin 128, a (ix2 p k) * w (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

/-- THE BODY'S RESULT AT AN ENTRY: the row block times the weights, each row then scaled by its node's factor. -/
theorem pay0_apply (x0 : Vec Ideal S10000x128 .f32) (x1 : Vec Ideal S128x64 .f32) (x2 : Vec Ideal S10000x1 .f32) (p : Fin 10000) (q : Fin 64) :
    (k0_pay1 x0 x1 x2 : FVec Ideal S10000x64 .bf16) (ix2 p q) = (∑ k : Fin 128, x0 (ix2 p k) * x1 (ix2 k q)) * x2 (ix2 p (0 : Fin 1)) := by
  unfold k0_pay1
  show matmul dot_S10000x128_S128x64_S10000x64_1_0_0_1_n_n none (truncf .bf16 x0 bitsLt_bf16_f32) (truncf .bf16 x1 bitsLt_bf16_f32) (constant (F := Ideal) S10000x64 .f32 0x00000000#32) (ix2 p q)
      * broadcastTo S10000x64 (shapeCast S10000x1 x2 shapeCasts_S10000x1_S10000x1) broadcasts_S10000x1_S10000x64 (ix2 p q) = _
  rw [mm0_apply, shapeCast_self, broadcastTo_a1_ab_apply]
  rfl

/-! ## From the blocks to the array -/

-- the TensorCore's buffer contents when the region is entered
variable (V : (c : Dev nD) → (b : Ref sig .tc) → Buf (Elt Ideal) ((c : Thread nD τ).loc b))

/-- The printed index maps, decided over the ten points: the node features, the node factors and the output move down
    their rows one block a point; the weights stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The node features' block at point `t` is rows `10000 t … 10000 t + 9999` of the array. -/
theorem iblk0_0_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → EReal) k := by
  obtain ⟨h0, h1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * (x 0).val = (k 0).val; rw [h0, hk0]; omega
  | ⟨1, _⟩ => show win0_0.index t (1 : Fin 2) * 128 + 1 * (x 1).val = (k 1).val; rw [h1, hk1]; omega

/-- The weights' block at every point is the whole array. -/
theorem iblk0_1_apply (c : Dev nD) (t : Fin cfg0.N) (x : S128x64.Idx) :
    (iblk0 V c 1 t : Vec Ideal S128x64 .f32) x = (V c main_arg3 : S128x64.Idx → EReal) x := by
  obtain ⟨-, -, h0, h1, -⟩ := idx_facts0 t
  unfold iblk0
  rw [View.read_apply]
  show V c main_arg3 _ = V c main_arg3 _
  congr 1
  funext a
  apply Fin.ext
  match a with
  | ⟨0, _⟩ => show win0_1.index t (0 : Fin 2) * 128 + 1 * (x 0).val = (x 0).val; rw [h0]; omega
  | ⟨1, _⟩ => show win0_1.index t (1 : Fin 2) * 64 + 1 * (x 1).val = (x 1).val; rw [h1]; omega

/-- The node factors' block at point `t` is rows `10000 t … 10000 t + 9999` of the column. -/
theorem iblk0_2_apply (c : Dev nD) (t : Fin cfg0.N) (x : S10000x1.Idx) (k : S100000x1.Idx)
    (hk0 : (k 0).val = 10000 * t.val + (x 0).val) (hk1 : (k 1).val = (x 1).val) :
    (iblk0 V c 2 t : Vec Ideal S10000x1 .f32) x = (V c main_v15 : S100000x1.Idx → EReal) k := by
  obtain ⟨-, -, -, -, h0, h1, -⟩ := idx_facts0 t
  unfold iblk0
  rw [View.read_apply]
  show V c main_v15 _ = V c main_v15 _
  congr 1
  funext a
  apply Fin.ext
  match a with
  | ⟨0, _⟩ => show win0_2.index t (0 : Fin 2) * 10000 + 1 * (x 0).val = (k 0).val; rw [h0, hk0]; omega
  | ⟨1, _⟩ => show win0_2.index t (1 : Fin 2) * 1 + 1 * (x 1).val = (k 1).val; rw [h1, hk1]; omega

/-- What the output array ends holding: the projected rows, each scaled by its own node's factor. -/
def G0 (c : Dev nD) : S100000x64.Idx → EReal := fun i =>
  Cert.Spec.kerPre (fun n : Fin 100000 => (V c main_v15 : S100000x1.Idx → EReal) (ix2 n (0 : Fin 1)))
    (fun (n : Fin 100000) (k : Fin 128) => (V c main_arg0 : S100000x128.Idx → EReal) (ix2 n k))
    (fun (k : Fin 128) (j : Fin 64) => (V c main_arg3 : S128x64.Idx → EReal) (ix2 k j))
    ⟨(i 0).val, idx2_lt0 i⟩ ⟨(i 1).val, idx2_lt1 i⟩

/-- THE BODY'S RESULT ON A ROW BLOCK: if the three blocks are rows `10000 T …` of the features, the whole weights and
    rows `10000 T …` of the factors, the result at local entry `y` is the scaled projection at the array entry `i` that
    `y` sits at. -/
theorem pay0_block (x0 : Vec Ideal S10000x128 .f32) (x1 : Vec Ideal S128x64 .f32) (x2 : Vec Ideal S10000x1 .f32)
    (X : S100000x128.Idx → EReal) (W : S128x64.Idx → EReal) (Dc : S100000x1.Idx → EReal) (T : ℕ)
    (h0 : ∀ (x : S10000x128.Idx) (k : S100000x128.Idx), (k 0).val = 10000 * T + (x 0).val → (k 1).val = (x 1).val → x0 x = X k)
    (h1 : ∀ x : S128x64.Idx, x1 x = W x)
    (h2 : ∀ (x : S10000x1.Idx) (k : S100000x1.Idx), (k 0).val = 10000 * T + (x 0).val → (k 1).val = (x 1).val → x2 x = Dc k)
    (y : S10000x64.Idx) (i : S100000x64.Idx) (hi0 : (i 0).val = 10000 * T + (y 0).val) (hi1 : (i 1).val = (y 1).val) :
    (k0_pay1 x0 x1 x2 : FVec Ideal S10000x64 .bf16) y
      = Cert.Spec.kerPre (fun n : Fin 100000 => Dc (ix2 n (0 : Fin 1))) (fun (n : Fin 100000) (k : Fin 128) => X (ix2 n k))
          (fun (k : Fin 128) (j : Fin 64) => W (ix2 k j)) ⟨(i 0).val, idx2_lt0 i⟩ ⟨(i 1).val, idx2_lt1 i⟩ := by
  obtain ⟨p, q, rfl⟩ : ∃ (p : Fin 10000) (q : Fin 64), y = ix2 p q := ⟨y 0, y 1, eq_ix2 y⟩
  have hq : (⟨(i 1).val, idx2_lt1 i⟩ : Fin 64) = q := Fin.ext hi1
  rw [pay0_apply, hq]
  unfold Cert.Spec.kerPre Cert.Spec.mm
  refine congrArg₂ (· * ·) (Finset.sum_congr rfl fun k _ => ?_) (h2 _ _ hi0 rfl)
  rw [h0 (ix2 p k) (ix2 ⟨(i 0).val, idx2_lt0 i⟩ k) hi0 rfl, h1]

/-- WHAT POINT `t` WRITES BACK is block `t` of `G0`. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3, out0_3_eq]
  obtain ⟨-, -, -, -, -, -, e30, e31⟩ := idx_facts0 t
  funext y
  show (k0_pay1 (iblk0 V c 0 t) (iblk0 V c 1 t) (iblk0 V c 2 t) : FVec Ideal S10000x64 .bf16) y = G0 V c (((cfg0.win 3).blk t).view.emb y)
  unfold G0
  refine pay0_block (iblk0 V c 0 t) (iblk0 V c 1 t) (iblk0 V c 2 t) (V c main_arg0) (V c main_arg3) (V c main_v15) t.val
    (fun x k hk0 hk1 => iblk0_0_apply V c t x k hk0 hk1) (fun x => iblk0_1_apply V c t x)
    (fun x k hk0 hk1 => iblk0_2_apply V c t x k hk0 hk1) y (((cfg0.win 3).blk t).view.emb y) ?_ ?_
  · show win0_3.index t (0 : Fin 2) * 10000 + 1 * (y 0).val = 10000 * t.val + (y 0).val; rw [e30]; omega
  · show win0_3.index t (1 : Fin 2) * 64 + 1 * (y 1).val = (y 1).val; rw [e31]; omega

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v16).slice (win0_3.rect t)).set ↔ _
  rw [View.set_slice_whole, Rect.mem_set_unit]
  exact Iff.rfl

/-- Every index is in the block of the point its row falls in. -/
theorem cover0 (i : S100000x64.Idx) : ∃ t : Fin cfg0.N, (cfg0.win 3).flush t = true ∧ i ∈ ((cfg0.win 3).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; rw [e30]; omega
  | ⟨1, _⟩ => show win0_3.index t (1 : Fin 2) * 64 ≤ (i 1).val ∧ (i 1).val < win0_3.index t (1 : Fin 2) * 64 + 64; rw [e31]; omega

/-- THE ARRAY after the region: `G0` of the arrays as the region found them. -/
theorem final0 (c : Dev nD) : (dat0 V c).arrAt 3 cfg0.N = G0 V c :=
  (dat0 V c).arrAt_eq_of_cover 3 (G0 V c) (fun t _ => flushed0_eq V c t) cover0

/-- THE OUTPUT ARRAY of the first product, entry by entry: the projected node features, each row scaled by its own
    node's factor. -/
theorem arr0_out (c : Dev nD) (n : Fin 100000) (j : Fin 64) :
    ((dat0 V c).arrAt 3 cfg0.N : S100000x64.Idx → EReal) (ix2 n j)
      = Cert.Spec.kerPre (fun n : Fin 100000 => (V c main_v15 : S100000x1.Idx → EReal) (ix2 n (0 : Fin 1)))
          (fun (n : Fin 100000) (k : Fin 128) => (V c main_arg0 : S100000x128.Idx → EReal) (ix2 n k))
          (fun (k : Fin 128) (j : Fin 64) => (V c main_arg3 : S128x64.Idx → EReal) (ix2 k j)) n j := by
  rw [final0]
  rfl

end Cert.KernelIdeal.HandVal

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.KI.Val1.lean ====
import proofs.«411316_j29850022707326_3_alg».proof.Proof.KI.R1
import proofs.«411316_j29850022707326_3_alg».proof.Proof.Spec
import proofs.«411316_j29850022707326_3_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! # The two column sums `cc1__bn_stats_kernel` leaves, entry by entry, at the ideal instance

The region adds, into two one-row outputs that are zeroed at the first point, the aggregated rows of each row block
(the edge sum scaled by its row's factor, plus the bias) and their squares, summed down the block's rows. Read at a
column, one point's update adds the block's share; by induction over the points the outputs hold the shares of the
blocks so far; the ten blocks' rows are all the rows; and the one block each output writes back, after the last point,
is its whole array. So after the region the two arrays hold each column's sum, and sum of squares, over all the rows. -/

/-! ## One column broadcast over many -/

/-- An `[a, 1]` array broadcast to `[a, b]` reads, at `(p, q)`, the operand's one column at row `p`. -/
theorem bcol1_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's values at an entry -/

/-- The row the first point stores into the running sum is zero. -/
theorem k1_pay1_apply (i : S1x64.Idx) : (k1_pay1 (F := Ideal) : FVec Ideal S1x64 .f32) i = 0 := by
  unfold k1_pay1
  show Ideal.ofBits .f32 0x00000000#32 = 0
  exact Ideal.ofBits_zero_f32

/-- The row the first point stores into the running sum of squares is zero. -/
theorem k1_pay2_apply (i : S1x64.Idx) : (k1_pay2 (F := Ideal) : FVec Ideal S1x64 .f32) i = 0 := by
  unfold k1_pay2
  show Ideal.ofBits .f32 0x00000000#32 = 0
  exact Ideal.ofBits_zero_f32

/-- The aggregated block at an entry: the edge sum's entry scaled by its row's factor, plus the column's bias. -/
theorem k1_pay3_apply (v3 : Vec Ideal S10000x64 .f32) (v5 : Vec Ideal S10000x1 .f32) (v9 : Vec Ideal S1x64 .f32) (r : Fin 10000) (k : Fin 64) :
    (k1_pay3 v3 v5 v9 : FVec Ideal S10000x64 .f32) (ix2 r k) = v3 (ix2 r k) * v5 (ix2 r (0 : Fin 1)) + v9 (ix2 (0 : Fin 1) k) := by
  unfold k1_pay3
  rw [addf_apply, mulf_apply, shapeCast_self, shapeCast_self, shapeCast_self, bcol1_apply, broadcastTo_1b_ab_apply]

/-- A sum down the rows of a block, read at a column: the lane sum over the 10000 rows. -/
theorem colsum1_apply (src : FVec Ideal S10000x64 .f32) (hφ : FKind.Formats .f32) (hacc : (0x00000000#32 : BitVec 32) = 0x00000000#32) (k : Fin 64) :
    multiReduction (F := Ideal) .add [0] S64 src 0x00000000#32 reduces_S10000x64_S64 hφ hacc (ix1 k) = ∑ r : Fin 10000, src (ix2 r k) := by
  refine (Ideal.multiReduction_add_single src 0x00000000#32 reduces_S10000x64_S64 hφ hacc (ix1 k)).trans ?_
  show ∑ r : Fin 10000, src (reduces_S10000x64_S64.lift (ix1 k) r) = _
  refine Finset.sum_congr rfl fun r _ => congrArg src ?_
  funext a
  match a with
  | ⟨0, _⟩ => rfl
  | ⟨1, _⟩ => rfl

/-- The running sum's update at a column: what it held plus the aggregated block summed down its rows. -/
theorem k1_pay4_apply (v3 : Vec Ideal S10000x64 .f32) (v5 : Vec Ideal S10000x1 .f32) (v9 : Vec Ideal S1x64 .f32) (v13 : Vec Ideal S1x64 .f32) (k : Fin 64) :
    (k1_pay4 v3 v5 v9 v13 : FVec Ideal S1x64 .f32) (ix2 (0 : Fin 1) k)
      = v13 (ix2 (0 : Fin 1) k) + ∑ r : Fin 10000, (v3 (ix2 r k) * v5 (ix2 r (0 : Fin 1)) + v9 (ix2 (0 : Fin 1) k)) := by
  unfold k1_pay4
  rw [addf_apply, shapeCast_self, shapeCast_a_1a_apply]
  refine congrArg (v13 (ix2 (0 : Fin 1) k) + ·) ((colsum1_apply _ _ _ k).trans (Finset.sum_congr rfl fun r _ => ?_))
  exact k1_pay3_apply v3 v5 v9 r k

/-- The running sum of squares' update at a column: what it held plus the squared aggregated block summed down its rows. -/
theorem k1_pay5_apply (v3 : Vec Ideal S10000x64 .f32) (v5 : Vec Ideal S10000x1 .f32) (v9 : Vec Ideal S1x64 .f32) (v19 : Vec Ideal S1x64 .f32) (k : Fin 64) :
    (k1_pay5 v3 v5 v9 v19 : FVec Ideal S1x64 .f32) (ix2 (0 : Fin 1) k)
      = v19 (ix2 (0 : Fin 1) k) + ∑ r : Fin 10000, (v3 (ix2 r k) * v5 (ix2 r (0 : Fin 1)) + v9 (ix2 (0 : Fin 1) k)) * (v3 (ix2 r k) * v5 (ix2 r (0 : Fin 1)) + v9 (ix2 (0 : Fin 1) k)) := by
  unfold k1_pay5
  rw [addf_apply, shapeCast_self, shapeCast_a_1a_apply]
  refine congrArg (v19 (ix2 (0 : Fin 1) k) + ·) ((colsum1_apply _ _ _ k).trans (Finset.sum_congr rfl fun r _ => ?_))
  rw [mulf_apply, k1_pay3_apply]

/-! ## From the blocks to the arrays -/

-- the TensorCore's buffer contents when the region is entered
variable (V : (c : Dev nD) → (b : Ref sig .tc) → Buf (Elt Ideal) ((c : Thread nD τ).loc b))

/-- The printed index maps, decided over the ten points: the edge sums and the row factors move down their rows one
    block a point; the bias row and the two outputs stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The edge sums' block at point `t` is rows `10000 t … 10000 t + 9999` of the array. -/
theorem iblk1_0_apply (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c main_v27 : S100000x64.Idx → EReal) k := by
  obtain ⟨h0, h1, -⟩ := idx_facts1 t
  unfold iblk1
  rw [View.read_apply]
  show V c main_v27 _ = V c main_v27 _
  congr 1
  funext a
  apply Fin.ext
  match a with
  | ⟨0, _⟩ => show win1_0.index t (0 : Fin 2) * 10000 + 1 * (x 0).val = (k 0).val; rw [h0, hk0]; omega
  | ⟨1, _⟩ => show win1_0.index t (1 : Fin 2) * 64 + 1 * (x 1).val = (k 1).val; rw [h1, hk1]; omega

/-- The row factors' block at point `t` is rows `10000 t … 10000 t + 9999` of the column. -/
theorem iblk1_1_apply (c : Dev nD) (t : Fin cfg1.N) (x : S10000x1.Idx) (k : S100000x1.Idx)
    (hk0 : (k 0).val = 10000 * t.val + (x 0).val) (hk1 : (k 1).val = (x 1).val) :
    (iblk1 V c 1 t : Vec Ideal S10000x1 .f32) x = (V c main_v15 : S100000x1.Idx → EReal) k := by
  obtain ⟨-, -, h0, h1, -⟩ := idx_facts1 t
  unfold iblk1
  rw [View.read_apply]
  show V c main_v15 _ = V c main_v15 _
  congr 1
  funext a
  apply Fin.ext
  match a with
  | ⟨0, _⟩ => show win1_1.index t (0 : Fin 2) * 10000 + 1 * (x 0).val = (k 0).val; rw [h0, hk0]; omega
  | ⟨1, _⟩ => show win1_1.index t (1 : Fin 2) * 1 + 1 * (x 1).val = (k 1).val; rw [h1, hk1]; omega

/-- The bias row's block at every point is the whole row. -/
theorem iblk1_2_apply (c : Dev nD) (t : Fin cfg1.N) (x : S1x64.Idx) :
    (iblk1 V c 2 t : Vec Ideal S1x64 .f32) x = (V c main_v28 : S1x64.Idx → EReal) x := by
  obtain ⟨-, -, -, -, h0, h1, -⟩ := idx_facts1 t
  unfold iblk1
  rw [View.read_apply]
  show V c main_v28 _ = V c main_v28 _
  congr 1
  funext a
  apply Fin.ext
  match a with
  | ⟨0, _⟩ => show win1_2.index t (0 : Fin 2) * 1 + 1 * (x 0).val = (x 0).val; rw [h0]; omega
  | ⟨1, _⟩ => show win1_2.index t (1 : Fin 2) * 64 + 1 * (x 1).val = (x 1).val; rw [h1]; omega

/-! ## The running sums, point by point -/

/-- The aggregated rows, from the arrays as the region finds them. -/
def agg1 (c : Dev nD) : Fin 100000 → Fin 64 → EReal :=
  Cert.Spec.kerAgg (fun n : Fin 100000 => (V c main_v15 : S100000x1.Idx → EReal) (ix2 n (0 : Fin 1)))
    (fun (n : Fin 100000) (k : Fin 64) => (V c main_v27 : S100000x64.Idx → EReal) (ix2 n k))
    (fun k : Fin 64 => (V c main_v28 : S1x64.Idx → EReal) (ix2 (0 : Fin 1) k))

/-- Row block `t`'s share of column `k`'s sum (nothing past the last block). -/
def bsum1 (c : Dev nD) (t : ℕ) (k : Fin 64) : EReal :=
  if h : t < 10 then ∑ r : Fin 10000, agg1 V c ⟨10000 * t + r.val, by have := r.isLt; omega⟩ k else 0

/-- Row block `t`'s share of column `k`'s sum of squares. -/
def bsq1 (c : Dev nD) (t : ℕ) (k : Fin 64) : EReal :=
  if h : t < 10 then ∑ r : Fin 10000, agg1 V c ⟨10000 * t + r.val, by have := r.isLt; omega⟩ k * agg1 V c ⟨10000 * t + r.val, by have := r.isLt; omega⟩ k else 0

omit V in
/-- ONE POINT'S UPDATE OF THE SUM: if the three blocks are rows `10000 T …` of the edge sums and of the row factors and
    the whole bias row, the update at column `k` adds, to what the sum held, the aggregated rows of that block. -/
theorem k1_pay4_block (x0 : Vec Ideal S10000x64 .f32) (x1 : Vec Ideal S10000x1 .f32) (x2 : Vec Ideal S1x64 .f32) (acc : Vec Ideal S1x64 .f32)
    (RAW : S100000x64.Idx → EReal) (DIS : S100000x1.Idx → EReal) (B : S1x64.Idx → EReal) (T : ℕ) (hT : T < 10)
    (h0 : ∀ (x : S10000x64.Idx) (i : S100000x64.Idx), (i 0).val = 10000 * T + (x 0).val → (i 1).val = (x 1).val → x0 x = RAW i)
    (h1 : ∀ (x : S10000x1.Idx) (i : S100000x1.Idx), (i 0).val = 10000 * T + (x 0).val → (i 1).val = (x 1).val → x1 x = DIS i)
    (h2 : ∀ x : S1x64.Idx, x2 x = B x) (k : Fin 64) :
    (k1_pay4 x0 x1 x2 acc : FVec Ideal S1x64 .f32) (ix2 (0 : Fin 1) k)
      = acc (ix2 (0 : Fin 1) k) + ∑ r : Fin 10000, Cert.Spec.kerAgg (fun n : Fin 100000 => DIS (ix2 n (0 : Fin 1))) (fun (n : Fin 100000) (j : Fin 64) => RAW (ix2 n j)) (fun j : Fin 64 => B (ix2 (0 : Fin 1) j)) ⟨10000 * T + r.val, by have := r.isLt; omega⟩ k := by
  rw [k1_pay4_apply]
  refine congrArg (acc (ix2 (0 : Fin 1) k) + ·) (Finset.sum_congr rfl fun r _ => ?_)
  unfold Cert.Spec.kerAgg
  rw [h0 (ix2 r k) (ix2 ⟨10000 * T + r.val, by have := r.isLt; omega⟩ k) rfl rfl,
    h1 (ix2 r (0 : Fin 1)) (ix2 ⟨10000 * T + r.val, by have := r.isLt; omega⟩ (0 : Fin 1)) rfl rfl, h2]

omit V in
/-- ONE POINT'S UPDATE OF THE SUM OF SQUARES, likewise. -/
theorem k1_pay5_block (x0 : Vec Ideal S10000x64 .f32) (x1 : Vec Ideal S10000x1 .f32) (x2 : Vec Ideal S1x64 .f32) (acc : Vec Ideal S1x64 .f32)
    (RAW : S100000x64.Idx → EReal) (DIS : S100000x1.Idx → EReal) (B : S1x64.Idx → EReal) (T : ℕ) (hT : T < 10)
    (h0 : ∀ (x : S10000x64.Idx) (i : S100000x64.Idx), (i 0).val = 10000 * T + (x 0).val → (i 1).val = (x 1).val → x0 x = RAW i)
    (h1 : ∀ (x : S10000x1.Idx) (i : S100000x1.Idx), (i 0).val = 10000 * T + (x 0).val → (i 1).val = (x 1).val → x1 x = DIS i)
    (h2 : ∀ x : S1x64.Idx, x2 x = B x) (k : Fin 64) :
    (k1_pay5 x0 x1 x2 acc : FVec Ideal S1x64 .f32) (ix2 (0 : Fin 1) k)
      = acc (ix2 (0 : Fin 1) k) + ∑ r : Fin 10000, (Cert.Spec.kerAgg (fun n : Fin 100000 => DIS (ix2 n (0 : Fin 1))) (fun (n : Fin 100000) (j : Fin 64) => RAW (ix2 n j)) (fun j : Fin 64 => B (ix2 (0 : Fin 1) j)) ⟨10000 * T + r.val, by have := r.isLt; omega⟩ k) * (Cert.Spec.kerAgg (fun n : Fin 100000 => DIS (ix2 n (0 : Fin 1))) (fun (n : Fin 100000) (j : Fin 64) => RAW (ix2 n j)) (fun j : Fin 64 => B (ix2 (0 : Fin 1) j)) ⟨10000 * T + r.val, by have := r.isLt; omega⟩ k) := by
  rw [k1_pay5_apply]
  refine congrArg (acc (ix2 (0 : Fin 1) k) + ·) (Finset.sum_congr rfl fun r _ => ?_)
  unfold Cert.Spec.kerAgg
  rw [h0 (ix2 r k) (ix2 ⟨10000 * T + r.val, by have := r.isLt; omega⟩ k) rfl rfl,
    h1 (ix2 r (0 : Fin 1)) (ix2 ⟨10000 * T + r.val, by have := r.isLt; omega⟩ (0 : Fin 1)) rfl rfl, h2]

/-- THE ACCUMULATION, read: after point `n` the first output holds, at column `k`, the sum of the aggregated rows of
    blocks `0 … n`, and the second the sum of their squares: by induction on the point. -/
theorem outsAt1_val (c : Dev nD) : ∀ (n : ℕ) (h : n < cfg1.N) (k : Fin 64),
    ((outsAt1 V c n h).1 : Vec Ideal S1x64 .f32) (ix2 (0 : Fin 1) k) = ∑ t ∈ Finset.range (n + 1), bsum1 V c t k
    ∧ ((outsAt1 V c n h).2 : Vec Ideal S1x64 .f32) (ix2 (0 : Fin 1) k) = ∑ t ∈ Finset.range (n + 1), bsq1 V c t k
  | 0, h, k => by
    rw [outsAt1_A V c ⟨0, h⟩ rfl]
    dsimp only
    rw [out1_A_3_eq, out1_A_4_eq, Finset.sum_range_one, Finset.sum_range_one]
    constructor
    · refine (k1_pay4_block (iblk1 V c 0 ⟨0, h⟩) (iblk1 V c 1 ⟨0, h⟩) (iblk1 V c 2 ⟨0, h⟩) (k1_pay1 (F := Ideal))
        (V c main_v27) (V c main_v15) (V c main_v28) 0 (by omega)
        (fun x i hi0 hi1 => iblk1_0_apply V c ⟨0, h⟩ x i hi0 hi1) (fun x i hi0 hi1 => iblk1_1_apply V c ⟨0, h⟩ x i hi0 hi1)
        (fun x => iblk1_2_apply V c ⟨0, h⟩ x) k).trans ?_
      rw [k1_pay1_apply, zero_add]
      unfold bsum1 agg1
      rw [dif_pos (by omega)]
    · refine (k1_pay5_block (iblk1 V c 0 ⟨0, h⟩) (iblk1 V c 1 ⟨0, h⟩) (iblk1 V c 2 ⟨0, h⟩) (k1_pay2 (F := Ideal))
        (V c main_v27) (V c main_v15) (V c main_v28) 0 (by omega)
        (fun x i hi0 hi1 => iblk1_0_apply V c ⟨0, h⟩ x i hi0 hi1) (fun x i hi0 hi1 => iblk1_1_apply V c ⟨0, h⟩ x i hi0 hi1)
        (fun x => iblk1_2_apply V c ⟨0, h⟩ x) k).trans ?_
      rw [k1_pay2_apply, zero_add]
      unfold bsq1 agg1
      rw [dif_pos (by omega)]
  | n + 1, h, k => by
    have hN : cfg1.N = 10 := N_1
    have hB : ¬(⟨n + 1, h⟩ : Fin cfg1.N).val % 10 = 0 := by dsimp only; omega
    have ih := outsAt1_val c n (Nat.lt_of_succ_lt h) k
    rw [outsAt1_B V c ⟨n + 1, h⟩ hB]
    dsimp only
    rw [out1_B_3_eq, out1_B_4_eq, Finset.sum_range_succ _ (n + 1), Finset.sum_range_succ _ (n + 1)]
    constructor
    · refine (k1_pay4_block (iblk1 V c 0 ⟨n + 1, h⟩) (iblk1 V c 1 ⟨n + 1, h⟩) (iblk1 V c 2 ⟨n + 1, h⟩) (outsAt1 V c n (Nat.lt_of_succ_lt h)).1
        (V c main_v27) (V c main_v15) (V c main_v28) (n + 1) (by omega)
        (fun x i hi0 hi1 => iblk1_0_apply V c ⟨n + 1, h⟩ x i hi0 hi1) (fun x i hi0 hi1 => iblk1_1_apply V c ⟨n + 1, h⟩ x i hi0 hi1)
        (fun x => iblk1_2_apply V c ⟨n + 1, h⟩ x) k).trans ?_
      rw [ih.1]
      refine congrArg (_ + ·) ?_
      unfold bsum1 agg1
      rw [dif_pos (by omega)]
    · refine (k1_pay5_block (iblk1 V c 0 ⟨n + 1, h⟩) (iblk1 V c 1 ⟨n + 1, h⟩) (iblk1 V c 2 ⟨n + 1, h⟩) (outsAt1 V c n (Nat.lt_of_succ_lt h)).2
        (V c main_v27) (V c main_v15) (V c main_v28) (n + 1) (by omega)
        (fun x i hi0 hi1 => iblk1_0_apply V c ⟨n + 1, h⟩ x i hi0 hi1) (fun x i hi0 hi1 => iblk1_1_apply V c ⟨n + 1, h⟩ x i hi0 hi1)
        (fun x => iblk1_2_apply V c ⟨n + 1, h⟩ x) k).trans ?_
      rw [ih.2]
      refine congrArg (_ + ·) ?_
      unfold bsq1 agg1
      rw [dif_pos (by omega)]

/-! ## The two output arrays after the region -/

/-- What the sums' array ends holding. -/
def G1sum (c : Dev nD) : S1x64.Idx → EReal := fun i => Cert.Spec.kerSum (agg1 V c) ⟨(i 1).val, idx2_lt1 i⟩

/-- It depends on the column alone. -/
theorem G1sum_apply (c : Dev nD) (i : S1x64.Idx) (k : Fin 64) (hk : (i 1).val = k.val) : G1sum V c i = Cert.Spec.kerSum (agg1 V c) k := by
  unfold G1sum
  exact congrArg (Cert.Spec.kerSum (agg1 V c)) (Fin.ext hk)

/-- The ten blocks' shares make the whole column's: the rows are the ten blocks' rows, one after another. -/
theorem total1_3 (c : Dev nD) (k : Fin 64) : ∑ t ∈ Finset.range 10, bsum1 V c t k = Cert.Spec.kerSum (agg1 V c) k := by
  rw [Finset.sum_range]
  unfold Cert.Spec.kerSum
  rw [← Cert.LibSumBlocks.sum_blocks (A := 10) (B := 10000) (N := 100000) rfl]
  refine Finset.sum_congr rfl fun t _ => ?_
  unfold bsum1
  rw [dif_pos t.isLt]

omit V in
/-- The output's one block, written back, is the whole array: a row that agrees with `G` column by column is the
    block of `G` the write-back reads. -/
theorem whole1_3 (t : Fin cfg1.N) (O : Vec Ideal S1x64 .f32) (G : S1x64.Idx → EReal)
    (h : ∀ (k : Fin 64) (i : S1x64.Idx), (i 1).val = k.val → O (ix2 (0 : Fin 1) k) = G i) :
    (cfg1.win 3).cut (grid1.coords t) O = ((cfg1.win 3).blk t).view.read (Elt Ideal) G := by
  obtain ⟨-, -, -, -, -, -, e0, e1, -⟩ := idx_facts1 t
  funext y
  show O y = G (((cfg1.win 3).blk t).view.emb y)
  obtain ⟨u, k, rfl⟩ : ∃ (u : Fin 1) (k : Fin 64), y = ix2 u k := ⟨y 0, y 1, eq_ix2 y⟩
  obtain rfl : u = 0 := Subsingleton.elim u 0
  refine h k _ ?_
  show win1_3.index t (1 : Fin 2) * 64 + 1 * k.val = k.val
  rw [e1]; omega

/-- WHAT THE LAST POINT WRITES BACK is the one block of `G1sum`. -/
theorem flushed1_3_eq (c : Dev nD) (t : Fin cfg1.N) (hf : (cfg1.win 3).flush t = true) :
    (dat1 V c).flushed 3 t = ((cfg1.win 3).blk t).view.read (Elt Ideal) (G1sum V c) := by
  have hN : cfg1.N = 10 := N_1
  have h9 : t.val = 9 := by have := (flush1_3 t).mp hf; have := t.isLt; omega
  show (cfg1.win 3).cut (grid1.coords t) ((dat1 V c).after 3 t) = _
  rw [after1_3]
  exact whole1_3 t (outsAt1 V c t.val t.isLt).1 (G1sum V c) fun k i hi =>
    ((outsAt1_val V c t.val t.isLt k).1.trans (by rw [h9]; exact total1_3 V c k)).trans (G1sum_apply V c i k hi).symm

/-- An index of the array is in point `t`'s block iff each coordinate is in the block's range on its axis. -/
theorem mem_blk1_3 (t : Fin cfg1.N) (i : S1x64.Idx) :
    i ∈ ((cfg1.win 3).blk t).view.set ↔ ∀ a : Fin 2, win1_3.index t a * S1x64.size a ≤ (i a).val ∧ (i a).val < win1_3.index t a * S1x64.size a + S1x64.size a := by
  show i ∈ ((View.whole main_v29_0).slice (win1_3.rect t)).set ↔ _
  rw [View.set_slice_whole, Rect.mem_set_unit]
  exact Iff.rfl

/-- Every index is in the last point's block, the one block there is. -/
theorem cover1_3 (i : S1x64.Idx) : ∃ t : Fin cfg1.N, (cfg1.win 3).flush t = true ∧ i ∈ ((cfg1.win 3).blk t).view.set := by
  have hi0 : (i 0).val < 1 := idx2_lt0 i
  have hi1 : (i 1).val < 64 := idx2_lt1 i
  have hN : cfg1.N = 10 := N_1
  obtain ⟨t, ht⟩ : ∃ t : Fin cfg1.N, t.val = 9 := ⟨⟨9, by rw [hN]; omega⟩, rfl⟩
  obtain ⟨-, -, -, -, -, -, e0, e1, -⟩ := idx_facts1 t
  refine ⟨t, (flush1_3 t).mpr (by rw [ht]), ?_⟩
  rw [mem_blk1_3]
  intro a
  match a with
  | ⟨0, _⟩ => show win1_3.index t (0 : Fin 2) * 1 ≤ (i 0).val ∧ (i 0).val < win1_3.index t (0 : Fin 2) * 1 + 1; rw [e0]; omega
  | ⟨1, _⟩ => show win1_3.index t (1 : Fin 2) * 64 ≤ (i 1).val ∧ (i 1).val < win1_3.index t (1 : Fin 2) * 64 + 64; rw [e1]; omega

/-- THE ARRAY after the region: `G1sum` of the arrays as the region found them. -/
theorem final1_3 (c : Dev nD) : (dat1 V c).arrAt 3 cfg1.N = G1sum V c :=
  (dat1 V c).arrAt_eq_of_cover 3 (G1sum V c) (fun t hf => flushed1_3_eq V c t hf) cover1_3

/-- What the sums of squares' array ends holding. -/
def G1sq (c : Dev nD) : S1x64.Idx → EReal := fun i => Cert.Spec.kerSq (agg1 V c) ⟨(i 1).val, idx2_lt1 i⟩

/-- It depends on the column alone. -/
theorem G1sq_apply (c : Dev nD) (i : S1x64.Idx) (k : Fin 64) (hk : (i 1).val = k.val) : G1sq V c i = Cert.Spec.kerSq (agg1 V c) k := by
  unfold G1sq
  exact congrArg (Cert.Spec.kerSq (agg1 V c)) (Fin.ext hk)

/-- The ten blocks' shares make the whole column's: the rows are the ten blocks' rows, one after another. -/
theorem total1_4 (c : Dev nD) (k : Fin 64) : ∑ t ∈ Finset.range 10, bsq1 V c t k = Cert.Spec.kerSq (agg1 V c) k := by
  rw [Finset.sum_range]
  unfold Cert.Spec.kerSq
  rw [← Cert.LibSumBlocks.sum_blocks (A := 10) (B := 10000) (N := 100000) rfl]
  refine Finset.sum_congr rfl fun t _ => ?_
  unfold bsq1
  rw [dif_pos t.isLt]

omit V in
/-- The output's one block, written back, is the whole array: a row that agrees with `G` column by column is the
    block of `G` the write-back reads. -/
theorem whole1_4 (t : Fin cfg1.N) (O : Vec Ideal S1x64 .f32) (G : S1x64.Idx → EReal)
    (h : ∀ (k : Fin 64) (i : S1x64.Idx), (i 1).val = k.val → O (ix2 (0 : Fin 1) k) = G i) :
    (cfg1.win 4).cut (grid1.coords t) O = ((cfg1.win 4).blk t).view.read (Elt Ideal) G := by
  obtain ⟨-, -, -, -, -, -, -, -, e0, e1⟩ := idx_facts1 t
  funext y
  show O y = G (((cfg1.win 4).blk t).view.emb y)
  obtain ⟨u, k, rfl⟩ : ∃ (u : Fin 1) (k : Fin 64), y = ix2 u k := ⟨y 0, y 1, eq_ix2 y⟩
  obtain rfl : u = 0 := Subsingleton.elim u 0
  refine h k _ ?_
  show win1_4.index t (1 : Fin 2) * 64 + 1 * k.val = k.val
  rw [e1]; omega

/-- WHAT THE LAST POINT WRITES BACK is the one block of `G1sq`. -/
theorem flushed1_4_eq (c : Dev nD) (t : Fin cfg1.N) (hf : (cfg1.win 4).flush t = true) :
    (dat1 V c).flushed 4 t = ((cfg1.win 4).blk t).view.read (Elt Ideal) (G1sq V c) := by
  have hN : cfg1.N = 10 := N_1
  have h9 : t.val = 9 := by have := (flush1_4 t).mp hf; have := t.isLt; omega
  show (cfg1.win 4).cut (grid1.coords t) ((dat1 V c).after 4 t) = _
  rw [after1_4]
  exact whole1_4 t (outsAt1 V c t.val t.isLt).2 (G1sq V c) fun k i hi =>
    ((outsAt1_val V c t.val t.isLt k).2.trans (by rw [h9]; exact total1_4 V c k)).trans (G1sq_apply V c i k hi).symm

/-- An index of the array is in point `t`'s block iff each coordinate is in the block's range on its axis. -/
theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v29_1).slice (win1_4.rect t)).set ↔ _
  rw [View.set_slice_whole, Rect.mem_set_unit]
  exact Iff.rfl

/-- Every index is in the last point's block, the one block there is. -/
theorem cover1_4 (i : S1x64.Idx) : ∃ t : Fin cfg1.N, (cfg1.win 4).flush t = true ∧ i ∈ ((cfg1.win 4).blk t).view.set := by
  have hi0 : (i 0).val < 1 := idx2_lt0 i
  have hi1 : (i 1).val < 64 := idx2_lt1 i
  have hN : cfg1.N = 10 := N_1
  obtain ⟨t, ht⟩ : ∃ t : Fin cfg1.N, t.val = 9 := ⟨⟨9, by rw [hN]; omega⟩, rfl⟩
  obtain ⟨-, -, -, -, -, -, -, -, e0, e1⟩ := idx_facts1 t
  refine ⟨t, (flush1_4 t).mpr (by rw [ht]), ?_⟩
  rw [mem_blk1_4]
  intro a
  match a with
  | ⟨0, _⟩ => show win1_4.index t (0 : Fin 2) * 1 ≤ (i 0).val ∧ (i 0).val < win1_4.index t (0 : Fin 2) * 1 + 1; rw [e0]; omega
  | ⟨1, _⟩ => show win1_4.index t (1 : Fin 2) * 64 ≤ (i 1).val ∧ (i 1).val < win1_4.index t (1 : Fin 2) * 64 + 64; rw [e1]; omega

/-- THE ARRAY after the region: `G1sq` of the arrays as the region found them. -/
theorem final1_4 (c : Dev nD) : (dat1 V c).arrAt 4 cfg1.N = G1sq V c :=
  (dat1 V c).arrAt_eq_of_cover 4 (G1sq V c) (fun t hf => flushed1_4_eq V c t hf) cover1_4

/-- THE FIRST OUTPUT ARRAY, entry by entry: each column's sum of the aggregated rows (the edge sum scaled by its row's
    factor, plus the bias) over all 100000 rows. -/
theorem arr1_sum (c : Dev nD) (j : Fin 64) :
    ((dat1 V c).arrAt 3 cfg1.N : S1x64.Idx → EReal) (ix2 (0 : Fin 1) j)
      = Cert.Spec.kerSum (Cert.Spec.kerAgg (fun n : Fin 100000 => (V c main_v15 : S100000x1.Idx → EReal) (ix2 n (0 : Fin 1)))
            (fun (n : Fin 100000) (k : Fin 64) => (V c main_v27 : S100000x64.Idx → EReal) (ix2 n k))
            (fun k : Fin 64 => (V c main_v28 : S1x64.Idx → EReal) (ix2 (0 : Fin 1) k))) j := by
  rw [final1_3]
  exact G1sum_apply V c (ix2 (0 : Fin 1) j) j rfl

/-- THE SECOND OUTPUT ARRAY, entry by entry: each column's sum of the squared aggregated rows. -/
theorem arr1_sq (c : Dev nD) (j : Fin 64) :
    ((dat1 V c).arrAt 4 cfg1.N : S1x64.Idx → EReal) (ix2 (0 : Fin 1) j)
      = Cert.Spec.kerSq (Cert.Spec.kerAgg (fun n : Fin 100000 => (V c main_v15 : S100000x1.Idx → EReal) (ix2 n (0 : Fin 1)))
            (fun (n : Fin 100000) (k : Fin 64) => (V c main_v27 : S100000x64.Idx → EReal) (ix2 n k))
            (fun k : Fin 64 => (V c main_v28 : S1x64.Idx → EReal) (ix2 (0 : Fin 1) k))) j := by
  rw [final1_4]
  exact G1sq_apply V c (ix2 (0 : Fin 1) j) j rfl

end Cert.KernelIdeal.HandVal

end
-- ==== Proof.KI.Val2.lean ====
import proofs.«411316_j29850022707326_3_alg».proof.Proof.KI.R2
import proofs.«411316_j29850022707326_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! # The second product's output array, entry by entry, at the ideal instance

The region takes a row block of edge sums, scales each row by its node's factor and adds the bias, normalises by one
scale and one shift a column, rectifies, multiplies by the weights and scales each row by its node's factor again. Read
at an entry, the body's result on a block is the activations' row against the weights' column, times the row's factor;
a block's rows are consecutive rows of the arrays; the output's blocks tile its array; so after the region the output
array holds, at every entry, that value of the arrays the region found. -/

/-! ## One column broadcast over many -/

/-- An `[a, 1]` array broadcast to `[a, b]` reads, at `(p, c)`, the operand's one column at row `p`. -/
theorem broadcastTo_a1_ab_apply' {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a row block of activations with the weights, at an entry -/

/-- The product's operand indices, coordinate by coordinate: at output entry `i` and contraction position `q` the left
    operand is read at row `i 0` … -/
theorem lhs_mm2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … column `q`; -/
theorem lhs_mm2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at row `q` … -/
theorem rhs_mm2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … column `i 1`. -/
theorem rhs_mm2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product into a zero accumulator, at entry `(p, q)`: row `p` of the left operand against column
    `q` of the right one, summed over the 64 contracted coordinates. -/
theorem mm2_apply (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_mm2_0 _ _
    | ⟨1, _⟩ => exact (lhs_mm2_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_mm2_0 _ _).trans hk
    | ⟨1, _⟩ => exact rhs_mm2_1 _ _)
  rw [el, er]

/-! ## The normalised, rectified activations of a row block -/

/-- The left operand of the body's product: the edge sums scaled by their node's factor plus the bias, times the
    column scale plus the column shift, rectified. -/
def act2 (xd : Vec Ideal S5000x1 .f32) (xr : Vec Ideal S5000x64 .f32) (xb xs xh : Vec Ideal S1x64 .f32) : FVec Ideal S5000x64 .bf16 :=
  truncf .bf16
    (maximumf
      (addf
        (mulf
          (addf
            (mulf (shapeCast S5000x64 xr shapeCasts_S5000x64_S5000x64)
              (broadcastTo S5000x64 (shapeCast S5000x1 xd shapeCasts_S5000x1_S5000x1) broadcasts_S5000x1_S5000x64))
            (broadcastTo S5000x64 (shapeCast S1x64 xb shapeCasts_S1x64_S1x64) broadcasts_S1x64_S5000x64))
          (broadcastTo S5000x64 (shapeCast S1x64 xs shapeCasts_S1x64_S1x64) broadcasts_S1x64_S5000x64))
        (broadcastTo S5000x64 (shapeCast S1x64 xh shapeCasts_S1x64_S1x64) broadcasts_S1x64_S5000x64))
      (broadcast S5000x64 (Scalar.ofBits (F := Ideal) .f32 0x00000000#32)))
    bitsLt_bf16_f32

/-- At entry `(p, k)`. -/
theorem act2_apply (xd : Vec Ideal S5000x1 .f32) (xr : Vec Ideal S5000x64 .f32) (xb xs xh : Vec Ideal S1x64 .f32) (p : Fin 5000) (k : Fin 64) :
    act2 xd xr xb xs xh (ix2 p k)
      = max ((xr (ix2 p k) * xd (ix2 p (0 : Fin 1)) + xb (ix2 (0 : Fin 1) k)) * xs (ix2 (0 : Fin 1) k) + xh (ix2 (0 : Fin 1) k)) 0 := by
  show max ((shapeCast S5000x64 xr shapeCasts_S5000x64_S5000x64 (ix2 p k)
        * broadcastTo S5000x64 (shapeCast S5000x1 xd shapeCasts_S5000x1_S5000x1) broadcasts_S5000x1_S5000x64 (ix2 p k)
        + broadcastTo S5000x64 (shapeCast S1x64 xb shapeCasts_S1x64_S1x64) broadcasts_S1x64_S5000x64 (ix2 p k))
        * broadcastTo S5000x64 (shapeCast S1x64 xs shapeCasts_S1x64_S1x64) broadcasts_S1x64_S5000x64 (ix2 p k)
        + broadcastTo S5000x64 (shapeCast S1x64 xh shapeCasts_S1x64_S1x64) broadcasts_S1x64_S5000x64 (ix2 p k))
      (Ideal.ofBits .f32 0x00000000#32) = _
  rw [Ideal.ofBits_zero_f32, shapeCast_self, shapeCast_self, shapeCast_self, shapeCast_self, shapeCast_self,
    broadcastTo_a1_ab_apply', broadcastTo_1b_ab_apply, broadcastTo_1b_ab_apply, broadcastTo_1b_ab_apply]

/-- THE BODY'S RESULT AT AN ENTRY: the activations' row against the weights' column, scaled by the node's factor. -/
theorem pay2_apply (xd : Vec Ideal S5000x1 .f32) (xr : Vec Ideal S5000x64 .f32) (xb xs xh : Vec Ideal S1x64 .f32) (xw : Vec Ideal S64x64 .f32)
    (p : Fin 5000) (q : Fin 64) :
    (k2_pay1 xd xr xb xs xh xw : FVec Ideal S5000x64 .bf16) (ix2 p q)
      = (∑ k : Fin 64, max ((xr (ix2 p k) * xd (ix2 p (0 : Fin 1)) + xb (ix2 (0 : Fin 1) k)) * xs (ix2 (0 : Fin 1) k) + xh (ix2 (0 : Fin 1) k)) 0
            * xw (ix2 k q)) * xd (ix2 p (0 : Fin 1)) := by
  unfold k2_pay1
  show matmul dot_S5000x64_S64x64_S5000x64_1_0_0_1_n_n none (act2 xd xr xb xs xh) (truncf .bf16 xw bitsLt_bf16_f32) (constant (F := Ideal) S5000x64 .f32 0x00000000#32) (ix2 p q)
      * broadcastTo S5000x64 (shapeCast S5000x1 xd shapeCasts_S5000x1_S5000x1) broadcasts_S5000x1_S5000x64 (ix2 p q) = _
  rw [mm2_apply, shapeCast_self, broadcastTo_a1_ab_apply']
  refine congrArg (· * xd (ix2 p (0 : Fin 1))) (Finset.sum_congr rfl fun k _ => ?_)
  rw [act2_apply]
  rfl

/-! ## From the blocks to the array -/

-- the TensorCore's buffer contents when the region is entered
variable (V : (c : Dev nD) → (b : Ref sig .tc) → Buf (Elt Ideal) ((c : Thread nD τ).loc b))

/-- The printed index maps, decided over the twenty points: the edge sums, the node factors and the output move down
    their rows one block a point; the bias, scale and shift rows and the weights stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The edge sums' block at point `t` is rows `5000 t … 5000 t + 4999` of the array. -/
theorem iblk2_0_apply (c : Dev nD) (t : Fin cfg2.N) (x : S5000x64.Idx) (k : S100000x64.Idx)
    (hk0 : (k 0).val = 5000 * t.val + (x 0).val) (hk1 : (k 1).val = (x 1).val) :
    (iblk2 V c 0 t : Vec Ideal S5000x64 .f32) x = (V c main_v27 : S100000x64.Idx → EReal) k := by
  obtain ⟨h0, h1, -⟩ := idx_facts2 t
  unfold iblk2
  rw [View.read_apply]
  show V c main_v27 _ = V c main_v27 _
  congr 1
  funext a
  apply Fin.ext
  match a with
  | ⟨0, _⟩ => show win2_0.index t (0 : Fin 2) * 5000 + 1 * (x 0).val = (k 0).val; rw [h0, hk0]; omega
  | ⟨1, _⟩ => show win2_0.index t (1 : Fin 2) * 64 + 1 * (x 1).val = (k 1).val; rw [h1, hk1]; omega

/-- The node factors' block at point `t` is rows `5000 t … 5000 t + 4999` of the column. -/
theorem iblk2_1_apply (c : Dev nD) (t : Fin cfg2.N) (x : S5000x1.Idx) (k : S100000x1.Idx)
    (hk0 : (k 0).val = 5000 * t.val + (x 0).val) (hk1 : (k 1).val = (x 1).val) :
    (iblk2 V c 1 t : Vec Ideal S5000x1 .f32) x = (V c main_v15 : S100000x1.Idx → EReal) k := by
  obtain ⟨-, -, h0, h1, -⟩ := idx_facts2 t
  unfold iblk2
  rw [View.read_apply]
  show V c main_v15 _ = V c main_v15 _
  congr 1
  funext a
  apply Fin.ext
  match a with
  | ⟨0, _⟩ => show win2_1.index t (0 : Fin 2) * 5000 + 1 * (x 0).val = (k 0).val; rw [h0, hk0]; omega
  | ⟨1, _⟩ => show win2_1.index t (1 : Fin 2) * 1 + 1 * (x 1).val = (k 1).val; rw [h1, hk1]; omega

/-- The bias row's block at every point is the whole row. -/
theorem iblk2_2_apply (c : Dev nD) (t : Fin cfg2.N) (x : S1x64.Idx) :
    (iblk2 V c 2 t : Vec Ideal S1x64 .f32) x = (V c main_v44 : S1x64.Idx → EReal) x := by
  obtain ⟨-, -, -, -, h0, h1, -⟩ := idx_facts2 t
  unfold iblk2
  rw [View.read_apply]
  show V c main_v44 _ = V c main_v44 _
  congr 1
  funext a
  apply Fin.ext
  match a with
  | ⟨0, _⟩ => show win2_2.index t (0 : Fin 2) * 1 + 1 * (x 0).val = (x 0).val; rw [h0]; omega
  | ⟨1, _⟩ => show win2_2.index t (1 : Fin 2) * 64 + 1 * (x 1).val = (x 1).val; rw [h1]; omega

/-- The scale row's block at every point is the whole row. -/
theorem iblk2_3_apply (c : Dev nD) (t : Fin cfg2.N) (x : S1x64.Idx) :
    (iblk2 V c 3 t : Vec Ideal S1x64 .f32) x = (V c main_v40 : S1x64.Idx → EReal) x := by
  obtain ⟨-, -, -, -, -, -, h0, h1, -⟩ := idx_facts2 t
  unfold iblk2
  rw [View.read_apply]
  show V c main_v40 _ = V c main_v40 _
  congr 1
  funext a
  apply Fin.ext
  match a with
  | ⟨0, _⟩ => show win2_3.index t (0 : Fin 2) * 1 + 1 * (x 0).val = (x 0).val; rw [h0]; omega
  | ⟨1, _⟩ => show win2_3.index t (1 : Fin 2) * 64 + 1 * (x 1).val = (x 1).val; rw [h1]; omega

/-- The shift row's block at every point is the whole row. -/
theorem iblk2_4_apply (c : Dev nD) (t : Fin cfg2.N) (x : S1x64.Idx) :
    (iblk2 V c 4 t : Vec Ideal S1x64 .f32) x = (V c main_v43 : S1x64.Idx → EReal) x := by
  obtain ⟨-, -, -, -, -, -, -, -, h0, h1, -⟩ := idx_facts2 t
  unfold iblk2
  rw [View.read_apply]
  show V c main_v43 _ = V c main_v43 _
  congr 1
  funext a
  apply Fin.ext
  match a with
  | ⟨0, _⟩ => show win2_4.index t (0 : Fin 2) * 1 + 1 * (x 0).val = (x 0).val; rw [h0]; omega
  | ⟨1, _⟩ => show win2_4.index t (1 : Fin 2) * 64 + 1 * (x 1).val = (x 1).val; rw [h1]; omega

/-- The weights' block at every point is the whole array. -/
theorem iblk2_5_apply (c : Dev nD) (t : Fin cfg2.N) (x : S64x64.Idx) :
    (iblk2 V c 5 t : Vec Ideal S64x64 .f32) x = (V c main_arg5 : S64x64.Idx → EReal) x := by
  obtain ⟨-, -, -, -, -, -, -, -, -, -, h0, h1, -⟩ := idx_facts2 t
  unfold iblk2
  rw [View.read_apply]
  show V c main_arg5 _ = V c main_arg5 _
  congr 1
  funext a
  apply Fin.ext
  match a with
  | ⟨0, _⟩ => show win2_5.index t (0 : Fin 2) * 64 + 1 * (x 0).val = (x 0).val; rw [h0]; omega
  | ⟨1, _⟩ => show win2_5.index t (1 : Fin 2) * 64 + 1 * (x 1).val = (x 1).val; rw [h1]; omega

/-- What the output array ends holding: the normalised, rectified aggregate projected, each row scaled by its own
    node's factor. -/
def G2 (c : Dev nD) : S100000x64.Idx → EReal := fun i =>
  Cert.Spec.kerPre (fun n : Fin 100000 => (V c main_v15 : S100000x1.Idx → EReal) (ix2 n (0 : Fin 1)))
    (Cert.Spec.kerBn (fun k : Fin 64 => (V c main_v40 : S1x64.Idx → EReal) (ix2 (0 : Fin 1) k))
      (fun k : Fin 64 => (V c main_v43 : S1x64.Idx → EReal) (ix2 (0 : Fin 1) k))
      (Cert.Spec.kerAgg (fun n : Fin 100000 => (V c main_v15 : S100000x1.Idx → EReal) (ix2 n (0 : Fin 1)))
        (fun (n : Fin 100000) (k : Fin 64) => (V c main_v27 : S100000x64.Idx → EReal) (ix2 n k))
        (fun k : Fin 64 => (V c main_v44 : S1x64.Idx → EReal) (ix2 (0 : Fin 1) k))))
    (fun (k : Fin 64) (j : Fin 64) => (V c main_arg5 : S64x64.Idx → EReal) (ix2 k j))
    ⟨(i 0).val, idx2_lt0 i⟩ ⟨(i 1).val, idx2_lt1 i⟩

/-- THE BODY'S RESULT ON A ROW BLOCK: if the blocks are rows `5000 T …` of the factors and of the edge sums and the whole
    bias, scale and shift rows and weights, the result at local entry `y` is the scaled projection of the normalised
    aggregate at the array entry `i` that `y` sits at. -/
theorem pay2_block (xd : Vec Ideal S5000x1 .f32) (xr : Vec Ideal S5000x64 .f32) (xb xs xh : Vec Ideal S1x64 .f32) (xw : Vec Ideal S64x64 .f32)
    (Dc : S100000x1.Idx → EReal) (R : S100000x64.Idx → EReal) (B Sc Sh : S1x64.Idx → EReal) (W : S64x64.Idx → EReal) (T : ℕ)
    (hd : ∀ (x : S5000x1.Idx) (k : S100000x1.Idx), (k 0).val = 5000 * T + (x 0).val → (k 1).val = (x 1).val → xd x = Dc k)
    (hr : ∀ (x : S5000x64.Idx) (k : S100000x64.Idx), (k 0).val = 5000 * T + (x 0).val → (k 1).val = (x 1).val → xr x = R k)
    (hb : ∀ x : S1x64.Idx, xb x = B x) (hs : ∀ x : S1x64.Idx, xs x = Sc x) (hh : ∀ x : S1x64.Idx, xh x = Sh x)
    (hw : ∀ x : S64x64.Idx, xw x = W x)
    (y : S5000x64.Idx) (i : S100000x64.Idx) (hi0 : (i 0).val = 5000 * T + (y 0).val) (hi1 : (i 1).val = (y 1).val) :
    (k2_pay1 xd xr xb xs xh xw : FVec Ideal S5000x64 .bf16) y
      = Cert.Spec.kerPre (fun n : Fin 100000 => Dc (ix2 n (0 : Fin 1)))
          (Cert.Spec.kerBn (fun k : Fin 64 => Sc (ix2 (0 : Fin 1) k)) (fun k : Fin 64 => Sh (ix2 (0 : Fin 1) k))
            (Cert.Spec.kerAgg (fun n : Fin 100000 => Dc (ix2 n (0 : Fin 1))) (fun (n : Fin 100000) (k : Fin 64) => R (ix2 n k))
              (fun k : Fin 64 => B (ix2 (0 : Fin 1) k))))
          (fun (k : Fin 64) (j : Fin 64) => W (ix2 k j)) ⟨(i 0).val, idx2_lt0 i⟩ ⟨(i 1).val, idx2_lt1 i⟩ := by
  obtain ⟨p, q, rfl⟩ : ∃ (p : Fin 5000) (q : Fin 64), y = ix2 p q := ⟨y 0, y 1, eq_ix2 y⟩
  have hq : (⟨(i 1).val, idx2_lt1 i⟩ : Fin 64) = q := Fin.ext hi1
  rw [pay2_apply, hq]
  unfold Cert.Spec.kerPre Cert.Spec.mm Cert.Spec.kerBn Cert.Spec.kerAgg Cert.Spec.relu
  refine congrArg₂ (· * ·) (Finset.sum_congr rfl fun k _ => ?_) (hd _ _ hi0 rfl)
  rw [hr (ix2 p k) (ix2 ⟨(i 0).val, idx2_lt0 i⟩ k) hi0 rfl, hd (ix2 p (0 : Fin 1)) (ix2 ⟨(i 0).val, idx2_lt0 i⟩ (0 : Fin 1)) hi0 rfl, hb, hs, hh, hw]

/-- WHAT POINT `t` WRITES BACK is block `t` of `G2`. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6, out2_6_eq]
  obtain ⟨-, -, -, -, -, -, -, -, -, -, -, -, e60, e61⟩ := idx_facts2 t
  funext y
  show (k2_pay1 (iblk2 V c 1 t) (iblk2 V c 0 t) (iblk2 V c 2 t) (iblk2 V c 3 t) (iblk2 V c 4 t) (iblk2 V c 5 t) : FVec Ideal S5000x64 .bf16) y
      = G2 V c (((cfg2.win 6).blk t).view.emb y)
  unfold G2
  refine pay2_block (iblk2 V c 1 t) (iblk2 V c 0 t) (iblk2 V c 2 t) (iblk2 V c 3 t) (iblk2 V c 4 t) (iblk2 V c 5 t)
    (V c main_v15) (V c main_v27) (V c main_v44) (V c main_v40) (V c main_v43) (V c main_arg5) t.val
    (fun x k hk0 hk1 => iblk2_1_apply V c t x k hk0 hk1) (fun x k hk0 hk1 => iblk2_0_apply V c t x k hk0 hk1)
    (fun x => iblk2_2_apply V c t x) (fun x => iblk2_3_apply V c t x) (fun x => iblk2_4_apply V c t x) (fun x => iblk2_5_apply V c t x)
    y (((cfg2.win 6).blk t).view.emb y) ?_ ?_
  · show win2_6.index t (0 : Fin 2) * 5000 + 1 * (y 0).val = 5000 * t.val + (y 0).val; rw [e60]; omega
  · show win2_6.index t (1 : Fin 2) * 64 + 1 * (y 1).val = (y 1).val; rw [e61]; omega

/-- An index of the array is in point `t`'s block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v45).slice (win2_6.rect t)).set ↔ _
  rw [View.set_slice_whole, Rect.mem_set_unit]
  exact Iff.rfl

/-- Every index is in the block of the point its row falls in. -/
theorem cover2 (i : S100000x64.Idx) : ∃ t : Fin cfg2.N, (cfg2.win 6).flush t = true ∧ i ∈ ((cfg2.win 6).blk t).view.set := by
  have hi0 : (i 0).val < 100000 := idx2_lt0 i
  have hi1 : (i 1).val < 64 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e60, e61⟩ := idx_facts2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e60]; omega
  | ⟨1, _⟩ => show win2_6.index t (1 : Fin 2) * 64 ≤ (i 1).val ∧ (i 1).val < win2_6.index t (1 : Fin 2) * 64 + 64; rw [e61]; omega

/-- THE ARRAY after the region: `G2` of the arrays as the region found them. -/
theorem final2 (c : Dev nD) : (dat2 V c).arrAt 6 cfg2.N = G2 V c :=
  (dat2 V c).arrAt_eq_of_cover 6 (G2 V c) (fun t _ => flushed2_eq V c t) cover2

/-- THE OUTPUT ARRAY of the second product, entry by entry: the edge sums scaled by the target's factor plus the bias,
    normalised by one scale and one shift a column, rectified, projected, each row scaled by its own node's factor. -/
theorem arr2_out (c : Dev nD) (n : Fin 100000) (j : Fin 64) :
    ((dat2 V c).arrAt 6 cfg2.N : S100000x64.Idx → EReal) (ix2 n j)
      = Cert.Spec.kerPre (fun n : Fin 100000 => (V c main_v15 : S100000x1.Idx → EReal) (ix2 n (0 : Fin 1)))
          (Cert.Spec.kerBn (fun k : Fin 64 => (V c main_v40 : S1x64.Idx → EReal) (ix2 (0 : Fin 1) k))
            (fun k : Fin 64 => (V c main_v43 : S1x64.Idx → EReal) (ix2 (0 : Fin 1) k))
            (Cert.Spec.kerAgg (fun n : Fin 100000 => (V c main_v15 : S100000x1.Idx → EReal) (ix2 n (0 : Fin 1)))
              (fun (n : Fin 100000) (k : Fin 64) => (V c main_v27 : S100000x64.Idx → EReal) (ix2 n k))
              (fun k : Fin 64 => (V c main_v44 : S1x64.Idx → EReal) (ix2 (0 : Fin 1) k))))
          (fun (k : Fin 64) (j : Fin 64) => (V c main_arg5 : S64x64.Idx → EReal) (ix2 k j)) n j := by
  rw [final2]
  rfl

end Cert.KernelIdeal.HandVal

end
-- ==== Proof.KI.Val3.lean ====
import proofs.«411316_j29850022707326_3_alg».proof.Proof.KI.R3
import proofs.«411316_j29850022707326_3_alg».proof.Proof.Spec
import proofs.«411316_j29850022707326_3_alg».proof.Proof.LibSumBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! # The two column sums `cc3__bn_stats_kernel` leaves, entry by entry, at the ideal instance

The region adds, into two one-row outputs that are zeroed at the first point, the aggregated rows of each row block
(the edge sum scaled by its row's factor, plus the bias) and their squares, summed down the block's rows. Read at a
column, one point's update adds the block's share; by induction over the points the outputs hold the shares of the
blocks so far; the ten blocks' rows are all the rows; and the one block each output writes back, after the last point,
is its whole array. So after the region the two arrays hold each column's sum, and sum of squares, over all the rows. -/

/-! ## One column broadcast over many -/

/-- An `[a, 1]` array broadcast to `[a, b]` reads, at `(p, q)`, the operand's one column at row `p`. -/
theorem bcol3_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's values at an entry -/

/-- The row the first point stores into the running sum is zero. -/
theorem k3_pay1_apply (i : S1x64.Idx) : (k3_pay1 (F := Ideal) : FVec Ideal S1x64 .f32) i = 0 := by
  unfold k3_pay1
  show Ideal.ofBits .f32 0x00000000#32 = 0
  exact Ideal.ofBits_zero_f32

/-- The row the first point stores into the running sum of squares is zero. -/
theorem k3_pay2_apply (i : S1x64.Idx) : (k3_pay2 (F := Ideal) : FVec Ideal S1x64 .f32) i = 0 := by
  unfold k3_pay2
  show Ideal.ofBits .f32 0x00000000#32 = 0
  exact Ideal.ofBits_zero_f32

/-- The aggregated block at an entry: the edge sum's entry scaled by its row's factor, plus the column's bias. -/
theorem k3_pay3_apply (v3 : Vec Ideal S10000x64 .f32) (v5 : Vec Ideal S10000x1 .f32) (v9 : Vec Ideal S1x64 .f32) (r : Fin 10000) (k : Fin 64) :
    (k3_pay3 v3 v5 v9 : FVec Ideal S10000x64 .f32) (ix2 r k) = v3 (ix2 r k) * v5 (ix2 r (0 : Fin 1)) + v9 (ix2 (0 : Fin 1) k) := by
  unfold k3_pay3
  rw [addf_apply, mulf_apply, shapeCast_self, shapeCast_self, shapeCast_self, bcol3_apply, broadcastTo_1b_ab_apply]

/-- A sum down the rows of a block, read at a column: the lane sum over the 10000 rows. -/
theorem colsum3_apply (src : FVec Ideal S10000x64 .f32) (hφ : FKind.Formats .f32) (hacc : (0x00000000#32 : BitVec 32) = 0x00000000#32) (k : Fin 64) :
    multiReduction (F := Ideal) .add [0] S64 src 0x00000000#32 reduces_S10000x64_S64 hφ hacc (ix1 k) = ∑ r : Fin 10000, src (ix2 r k) := by
  refine (Ideal.multiReduction_add_single src 0x00000000#32 reduces_S10000x64_S64 hφ hacc (ix1 k)).trans ?_
  show ∑ r : Fin 10000, src (reduces_S10000x64_S64.lift (ix1 k) r) = _
  refine Finset.sum_congr rfl fun r _ => congrArg src ?_
  funext a
  match a with
  | ⟨0, _⟩ => rfl
  | ⟨1, _⟩ => rfl

/-- The running sum's update at a column: what it held plus the aggregated block summed down its rows. -/
theorem k3_pay4_apply (v3 : Vec Ideal S10000x64 .f32) (v5 : Vec Ideal S10000x1 .f32) (v9 : Vec Ideal S1x64 .f32) (v13 : Vec Ideal S1x64 .f32) (k : Fin 64) :
    (k3_pay4 v3 v5 v9 v13 : FVec Ideal S1x64 .f32) (ix2 (0 : Fin 1) k)
      = v13 (ix2 (0 : Fin 1) k) + ∑ r : Fin 10000, (v3 (ix2 r k) * v5 (ix2 r (0 : Fin 1)) + v9 (ix2 (0 : Fin 1) k)) := by
  unfold k3_pay4
  rw [addf_apply, shapeCast_self, shapeCast_a_1a_apply]
  refine congrArg (v13 (ix2 (0 : Fin 1) k) + ·) ((colsum3_apply _ _ _ k).trans (Finset.sum_congr rfl fun r _ => ?_))
  exact k3_pay3_apply v3 v5 v9 r k

/-- The running sum of squares' update at a column: what it held plus the squared aggregated block summed down its rows. -/
theorem k3_pay5_apply (v3 : Vec Ideal S10000x64 .f32) (v5 : Vec Ideal S10000x1 .f32) (v9 : Vec Ideal S1x64 .f32) (v19 : Vec Ideal S1x64 .f32) (k : Fin 64) :
    (k3_pay5 v3 v5 v9 v19 : FVec Ideal S1x64 .f32) (ix2 (0 : Fin 1) k)
      = v19 (ix2 (0 : Fin 1) k) + ∑ r : Fin 10000, (v3 (ix2 r k) * v5 (ix2 r (0 : Fin 1)) + v9 (ix2 (0 : Fin 1) k)) * (v3 (ix2 r k) * v5 (ix2 r (0 : Fin 1)) + v9 (ix2 (0 : Fin 1) k)) := by
  unfold k3_pay5
  rw [addf_apply, shapeCast_self, shapeCast_a_1a_apply]
  refine congrArg (v19 (ix2 (0 : Fin 1) k) + ·) ((colsum3_apply _ _ _ k).trans (Finset.sum_congr rfl fun r _ => ?_))
  rw [mulf_apply, k3_pay3_apply]

/-! ## From the blocks to the arrays -/

-- the TensorCore's buffer contents when the region is entered
variable (V : (c : Dev nD) → (b : Ref sig .tc) → Buf (Elt Ideal) ((c : Thread nD τ).loc b))

/-- The printed index maps, decided over the ten points: the edge sums and the row factors move down their rows one
    block a point; the bias row and the two outputs stay. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The edge sums' block at point `t` is rows `10000 t … 10000 t + 9999` of the array. -/
theorem iblk3_0_apply (c : Dev nD) (t : Fin cfg3.N) (x : S10000x64.Idx) (k : S100000x64.Idx)
    (hk0 : (k 0).val = 10000 * t.val + (x 0).val) (hk1 : (k 1).val = (x 1).val) :
    (iblk3 V c 0 t : Vec Ideal S10000x64 .f32) x = (V c main_v56 : S100000x64.Idx → EReal) k := by
  obtain ⟨h0, h1, -⟩ := idx_facts3 t
  unfold iblk3
  rw [View.read_apply]
  show V c main_v56 _ = V c main_v56 _
  congr 1
  funext a
  apply Fin.ext
  match a with
  | ⟨0, _⟩ => show win3_0.index t (0 : Fin 2) * 10000 + 1 * (x 0).val = (k 0).val; rw [h0, hk0]; omega
  | ⟨1, _⟩ => show win3_0.index t (1 : Fin 2) * 64 + 1 * (x 1).val = (k 1).val; rw [h1, hk1]; omega

/-- The row factors' block at point `t` is rows `10000 t … 10000 t + 9999` of the column. -/
theorem iblk3_1_apply (c : Dev nD) (t : Fin cfg3.N) (x : S10000x1.Idx) (k : S100000x1.Idx)
    (hk0 : (k 0).val = 10000 * t.val + (x 0).val) (hk1 : (k 1).val = (x 1).val) :
    (iblk3 V c 1 t : Vec Ideal S10000x1 .f32) x = (V c main_v15 : S100000x1.Idx → EReal) k := by
  obtain ⟨-, -, h0, h1, -⟩ := idx_facts3 t
  unfold iblk3
  rw [View.read_apply]
  show V c main_v15 _ = V c main_v15 _
  congr 1
  funext a
  apply Fin.ext
  match a with
  | ⟨0, _⟩ => show win3_1.index t (0 : Fin 2) * 10000 + 1 * (x 0).val = (k 0).val; rw [h0, hk0]; omega
  | ⟨1, _⟩ => show win3_1.index t (1 : Fin 2) * 1 + 1 * (x 1).val = (k 1).val; rw [h1, hk1]; omega

/-- The bias row's block at every point is the whole row. -/
theorem iblk3_2_apply (c : Dev nD) (t : Fin cfg3.N) (x : S1x64.Idx) :
    (iblk3 V c 2 t : Vec Ideal S1x64 .f32) x = (V c main_v57 : S1x64.Idx → EReal) x := by
  obtain ⟨-, -, -, -, h0, h1, -⟩ := idx_facts3 t
  unfold iblk3
  rw [View.read_apply]
  show V c main_v57 _ = V c main_v57 _
  congr 1
  funext a
  apply Fin.ext
  match a with
  | ⟨0, _⟩ => show win3_2.index t (0 : Fin 2) * 1 + 1 * (x 0).val = (x 0).val; rw [h0]; omega
  | ⟨1, _⟩ => show win3_2.index t (1 : Fin 2) * 64 + 1 * (x 1).val = (x 1).val; rw [h1]; omega

/-! ## The running sums, point by point -/

/-- The aggregated rows, from the arrays as the region finds them. -/
def agg3 (c : Dev nD) : Fin 100000 → Fin 64 → EReal :=
  Cert.Spec.kerAgg (fun n : Fin 100000 => (V c main_v15 : S100000x1.Idx → EReal) (ix2 n (0 : Fin 1)))
    (fun (n : Fin 100000) (k : Fin 64) => (V c main_v56 : S100000x64.Idx → EReal) (ix2 n k))
    (fun k : Fin 64 => (V c main_v57 : S1x64.Idx → EReal) (ix2 (0 : Fin 1) k))

/-- Row block `t`'s share of column `k`'s sum (nothing past the last block). -/
def bsum3 (c : Dev nD) (t : ℕ) (k : Fin 64) : EReal :=
  if h : t < 10 then ∑ r : Fin 10000, agg3 V c ⟨10000 * t + r.val, by have := r.isLt; omega⟩ k else 0

/-- Row block `t`'s share of column `k`'s sum of squares. -/
def bsq3 (c : Dev nD) (t : ℕ) (k : Fin 64) : EReal :=
  if h : t < 10 then ∑ r : Fin 10000, agg3 V c ⟨10000 * t + r.val, by have := r.isLt; omega⟩ k * agg3 V c ⟨10000 * t + r.val, by have := r.isLt; omega⟩ k else 0

omit V in
/-- ONE POINT'S UPDATE OF THE SUM: if the three blocks are rows `10000 T …` of the edge sums and of the row factors and
    the whole bias row, the update at column `k` adds, to what the sum held, the aggregated rows of that block. -/
theorem k3_pay4_block (x0 : Vec Ideal S10000x64 .f32) (x1 : Vec Ideal S10000x1 .f32) (x2 : Vec Ideal S1x64 .f32) (acc : Vec Ideal S1x64 .f32)
    (RAW : S100000x64.Idx → EReal) (DIS : S100000x1.Idx → EReal) (B : S1x64.Idx → EReal) (T : ℕ) (hT : T < 10)
    (h0 : ∀ (x : S10000x64.Idx) (i : S100000x64.Idx), (i 0).val = 10000 * T + (x 0).val → (i 1).val = (x 1).val → x0 x = RAW i)
    (h1 : ∀ (x : S10000x1.Idx) (i : S100000x1.Idx), (i 0).val = 10000 * T + (x 0).val → (i 1).val = (x 1).val → x1 x = DIS i)
    (h2 : ∀ x : S1x64.Idx, x2 x = B x) (k : Fin 64) :
    (k3_pay4 x0 x1 x2 acc : FVec Ideal S1x64 .f32) (ix2 (0 : Fin 1) k)
      = acc (ix2 (0 : Fin 1) k) + ∑ r : Fin 10000, Cert.Spec.kerAgg (fun n : Fin 100000 => DIS (ix2 n (0 : Fin 1))) (fun (n : Fin 100000) (j : Fin 64) => RAW (ix2 n j)) (fun j : Fin 64 => B (ix2 (0 : Fin 1) j)) ⟨10000 * T + r.val, by have := r.isLt; omega⟩ k := by
  rw [k3_pay4_apply]
  refine congrArg (acc (ix2 (0 : Fin 1) k) + ·) (Finset.sum_congr rfl fun r _ => ?_)
  unfold Cert.Spec.kerAgg
  rw [h0 (ix2 r k) (ix2 ⟨10000 * T + r.val, by have := r.isLt; omega⟩ k) rfl rfl,
    h1 (ix2 r (0 : Fin 1)) (ix2 ⟨10000 * T + r.val, by have := r.isLt; omega⟩ (0 : Fin 1)) rfl rfl, h2]

omit V in
/-- ONE POINT'S UPDATE OF THE SUM OF SQUARES, likewise. -/
theorem k3_pay5_block (x0 : Vec Ideal S10000x64 .f32) (x1 : Vec Ideal S10000x1 .f32) (x2 : Vec Ideal S1x64 .f32) (acc : Vec Ideal S1x64 .f32)
    (RAW : S100000x64.Idx → EReal) (DIS : S100000x1.Idx → EReal) (B : S1x64.Idx → EReal) (T : ℕ) (hT : T < 10)
    (h0 : ∀ (x : S10000x64.Idx) (i : S100000x64.Idx), (i 0).val = 10000 * T + (x 0).val → (i 1).val = (x 1).val → x0 x = RAW i)
    (h1 : ∀ (x : S10000x1.Idx) (i : S100000x1.Idx), (i 0).val = 10000 * T + (x 0).val → (i 1).val = (x 1).val → x1 x = DIS i)
    (h2 : ∀ x : S1x64.Idx, x2 x = B x) (k : Fin 64) :
    (k3_pay5 x0 x1 x2 acc : FVec Ideal S1x64 .f32) (ix2 (0 : Fin 1) k)
      = acc (ix2 (0 : Fin 1) k) + ∑ r : Fin 10000, (Cert.Spec.kerAgg (fun n : Fin 100000 => DIS (ix2 n (0 : Fin 1))) (fun (n : Fin 100000) (j : Fin 64) => RAW (ix2 n j)) (fun j : Fin 64 => B (ix2 (0 : Fin 1) j)) ⟨10000 * T + r.val, by have := r.isLt; omega⟩ k) * (Cert.Spec.kerAgg (fun n : Fin 100000 => DIS (ix2 n (0 : Fin 1))) (fun (n : Fin 100000) (j : Fin 64) => RAW (ix2 n j)) (fun j : Fin 64 => B (ix2 (0 : Fin 1) j)) ⟨10000 * T + r.val, by have := r.isLt; omega⟩ k) := by
  rw [k3_pay5_apply]
  refine congrArg (acc (ix2 (0 : Fin 1) k) + ·) (Finset.sum_congr rfl fun r _ => ?_)
  unfold Cert.Spec.kerAgg
  rw [h0 (ix2 r k) (ix2 ⟨10000 * T + r.val, by have := r.isLt; omega⟩ k) rfl rfl,
    h1 (ix2 r (0 : Fin 1)) (ix2 ⟨10000 * T + r.val, by have := r.isLt; omega⟩ (0 : Fin 1)) rfl rfl, h2]

/-- THE ACCUMULATION, read: after point `n` the first output holds, at column `k`, the sum of the aggregated rows of
    blocks `0 … n`, and the second the sum of their squares: by induction on the point. -/
theorem outsAt3_val (c : Dev nD) : ∀ (n : ℕ) (h : n < cfg3.N) (k : Fin 64),
    ((outsAt3 V c n h).1 : Vec Ideal S1x64 .f32) (ix2 (0 : Fin 1) k) = ∑ t ∈ Finset.range (n + 1), bsum3 V c t k
    ∧ ((outsAt3 V c n h).2 : Vec Ideal S1x64 .f32) (ix2 (0 : Fin 1) k) = ∑ t ∈ Finset.range (n + 1), bsq3 V c t k
  | 0, h, k => by
    rw [outsAt3_A V c ⟨0, h⟩ rfl]
    dsimp only
    rw [out3_A_3_eq, out3_A_4_eq, Finset.sum_range_one, Finset.sum_range_one]
    constructor
    · refine (k3_pay4_block (iblk3 V c 0 ⟨0, h⟩) (iblk3 V c 1 ⟨0, h⟩) (iblk3 V c 2 ⟨0, h⟩) (k3_pay1 (F := Ideal))
        (V c main_v56) (V c main_v15) (V c main_v57) 0 (by omega)
        (fun x i hi0 hi1 => iblk3_0_apply V c ⟨0, h⟩ x i hi0 hi1) (fun x i hi0 hi1 => iblk3_1_apply V c ⟨0, h⟩ x i hi0 hi1)
        (fun x => iblk3_2_apply V c ⟨0, h⟩ x) k).trans ?_
      rw [k3_pay1_apply, zero_add]
      unfold bsum3 agg3
      rw [dif_pos (by omega)]
    · refine (k3_pay5_block (iblk3 V c 0 ⟨0, h⟩) (iblk3 V c 1 ⟨0, h⟩) (iblk3 V c 2 ⟨0, h⟩) (k3_pay2 (F := Ideal))
        (V c main_v56) (V c main_v15) (V c main_v57) 0 (by omega)
        (fun x i hi0 hi1 => iblk3_0_apply V c ⟨0, h⟩ x i hi0 hi1) (fun x i hi0 hi1 => iblk3_1_apply V c ⟨0, h⟩ x i hi0 hi1)
        (fun x => iblk3_2_apply V c ⟨0, h⟩ x) k).trans ?_
      rw [k3_pay2_apply, zero_add]
      unfold bsq3 agg3
      rw [dif_pos (by omega)]
  | n + 1, h, k => by
    have hN : cfg3.N = 10 := N_3
    have hB : ¬(⟨n + 1, h⟩ : Fin cfg3.N).val % 10 = 0 := by dsimp only; omega
    have ih := outsAt3_val c n (Nat.lt_of_succ_lt h) k
    rw [outsAt3_B V c ⟨n + 1, h⟩ hB]
    dsimp only
    rw [out3_B_3_eq, out3_B_4_eq, Finset.sum_range_succ _ (n + 1), Finset.sum_range_succ _ (n + 1)]
    constructor
    · refine (k3_pay4_block (iblk3 V c 0 ⟨n + 1, h⟩) (iblk3 V c 1 ⟨n + 1, h⟩) (iblk3 V c 2 ⟨n + 1, h⟩) (outsAt3 V c n (Nat.lt_of_succ_lt h)).1
        (V c main_v56) (V c main_v15) (V c main_v57) (n + 1) (by omega)
        (fun x i hi0 hi1 => iblk3_0_apply V c ⟨n + 1, h⟩ x i hi0 hi1) (fun x i hi0 hi1 => iblk3_1_apply V c ⟨n + 1, h⟩ x i hi0 hi1)
        (fun x => iblk3_2_apply V c ⟨n + 1, h⟩ x) k).trans ?_
      rw [ih.1]
      refine congrArg (_ + ·) ?_
      unfold bsum3 agg3
      rw [dif_pos (by omega)]
    · refine (k3_pay5_block (iblk3 V c 0 ⟨n + 1, h⟩) (iblk3 V c 1 ⟨n + 1, h⟩) (iblk3 V c 2 ⟨n + 1, h⟩) (outsAt3 V c n (Nat.lt_of_succ_lt h)).2
        (V c main_v56) (V c main_v15) (V c main_v57) (n + 1) (by omega)
        (fun x i hi0 hi1 => iblk3_0_apply V c ⟨n + 1, h⟩ x i hi0 hi1) (fun x i hi0 hi1 => iblk3_1_apply V c ⟨n + 1, h⟩ x i hi0 hi1)
        (fun x => iblk3_2_apply V c ⟨n + 1, h⟩ x) k).trans ?_
      rw [ih.2]
      refine congrArg (_ + ·) ?_
      unfold bsq3 agg3
      rw [dif_pos (by omega)]

/-! ## The two output arrays after the region -/

/-- What the sums' array ends holding. -/
def G3sum (c : Dev nD) : S1x64.Idx → EReal := fun i => Cert.Spec.kerSum (agg3 V c) ⟨(i 1).val, idx2_lt1 i⟩

/-- It depends on the column alone. -/
theorem G3sum_apply (c : Dev nD) (i : S1x64.Idx) (k : Fin 64) (hk : (i 1).val = k.val) : G3sum V c i = Cert.Spec.kerSum (agg3 V c) k := by
  unfold G3sum
  exact congrArg (Cert.Spec.kerSum (agg3 V c)) (Fin.ext hk)

/-- The ten blocks' shares make the whole column's: the rows are the ten blocks' rows, one after another. -/
theorem total3_3 (c : Dev nD) (k : Fin 64) : ∑ t ∈ Finset.range 10, bsum3 V c t k = Cert.Spec.kerSum (agg3 V c) k := by
  rw [Finset.sum_range]
  unfold Cert.Spec.kerSum
  rw [← Cert.LibSumBlocks.sum_blocks (A := 10) (B := 10000) (N := 100000) rfl]
  refine Finset.sum_congr rfl fun t _ => ?_
  unfold bsum3
  rw [dif_pos t.isLt]

omit V in
/-- The output's one block, written back, is the whole array: a row that agrees with `G` column by column is the
    block of `G` the write-back reads. -/
theorem whole3_3 (t : Fin cfg3.N) (O : Vec Ideal S1x64 .f32) (G : S1x64.Idx → EReal)
    (h : ∀ (k : Fin 64) (i : S1x64.Idx), (i 1).val = k.val → O (ix2 (0 : Fin 1) k) = G i) :
    (cfg3.win 3).cut (grid3.coords t) O = ((cfg3.win 3).blk t).view.read (Elt Ideal) G := by
  obtain ⟨-, -, -, -, -, -, e0, e1, -⟩ := idx_facts3 t
  funext y
  show O y = G (((cfg3.win 3).blk t).view.emb y)
  obtain ⟨u, k, rfl⟩ : ∃ (u : Fin 1) (k : Fin 64), y = ix2 u k := ⟨y 0, y 1, eq_ix2 y⟩
  obtain rfl : u = 0 := Subsingleton.elim u 0
  refine h k _ ?_
  show win3_3.index t (1 : Fin 2) * 64 + 1 * k.val = k.val
  rw [e1]; omega

/-- WHAT THE LAST POINT WRITES BACK is the one block of `G3sum`. -/
theorem flushed3_3_eq (c : Dev nD) (t : Fin cfg3.N) (hf : (cfg3.win 3).flush t = true) :
    (dat3 V c).flushed 3 t = ((cfg3.win 3).blk t).view.read (Elt Ideal) (G3sum V c) := by
  have hN : cfg3.N = 10 := N_3
  have h9 : t.val = 9 := by have := (flush3_3 t).mp hf; have := t.isLt; omega
  show (cfg3.win 3).cut (grid3.coords t) ((dat3 V c).after 3 t) = _
  rw [after3_3]
  exact whole3_3 t (outsAt3 V c t.val t.isLt).1 (G3sum V c) fun k i hi =>
    ((outsAt3_val V c t.val t.isLt k).1.trans (by rw [h9]; exact total3_3 V c k)).trans (G3sum_apply V c i k hi).symm

/-- An index of the array is in point `t`'s block iff each coordinate is in the block's range on its axis. -/
theorem mem_blk3_3 (t : Fin cfg3.N) (i : S1x64.Idx) :
    i ∈ ((cfg3.win 3).blk t).view.set ↔ ∀ a : Fin 2, win3_3.index t a * S1x64.size a ≤ (i a).val ∧ (i a).val < win3_3.index t a * S1x64.size a + S1x64.size a := by
  show i ∈ ((View.whole main_v58_0).slice (win3_3.rect t)).set ↔ _
  rw [View.set_slice_whole, Rect.mem_set_unit]
  exact Iff.rfl

/-- Every index is in the last point's block, the one block there is. -/
theorem cover3_3 (i : S1x64.Idx) : ∃ t : Fin cfg3.N, (cfg3.win 3).flush t = true ∧ i ∈ ((cfg3.win 3).blk t).view.set := by
  have hi0 : (i 0).val < 1 := idx2_lt0 i
  have hi1 : (i 1).val < 64 := idx2_lt1 i
  have hN : cfg3.N = 10 := N_3
  obtain ⟨t, ht⟩ : ∃ t : Fin cfg3.N, t.val = 9 := ⟨⟨9, by rw [hN]; omega⟩, rfl⟩
  obtain ⟨-, -, -, -, -, -, e0, e1, -⟩ := idx_facts3 t
  refine ⟨t, (flush3_3 t).mpr (by rw [ht]), ?_⟩
  rw [mem_blk3_3]
  intro a
  match a with
  | ⟨0, _⟩ => show win3_3.index t (0 : Fin 2) * 1 ≤ (i 0).val ∧ (i 0).val < win3_3.index t (0 : Fin 2) * 1 + 1; rw [e0]; omega
  | ⟨1, _⟩ => show win3_3.index t (1 : Fin 2) * 64 ≤ (i 1).val ∧ (i 1).val < win3_3.index t (1 : Fin 2) * 64 + 64; rw [e1]; omega

/-- THE ARRAY after the region: `G3sum` of the arrays as the region found them. -/
theorem final3_3 (c : Dev nD) : (dat3 V c).arrAt 3 cfg3.N = G3sum V c :=
  (dat3 V c).arrAt_eq_of_cover 3 (G3sum V c) (fun t hf => flushed3_3_eq V c t hf) cover3_3

/-- What the sums of squares' array ends holding. -/
def G3sq (c : Dev nD) : S1x64.Idx → EReal := fun i => Cert.Spec.kerSq (agg3 V c) ⟨(i 1).val, idx2_lt1 i⟩

/-- It depends on the column alone. -/
theorem G3sq_apply (c : Dev nD) (i : S1x64.Idx) (k : Fin 64) (hk : (i 1).val = k.val) : G3sq V c i = Cert.Spec.kerSq (agg3 V c) k := by
  unfold G3sq
  exact congrArg (Cert.Spec.kerSq (agg3 V c)) (Fin.ext hk)

/-- The ten blocks' shares make the whole column's: the rows are the ten blocks' rows, one after another. -/
theorem total3_4 (c : Dev nD) (k : Fin 64) : ∑ t ∈ Finset.range 10, bsq3 V c t k = Cert.Spec.kerSq (agg3 V c) k := by
  rw [Finset.sum_range]
  unfold Cert.Spec.kerSq
  rw [← Cert.LibSumBlocks.sum_blocks (A := 10) (B := 10000) (N := 100000) rfl]
  refine Finset.sum_congr rfl fun t _ => ?_
  unfold bsq3
  rw [dif_pos t.isLt]

omit V in
/-- The output's one block, written back, is the whole array: a row that agrees with `G` column by column is the
    block of `G` the write-back reads. -/
theorem whole3_4 (t : Fin cfg3.N) (O : Vec Ideal S1x64 .f32) (G : S1x64.Idx → EReal)
    (h : ∀ (k : Fin 64) (i : S1x64.Idx), (i 1).val = k.val → O (ix2 (0 : Fin 1) k) = G i) :
    (cfg3.win 4).cut (grid3.coords t) O = ((cfg3.win 4).blk t).view.read (Elt Ideal) G := by
  obtain ⟨-, -, -, -, -, -, -, -, e0, e1⟩ := idx_facts3 t
  funext y
  show O y = G (((cfg3.win 4).blk t).view.emb y)
  obtain ⟨u, k, rfl⟩ : ∃ (u : Fin 1) (k : Fin 64), y = ix2 u k := ⟨y 0, y 1, eq_ix2 y⟩
  obtain rfl : u = 0 := Subsingleton.elim u 0
  refine h k _ ?_
  show win3_4.index t (1 : Fin 2) * 64 + 1 * k.val = k.val
  rw [e1]; omega

/-- WHAT THE LAST POINT WRITES BACK is the one block of `G3sq`. -/
theorem flushed3_4_eq (c : Dev nD) (t : Fin cfg3.N) (hf : (cfg3.win 4).flush t = true) :
    (dat3 V c).flushed 4 t = ((cfg3.win 4).blk t).view.read (Elt Ideal) (G3sq V c) := by
  have hN : cfg3.N = 10 := N_3
  have h9 : t.val = 9 := by have := (flush3_4 t).mp hf; have := t.isLt; omega
  show (cfg3.win 4).cut (grid3.coords t) ((dat3 V c).after 4 t) = _
  rw [after3_4]
  exact whole3_4 t (outsAt3 V c t.val t.isLt).2 (G3sq V c) fun k i hi =>
    ((outsAt3_val V c t.val t.isLt k).2.trans (by rw [h9]; exact total3_4 V c k)).trans (G3sq_apply V c i k hi).symm

/-- An index of the array is in point `t`'s block iff each coordinate is in the block's range on its axis. -/
theorem mem_blk3_4 (t : Fin cfg3.N) (i : S1x64.Idx) :
    i ∈ ((cfg3.win 4).blk t).view.set ↔ ∀ a : Fin 2, win3_4.index t a * S1x64.size a ≤ (i a).val ∧ (i a).val < win3_4.index t a * S1x64.size a + S1x64.size a := by
  show i ∈ ((View.whole main_v58_1).slice (win3_4.rect t)).set ↔ _
  rw [View.set_slice_whole, Rect.mem_set_unit]
  exact Iff.rfl

/-- Every index is in the last point's block, the one block there is. -/
theorem cover3_4 (i : S1x64.Idx) : ∃ t : Fin cfg3.N, (cfg3.win 4).flush t = true ∧ i ∈ ((cfg3.win 4).blk t).view.set := by
  have hi0 : (i 0).val < 1 := idx2_lt0 i
  have hi1 : (i 1).val < 64 := idx2_lt1 i
  have hN : cfg3.N = 10 := N_3
  obtain ⟨t, ht⟩ : ∃ t : Fin cfg3.N, t.val = 9 := ⟨⟨9, by rw [hN]; omega⟩, rfl⟩
  obtain ⟨-, -, -, -, -, -, -, -, e0, e1⟩ := idx_facts3 t
  refine ⟨t, (flush3_4 t).mpr (by rw [ht]), ?_⟩
  rw [mem_blk3_4]
  intro a
  match a with
  | ⟨0, _⟩ => show win3_4.index t (0 : Fin 2) * 1 ≤ (i 0).val ∧ (i 0).val < win3_4.index t (0 : Fin 2) * 1 + 1; rw [e0]; omega
  | ⟨1, _⟩ => show win3_4.index t (1 : Fin 2) * 64 ≤ (i 1).val ∧ (i 1).val < win3_4.index t (1 : Fin 2) * 64 + 64; rw [e1]; omega

/-- THE ARRAY after the region: `G3sq` of the arrays as the region found them. -/
theorem final3_4 (c : Dev nD) : (dat3 V c).arrAt 4 cfg3.N = G3sq V c :=
  (dat3 V c).arrAt_eq_of_cover 4 (G3sq V c) (fun t hf => flushed3_4_eq V c t hf) cover3_4

/-- THE FIRST OUTPUT ARRAY, entry by entry: each column's sum of the aggregated rows (the edge sum scaled by its row's
    factor, plus the bias) over all 100000 rows. -/
theorem arr3_sum (c : Dev nD) (j : Fin 64) :
    ((dat3 V c).arrAt 3 cfg3.N : S1x64.Idx → EReal) (ix2 (0 : Fin 1) j)
      = Cert.Spec.kerSum (Cert.Spec.kerAgg (fun n : Fin 100000 => (V c main_v15 : S100000x1.Idx → EReal) (ix2 n (0 : Fin 1)))
            (fun (n : Fin 100000) (k : Fin 64) => (V c main_v56 : S100000x64.Idx → EReal) (ix2 n k))
            (fun k : Fin 64 => (V c main_v57 : S1x64.Idx → EReal) (ix2 (0 : Fin 1) k))) j := by
  rw [final3_3]
  exact G3sum_apply V c (ix2 (0 : Fin 1) j) j rfl

/-- THE SECOND OUTPUT ARRAY, entry by entry: each column's sum of the squared aggregated rows. -/
theorem arr3_sq (c : Dev nD) (j : Fin 64) :
    ((dat3 V c).arrAt 4 cfg3.N : S1x64.Idx → EReal) (ix2 (0 : Fin 1) j)
      = Cert.Spec.kerSq (Cert.Spec.kerAgg (fun n : Fin 100000 => (V c main_v15 : S100000x1.Idx → EReal) (ix2 n (0 : Fin 1)))
            (fun (n : Fin 100000) (k : Fin 64) => (V c main_v56 : S100000x64.Idx → EReal) (ix2 n k))
            (fun k : Fin 64 => (V c main_v57 : S1x64.Idx → EReal) (ix2 (0 : Fin 1) k))) j := by
  rw [final3_4]
  exact G3sq_apply V c (ix2 (0 : Fin 1) j) j rfl

end Cert.KernelIdeal.HandVal

end
-- ==== Proof.KI.Val4Pay.lean ====
/-
  Region 4's payloads read at an index, at the ideal instance: the one-hot block of a batch-id column, the two pooled
  products (node counts and normalised, rectified rows) as sums over the block's rows, the carried accumulators'
  reset and update, and the head (mean by the clamped count, then the linear map).
-/
import proofs.«411316_j29850022707326_3_alg».proof.Proof.Gen.KernelIdeal.Skeleton
import proofs.«411316_j29850022707326_3_alg».proof.Proof.Spec
import Idealize.ShloMosaic.Lib.ValueIdx
import Idealize.ShloMosaic.Lib.Pipeline.Value
import Idealize.ShloMosaic.PureOps.Ideal.Laws

noncomputable section

namespace Cert.KernelIdeal.HandVal

open Cert.KernelIdeal Cert.KernelIdeal.Gen Idealize.ShloMosaic Idealize.ShloMosaic.ValueIdx
open scoped BigOperators

/-! ## Words: the one-hot entry -/

/-- The widened, converted bit of a word comparison is 1 where the words are equal and 0 elsewhere. -/
theorem sitofp_extui_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have hc : IntOp.cmpi .eq a b = 1#1 := by simp [IntOp.cmpi, h]
    have h1 : ((1#1 : BitVec 1).setWidth 32).toInt = 1 := by decide
    rw [hc, h1, if_pos h]; simp
  · have hc : IntOp.cmpi .eq a b = 0#1 := by
      show BitVec.ofBool (a == b) = 0#1
      rw [beq_eq_false_iff_ne.mpr h]; rfl
    have h0 : ((0#1 : BitVec 1).setWidth 32).toInt = 0 := by decide
    rw [hc, h0, if_neg h]; simp

/-! ## The one-hot block -/

/-- Entry `(r, g)` of the one-hot block of a batch-id column: 1 where row `r`'s id is the word `g`, else 0. -/
theorem k4_pay6_apply (v24 : Vec Ideal S5000x1 .i32) (r : Fin 5000) (g : Fin 128) :
    k4_pay6 (F := Ideal) v24 (ix2 r g) = if v24 (ix2 r 0) = BitVec.ofNat 32 g.val then 1 else 0 := by
  have hb : broadcastTo S5000x128 (shapeCast S5000x1 v24 shapeCasts_S5000x1_S5000x1) broadcasts_S5000x1_S5000x128 (ix2 r g)
      = v24 (ix2 r 0) := by
    rw [shapeCast_self]
    exact broadcastTo_apply _ _ _ _ (fun a => by match a with | ⟨0, _⟩ => rfl | ⟨1, _⟩ => rfl)
  have hi : iota .tc S5000x128 32 [1] iota_S5000x128_d1_w32 (ix2 r g) = BitVec.ofNat 32 g.val :=
    iota_single_apply .tc S5000x128 32 1 _ (ix2 r g)
  show (FloatOps.sitofp (F := Ideal) .f32 ((IntOp.cmpi .eq
      (broadcastTo S5000x128 (shapeCast S5000x1 v24 shapeCasts_S5000x1_S5000x1) broadcasts_S5000x1_S5000x128 (ix2 r g))
      (iota .tc S5000x128 32 [1] iota_S5000x128_d1_w32 (ix2 r g))).setWidth 32) : EReal) = _
  rw [hb, hi]
  exact sitofp_extui_cmpi_eq _ _

/-! ## The carried accumulators: reset, copy, update -/

/-- The pooled-rows accumulator is stored as it is. -/
theorem k4_pay1_eq (v36 : FVec Ideal S128x64 .f32) : k4_pay1 (F := Ideal) v36 = v36 := by
  unfold k4_pay1
  exact shapeCast_self _ _

/-- The count accumulator's update: the carried count plus the block's count. -/
theorem k4_pay2_eq (v34 : FVec Ideal S128x1 .f32) (v40 : Vec Ideal S128x1 .f32) :
    k4_pay2 (F := Ideal) v34 v40 = fun i => v40 i + v34 i := by
  unfold k4_pay2
  exact shapeCast_self _ _

/-- The pooled-rows accumulator is reset to 0. -/
theorem k4_pay4_apply (i : S128x64.Idx) : k4_pay4 (F := Ideal) i = 0 := by
  have e : k4_pay4 (F := Ideal) = broadcast S128x64 (Scalar.ofBits (F := Ideal) .f32 0x00000000#32) := by
    unfold k4_pay4
    exact shapeCast_self _ _
  rw [e]
  exact Ideal.ofBits_zero_f32

/-- The count accumulator is reset to 0. -/
theorem k4_pay5_apply (i : S128x1.Idx) : k4_pay5 (F := Ideal) i = 0 := by
  have e : k4_pay5 (F := Ideal) = broadcast S128x1 (Scalar.ofBits (F := Ideal) .f32 0x00000000#32) := by
    unfold k4_pay5
    exact shapeCast_self _ _
  rw [e]
  exact Ideal.ofBits_zero_f32

/-! ## The block's node counts: the one-hot block contracted, on its row axis, with a column of ones -/

/-- The counting product's left operand index, coordinate by coordinate: at output entry `i` and contraction position
    `q`, row `q` … -/
theorem lhs_cnt_0 (i : S128x1.Idx) (q : dot_S5000x128_S5000x1_S128x1_0_0_1_1_n_n.contr.Idx) :
    (dot_S5000x128_S5000x1_S128x1_0_0_1_1_n_n.lhsIdx i q 0).val = (q ⟨0, by decide⟩).val :=
  dot_S5000x128_S5000x1_S128x1_0_0_1_1_n_n.lhsIdx_val_of_single rfl i q
/-- … column `i 0`: the contracted axis is the operand's row axis. -/
theorem lhs_cnt_1 (i : S128x1.Idx) (q : dot_S5000x128_S5000x1_S128x1_0_0_1_1_n_n.contr.Idx) :
    (dot_S5000x128_S5000x1_S128x1_0_0_1_1_n_n.lhsIdx i q 1).val = (i 0).val := by
  unfold DotDims.lhsIdx
  rw [dif_neg (show ¬(1 : Fin S5000x128.rank) ∈ dot_S5000x128_S5000x1_S128x1_0_0_1_1_n_n.lhsBatch by decide), dif_pos (show (1 : Fin S5000x128.rank) ∈ dot_S5000x128_S5000x1_S128x1_0_0_1_1_n_n.lhsNonContracting by decide)]
  rfl

/-- Entry `(g, 0)` of the block's node counts: the sum over the block's rows of the one-hot entry times the unit. -/
theorem k4_pay7_apply (v24 : Vec Ideal S5000x1 .i32) (g : Fin 128) :
    k4_pay7 (F := Ideal) v24 (ix2 g 0)
      = ∑ r : Fin 5000, (if v24 (ix2 r 0) = BitVec.ofNat 32 g.val then 1 else 0) * Ideal.ofBits .bf16 0x3F80#16 := by
  unfold k4_pay7
  refine (Ideal.matmul_constant_zero_apply dot_S5000x128_S5000x1_S128x1_0_0_1_1_n_n none (k4_pay6 (F := Ideal) v24)
    (broadcast S5000x1 (Scalar.ofBits (F := Ideal) .bf16 0x3F80#16)) (ix2 g 0)).trans ?_
  rw [← Equiv.sum_comp (contrEquiv1 dot_S5000x128_S5000x1_S128x1_0_0_1_1_n_n 5000 rfl rfl).symm]
  refine Finset.sum_congr rfl fun k _ => ?_
  have hk := contrEquiv1_symm_val dot_S5000x128_S5000x1_S128x1_0_0_1_1_n_n 5000 rfl rfl k
  have el : dot_S5000x128_S5000x1_S128x1_0_0_1_1_n_n.lhsIdx (ix2 g 0) ((contrEquiv1 dot_S5000x128_S5000x1_S128x1_0_0_1_1_n_n 5000 rfl rfl).symm k) = ix2 k g := funext fun a => Fin.ext (by
    match a with
    | ⟨0, _⟩ => exact (lhs_cnt_0 _ _).trans hk
    | ⟨1, _⟩ => exact lhs_cnt_1 _ _)
  rw [el, k4_pay6_apply]
  rfl

/-! ## The block's pooled rows: the one-hot block contracted, on its row axis, with the normalised, rectified rows -/

/-- The block's rows after the aggregation's scaling and bias, the normalisation's scale and shift, and the rectifier:
    the right operand of the pooling product. -/
def bnrelu4 (v3 : Vec Ideal S5000x64 .f32) (v5 : Vec Ideal S5000x1 .f32) (v9 v13 v17 : Vec Ideal S1x64 .f32) :
    FVec Ideal S5000x64 .bf16 :=
  truncf .bf16 (maximumf
    (addf (mulf (addf (mulf (shapeCast S5000x64 v3 shapeCasts_S5000x64_S5000x64)
        (broadcastTo S5000x64 (shapeCast S5000x1 v5 shapeCasts_S5000x1_S5000x1) broadcasts_S5000x1_S5000x64))
        (broadcastTo S5000x64 (shapeCast S1x64 v9 shapeCasts_S1x64_S1x64) broadcasts_S1x64_S5000x64))
        (broadcastTo S5000x64 (shapeCast S1x64 v13 shapeCasts_S1x64_S1x64) broadcasts_S1x64_S5000x64))
        (broadcastTo S5000x64 (shapeCast S1x64 v17 shapeCasts_S1x64_S1x64) broadcasts_S1x64_S5000x64))
    (broadcast S5000x64 (Scalar.ofBits (F := Ideal) .f32 0x00000000#32))) bitsLt_bf16_f32

/-- Entry `(r, h)` of those rows. -/
theorem bnrelu4_apply (v3 : Vec Ideal S5000x64 .f32) (v5 : Vec Ideal S5000x1 .f32) (v9 v13 v17 : Vec Ideal S1x64 .f32)
    (r : Fin 5000) (h : Fin 64) :
    bnrelu4 v3 v5 v9 v13 v17 (ix2 r h)
      = Cert.Spec.relu ((v3 (ix2 r h) * v5 (ix2 r 0) + v9 (ix2 0 h)) * v13 (ix2 0 h) + v17 (ix2 0 h)) := by
  have h5 : broadcastTo S5000x64 (shapeCast S5000x1 v5 shapeCasts_S5000x1_S5000x1) broadcasts_S5000x1_S5000x64 (ix2 r h)
      = v5 (ix2 r 0) := by
    rw [shapeCast_self]
    exact broadcastTo_apply _ _ _ _ (fun a => by match a with | ⟨0, _⟩ => rfl | ⟨1, _⟩ => rfl)
  have hrow : ∀ u : Vec Ideal S1x64 .f32,
      broadcastTo S5000x64 (shapeCast S1x64 u shapeCasts_S1x64_S1x64) broadcasts_S1x64_S5000x64 (ix2 r h) = u (ix2 0 h) := by
    intro u
    rw [shapeCast_self]
    exact broadcastTo_apply _ _ _ _ (fun a => by match a with | ⟨0, _⟩ => rfl | ⟨1, _⟩ => rfl)
  have h3 : shapeCast S5000x64 v3 shapeCasts_S5000x64_S5000x64 = v3 := shapeCast_self _ _
  show max ((shapeCast S5000x64 v3 shapeCasts_S5000x64_S5000x64 (ix2 r h)
      * broadcastTo S5000x64 (shapeCast S5000x1 v5 shapeCasts_S5000x1_S5000x1) broadcasts_S5000x1_S5000x64 (ix2 r h)
      + broadcastTo S5000x64 (shapeCast S1x64 v9 shapeCasts_S1x64_S1x64) broadcasts_S1x64_S5000x64 (ix2 r h))
      * broadcastTo S5000x64 (shapeCast S1x64 v13 shapeCasts_S1x64_S1x64) broadcasts_S1x64_S5000x64 (ix2 r h)
      + broadcastTo S5000x64 (shapeCast S1x64 v17 shapeCasts_S1x64_S1x64) broadcasts_S1x64_S5000x64 (ix2 r h))
      (Ideal.ofBits .f32 0x00000000#32) = _
  rw [h3, h5, hrow v9, hrow v13, hrow v17, Ideal.ofBits_zero_f32]
  rfl

/-- The pooling product's operand indices, coordinate by coordinate: at output entry `i` and contraction position `q` the
    left operand is read at row `q` … -/
theorem lhs_pool_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
/-- … column `i 0`; -/
theorem lhs_pool_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
/-- the right operand at row `q` … -/
theorem rhs_pool_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
/-- … column `i 1`: both operands are contracted on their row axis. -/
theorem rhs_pool_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- Entry `(g, h)` of the pooled-rows accumulator's update: the carried entry plus the sum over the block's rows of the
    one-hot entry times the row's normalised, rectified entry. -/
theorem k4_pay8_apply (v3 : Vec Ideal S5000x64 .f32) (v5 : Vec Ideal S5000x1 .f32) (v9 v13 v17 : Vec Ideal S1x64 .f32)
    (v24 : Vec Ideal S5000x1 .i32) (v35 : Vec Ideal S128x64 .f32) (g : Fin 128) (h : Fin 64) :
    k4_pay8 (F := Ideal) v3 v5 v9 v13 v17 v24 v35 (ix2 g h)
      = v35 (ix2 g h) + ∑ r : Fin 5000, (if v24 (ix2 r 0) = BitVec.ofNat 32 g.val then 1 else 0)
          * Cert.Spec.relu ((v3 (ix2 r h) * v5 (ix2 r 0) + v9 (ix2 0 h)) * v13 (ix2 0 h) + v17 (ix2 0 h)) := by
  show v35 (ix2 g h) + FloatOps.matmul dot_S5000x128_S5000x64_S128x64_0_0_1_1_n_n none (k4_pay6 (F := Ideal) v24)
      (bnrelu4 v3 v5 v9 v13 v17) (constant S128x64 .f32 0x00000000#32) (ix2 g h) = _
  refine congrArg (v35 (ix2 g h) + ·) ?_
  refine (Ideal.matmul_constant_zero_apply dot_S5000x128_S5000x64_S128x64_0_0_1_1_n_n none (k4_pay6 (F := Ideal) v24)
    (bnrelu4 v3 v5 v9 v13 v17) (ix2 g h)).trans ?_
  rw [← Equiv.sum_comp (contrEquiv1 dot_S5000x128_S5000x64_S128x64_0_0_1_1_n_n 5000 rfl rfl).symm]
  refine Finset.sum_congr rfl fun k _ => ?_
  have hk := contrEquiv1_symm_val dot_S5000x128_S5000x64_S128x64_0_0_1_1_n_n 5000 rfl rfl k
  have el : dot_S5000x128_S5000x64_S128x64_0_0_1_1_n_n.lhsIdx (ix2 g h) ((contrEquiv1 dot_S5000x128_S5000x64_S128x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x128_S5000x64_S128x64_0_0_1_1_n_n.rhsIdx (ix2 g h) ((contrEquiv1 dot_S5000x128_S5000x64_S128x64_0_0_1_1_n_n 5000 rfl rfl).symm k) = ix2 k h := funext fun a => Fin.ext (by
    match a with
    | ⟨0, _⟩ => exact (rhs_pool_0 _ _).trans hk
    | ⟨1, _⟩ => exact rhs_pool_1 _ _)
  rw [el, er, k4_pay6_apply, bnrelu4_apply]

/-! ## The head: the mean by the clamped count, then the linear map -/

/-- The linear map's operand indices, coordinate by coordinate: at output entry `i` and contraction position `q` the left
    operand is read at row `i 0` … -/
theorem lhs_lin_0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
/-- … column `q`; -/
theorem lhs_lin_1 (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
/-- the right operand at row `q` … -/
theorem rhs_lin_0 (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
/-- … column `i 1`. -/
theorem rhs_lin_1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl

/-- The pooled rows divided by the count clamped below by the unit: the left operand of the linear map. -/
def mean4 (v48 : Vec Ideal S128x1 .f32) (v51 : Vec Ideal S128x64 .f32) : FVec Ideal S128x64 .bf16 :=
  truncf .bf16 (divf v51 (broadcastTo S128x64 (maximumf v48 (broadcast S128x1 (Scalar.ofBits (F := Ideal) .f32 0x3F800000#32)))
    broadcasts_S128x1_S128x64)) bitsLt_bf16_f32

/-- Entry `(g, h)` of it. -/
theorem mean4_apply (v48 : Vec Ideal S128x1 .f32) (v51 : Vec Ideal S128x64 .f32) (g : Fin 128) (h : Fin 64) :
    mean4 v48 v51 (ix2 g h) = Ideal.div (v51 (ix2 g h)) (max (v48 (ix2 g 0)) (Ideal.ofBits .f32 0x3F800000#32)) := by
  have hb : broadcastTo S128x64 (maximumf v48 (broadcast S128x1 (Scalar.ofBits (F := Ideal) .f32 0x3F800000#32)))
      broadcasts_S128x1_S128x64 (ix2 g h)
      = maximumf v48 (broadcast S128x1 (Scalar.ofBits (F := Ideal) .f32 0x3F800000#32)) (ix2 g 0) :=
    broadcastTo_apply _ _ _ _ (fun a => by match a with | ⟨0, _⟩ => rfl | ⟨1, _⟩ => rfl)
  show Ideal.div (v51 (ix2 g h)) (broadcastTo S128x64 (maximumf v48 (broadcast S128x1 (Scalar.ofBits (F := Ideal) .f32 0x3F800000#32)))
      broadcasts_S128x1_S128x64 (ix2 g h)) = _
  rw [hb]
  rfl

/-- Entry `(g, o)` of the output block: the sum over the columns of the mean times the linear map's entry, plus the bias. -/
theorem k4_pay3_apply (v48 : Vec Ideal S128x1 .f32) (v51 : Vec Ideal S128x64 .f32) (v55 : Vec Ideal S64x32 .f32)
    (v58 : Vec Ideal S1x32 .f32) (g : Fin 128) (o : Fin 32) :
    k4_pay3 (F := Ideal) v48 v51 v55 v58 (ix2 g o)
      = (∑ h : Fin 64, Ideal.div (v51 (ix2 g h)) (max (v48 (ix2 g 0)) (Ideal.ofBits .f32 0x3F800000#32)) * v55 (ix2 h o))
        + v58 (ix2 0 o) := by
  have hbias : broadcastTo S128x32 (shapeCast S1x32 v58 shapeCasts_S1x32_S1x32) broadcasts_S1x32_S128x32 (ix2 g o)
      = v58 (ix2 0 o) := by
    rw [shapeCast_self]
    exact broadcastTo_apply _ _ _ _ (fun a => by match a with | ⟨0, _⟩ => rfl | ⟨1, _⟩ => rfl)
  show FloatOps.matmul dot_S128x64_S64x32_S128x32_1_0_0_1_n_n none (mean4 v48 v51)
      (truncf (F := Ideal) .bf16 v55 bitsLt_bf16_f32) (constant S128x32 .f32 0x00000000#32) (ix2 g o)
      + broadcastTo S128x32 (shapeCast S1x32 v58 shapeCasts_S1x32_S1x32) broadcasts_S1x32_S128x32 (ix2 g o) = _
  rw [hbias]
  refine congrArg (· + v58 (ix2 0 o)) ?_
  refine (Ideal.matmul_constant_zero_apply dot_S128x64_S64x32_S128x32_1_0_0_1_n_n none (mean4 v48 v51)
    (truncf (F := Ideal) .bf16 v55 bitsLt_bf16_f32) (ix2 g o)).trans ?_
  rw [← Equiv.sum_comp (contrEquiv1 dot_S128x64_S64x32_S128x32_1_0_0_1_n_n 64 rfl rfl).symm]
  refine Finset.sum_congr rfl fun k _ => ?_
  have hk := contrEquiv1_symm_val dot_S128x64_S64x32_S128x32_1_0_0_1_n_n 64 rfl rfl k
  have el : dot_S128x64_S64x32_S128x32_1_0_0_1_n_n.lhsIdx (ix2 g o) ((contrEquiv1 dot_S128x64_S64x32_S128x32_1_0_0_1_n_n 64 rfl rfl).symm k) = ix2 g k := funext fun a => Fin.ext (by
    match a with
    | ⟨0, _⟩ => exact lhs_lin_0 _ _
    | ⟨1, _⟩ => exact (lhs_lin_1 _ _).trans hk)
  have er : dot_S128x64_S64x32_S128x32_1_0_0_1_n_n.rhsIdx (ix2 g o) ((contrEquiv1 dot_S128x64_S64x32_S128x32_1_0_0_1_n_n 64 rfl rfl).symm k) = ix2 k o := funext fun a => Fin.ext (by
    match a with
    | ⟨0, _⟩ => exact (rhs_lin_0 _ _).trans hk
    | ⟨1, _⟩ => exact rhs_lin_1 _ _)
  rw [el, er, mean4_apply]
  rfl

end Cert.KernelIdeal.HandVal
-- ==== Proof.KI.Val4.lean ====
/-
  Region 4's two carried accumulators after every point, at the ideal instance: the windows' blocks read off their arrays
  (rows 5000 t … 5000 t + 4999 of the three row-blocked arrays at point t, the whole array for the five others), one
  point's update of the accumulators as a sum over the block's nodes, and, by induction over the twenty points, the
  accumulators after the last point as sums over all the nodes: the one-hot matrix against the normalised, rectified
  rows, and against the unit.
-/
import proofs.«411316_j29850022707326_3_alg».proof.Proof.KI.R4
import proofs.«411316_j29850022707326_3_alg».proof.Proof.KI.Val4Pay
import proofs.«411316_j29850022707326_3_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

/-! ## Sums over the nodes, block by block -/

/-- A function of the nodes read at a natural number: 0 past the last node. -/
def atNat (f : Fin 100000 → EReal) (m : ℕ) : EReal := if h : m < 100000 then f ⟨m, h⟩ else 0

/-- At the number of a node it reads the function at that node. -/
theorem atNat_of_lt (f : Fin 100000 → EReal) (n : Fin 100000) (m : ℕ) (hm : m = n.val) : atNat f m = f n := by
  subst hm
  unfold atNat
  rw [dif_pos n.isLt]

/-- Twenty blocks of 5000 consecutive nodes are all the nodes: the sum block by block is the sum over the nodes. -/
theorem sum_blocks (f : Fin 100000 → EReal) :
    ∑ t ∈ Finset.range 20, ∑ r : Fin 5000, atNat f (5000 * t + r.val) = ∑ n : Fin 100000, f n := by
  rw [Finset.sum_range (fun t => ∑ r : Fin 5000, atNat f (5000 * t + r.val))]
  let e : Fin 20 × Fin 5000 ≃ Fin 100000 := finProdFinEquiv
  have he : ∀ p : Fin 20 × Fin 5000, (e p).val = p.2.val + 5000 * p.1.val := fun p => rfl
  rw [← Fintype.sum_prod_type' (fun (t : Fin 20) (r : Fin 5000) => atNat f (5000 * t.val + r.val))]
  exact Fintype.sum_equiv e _ _ (fun p => atNat_of_lt f (e p) _ (by rw [he]; omega))

variable (V : (c : Dev nD) → (b : Ref sig .tc) → Buf (Elt Ideal) ((c : Thread nD τ).loc b))

/-! ## The windows' blocks and arrays, named at their literal types -/

/-- The eight input arrays as the region finds them: the edge sums, the degree-factor column, the bias, scale and shift rows,
    the batch-id column, the linear map and its bias row; -/
abbrev rawArr (c : Dev nD) : Vec Ideal S100000x64 .f32 := V c main_v56
abbrev disArr (c : Dev nD) : Vec Ideal S100000x1 .f32 := V c main_v15
abbrev biasRow (c : Dev nD) : Vec Ideal S1x64 .f32 := V c main_v73
abbrev scaleRow (c : Dev nD) : Vec Ideal S1x64 .f32 := V c main_v69
abbrev shiftRow (c : Dev nD) : Vec Ideal S1x64 .f32 := V c main_v72
abbrev idArr (c : Dev nD) : Vec Ideal S100000x1 .i32 := V c main_v74
abbrev linW (c : Dev nD) : Vec Ideal S64x32 .f32 := V c main_arg9
abbrev linB (c : Dev nD) : Vec Ideal S1x32 .f32 := V c main_v75
/-- and their blocks at point `t`, in the same order. -/
abbrev rawBlk (c : Dev nD) (t : Fin cfg4.N) : Vec Ideal S5000x64 .f32 := iblk4 V c 0 t
abbrev disBlk (c : Dev nD) (t : Fin cfg4.N) : Vec Ideal S5000x1 .f32 := iblk4 V c 1 t
abbrev biasBlk (c : Dev nD) (t : Fin cfg4.N) : Vec Ideal S1x64 .f32 := iblk4 V c 2 t
abbrev scaleBlk (c : Dev nD) (t : Fin cfg4.N) : Vec Ideal S1x64 .f32 := iblk4 V c 3 t
abbrev shiftBlk (c : Dev nD) (t : Fin cfg4.N) : Vec Ideal S1x64 .f32 := iblk4 V c 4 t
abbrev idBlk (c : Dev nD) (t : Fin cfg4.N) : Vec Ideal S5000x1 .i32 := iblk4 V c 5 t
abbrev linWBlk (c : Dev nD) (t : Fin cfg4.N) : Vec Ideal S64x32 .f32 := iblk4 V c 6 t
abbrev linBBlk (c : Dev nD) (t : Fin cfg4.N) : Vec Ideal S1x32 .f32 := iblk4 V c 7 t

/-- The index maps of the three row-blocked windows, decided over the grid: block `t` on the row axis, 0 on the other. -/
theorem idx4_rows : ∀ t : Fin cfg4.N, win4_0.index t 0 = t.val ∧ win4_0.index t 1 = 0 ∧ win4_1.index t 0 = t.val ∧ win4_1.index t 1 = 0
    ∧ win4_5.index t 0 = t.val ∧ win4_5.index t 1 = 0 :=
  (by decide +kernel : ∀ t : Fin grid4.N, win4_0.index t 0 = t.val ∧ win4_0.index t 1 = 0 ∧ win4_1.index t 0 = t.val ∧ win4_1.index t 1 = 0
    ∧ win4_5.index t 0 = t.val ∧ win4_5.index t 1 = 0)

/-- The index maps of the five whole-array windows, decided over the grid: block 0 on both axes. -/
theorem idx4_whole : ∀ t : Fin cfg4.N, (win4_2.index t 0 = 0 ∧ win4_2.index t 1 = 0) ∧ (win4_3.index t 0 = 0 ∧ win4_3.index t 1 = 0)
    ∧ (win4_4.index t 0 = 0 ∧ win4_4.index t 1 = 0) ∧ (win4_6.index t 0 = 0 ∧ win4_6.index t 1 = 0) ∧ (win4_7.index t 0 = 0 ∧ win4_7.index t 1 = 0) :=
  (by decide +kernel : ∀ t : Fin grid4.N, (win4_2.index t 0 = 0 ∧ win4_2.index t 1 = 0) ∧ (win4_3.index t 0 = 0 ∧ win4_3.index t 1 = 0)
    ∧ (win4_4.index t 0 = 0 ∧ win4_4.index t 1 = 0) ∧ (win4_6.index t 0 = 0 ∧ win4_6.index t 1 = 0) ∧ (win4_7.index t 0 = 0 ∧ win4_7.index t 1 = 0))

/-- Row `r` of block `t` of the edge sums is node `5000 t + r`'s row. -/
theorem rawBlk_apply (c : Dev nD) (t : Fin cfg4.N) (r : Fin 5000) (k : Fin 64) (n : Fin 100000) (hn : n.val = 5000 * t.val + r.val) :
    rawBlk V c t (ix2 r k) = rawArr V c (ix2 n k) := by
  unfold rawBlk iblk4
  rw [View.read_apply]
  show V c main_v56 _ = V c main_v56 _
  congr 1
  funext a
  apply Fin.ext
  match a with
  | ⟨0, _⟩ => show win4_0.index t 0 * 5000 + 1 * r.val = n.val; rw [(idx4_rows t).1]; omega
  | ⟨1, _⟩ => show win4_0.index t 1 * 64 + 1 * k.val = k.val; rw [(idx4_rows t).2.1]; omega

/-- Row `r` of block `t` of the degree column is node `5000 t + r`'s entry. -/
theorem disBlk_apply (c : Dev nD) (t : Fin cfg4.N) (r : Fin 5000) (n : Fin 100000) (hn : n.val = 5000 * t.val + r.val) :
    disBlk V c t (ix2 r 0) = disArr V c (ix2 n 0) := by
  unfold disBlk iblk4
  rw [View.read_apply]
  show V c main_v15 _ = V c main_v15 _
  congr 1
  funext a
  apply Fin.ext
  match a with
  | ⟨0, _⟩ => show win4_1.index t 0 * 5000 + 1 * r.val = n.val; rw [(idx4_rows t).2.2.1]; omega
  | ⟨1, _⟩ => show win4_1.index t 1 * 1 + 1 * 0 = 0; rw [(idx4_rows t).2.2.2.1]

/-- Row `r` of block `t` of the batch-id column is node `5000 t + r`'s id. -/
theorem idBlk_apply (c : Dev nD) (t : Fin cfg4.N) (r : Fin 5000) (n : Fin 100000) (hn : n.val = 5000 * t.val + r.val) :
    idBlk V c t (ix2 r 0) = idArr V c (ix2 n 0) := by
  unfold idBlk iblk4
  rw [View.read_apply]
  show V c main_v74 _ = V c main_v74 _
  congr 1
  funext a
  apply Fin.ext
  match a with
  | ⟨0, _⟩ => show win4_5.index t 0 * 5000 + 1 * r.val = n.val; rw [(idx4_rows t).2.2.2.2.1]; omega
  | ⟨1, _⟩ => show win4_5.index t 1 * 1 + 1 * 0 = 0; rw [(idx4_rows t).2.2.2.2.2]

/-- The whole-array windows' blocks are their arrays, at every point: the bias row's, -/
theorem biasBlk_eq (c : Dev nD) (t : Fin cfg4.N) : biasBlk V c t = biasRow V c := by
  funext j
  unfold biasBlk iblk4
  rw [View.read_apply]
  show V c main_v73 _ = V c main_v73 _
  congr 1
  funext a
  apply Fin.ext
  match a with
  | ⟨0, _⟩ => show win4_2.index t 0 * 1 + 1 * (j 0).val = (j 0).val; rw [(idx4_whole t).1.1]; omega
  | ⟨1, _⟩ => show win4_2.index t 1 * 64 + 1 * (j 1).val = (j 1).val; rw [(idx4_whole t).1.2]; omega
/-- the scale row's, -/
theorem scaleBlk_eq (c : Dev nD) (t : Fin cfg4.N) : scaleBlk V c t = scaleRow V c := by
  funext j
  unfold scaleBlk iblk4
  rw [View.read_apply]
  show V c main_v69 _ = V c main_v69 _
  congr 1
  funext a
  apply Fin.ext
  match a with
  | ⟨0, _⟩ => show win4_3.index t 0 * 1 + 1 * (j 0).val = (j 0).val; rw [(idx4_whole t).2.1.1]; omega
  | ⟨1, _⟩ => show win4_3.index t 1 * 64 + 1 * (j 1).val = (j 1).val; rw [(idx4_whole t).2.1.2]; omega
/-- the shift row's, -/
theorem shiftBlk_eq (c : Dev nD) (t : Fin cfg4.N) : shiftBlk V c t = shiftRow V c := by
  funext j
  unfold shiftBlk iblk4
  rw [View.read_apply]
  show V c main_v72 _ = V c main_v72 _
  congr 1
  funext a
  apply Fin.ext
  match a with
  | ⟨0, _⟩ => show win4_4.index t 0 * 1 + 1 * (j 0).val = (j 0).val; rw [(idx4_whole t).2.2.1.1]; omega
  | ⟨1, _⟩ => show win4_4.index t 1 * 64 + 1 * (j 1).val = (j 1).val; rw [(idx4_whole t).2.2.1.2]; omega
/-- the linear map's, -/
theorem linWBlk_eq (c : Dev nD) (t : Fin cfg4.N) : linWBlk V c t = linW V c := by
  funext j
  unfold linWBlk iblk4
  rw [View.read_apply]
  show V c main_arg9 _ = V c main_arg9 _
  congr 1
  funext a
  apply Fin.ext
  match a with
  | ⟨0, _⟩ => show win4_6.index t 0 * 64 + 1 * (j 0).val = (j 0).val; rw [(idx4_whole t).2.2.2.1.1]; omega
  | ⟨1, _⟩ => show win4_6.index t 1 * 32 + 1 * (j 1).val = (j 1).val; rw [(idx4_whole t).2.2.2.1.2]; omega
/-- and the linear map's bias row's. -/
theorem linBBlk_eq (c : Dev nD) (t : Fin cfg4.N) : linBBlk V c t = linB V c := by
  funext j
  unfold linBBlk iblk4
  rw [View.read_apply]
  show V c main_v75 _ = V c main_v75 _
  congr 1
  funext a
  apply Fin.ext
  match a with
  | ⟨0, _⟩ => show win4_7.index t 0 * 1 + 1 * (j 0).val = (j 0).val; rw [(idx4_whole t).2.2.2.2.1]; omega
  | ⟨1, _⟩ => show win4_7.index t 1 * 32 + 1 * (j 1).val = (j 1).val; rw [(idx4_whole t).2.2.2.2.2]; omega

/-! ## The one-hot matrix and the normalised, rectified rows, node by node -/

/-- Entry `(n, g)` of the one-hot matrix: 1 where node `n`'s batch id is the word `g`, else 0. -/
def oh4 (c : Dev nD) (n : Fin 100000) (g : Fin 128) : EReal :=
  if (V c main_v74 (ix2 n 0) : BitVec 32) = BitVec.ofNat 32 g.val then 1 else 0

/-- The rows the head pools: the edge sums scaled by the target's degree factor plus the bias, normalised by one scale and
    one shift per column, rectified. -/
def act4 (c : Dev nD) : Fin 100000 → Fin 64 → EReal :=
  Cert.Spec.kerBn (fun k => V c main_v69 (ix2 0 k)) (fun k => V c main_v72 (ix2 0 k))
    (Cert.Spec.kerAgg (fun n => V c main_v15 (ix2 n 0)) (fun n k => V c main_v56 (ix2 n k)) (fun k => V c main_v73 (ix2 0 k)))

/-- Block `t`'s contribution to the pooled rows, from its blocks, is the sum over the nodes `5000 t + r` of the one-hot entry
    times the node's row. -/
theorem pointPool (c : Dev nD) (t : Fin cfg4.N) (g : Fin 128) (h : Fin 64) :
    ∑ r : Fin 5000, (if idBlk V c t (ix2 r 0) = BitVec.ofNat 32 g.val then 1 else 0)
        * Cert.Spec.relu ((rawBlk V c t (ix2 r h) * disBlk V c t (ix2 r 0) + biasBlk V c t (ix2 0 h)) * scaleBlk V c t (ix2 0 h)
            + shiftBlk V c t (ix2 0 h))
      = ∑ r : Fin 5000, atNat (fun m => oh4 V c m g * act4 V c m h) (5000 * t.val + r.val) := by
  have hN : cfg4.N = 20 := N_4
  refine Finset.sum_congr rfl fun r _ => ?_
  have ht := t.isLt
  have hr := r.isLt
  have hlt : 5000 * t.val + r.val < 100000 := by omega
  rw [atNat_of_lt _ ⟨5000 * t.val + r.val, hlt⟩ _ rfl, rawBlk_apply V c t r h ⟨5000 * t.val + r.val, hlt⟩ rfl,
    disBlk_apply V c t r ⟨5000 * t.val + r.val, hlt⟩ rfl, idBlk_apply V c t r ⟨5000 * t.val + r.val, hlt⟩ rfl,
    biasBlk_eq, scaleBlk_eq, shiftBlk_eq]
  rfl

/-- Block `t`'s node counts likewise. -/
theorem pointCnt (c : Dev nD) (t : Fin cfg4.N) (g : Fin 128) :
    ∑ r : Fin 5000, (if idBlk V c t (ix2 r 0) = BitVec.ofNat 32 g.val then 1 else 0) * Ideal.ofBits .bf16 0x3F80#16
      = ∑ r : Fin 5000, atNat (fun m => oh4 V c m g * Ideal.ofBits .bf16 0x3F80#16) (5000 * t.val + r.val) := by
  have hN : cfg4.N = 20 := N_4
  refine Finset.sum_congr rfl fun r _ => ?_
  have ht := t.isLt
  have hr := r.isLt
  have hlt : 5000 * t.val + r.val < 100000 := by omega
  rw [atNat_of_lt _ ⟨5000 * t.val + r.val, hlt⟩ _ rfl, idBlk_apply V c t r ⟨5000 * t.val + r.val, hlt⟩ rfl]
  rfl

/-! ## One point's update of the two carried accumulators, over any blocks -/

/-- The pooled-rows accumulator after a point: what it held plus the block's contribution. -/
theorem pool_step (x0 : Vec Ideal S5000x64 .f32) (x1 : Vec Ideal S5000x1 .f32) (x2 x3 x4 : Vec Ideal S1x64 .f32)
    (x5 : Vec Ideal S5000x1 .i32) (xs0 : Vec Ideal S128x64 .f32) (g : Fin 128) (h : Fin 64) :
    k4_pay1 (F := Ideal) (k4_pay8 (F := Ideal) x0 x1 x2 x3 x4 x5 xs0) (ix2 g h)
      = xs0 (ix2 g h) + ∑ r : Fin 5000, (if x5 (ix2 r 0) = BitVec.ofNat 32 g.val then 1 else 0) * Cert.Spec.relu ((x0 (ix2 r h) * x1 (ix2 r 0) + x2 (ix2 0 h)) * x3 (ix2 0 h) + x4 (ix2 0 h)) := by
  rw [k4_pay1_eq]
  exact k4_pay8_apply x0 x1 x2 x3 x4 x5 xs0 g h

/-- The count accumulator after a point: what it held plus the block's counts. -/
theorem cnt_step (x5 : Vec Ideal S5000x1 .i32) (xs1 : Vec Ideal S128x1 .f32) (g : Fin 128) :
    k4_pay2 (F := Ideal) (k4_pay7 (F := Ideal) x5) xs1 (ix2 g 0)
      = xs1 (ix2 g 0) + ∑ r : Fin 5000, (if x5 (ix2 r 0) = BitVec.ofNat 32 g.val then 1 else 0) * Ideal.ofBits .bf16 0x3F80#16 := by
  rw [k4_pay2_eq]
  exact congrArg (xs1 (ix2 g 0) + ·) (k4_pay7_apply x5 g)

/-! ## The accumulation over the points -/

/-- The pooled rows over the blocks up to `n`. -/
def poolAt (c : Dev nD) (g : Fin 128) (h : Fin 64) (n : ℕ) : EReal :=
  ∑ t ∈ Finset.range (n + 1), ∑ r : Fin 5000, atNat (fun m => oh4 V c m g * act4 V c m h) (5000 * t + r.val)
/-- The node counts over the blocks up to `n`. -/
def cntAt (c : Dev nD) (g : Fin 128) (n : ℕ) : EReal :=
  ∑ t ∈ Finset.range (n + 1), ∑ r : Fin 5000, atNat (fun m => oh4 V c m g * Ideal.ofBits .bf16 0x3F80#16) (5000 * t + r.val)

/-- THE INVARIANT. After point `n` the two carried accumulators hold the pooled rows and the node counts over the blocks up to
    `n`: by induction on the point, the first point adding onto the zeros it stores, every later one onto what the point
    before left. -/
theorem scratch4_at (c : Dev nD) : ∀ (n : ℕ) (hn : n < cfg4.N),
    (∀ (g : Fin 128) (h : Fin 64), (outsAt4 V c n hn).2.1 (ix2 g h) = poolAt V c g h n)
      ∧ (∀ g : Fin 128, (outsAt4 V c n hn).2.2 (ix2 g 0) = cntAt V c g n)
  | 0, hn => by
    have h0 : (⟨0, hn⟩ : Fin cfg4.N).val % 20 = 0 := rfl
    have h1 : ¬(⟨0, hn⟩ : Fin cfg4.N).val % 20 = 19 := by dsimp only; omega
    constructor
    · intro g h
      rw [outsAt4_A V c (⟨0, hn⟩ : Fin cfg4.N) h0 h1]
      dsimp only
      refine (congrFun (sout4_A_0_eq (F := Ideal) c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) (ms4_8 (⟨0, hn⟩ : Fin cfg4.N)) (hs4_8 (⟨0, hn⟩ : Fin cfg4.N)) scM4_0 (Memref.isWhole_whole _) scM4_1 (Memref.isWhole_whole _) ((hcond4_0 (⟨0, hn⟩ : Fin cfg4.N)).mpr h0) (fun h => h1 ((hcond4_1 (⟨0, hn⟩ : Fin cfg4.N)).mp h)) (iblk4 V c 0 (⟨0, hn⟩ : Fin cfg4.N)) (iblk4 V c 1 (⟨0, hn⟩ : Fin cfg4.N)) (iblk4 V c 2 (⟨0, hn⟩ : Fin cfg4.N)) (iblk4 V c 3 (⟨0, hn⟩ : Fin cfg4.N)) (iblk4 V c 4 (⟨0, hn⟩ : Fin cfg4.N)) (iblk4 V c 5 (⟨0, hn⟩ : Fin cfg4.N)) (iblk4 V c 6 (⟨0, hn⟩ : Fin cfg4.N)) (iblk4 V c 7 (⟨0, hn⟩ : Fin cfg4.N))) (ix2 g h)).trans ?_
      refine (pool_step (rawBlk V c (⟨0, hn⟩ : Fin cfg4.N)) (disBlk V c (⟨0, hn⟩ : Fin cfg4.N)) (biasBlk V c (⟨0, hn⟩ : Fin cfg4.N)) (scaleBlk V c (⟨0, hn⟩ : Fin cfg4.N)) (shiftBlk V c (⟨0, hn⟩ : Fin cfg4.N)) (idBlk V c (⟨0, hn⟩ : Fin cfg4.N)) (k4_pay4 (F := Ideal)) g h).trans ?_
      rw [k4_pay4_apply, zero_add, pointPool V c (⟨0, hn⟩ : Fin cfg4.N) g h]
      unfold poolAt
      rw [Finset.sum_range_one]
    · intro g
      rw [outsAt4_A V c (⟨0, hn⟩ : Fin cfg4.N) h0 h1]
      dsimp only
      refine (congrFun (sout4_A_1_eq (F := Ideal) c (grid4.coords (⟨0, hn⟩ : Fin cfg4.N)) (ms4_0 (⟨0, hn⟩ : Fin cfg4.N)) (hs4_0 (⟨0, hn⟩ : Fin cfg4.N)) (ms4_1 (⟨0, hn⟩ : Fin cfg4.N)) (hs4_1 (⟨0, hn⟩ : Fin cfg4.N)) (ms4_2 (⟨0, hn⟩ : Fin cfg4.N)) (hs4_2 (⟨0, hn⟩ : Fin cfg4.N)) (ms4_3 (⟨0, hn⟩ : Fin cfg4.N)) (hs4_3 (⟨0, hn⟩ : Fin cfg4.N)) (ms4_4 (⟨0, hn⟩ : Fin cfg4.N)) (hs4_4 (⟨0, hn⟩ : Fin cfg4.N)) (ms4_5 (⟨0, hn⟩ : Fin cfg4.N)) (hs4_5 (⟨0, hn⟩ : Fin cfg4.N)) (ms4_6 (⟨0, hn⟩ : Fin cfg4.N)) (hs4_6 (⟨0, hn⟩ : Fin cfg4.N)) (ms4_7 (⟨0, hn⟩ : Fin cfg4.N)) (hs4_7 (⟨0, hn⟩ : Fin cfg4.N)) (ms4_8 (⟨0, hn⟩ : Fin cfg4.N)) (hs4_8 (⟨0, hn⟩ : Fin cfg4.N)) scM4_0 (Memref.isWhole_whole _) scM4_1 (Memref.isWhole_whole _) ((hcond4_0 (⟨0, hn⟩ : Fin cfg4.N)).mpr h0) (fun h => h1 ((hcond4_1 (⟨0, hn⟩ : Fin cfg4.N)).mp h)) (iblk4 V c 0 (⟨0, hn⟩ : Fin cfg4.N)) (iblk4 V c 1 (⟨0, hn⟩ : Fin cfg4.N)) (iblk4 V c 2 (⟨0, hn⟩ : Fin cfg4.N)) (iblk4 V c 3 (⟨0, hn⟩ : Fin cfg4.N)) (iblk4 V c 4 (⟨0, hn⟩ : Fin cfg4.N)) (iblk4 V c 5 (⟨0, hn⟩ : Fin cfg4.N)) (iblk4 V c 6 (⟨0, hn⟩ : Fin cfg4.N)) (iblk4 V c 7 (⟨0, hn⟩ : Fin cfg4.N))) (ix2 g 0)).trans ?_
      refine (cnt_step (idBlk V c (⟨0, hn⟩ : Fin cfg4.N)) (k4_pay5 (F := Ideal)) g).trans ?_
      rw [k4_pay5_apply, zero_add, pointCnt V c (⟨0, hn⟩ : Fin cfg4.N) g]
      unfold cntAt
      rw [Finset.sum_range_one]
  | n + 1, hn => by
    have hN : cfg4.N = 20 := N_4
    obtain ⟨ihp, ihc⟩ := scratch4_at c n (Nat.lt_of_succ_lt hn)
    have h0 : ¬(⟨n + 1, hn⟩ : Fin cfg4.N).val % 20 = 0 := by dsimp only; omega
    by_cases h1 : (⟨n + 1, hn⟩ : Fin cfg4.N).val % 20 = 19
    · constructor
      · intro g h
        rw [outsAt4_C V c (⟨n + 1, hn⟩ : Fin cfg4.N) h0 h1]
        dsimp only
        refine (congrFun (sout4_C_0_eq (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun h => h0 ((hcond4_0 (⟨n + 1, hn⟩ : Fin cfg4.N)).mp h)) ((hcond4_1 (⟨n + 1, hn⟩ : Fin cfg4.N)).mpr h1) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (iblk4 V c 6 (⟨n + 1, hn⟩ : Fin cfg4.N)) (iblk4 V c 7 (⟨n + 1, hn⟩ : Fin cfg4.N)) (outsAt4 V c n (Nat.lt_of_succ_lt hn)).2.1 (outsAt4 V c n (Nat.lt_of_succ_lt hn)).2.2) (ix2 g h)).trans ?_
        refine (pool_step (rawBlk V c (⟨n + 1, hn⟩ : Fin cfg4.N)) (disBlk V c (⟨n + 1, hn⟩ : Fin cfg4.N)) (biasBlk V c (⟨n + 1, hn⟩ : Fin cfg4.N)) (scaleBlk V c (⟨n + 1, hn⟩ : Fin cfg4.N)) (shiftBlk V c (⟨n + 1, hn⟩ : Fin cfg4.N)) (idBlk V c (⟨n + 1, hn⟩ : Fin cfg4.N)) (outsAt4 V c n (Nat.lt_of_succ_lt hn)).2.1 g h).trans ?_
        rw [ihp g h, pointPool V c (⟨n + 1, hn⟩ : Fin cfg4.N) g h]
        unfold poolAt
        rw [Finset.sum_range_succ _ (n + 1)]
      · intro g
        rw [outsAt4_C V c (⟨n + 1, hn⟩ : Fin cfg4.N) h0 h1]
        dsimp only
        refine (congrFun (sout4_C_1_eq (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun h => h0 ((hcond4_0 (⟨n + 1, hn⟩ : Fin cfg4.N)).mp h)) ((hcond4_1 (⟨n + 1, hn⟩ : Fin cfg4.N)).mpr h1) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (iblk4 V c 6 (⟨n + 1, hn⟩ : Fin cfg4.N)) (iblk4 V c 7 (⟨n + 1, hn⟩ : Fin cfg4.N)) (outsAt4 V c n (Nat.lt_of_succ_lt hn)).2.1 (outsAt4 V c n (Nat.lt_of_succ_lt hn)).2.2) (ix2 g 0)).trans ?_
        refine (cnt_step (idBlk V c (⟨n + 1, hn⟩ : Fin cfg4.N)) (outsAt4 V c n (Nat.lt_of_succ_lt hn)).2.2 g).trans ?_
        rw [ihc g, pointCnt V c (⟨n + 1, hn⟩ : Fin cfg4.N) g]
        unfold cntAt
        rw [Finset.sum_range_succ _ (n + 1)]
    · constructor
      · intro g h
        rw [outsAt4_B V c (⟨n + 1, hn⟩ : Fin cfg4.N) h0 h1]
        dsimp only
        refine (congrFun (sout4_B_0_eq (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun h => h0 ((hcond4_0 (⟨n + 1, hn⟩ : Fin cfg4.N)).mp h)) (fun h => h1 ((hcond4_1 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (iblk4 V c 6 (⟨n + 1, hn⟩ : Fin cfg4.N)) (iblk4 V c 7 (⟨n + 1, hn⟩ : Fin cfg4.N)) (outsAt4 V c n (Nat.lt_of_succ_lt hn)).2.1 (outsAt4 V c n (Nat.lt_of_succ_lt hn)).2.2) (ix2 g h)).trans ?_
        refine (pool_step (rawBlk V c (⟨n + 1, hn⟩ : Fin cfg4.N)) (disBlk V c (⟨n + 1, hn⟩ : Fin cfg4.N)) (biasBlk V c (⟨n + 1, hn⟩ : Fin cfg4.N)) (scaleBlk V c (⟨n + 1, hn⟩ : Fin cfg4.N)) (shiftBlk V c (⟨n + 1, hn⟩ : Fin cfg4.N)) (idBlk V c (⟨n + 1, hn⟩ : Fin cfg4.N)) (outsAt4 V c n (Nat.lt_of_succ_lt hn)).2.1 g h).trans ?_
        rw [ihp g h, pointPool V c (⟨n + 1, hn⟩ : Fin cfg4.N) g h]
        unfold poolAt
        rw [Finset.sum_range_succ _ (n + 1)]
      · intro g
        rw [outsAt4_B V c (⟨n + 1, hn⟩ : Fin cfg4.N) h0 h1]
        dsimp only
        refine (congrFun (sout4_B_1_eq (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun h => h0 ((hcond4_0 (⟨n + 1, hn⟩ : Fin cfg4.N)).mp h)) (fun h => h1 ((hcond4_1 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (iblk4 V c 6 (⟨n + 1, hn⟩ : Fin cfg4.N)) (iblk4 V c 7 (⟨n + 1, hn⟩ : Fin cfg4.N)) (outsAt4 V c n (Nat.lt_of_succ_lt hn)).2.1 (outsAt4 V c n (Nat.lt_of_succ_lt hn)).2.2) (ix2 g 0)).trans ?_
        refine (cnt_step (idBlk V c (⟨n + 1, hn⟩ : Fin cfg4.N)) (outsAt4 V c n (Nat.lt_of_succ_lt hn)).2.2 g).trans ?_
        rw [ihc g, pointCnt V c (⟨n + 1, hn⟩ : Fin cfg4.N) g]
        unfold cntAt
        rw [Finset.sum_range_succ _ (n + 1)]

/-- AFTER THE LAST POINT the two carried accumulators hold the pooled rows and the node counts over ALL the nodes. -/
theorem scratch4_last (c : Dev nD) (h19 : 19 < cfg4.N) :
    (∀ (g : Fin 128) (h : Fin 64), (outsAt4 V c 19 h19).2.1 (ix2 g h) = ∑ n : Fin 100000, oh4 V c n g * act4 V c n h)
      ∧ (∀ g : Fin 128, (outsAt4 V c 19 h19).2.2 (ix2 g 0) = ∑ n : Fin 100000, oh4 V c n g * Ideal.ofBits .bf16 0x3F80#16) := by
  obtain ⟨hp, hc⟩ := scratch4_at V c 19 h19
  exact ⟨fun g h => (hp g h).trans (sum_blocks _), fun g => (hc g).trans (sum_blocks _)⟩

end Cert.KernelIdeal.HandVal

end
-- ==== Proof.KI.Val4Out.lean ====
/-
  Region 4's output array, entry by entry: the last grid point stores the head — the pooled rows divided by the node
  count clamped below by the unit, through the linear map, plus its bias — of the two carried accumulators as that point
  leaves them, which are the sums over all the nodes of the one-hot products; that one block, written back once, is the
  whole array.
-/
import proofs.«411316_j29850022707326_3_alg».proof.Proof.KI.R4
import proofs.«411316_j29850022707326_3_alg».proof.Proof.KI.Val4Pay
import proofs.«411316_j29850022707326_3_alg».proof.Proof.KI.Val4
import proofs.«411316_j29850022707326_3_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The last point stores into the output the head — the mean by the clamped count, then the linear map — of the two
    scratches as that same point leaves them. -/
theorem last4_out (c : Dev nD) (h19 : 19 < cfg4.N) :
    (outsAt4 V c 19 h19).1
      = k4_pay3 (F := Ideal) (outsAt4 V c 19 h19).2.2 (outsAt4 V c 19 h19).2.1 (linWBlk V c ⟨19, h19⟩) (linBBlk V c ⟨19, h19⟩) := by
  have h0 : ¬(⟨19, h19⟩ : Fin cfg4.N).val % 20 = 0 := (by decide : ¬(19 : ℕ) % 20 = 0)
  have h1 : (⟨19, h19⟩ : Fin cfg4.N).val % 20 = 19 := (by decide : (19 : ℕ) % 20 = 19)
  rw [show outsAt4 V c 19 h19 = _ from outsAt4_C V c ⟨19, h19⟩ h0 h1]
  dsimp only
  rw [out4_C_8_eq (F := Ideal) c (grid4.coords (⟨19, h19⟩ : Fin cfg4.N)) (ms4_0 (⟨19, h19⟩ : Fin cfg4.N)) (hs4_0 (⟨19, h19⟩ : Fin cfg4.N)) (ms4_1 (⟨19, h19⟩ : Fin cfg4.N)) (hs4_1 (⟨19, h19⟩ : Fin cfg4.N)) (ms4_2 (⟨19, h19⟩ : Fin cfg4.N)) (hs4_2 (⟨19, h19⟩ : Fin cfg4.N)) (ms4_3 (⟨19, h19⟩ : Fin cfg4.N)) (hs4_3 (⟨19, h19⟩ : Fin cfg4.N)) (ms4_4 (⟨19, h19⟩ : Fin cfg4.N)) (hs4_4 (⟨19, h19⟩ : Fin cfg4.N)) (ms4_5 (⟨19, h19⟩ : Fin cfg4.N)) (hs4_5 (⟨19, h19⟩ : Fin cfg4.N)) (ms4_6 (⟨19, h19⟩ : Fin cfg4.N)) (hs4_6 (⟨19, h19⟩ : Fin cfg4.N)) (ms4_7 (⟨19, h19⟩ : Fin cfg4.N)) (hs4_7 (⟨19, h19⟩ : Fin cfg4.N)) (ms4_8 (⟨19, h19⟩ : Fin cfg4.N)) (hs4_8 (⟨19, h19⟩ : Fin cfg4.N)) scM4_0 (Memref.isWhole_whole _) scM4_1 (Memref.isWhole_whole _) (fun h => h0 ((hcond4_0 (⟨19, h19⟩ : Fin cfg4.N)).mp h)) ((hcond4_1 (⟨19, h19⟩ : Fin cfg4.N)).mpr h1) (iblk4 V c 0 (⟨19, h19⟩ : Fin cfg4.N)) (iblk4 V c 1 (⟨19, h19⟩ : Fin cfg4.N)) (iblk4 V c 2 (⟨19, h19⟩ : Fin cfg4.N)) (iblk4 V c 3 (⟨19, h19⟩ : Fin cfg4.N)) (iblk4 V c 4 (⟨19, h19⟩ : Fin cfg4.N)) (iblk4 V c 5 (⟨19, h19⟩ : Fin cfg4.N)) (iblk4 V c 6 (⟨19, h19⟩ : Fin cfg4.N)) (iblk4 V c 7 (⟨19, h19⟩ : Fin cfg4.N)) (outsAt4 V c (19 - 1) (Nat.lt_of_le_of_lt (Nat.sub_le 19 1) h19)).2.1 (outsAt4 V c (19 - 1) (Nat.lt_of_le_of_lt (Nat.sub_le 19 1) h19)).2.2,
    sout4_C_0_eq (F := Ideal) c (grid4.coords (⟨19, h19⟩ : Fin cfg4.N)) (ms4_0 (⟨19, h19⟩ : Fin cfg4.N)) (hs4_0 (⟨19, h19⟩ : Fin cfg4.N)) (ms4_1 (⟨19, h19⟩ : Fin cfg4.N)) (hs4_1 (⟨19, h19⟩ : Fin cfg4.N)) (ms4_2 (⟨19, h19⟩ : Fin cfg4.N)) (hs4_2 (⟨19, h19⟩ : Fin cfg4.N)) (ms4_3 (⟨19, h19⟩ : Fin cfg4.N)) (hs4_3 (⟨19, h19⟩ : Fin cfg4.N)) (ms4_4 (⟨19, h19⟩ : Fin cfg4.N)) (hs4_4 (⟨19, h19⟩ : Fin cfg4.N)) (ms4_5 (⟨19, h19⟩ : Fin cfg4.N)) (hs4_5 (⟨19, h19⟩ : Fin cfg4.N)) (ms4_6 (⟨19, h19⟩ : Fin cfg4.N)) (hs4_6 (⟨19, h19⟩ : Fin cfg4.N)) (ms4_7 (⟨19, h19⟩ : Fin cfg4.N)) (hs4_7 (⟨19, h19⟩ : Fin cfg4.N)) (ms4_8 (⟨19, h19⟩ : Fin cfg4.N)) (hs4_8 (⟨19, h19⟩ : Fin cfg4.N)) scM4_0 (Memref.isWhole_whole _) scM4_1 (Memref.isWhole_whole _) (fun h => h0 ((hcond4_0 (⟨19, h19⟩ : Fin cfg4.N)).mp h)) ((hcond4_1 (⟨19, h19⟩ : Fin cfg4.N)).mpr h1) (iblk4 V c 0 (⟨19, h19⟩ : Fin cfg4.N)) (iblk4 V c 1 (⟨19, h19⟩ : Fin cfg4.N)) (iblk4 V c 2 (⟨19, h19⟩ : Fin cfg4.N)) (iblk4 V c 3 (⟨19, h19⟩ : Fin cfg4.N)) (iblk4 V c 4 (⟨19, h19⟩ : Fin cfg4.N)) (iblk4 V c 5 (⟨19, h19⟩ : Fin cfg4.N)) (iblk4 V c 6 (⟨19, h19⟩ : Fin cfg4.N)) (iblk4 V c 7 (⟨19, h19⟩ : Fin cfg4.N)) (outsAt4 V c (19 - 1) (Nat.lt_of_le_of_lt (Nat.sub_le 19 1) h19)).2.1 (outsAt4 V c (19 - 1) (Nat.lt_of_le_of_lt (Nat.sub_le 19 1) h19)).2.2,
    sout4_C_1_eq (F := Ideal) c (grid4.coords (⟨19, h19⟩ : Fin cfg4.N)) (ms4_0 (⟨19, h19⟩ : Fin cfg4.N)) (hs4_0 (⟨19, h19⟩ : Fin cfg4.N)) (ms4_1 (⟨19, h19⟩ : Fin cfg4.N)) (hs4_1 (⟨19, h19⟩ : Fin cfg4.N)) (ms4_2 (⟨19, h19⟩ : Fin cfg4.N)) (hs4_2 (⟨19, h19⟩ : Fin cfg4.N)) (ms4_3 (⟨19, h19⟩ : Fin cfg4.N)) (hs4_3 (⟨19, h19⟩ : Fin cfg4.N)) (ms4_4 (⟨19, h19⟩ : Fin cfg4.N)) (hs4_4 (⟨19, h19⟩ : Fin cfg4.N)) (ms4_5 (⟨19, h19⟩ : Fin cfg4.N)) (hs4_5 (⟨19, h19⟩ : Fin cfg4.N)) (ms4_6 (⟨19, h19⟩ : Fin cfg4.N)) (hs4_6 (⟨19, h19⟩ : Fin cfg4.N)) (ms4_7 (⟨19, h19⟩ : Fin cfg4.N)) (hs4_7 (⟨19, h19⟩ : Fin cfg4.N)) (ms4_8 (⟨19, h19⟩ : Fin cfg4.N)) (hs4_8 (⟨19, h19⟩ : Fin cfg4.N)) scM4_0 (Memref.isWhole_whole _) scM4_1 (Memref.isWhole_whole _) (fun h => h0 ((hcond4_0 (⟨19, h19⟩ : Fin cfg4.N)).mp h)) ((hcond4_1 (⟨19, h19⟩ : Fin cfg4.N)).mpr h1) (iblk4 V c 0 (⟨19, h19⟩ : Fin cfg4.N)) (iblk4 V c 1 (⟨19, h19⟩ : Fin cfg4.N)) (iblk4 V c 2 (⟨19, h19⟩ : Fin cfg4.N)) (iblk4 V c 3 (⟨19, h19⟩ : Fin cfg4.N)) (iblk4 V c 4 (⟨19, h19⟩ : Fin cfg4.N)) (iblk4 V c 5 (⟨19, h19⟩ : Fin cfg4.N)) (iblk4 V c 6 (⟨19, h19⟩ : Fin cfg4.N)) (iblk4 V c 7 (⟨19, h19⟩ : Fin cfg4.N)) (outsAt4 V c (19 - 1) (Nat.lt_of_le_of_lt (Nat.sub_le 19 1) h19)).2.1 (outsAt4 V c (19 - 1) (Nat.lt_of_le_of_lt (Nat.sub_le 19 1) h19)).2.2]

/-- What the output array ends holding: per graph, the pooled rows divided by the node count clamped below by the unit,
    through the linear map, plus its bias — the pooling and the count both as products with the one-hot matrix. -/
def head4 (c : Dev nD) : S128x32.Idx → EReal := fun i =>
  Cert.Spec.kerHead (oh4 V c) (Ideal.ofBits .f32 0x3F800000#32) (Ideal.ofBits .bf16 0x3F80#16) (act4 V c)
    (fun (h : Fin 64) (o : Fin 32) => (V c main_arg9 : S64x32.Idx → EReal) (ix2 h o))
    (fun o : Fin 32 => (V c main_v75 : S1x32.Idx → EReal) (ix2 (0 : Fin 1) o))
    ⟨(i 0).val, idx2_lt0 i⟩ ⟨(i 1).val, idx2_lt1 i⟩

/-- Entry `(q, o)` of what the last point stores into the output: the two scratches after that point are the sums over
    all the nodes, and the linear map's blocks are its whole arrays. -/
theorem last4_out_apply (c : Dev nD) (h19 : 19 < cfg4.N) (q : Fin 128) (o : Fin 32) :
    (outsAt4 V c 19 h19).1 (ix2 q o) = head4 V c (ix2 q o) := by
  rw [last4_out V c h19]
  refine (k4_pay3_apply (outsAt4 V c 19 h19).2.2 (outsAt4 V c 19 h19).2.1 (linWBlk V c ⟨19, h19⟩) (linBBlk V c ⟨19, h19⟩) q o).trans ?_
  obtain ⟨hs0, hs1⟩ := scratch4_last V c h19
  rw [linWBlk_eq V c ⟨19, h19⟩, linBBlk_eq V c ⟨19, h19⟩, hs1 q]
  unfold head4 Cert.Spec.kerHead
  refine congrArg₂ (· + ·) (Finset.sum_congr rfl fun h _ => ?_) rfl
  rw [hs0 q h]

/-- The output window's index map, decided over the grid: its one block, at every point. -/
theorem idx4_out : ∀ t : Fin cfg4.N, win4_8.index t (0 : Fin 2) = 0 ∧ win4_8.index t (1 : Fin 2) = 0 :=
  (by decide +kernel : ∀ t : Fin grid4.N, win4_8.index t (0 : Fin 2) = 0 ∧ win4_8.index t (1 : Fin 2) = 0)

/-- The grid has a point 19, its last. -/
theorem lt19_4 : 19 < cfg4.N := by rw [show cfg4.N = 20 from N_4]; decide
def t4_19 : Fin cfg4.N := ⟨19, lt19_4⟩

/-- THE ONE WRITE-BACK, at the last point, writes the head: the output's one block read through zero offsets is the array. -/
theorem flushed4_eq (c : Dev nD) (t : Fin cfg4.N) (hf : (cfg4.win 8).flush t = true) :
    (dat4 V c).flushed 8 t = ((cfg4.win 8).blk t).view.read (Elt Ideal) (head4 V c) := by
  have hN : cfg4.N = 20 := N_4
  have h1 : t.val = 19 := by have := (flush4_8 t).mp hf; have := t.isLt; omega
  have h19 : 19 < cfg4.N := lt19_4
  obtain rfl : t = ⟨19, h19⟩ := Fin.ext h1
  show (cfg4.win 8).cut (grid4.coords ⟨19, h19⟩) ((dat4 V c).after 8 ⟨19, h19⟩) = _
  rw [after4_8]
  dsimp only
  have e : (outsAt4 V c 19 h19).1 = head4 V c := by
    funext i
    obtain ⟨q, o, rfl⟩ : ∃ (q : Fin 128) (o : Fin 32), i = ix2 q o := ⟨i 0, i 1, eq_ix2 i⟩
    exact last4_out_apply V c h19 q o
  rw [e]
  obtain ⟨e0, e1⟩ := idx4_out ⟨19, h19⟩
  have hz' : (fun a => win4_8.index ⟨19, h19⟩ a * main_v76.ty.shape.size a) = fun _ => 0 := funext fun a => by
    match a with
    | ⟨0, _⟩ => show win4_8.index ⟨19, h19⟩ (0 : Fin 2) * 128 = 0; rw [e0]
    | ⟨1, _⟩ => show win4_8.index ⟨19, h19⟩ (1 : Fin 2) * 32 = 0; rw [e1]
  exact (Memref.read_access_unit_zero (Elt Ideal) main_v76 hz' (fun a => by rw [congrFun hz' a]; simp) (head4 V c)).symm

/-- An index of the array is in point `t`'s block iff each coordinate is in the block's range on its axis. -/
theorem mem_blk4 (t : Fin cfg4.N) (i : S128x32.Idx) :
    i ∈ ((cfg4.win 8).blk t).view.set ↔ ∀ a : Fin 2, win4_8.index t a * S128x32.size a ≤ (i a).val ∧ (i a).val < win4_8.index t a * S128x32.size a + S128x32.size a := by
  show i ∈ ((View.whole main_v76).slice (win4_8.rect t)).set ↔ _
  rw [View.set_slice_whole, Rect.mem_set_unit]
  exact Iff.rfl

/-- Every index is in the last point's block, which is the whole array. -/
theorem cover4 (i : S128x32.Idx) : ∃ t : Fin cfg4.N, (cfg4.win 8).flush t = true ∧ i ∈ ((cfg4.win 8).blk t).view.set := by
  have hi0 : (i 0).val < 128 := idx2_lt0 i
  have hi1 : (i 1).val < 32 := idx2_lt1 i
  obtain ⟨e0, e1⟩ := idx4_out t4_19
  refine ⟨t4_19, (flush4_8 t4_19).mpr rfl, ?_⟩
  rw [mem_blk4]
  intro a
  match a with
  | ⟨0, _⟩ => show win4_8.index t4_19 (0 : Fin 2) * 128 ≤ (i 0).val ∧ (i 0).val < win4_8.index t4_19 (0 : Fin 2) * 128 + 128; rw [e0]; omega
  | ⟨1, _⟩ => show win4_8.index t4_19 (1 : Fin 2) * 32 ≤ (i 1).val ∧ (i 1).val < win4_8.index t4_19 (1 : Fin 2) * 32 + 32; rw [e1]; omega

/-- THE ARRAY after the region: the head of the arrays as the region found them. -/
theorem final4 (c : Dev nD) : (dat4 V c).arrAt 8 cfg4.N = head4 V c :=
  (dat4 V c).arrAt_eq_of_cover 8 (head4 V c) (fun t hf => flushed4_eq V c t hf) cover4

/-- THE OUTPUT ARRAY of the pooling and the linear layer, entry by entry: per graph `q` and output column `o`, the sum
    over the hidden columns of (the one-hot-pooled normalised, rectified aggregate divided by the one-hot-pooled node
    count clamped below by the unit) times the linear map's entry, plus the bias. -/
theorem arr4_out (c : Dev nD) (q : Fin 128) (o : Fin 32) :
    ((dat4 V c).arrAt 8 cfg4.N : S128x32.Idx → EReal) (ix2 q o)
      = Cert.Spec.kerHead
          (fun (n : Fin 100000) (q : Fin 128) => if (V c main_v74 : IVec S100000x1 32) (ix2 n (0 : Fin 1)) = BitVec.ofNat 32 q.val then (1 : EReal) else 0)
          (Ideal.ofBits .f32 0x3F800000#32) (Ideal.ofBits .bf16 0x3F80#16)
          (Cert.Spec.kerBn (fun k : Fin 64 => (V c main_v69 : S1x64.Idx → EReal) (ix2 (0 : Fin 1) k))
            (fun k : Fin 64 => (V c main_v72 : S1x64.Idx → EReal) (ix2 (0 : Fin 1) k))
            (Cert.Spec.kerAgg (fun n : Fin 100000 => (V c main_v15 : S100000x1.Idx → EReal) (ix2 n (0 : Fin 1)))
              (fun (n : Fin 100000) (k : Fin 64) => (V c main_v56 : S100000x64.Idx → EReal) (ix2 n k))
              (fun k : Fin 64 => (V c main_v73 : S1x64.Idx → EReal) (ix2 (0 : Fin 1) k))))
          (fun (h : Fin 64) (o : Fin 32) => (V c main_arg9 : S64x32.Idx → EReal) (ix2 h o))
          (fun o : Fin 32 => (V c main_v75 : S1x32.Idx → EReal) (ix2 (0 : Fin 1) o)) q o := by
  rw [final4]
  rfl

end Cert.KernelIdeal.HandVal

end
-- ==== Proof.Graph.lean ====
import Idealize.ShloMosaic.PureOps.Ideal
import Idealize.ShloMosaic.Lib.ValueIdx

/-! # The graph and the batch, read off the index vectors

The programs carry the edge list as two vectors of 32-bit words (source and target of each edge, self loops appended)
and the batch as one vector of graph ids. A gather reads a row index by first wrapping a negative word by the table's
length and then clamping into the table; a scatter-add reads the target word signed and drops what is out of range. -/

noncomputable section

namespace Cert.Graph

open Idealize.ShloMosaic Idealize.ShloMosaic.ValueIdx

variable {N E Q : ℕ}

/-- A word wrapped as a gather index is: a negative one has the table's length added. -/
def wrap (N : ℕ) (v : BitVec 32) : BitVec 32 :=
  Scalar.select (IntOp.cmpi .slt v 0#32) (IntOp.addi v (BitVec.ofNat 32 N)) v

/-- The row a gather reads for the word `v`: wrapped, read signed, clamped into `[0, N - 1]`. -/
def row (hN : 0 < N) (v : BitVec 32) : Fin N := ⟨min (wrap N v).toInt.toNat (N - 1), by omega⟩

/-- The node each edge reads (as a gather of the source vector reads it). -/
def gOf (hN : 0 < N) (src : (⟨1, ![E]⟩ : Shape).Idx → BitVec 32) : Fin E → Fin N := fun e => row hN (src (ix1 e))

/-- The edges landing on node `n`: those whose target word, read signed, is `n`. -/
def SOf (dst : (⟨1, ![E]⟩ : Shape).Idx → BitVec 32) : Fin N → Finset (Fin E) :=
  fun n => Finset.univ.filter fun e => (dst (ix1 e)).toInt = (n.val : ℤ)

/-- The nodes of graph `q`: those whose batch word, read signed, is `q`. -/
def TOf (batch : (⟨1, ![N]⟩ : Shape).Idx → BitVec 32) : Fin Q → Finset (Fin N) :=
  fun q => Finset.univ.filter fun n => (batch (ix1 n)).toInt = (q.val : ℤ)

/-- The one-hot matrix of the batch: one where the node's word is the graph's number, zero elsewhere. -/
def ohOf (batch : (⟨1, ![N]⟩ : Shape).Idx → BitVec 32) : Fin N → Fin Q → EReal :=
  fun n q => if batch (ix1 n) = BitVec.ofNat 32 q.val then 1 else 0

end Cert.Graph

end
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.KI.HostVal.lean ====
import proofs.«411316_j29850022707326_3_alg».proof.Proof.Gen.KernelIdeal.Launch
import proofs.«411316_j29850022707326_3_alg».proof.Proof.Spec
import proofs.«411316_j29850022707326_3_alg».proof.Proof.Graph
import Idealize.ShloMosaic.Lib.StableHlo.Run
import Idealize.ShloMosaic.Lib.ValueIdx
import Idealize.ShloMosaic.Lib.StableHlo.Predicate
import proofs.«411316_j29850022707326_3_alg».proof.Proof.LibGatherScatter

noncomputable section

/-! # The host stretches of the factored program, read at an index

Between its pipelined regions the program runs straight lines of tensor operations: the edge list with self loops, the
degrees and their inverse square roots; before each aggregation the gather of the pre-scaled rows along the edges and their
sum at the targets; before each normalisation the batch statistics folded into one scale and one shift per column. Each
lemma here reads one result of one such line, over arbitrary contents before the line, at one index, as the mathematics it
computes there. -/

namespace Cert.KernelIdeal.HandVal

open Cert.KernelIdeal Cert.KernelIdeal.Gen Idealize.ShloMosaic Idealize.ShloMosaic.ValueIdx

/-! ## The constants of the normalisation -/

/-- The node count as the program spells it. -/
abbrev C : EReal := Ideal.ofBits .f32 0x47C35000#32
/-- The variance offset as the program spells it. -/
abbrev EPS : EReal := Ideal.ofBits .f32 0x3727C5AC#32

/-! ## A vector as a one-row or one-column matrix, read at an index -/

/-- A vector kept as a one-row matrix reads, at column `j`, the vector at `j`. -/
theorem bcast_row_ix {α : Type} {m : Nat} (h₁ : (⟨1, ![m]⟩ : Shape).BroadcastsInDim ⟨2, ![1, m]⟩ ![1])
    (v : (⟨1, ![m]⟩ : Shape).Idx → α) (j : Fin m) :
    broadcastInDim ⟨2, ![1, m]⟩ ![1] h₁ v (ix2 (0 : Fin 1) j) = v (ix1 j) := by
  simp only [broadcastInDim]
  congr 1
  funext a
  have ha : a = 0 := Subsingleton.elim _ _
  subst ha
  apply Fin.ext
  have hj := j.isLt
  split
  · next h1 => change m = 1 at h1; show (0 : Nat) = j.val; omega
  · rfl

/-- A vector reshaped to a one-row matrix reads, at column `j`, the vector at `j`. -/
theorem shapeCast_row_ix {α : Type} {m : Nat} (h : (⟨1, ![m]⟩ : Shape).ShapeCasts ⟨2, ![1, m]⟩)
    (v : (⟨1, ![m]⟩ : Shape).Idx → α) (j : Fin m) :
    shapeCast ⟨2, ![1, m]⟩ v h (ix2 (0 : Fin 1) j) = v (ix1 j) := by
  unfold shapeCast
  congr 1
  apply Shape.reshapeEquiv_eq_of_rowMajor
  rw [Shape.rowMajor_val_one, Shape.rowMajor_val_two]
  show j.val = 0 * m + j.val
  omega

/-- A vector reshaped to a one-column matrix reads, at row `n`, the vector at `n`. -/
theorem shapeCast_col_ix {α : Type} {m : Nat} (h : (⟨1, ![m]⟩ : Shape).ShapeCasts ⟨2, ![m, 1]⟩)
    (v : (⟨1, ![m]⟩ : Shape).Idx → α) (n : Fin m) :
    shapeCast ⟨2, ![m, 1]⟩ v h (ix2 n (0 : Fin 1)) = v (ix1 n) := by
  unfold shapeCast
  congr 1
  apply Shape.reshapeEquiv_eq_of_rowMajor
  rw [Shape.rowMajor_val_one, Shape.rowMajor_val_two]
  show n.val = n.val * 1 + 0
  omega

variable (W : Valuation τ sig (Elt Ideal))

/-! ## The statistics folded into one scale and one shift per column -/

/-- The first layer's scale: `γ · rsqrt (E[x²] − E[x]² + ε)` of the column sums and sums of squares. -/
theorem hostOps2_v40 (j : Fin 64) :
    (StableHlo.after (hostOps2 (F := Ideal)) W (Proc.devRef .tc main_v40) : FVec Ideal S1x64 .f32) (ix2 0 j)
      = Cert.Spec.kerScale C EPS (fun j => (W (Proc.devRef .tc main_arg7) : FVec Ideal S64 .f32) (ix1 j))
          (fun j => (W (Proc.devRef .tc main_v29_0) : FVec Ideal S1x64 .f32) (ix2 0 j))
          (fun j => (W (Proc.devRef .tc main_v29_1) : FVec Ideal S1x64 .f32) (ix2 0 j)) j := by
  after_results
  show (broadcastInDim S1x64 ![1] bcast_S64_S1x64_1 (W (Proc.devRef .tc main_arg7)) (ix2 0 j) : EReal) * _ = _
  rw [bcast_row_ix]
  rfl

/-- The first layer's shift: `β − E[x] · scale`. -/
theorem hostOps2_v43 (j : Fin 64) :
    (StableHlo.after (hostOps2 (F := Ideal)) W (Proc.devRef .tc main_v43) : FVec Ideal S1x64 .f32) (ix2 0 j)
      = Cert.Spec.kerShift C EPS (fun j => (W (Proc.devRef .tc main_arg7) : FVec Ideal S64 .f32) (ix1 j))
          (fun j => (W (Proc.devRef .tc main_arg8) : FVec Ideal S64 .f32) (ix1 j))
          (fun j => (W (Proc.devRef .tc main_v29_0) : FVec Ideal S1x64 .f32) (ix2 0 j))
          (fun j => (W (Proc.devRef .tc main_v29_1) : FVec Ideal S1x64 .f32) (ix2 0 j)) j := by
  after_results_simp
  show (broadcastInDim S1x64 ![1] bcast_S64_S1x64_1 (W (Proc.devRef .tc main_arg8)) (ix2 0 j) : EReal)
      - _ * ((broadcastInDim S1x64 ![1] bcast_S64_S1x64_1 (W (Proc.devRef .tc main_arg7)) (ix2 0 j) : EReal) * _) = _
  rw [bcast_row_ix, bcast_row_ix]
  rfl

/-- The first layer's bias as a row. -/
theorem hostOps2_v44 (j : Fin 64) :
    (StableHlo.after (hostOps2 (F := Ideal)) W (Proc.devRef .tc main_v44) : FVec Ideal S1x64 .f32) (ix2 0 j)
      = (W (Proc.devRef .tc main_arg4) : FVec Ideal S64 .f32) (ix1 j) := by
  after_results
  exact shapeCast_row_ix _ _ j

/-- The second layer's scale. -/
theorem hostOps4_v69 (j : Fin 64) :
    (StableHlo.after (hostOps4 (F := Ideal)) W (Proc.devRef .tc main_v69) : FVec Ideal S1x64 .f32) (ix2 0 j)
      = Cert.Spec.kerScale C EPS (fun j => (W (Proc.devRef .tc main_arg7) : FVec Ideal S64 .f32) (ix1 j))
          (fun j => (W (Proc.devRef .tc main_v58_0) : FVec Ideal S1x64 .f32) (ix2 0 j))
          (fun j => (W (Proc.devRef .tc main_v58_1) : FVec Ideal S1x64 .f32) (ix2 0 j)) j := by
  after_results_simp
  show (broadcastInDim S1x64 ![1] bcast_S64_S1x64_1 (W (Proc.devRef .tc main_arg7)) (ix2 0 j) : EReal) * _ = _
  rw [bcast_row_ix]
  rfl

/-- The second layer's shift. -/
theorem hostOps4_v72 (j : Fin 64) :
    (StableHlo.after (hostOps4 (F := Ideal)) W (Proc.devRef .tc main_v72) : FVec Ideal S1x64 .f32) (ix2 0 j)
      = Cert.Spec.kerShift C EPS (fun j => (W (Proc.devRef .tc main_arg7) : FVec Ideal S64 .f32) (ix1 j))
          (fun j => (W (Proc.devRef .tc main_arg8) : FVec Ideal S64 .f32) (ix1 j))
          (fun j => (W (Proc.devRef .tc main_v58_0) : FVec Ideal S1x64 .f32) (ix2 0 j))
          (fun j => (W (Proc.devRef .tc main_v58_1) : FVec Ideal S1x64 .f32) (ix2 0 j)) j := by
  after_results_simp
  show (broadcastInDim S1x64 ![1] bcast_S64_S1x64_1 (W (Proc.devRef .tc main_arg8)) (ix2 0 j) : EReal)
      - _ * ((broadcastInDim S1x64 ![1] bcast_S64_S1x64_1 (W (Proc.devRef .tc main_arg7)) (ix2 0 j) : EReal) * _) = _
  rw [bcast_row_ix, bcast_row_ix]
  rfl

/-- The second layer's bias as a row. -/
theorem hostOps4_v73 (j : Fin 64) :
    (StableHlo.after (hostOps4 (F := Ideal)) W (Proc.devRef .tc main_v73) : FVec Ideal S1x64 .f32) (ix2 0 j)
      = (W (Proc.devRef .tc main_arg6) : FVec Ideal S64 .f32) (ix1 j) := by
  after_results_simp
  exact shapeCast_row_ix _ _ j

/-- The batch vector as a column. -/
theorem hostOps4_v74 (n : Fin 100000) :
    (StableHlo.after (hostOps4 (F := Ideal)) W (Proc.devRef .tc main_v74) : IVec S100000x1 32) (ix2 n 0)
      = (W (Proc.devRef .tc main_arg2) : IVec S100000 32) (ix1 n) := by
  after_results_simp
  exact shapeCast_col_ix _ _ n

/-- The linear map's bias as a row. -/
theorem hostOps4_v75 (o : Fin 32) :
    (StableHlo.after (hostOps4 (F := Ideal)) W (Proc.devRef .tc main_v75) : FVec Ideal S1x32 .f32) (ix2 0 o)
      = (W (Proc.devRef .tc main_arg10) : FVec Ideal S32 .f32) (ix1 o) := by
  after_results_simp
  exact shapeCast_row_ix _ _ o

/-! ## The edge sum: gather the rows along the edges, add them at the targets -/

open Cert.LibGatherScatter Idealize.ShloMosaic.StableHlo.Predicate in
/-- Rows of a table gathered at the wrapped source words and summed at the target words, from zeros: at node `n`,
    column `j`, the sum over the edges landing on `n` of the table's row at the edge's source. -/
theorem aggregate_apply (p : FVec Ideal S100000x64 .bf16) (src dst : IVec S1700000 32) (n : Fin 100000) (j : Fin 64) :
    Host.scatterAdd (F := Ideal) scatter_S100000x64_S1700000x1_S1700000x64_1_0_0_1
        (broadcastInDim S100000x64 ![] bcast_S_S100000x64 (constant S_ .f32 0x00000000#32))
        (broadcastInDim S1700000x1 ![0] bcast_S1700000_S1700000x1_0 dst)
        (extf .f32 (Host.gather gather_S100000x64_S1700000x1_S1700000x64_1_0_n_n_0_1_164 p
          (broadcastInDim S1700000x1 ![0] bcast_S1700000_S1700000x1_0
            (select (cmpi .slt src (broadcastInDim S1700000 ![] bcast_S_S1700000 (constantI S_ 32 0#32)))
              (addi src (broadcastInDim S1700000 ![] bcast_S_S1700000 (constantI S_ 32 100000#32))) src))) bitsLt_bf16_f32)
        (ix2 n j)
      = Cert.Spec.kerRaw (Cert.Graph.gOf (by decide) src) (Cert.Graph.SOf dst) (fun n j => p (ix2 n j)) n j := by
  have hz : (broadcastInDim S100000x64 ![] bcast_S_S100000x64 (constant (F := Ideal) S_ .f32 0x00000000#32)) (ix2 n j)
      = (0 : EReal) := by
    show Ideal.ofBits .f32 0x00000000#32 = 0
    simp [Ideal.ofBits, Ideal.ieee]
  rw [rowScatterAdd_apply _ rfl rfl rfl rfl, hz]
  unfold Cert.Spec.kerRaw
  refine congrArg (fun t : EReal => 0 + t) ?_
  · apply Finset.sum_congr
    · unfold Cert.Graph.SOf
      apply Finset.filter_congr
      intro e _
      rw [bcast_col1_ix1]
    · intro e _
      rw [extf_apply, rowGather_apply _ rfl rfl rfl rfl rfl rfl rfl (by decide)]
      refine congrArg (fun r : Fin 100000 => p (ix2 r j)) (Fin.ext ?_)
      show min _ (100000 - 1) = min (Cert.Graph.wrap 100000 (src (ix1 e))).toInt.toNat (100000 - 1)
      rw [bcast_col1_ix1, normIndex_apply]
      rfl

/-- The first aggregation's edge sum. -/
theorem hostOps1_v27 (n : Fin 100000) (j : Fin 64) :
    (StableHlo.after (hostOps1 (F := Ideal)) W (Proc.devRef .tc main_v27) : FVec Ideal S100000x64 .f32) (ix2 n j)
      = Cert.Spec.kerRaw (Cert.Graph.gOf (by decide) (W (Proc.devRef .tc main_v3) : IVec S1700000 32))
          (Cert.Graph.SOf (W (Proc.devRef .tc main_v6) : IVec S1700000 32))
          (fun n j => (W (Proc.devRef .tc main_v16) : FVec Ideal S100000x64 .bf16) (ix2 n j)) n j := by
  after_results_simp
  exact aggregate_apply _ _ _ n j

/-- The first layer's bias as a row, before the first aggregation. -/
theorem hostOps1_v28 (j : Fin 64) :
    (StableHlo.after (hostOps1 (F := Ideal)) W (Proc.devRef .tc main_v28) : FVec Ideal S1x64 .f32) (ix2 0 j)
      = (W (Proc.devRef .tc main_arg4) : FVec Ideal S64 .f32) (ix1 j) := by
  after_results_simp
  exact shapeCast_row_ix _ _ j

/-- The second aggregation's edge sum. -/
theorem hostOps3_v56 (n : Fin 100000) (j : Fin 64) :
    (StableHlo.after (hostOps3 (F := Ideal)) W (Proc.devRef .tc main_v56) : FVec Ideal S100000x64 .f32) (ix2 n j)
      = Cert.Spec.kerRaw (Cert.Graph.gOf (by decide) (W (Proc.devRef .tc main_v3) : IVec S1700000 32))
          (Cert.Graph.SOf (W (Proc.devRef .tc main_v6) : IVec S1700000 32))
          (fun n j => (W (Proc.devRef .tc main_v45) : FVec Ideal S100000x64 .bf16) (ix2 n j)) n j := by
  after_results_simp
  exact aggregate_apply _ _ _ n j

/-- The second layer's bias as a row, before the second aggregation. -/
theorem hostOps3_v57 (j : Fin 64) :
    (StableHlo.after (hostOps3 (F := Ideal)) W (Proc.devRef .tc main_v57) : FVec Ideal S1x64 .f32) (ix2 0 j)
      = (W (Proc.devRef .tc main_arg6) : FVec Ideal S64 .f32) (ix1 j) := by
  after_results_simp
  exact shapeCast_row_ix _ _ j

/-! ## The edge list with self loops, the degrees and their inverse square roots -/

/-- The source words of the edges: row 0 of the edge array, then each node's own number. -/
def srcK (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩]
    concatenates_S1600000_S100000_S1700000_d0

/-- The target words of the edges: row 1 of the edge array, then each node's own number. -/
def dstK (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩]
    concatenates_S1600000_S100000_S1700000_d0

/-- The in-degrees: ones summed at the target words, from zeros. -/
def degK (ei : IVec S2x1600000 32) : FVec Ideal S100000 .f32 :=
  Host.scatterAdd (F := Ideal) scatter_S100000_S1700000x1_S1700000_n_0_0_1
    (broadcastInDim S100000 ![] bcast_S_S100000 (constant S_ .f32 0x00000000#32))
    (broadcastInDim S1700000x1 ![0] bcast_S1700000_S1700000x1_0 (dstK ei))
    (broadcastInDim S1700000 ![] bcast_S_S1700000 (constant S_ .f32 0x3F800000#32))

/-- The inverse square roots of the in-degrees, zero where the degree is not positive. -/
def disK (ei : IVec S2x1600000 32) : FVec Ideal S100000 .f32 :=
  select (cmpf .ogt (degK ei) (broadcastInDim S100000 ![] bcast_S_S100000 (constant S_ .f32 0x00000000#32)))
    (Host.rsqrt (degK ei))
    (broadcastInDim S100000 ![] bcast_S_S100000 (constant S_ .f32 0x00000000#32))

/-- The first line leaves the source words, -/
theorem hostOps0_v3 :
    (StableHlo.after (hostOps0 (F := Ideal)) W (Proc.devRef .tc main_v3) : IVec S1700000 32)
      = srcK (W (Proc.devRef .tc main_arg1)) := by
  after_results
  rfl

/-- the target words, -/
theorem hostOps0_v6 :
    (StableHlo.after (hostOps0 (F := Ideal)) W (Proc.devRef .tc main_v6) : IVec S1700000 32)
      = dstK (W (Proc.devRef .tc main_arg1)) := by
  after_results
  rfl

/-- the degrees, -/
theorem hostOps0_v10 :
    (StableHlo.after (hostOps0 (F := Ideal)) W (Proc.devRef .tc main_v10) : FVec Ideal S100000 .f32)
      = degK (W (Proc.devRef .tc main_arg1)) := by
  after_results
  rfl

/-- which of them are positive, -/
theorem hostOps0_v12 :
    (StableHlo.after (hostOps0 (F := Ideal)) W (Proc.devRef .tc main_v12) : IVec S100000 1)
      = cmpf .ogt (degK (W (Proc.devRef .tc main_arg1)))
          (broadcastInDim S100000 ![] bcast_S_S100000 (constant S_ .f32 0x00000000#32)) := by
  after_results
  rfl

/-- their inverse square roots, -/
theorem hostOps0_v13 :
    (StableHlo.after (hostOps0 (F := Ideal)) W (Proc.devRef .tc main_v13) : FVec Ideal S100000 .f32)
      = Host.rsqrt (degK (W (Proc.devRef .tc main_arg1))) := by
  after_results
  rfl

/-- and a zero. -/
theorem hostOps0_cst_2 :
    (StableHlo.after (hostOps0 (F := Ideal)) W (Proc.devRef .tc main_cst_2) : FVec Ideal S_ .f32)
      = constant (F := Ideal) S_ .f32 0x00000000#32 := by
  after_results

/-- The second line selects the inverse square root where the degree is positive and the zero elsewhere. -/
theorem hostOps0_1_v14 :
    (StableHlo.after (hostOps0_1 (F := Ideal)) W (Proc.devRef .tc main_v14) : FVec Ideal S100000 .f32)
      = select (W (Proc.devRef .tc main_v12) : IVec S100000 1) (W (Proc.devRef .tc main_v13) : FVec Ideal S100000 .f32)
          (broadcastInDim S100000 ![] bcast_S_S100000 (W (Proc.devRef .tc main_cst_2) : FVec Ideal S_ .f32)) := by
  after_results
  rfl

/-- The third line keeps the result as a column. -/
theorem hostOps0_2_v15 (n : Fin 100000) :
    (StableHlo.after (hostOps0_2 (F := Ideal)) W (Proc.devRef .tc main_v15) : FVec Ideal S100000x1 .f32) (ix2 n 0)
      = (W (Proc.devRef .tc main_v14) : FVec Ideal S100000 .f32) (ix1 n) := by
  after_results
  exact shapeCast_col_ix _ _ n

/-- The three lines together: the column the regions read holds `disK` of the edge array. -/
theorem hostOps0_v15 (n : Fin 100000) :
    (StableHlo.after (hostOps0_2 (F := Ideal)) (StableHlo.after (hostOps0_1 (F := Ideal)) (StableHlo.after (hostOps0 (F := Ideal)) W))
        (Proc.devRef .tc main_v15) : FVec Ideal S100000x1 .f32) (ix2 n 0)
      = disK (W (Proc.devRef .tc main_arg1)) (ix1 n) := by
  rw [hostOps0_2_v15, hostOps0_1_v14, hostOps0_v12, hostOps0_v13, hostOps0_cst_2]
  rfl

/-! ## The degrees are counts, their inverse square roots nonnegative reals -/

open Cert.LibGatherScatter Idealize.ShloMosaic.StableHlo.Predicate in
/-- The in-degree of node `n` is the number of edges landing on it. -/
theorem degK_apply (ei : IVec S2x1600000 32) (n : Fin 100000) :
    degK ei (ix1 n) = (((Cert.Graph.SOf (N := 100000) (dstK ei) n).card : ℝ) : EReal) := by
  have hz : (broadcastInDim S100000 ![] bcast_S_S100000 (constant (F := Ideal) S_ .f32 0x00000000#32)) (ix1 n) = (0 : EReal) := by
    show Ideal.ofBits .f32 0x00000000#32 = 0
    simp [Ideal.ofBits, Ideal.ieee]
  have h1 : ∀ e : Fin 1700000,
      (broadcastInDim S1700000 ![] bcast_S_S1700000 (constant (F := Ideal) S_ .f32 0x3F800000#32)) (ix1 e) = (1 : EReal) := by
    intro e
    show Ideal.ofBits .f32 0x3F800000#32 = 1
    simp [Ideal.ofBits, Ideal.ieee, -EReal.coe_mul]; norm_num
  unfold degK
  rw [vecScatterAdd_apply _ rfl rfl rfl rfl, hz, zero_add]
  have hS : (Finset.univ.filter fun e : Fin 1700000 =>
        (broadcastInDim S1700000x1 ![0] bcast_S1700000_S1700000x1_0 (dstK ei) (ixP e)).toInt = (n.val : ℤ))
      = Cert.Graph.SOf (dstK ei) n := by
    unfold Cert.Graph.SOf
    apply Finset.filter_congr
    intro e _
    rw [bcast_col1_ix1]
  rw [hS, Finset.sum_congr rfl (fun e _ => h1 e), Finset.sum_const, nsmul_one]
  rfl

/-- The host's inverse square root at an index is the extended reals'. -/
theorem hostRsqrt_apply {s : Shape} {φ : FTy} (x : FVec Ideal s φ) (i : s.Idx) : Host.rsqrt x i = Ideal.rsqrt (x i) := rfl

/-- `disK` is a nonnegative real at every node: the inverse square root of a positive count, or zero. -/
theorem disK_real (ei : IVec S2x1600000 32) (n : Fin 100000) : ∃ r : ℝ, 0 ≤ r ∧ disK ei (ix1 n) = (r : EReal) := by
  have hz : (broadcastInDim S100000 ![] bcast_S_S100000 (constant (F := Ideal) S_ .f32 0x00000000#32)) (ix1 n) = (0 : EReal) := by
    show Ideal.ofBits .f32 0x00000000#32 = 0
    simp [Ideal.ofBits, Ideal.ieee]
  have hd := degK_apply ei n
  generalize (Cert.Graph.SOf (N := 100000) (dstK ei) n).card = k at hd
  unfold disK
  rw [select_apply, cmpf_apply, hostRsqrt_apply, hd, hz]
  by_cases hk : (0 : ℝ) < (k : ℝ)
  · have hc : FloatOps.cmpf (F := Ideal) (φ := .f32) .ogt (((k : ℝ) : EReal)) 0 = 1#1 := by
      show BitVec.ofBool (decide ((0 : EReal) < ((k : ℝ) : EReal))) = 1#1
      rw [decide_eq_true (by exact_mod_cast hk)]
      rfl
    rw [hc, select_one, Ideal.rsqrt_coe, if_neg (not_lt.mpr hk.le), if_neg hk.ne']
    exact ⟨(Real.sqrt k)⁻¹, inv_nonneg.mpr (Real.sqrt_nonneg _), rfl⟩
  · have hc : FloatOps.cmpf (F := Ideal) (φ := .f32) .ogt (((k : ℝ) : EReal)) 0 = 0#1 := by
      show BitVec.ofBool (decide ((0 : EReal) < ((k : ℝ) : EReal))) = 0#1
      rw [decide_eq_false (by exact_mod_cast hk)]
      rfl
    rw [hc, select_zero]
    exact ⟨0, le_rfl, rfl⟩

end Cert.KernelIdeal.HandVal

end
-- ==== Proof.KI.KerValue.lean ====
import proofs.«411316_j29850022707326_3_alg».proof.Proof.KI.Run
import proofs.«411316_j29850022707326_3_alg».proof.Proof.KI.Val0
import proofs.«411316_j29850022707326_3_alg».proof.Proof.KI.Val1
import proofs.«411316_j29850022707326_3_alg».proof.Proof.KI.Val2
import proofs.«411316_j29850022707326_3_alg».proof.Proof.KI.Val3
import proofs.«411316_j29850022707326_3_alg».proof.Proof.KI.Val4Out
import proofs.«411316_j29850022707326_3_alg».proof.Proof.KI.HostVal
import proofs.«411316_j29850022707326_3_alg».proof.Proof.Spec
import proofs.«411316_j29850022707326_3_alg».proof.Proof.Graph
import Idealize.ShloMosaic.Lib.Pipeline.Value
import Idealize.ShloMosaic.Lib.ValueIdx
import Idealize.ShloMosaic.PureOps.Ideal.Laws

set_option maxRecDepth 16384

/-! # The factored program's result, as the specification's factored computation of its arguments

@main is twelve items; the buffer contents at each boundary between them are a fold from the launch memory. Read down
that fold, one boundary at a time: each host stretch's results and each region's output arrays are the next stage of the
factored computation — pre-scaled projection, edge sum, aggregate, column statistics, scale and shift, normalised layer,
twice, then pooling and the linear map — of the stages before, and every argument array reaches every boundary as
launched. -/

noncomputable section

namespace Cert.KernelIdeal.HandVal

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ) (ρ : Dev nD → PrngReg)

local macro "dec" : term => `(by decide)

/-! ## What each item of @main leaves unchanged

A stretch of host operations leaves every buffer it does not write; a region leaves every buffer that is not one of its
output arrays. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h

/-- A buffer nothing before region 0 writes holds its launch contents at region 0's entry, -/
theorem W3_of0 (c : Dev nD) (r : Ref sig .tc) (h1 : r ∉ hostOps0_W) (h2 : r ∉ hostOps0_1_W) (h3 : r ∉ hostOps0_2_W) :
    W3 m ρ c (Proc.devRef .tc r) = m ((c : Thread nD τ).loc r) :=
  (W3_of m ρ c r h3).trans ((W2_of m ρ c r h2).trans ((W1_of m ρ c r h1).trans rfl))
/-- at region 0's exit, -/
theorem W4_of0 (c : Dev nD) (r : Ref sig .tc) (h1 : r ∉ hostOps0_W) (h2 : r ∉ hostOps0_1_W) (h3 : r ∉ hostOps0_2_W)
    (k0 : ∀ w : Fin cfg0.W, (cfg0.win w).isOut = true → Pipeline.arrRef spec0 w ≠ r) :
    W4 m ρ c (Proc.devRef .tc r) = m ((c : Thread nD τ).loc r) :=
  (W4_keep m ρ c r k0).trans (W3_of0 m ρ c r h1 h2 h3)
/-- at region 1's exit, -/
theorem W6_of0 (c : Dev nD) (r : Ref sig .tc) (h1 : r ∉ hostOps0_W) (h2 : r ∉ hostOps0_1_W) (h3 : r ∉ hostOps0_2_W)
    (k0 : ∀ w : Fin cfg0.W, (cfg0.win w).isOut = true → Pipeline.arrRef spec0 w ≠ r) (h5 : r ∉ hostOps1_W)
    (k1 : ∀ w : Fin cfg1.W, (cfg1.win w).isOut = true → Pipeline.arrRef spec1 w ≠ r) :
    W6 m ρ c (Proc.devRef .tc r) = m ((c : Thread nD τ).loc r) :=
  (W6_keep m ρ c r k1).trans ((W5_of m ρ c r h5).trans (W4_of0 m ρ c r h1 h2 h3 k0))
/-- at region 2's entry, -/
theorem W7_of0 (c : Dev nD) (r : Ref sig .tc) (h1 : r ∉ hostOps0_W) (h2 : r ∉ hostOps0_1_W) (h3 : r ∉ hostOps0_2_W)
    (k0 : ∀ w : Fin cfg0.W, (cfg0.win w).isOut = true → Pipeline.arrRef spec0 w ≠ r) (h5 : r ∉ hostOps1_W)
    (k1 : ∀ w : Fin cfg1.W, (cfg1.win w).isOut = true → Pipeline.arrRef spec1 w ≠ r) (h7 : r ∉ hostOps2_W) :
    W7 m ρ c (Proc.devRef .tc r) = m ((c : Thread nD τ).loc r) :=
  (W7_of m ρ c r h7).trans (W6_of0 m ρ c r h1 h2 h3 k0 h5 k1)
/-- at region 2's exit, -/
theorem W8_of0 (c : Dev nD) (r : Ref sig .tc) (h1 : r ∉ hostOps0_W) (h2 : r ∉ hostOps0_1_W) (h3 : r ∉ hostOps0_2_W)
    (k0 : ∀ w : Fin cfg0.W, (cfg0.win w).isOut = true → Pipeline.arrRef spec0 w ≠ r) (h5 : r ∉ hostOps1_W)
    (k1 : ∀ w : Fin cfg1.W, (cfg1.win w).isOut = true → Pipeline.arrRef spec1 w ≠ r) (h7 : r ∉ hostOps2_W)
    (k2 : ∀ w : Fin cfg2.W, (cfg2.win w).isOut = true → Pipeline.arrRef spec2 w ≠ r) :
    W8 m ρ c (Proc.devRef .tc r) = m ((c : Thread nD τ).loc r) :=
  (W8_keep m ρ c r k2).trans (W7_of0 m ρ c r h1 h2 h3 k0 h5 k1 h7)
/-- at region 3's exit, -/
theorem W10_of0 (c : Dev nD) (r : Ref sig .tc) (h1 : r ∉ hostOps0_W) (h2 : r ∉ hostOps0_1_W) (h3 : r ∉ hostOps0_2_W)
    (k0 : ∀ w : Fin cfg0.W, (cfg0.win w).isOut = true → Pipeline.arrRef spec0 w ≠ r) (h5 : r ∉ hostOps1_W)
    (k1 : ∀ w : Fin cfg1.W, (cfg1.win w).isOut = true → Pipeline.arrRef spec1 w ≠ r) (h7 : r ∉ hostOps2_W)
    (k2 : ∀ w : Fin cfg2.W, (cfg2.win w).isOut = true → Pipeline.arrRef spec2 w ≠ r) (h9 : r ∉ hostOps3_W)
    (k3 : ∀ w : Fin cfg3.W, (cfg3.win w).isOut = true → Pipeline.arrRef spec3 w ≠ r) :
    W10 m ρ c (Proc.devRef .tc r) = m ((c : Thread nD τ).loc r) :=
  (W10_keep m ρ c r k3).trans ((W9_of m ρ c r h9).trans (W8_of0 m ρ c r h1 h2 h3 k0 h5 k1 h7 k2))
/-- and at region 4's entry. -/
theorem W11_of0 (c : Dev nD) (r : Ref sig .tc) (h1 : r ∉ hostOps0_W) (h2 : r ∉ hostOps0_1_W) (h3 : r ∉ hostOps0_2_W)
    (k0 : ∀ w : Fin cfg0.W, (cfg0.win w).isOut = true → Pipeline.arrRef spec0 w ≠ r) (h5 : r ∉ hostOps1_W)
    (k1 : ∀ w : Fin cfg1.W, (cfg1.win w).isOut = true → Pipeline.arrRef spec1 w ≠ r) (h7 : r ∉ hostOps2_W)
    (k2 : ∀ w : Fin cfg2.W, (cfg2.win w).isOut = true → Pipeline.arrRef spec2 w ≠ r) (h9 : r ∉ hostOps3_W)
    (k3 : ∀ w : Fin cfg3.W, (cfg3.win w).isOut = true → Pipeline.arrRef spec3 w ≠ r) (h11 : r ∉ hostOps4_W) :
    W11 m ρ c (Proc.devRef .tc r) = m ((c : Thread nD τ).loc r) :=
  (W11_of m ρ c r h11).trans (W10_of0 m ρ c r h1 h2 h3 k0 h5 k1 h7 k2 h9 k3)

/-! ## The arguments by coordinates, and the stages of the factored computation -/

section Stages
variable (c : Dev nD)

/-- The node features, -/
abbrev aX : Fin 100000 → Fin 128 → EReal := fun n k => (m ((c : Thread nD τ).loc main_arg0) : S100000x128.Idx → EReal) (ix2 n k)
/-- the edge list, -/
abbrev aEI : IVec S2x1600000 32 := m ((c : Thread nD τ).loc main_arg1)
/-- the batch vector, -/
abbrev aBatch : IVec S100000 32 := m ((c : Thread nD τ).loc main_arg2)
/-- the two layers' weights and biases, -/
abbrev aW1 : Fin 128 → Fin 64 → EReal := fun k j => (m ((c : Thread nD τ).loc main_arg3) : S128x64.Idx → EReal) (ix2 k j)
abbrev aB1 : Fin 64 → EReal := fun j => (m ((c : Thread nD τ).loc main_arg4) : S64.Idx → EReal) (ix1 j)
abbrev aW2 : Fin 64 → Fin 64 → EReal := fun k j => (m ((c : Thread nD τ).loc main_arg5) : S64x64.Idx → EReal) (ix2 k j)
abbrev aB2 : Fin 64 → EReal := fun j => (m ((c : Thread nD τ).loc main_arg6) : S64.Idx → EReal) (ix1 j)
/-- the normalisation's gain and offset, -/
abbrev aGam : Fin 64 → EReal := fun j => (m ((c : Thread nD τ).loc main_arg7) : S64.Idx → EReal) (ix1 j)
abbrev aBet : Fin 64 → EReal := fun j => (m ((c : Thread nD τ).loc main_arg8) : S64.Idx → EReal) (ix1 j)
/-- the linear map. -/
abbrev aLw : Fin 64 → Fin 32 → EReal := fun h o => (m ((c : Thread nD τ).loc main_arg9) : S64x32.Idx → EReal) (ix2 h o)
abbrev aLb : Fin 32 → EReal := fun o => (m ((c : Thread nD τ).loc main_arg10) : S32.Idx → EReal) (ix1 o)

/-- The node factors, the node each edge reads and the edges landing on each node, off the edge list. -/
def kDis : Fin 100000 → EReal := fun n => disK (aEI m c) (ix1 n)
def kG : Fin 1700000 → Fin 100000 := Cert.Graph.gOf (by decide) (srcK (aEI m c))
def kS : Fin 100000 → Finset (Fin 1700000) := Cert.Graph.SOf (dstK (aEI m c))
/-- The first layer, stage by stage: projected and pre-scaled rows, their edge sums, the aggregate, the scale and shift
    its statistics fold into, the normalised and rectified layer. -/
def kPre1 : Fin 100000 → Fin 64 → EReal := Cert.Spec.kerPre (kDis m c) (aX m c) (aW1 m c)
def kRaw1 : Fin 100000 → Fin 64 → EReal := Cert.Spec.kerRaw (kG m c) (kS m c) (kPre1 m c)
def kAgg1 : Fin 100000 → Fin 64 → EReal := Cert.Spec.kerAgg (kDis m c) (kRaw1 m c) (aB1 m c)
def kSc1 : Fin 64 → EReal := Cert.Spec.kerScale C EPS (aGam m c) (Cert.Spec.kerSum (kAgg1 m c)) (Cert.Spec.kerSq (kAgg1 m c))
def kSh1 : Fin 64 → EReal := Cert.Spec.kerShift C EPS (aGam m c) (aBet m c) (Cert.Spec.kerSum (kAgg1 m c)) (Cert.Spec.kerSq (kAgg1 m c))
def kLay1 : Fin 100000 → Fin 64 → EReal := Cert.Spec.kerBn (kSc1 m c) (kSh1 m c) (kAgg1 m c)
/-- The second layer likewise. -/
def kPre2 : Fin 100000 → Fin 64 → EReal := Cert.Spec.kerPre (kDis m c) (kLay1 m c) (aW2 m c)
def kRaw2 : Fin 100000 → Fin 64 → EReal := Cert.Spec.kerRaw (kG m c) (kS m c) (kPre2 m c)
def kAgg2 : Fin 100000 → Fin 64 → EReal := Cert.Spec.kerAgg (kDis m c) (kRaw2 m c) (aB2 m c)
def kSc2 : Fin 64 → EReal := Cert.Spec.kerScale C EPS (aGam m c) (Cert.Spec.kerSum (kAgg2 m c)) (Cert.Spec.kerSq (kAgg2 m c))
def kSh2 : Fin 64 → EReal := Cert.Spec.kerShift C EPS (aGam m c) (aBet m c) (Cert.Spec.kerSum (kAgg2 m c)) (Cert.Spec.kerSq (kAgg2 m c))
def kLay2 : Fin 100000 → Fin 64 → EReal := Cert.Spec.kerBn (kSc2 m c) (kSh2 m c) (kAgg2 m c)

/-! ## Boundary by boundary -/

/-- Region 0's entry: the node factors' column. -/
theorem L3_dis : (fun n : Fin 100000 => (W3 m ρ c (Proc.devRef .tc main_v15) : S100000x1.Idx → EReal) (ix2 n (0 : Fin 1))) = kDis m c :=
  funext fun n => hostOps0_v15 (W0 m ρ c) n

/-- Region 0's exit: the pre-scaled projection of the node features. -/
theorem L4_v16 : (fun (n : Fin 100000) (j : Fin 64) => (W4 m ρ c (Proc.devRef .tc main_v16) : S100000x64.Idx → EReal) (ix2 n j)) = kPre1 m c := by
  funext n j
  have e : (W4 m ρ c (Proc.devRef .tc main_v16) : S100000x64.Idx → EReal) = ((dat0 (B3 m ρ) c).arrAt 3 cfg0.N : S100000x64.Idx → EReal) := W4_arr m ρ c 3
  have hx : (B3 m ρ c main_arg0 : S100000x128.Idx → EReal) = m ((c : Thread nD τ).loc main_arg0) := W3_of0 m ρ c main_arg0 dec dec dec
  have hw : (B3 m ρ c main_arg3 : S128x64.Idx → EReal) = m ((c : Thread nD τ).loc main_arg3) := W3_of0 m ρ c main_arg3 dec dec dec
  calc (W4 m ρ c (Proc.devRef .tc main_v16) : S100000x64.Idx → EReal) (ix2 n j)
      = ((dat0 (B3 m ρ) c).arrAt 3 cfg0.N : S100000x64.Idx → EReal) (ix2 n j) := by rw [e]
    _ = Cert.Spec.kerPre (fun n : Fin 100000 => (B3 m ρ c main_v15 : S100000x1.Idx → EReal) (ix2 n (0 : Fin 1)))
          (fun (n : Fin 100000) (k : Fin 128) => (B3 m ρ c main_arg0 : S100000x128.Idx → EReal) (ix2 n k))
          (fun (k : Fin 128) (j : Fin 64) => (B3 m ρ c main_arg3 : S128x64.Idx → EReal) (ix2 k j)) n j := arr0_out (B3 m ρ) c n j
    _ = kPre1 m c n j := by rw [hx, hw]; exact congrArg (fun d => Cert.Spec.kerPre d _ _ n j) (L3_dis m ρ c)

/-- The edge list's two columns with the self loops appended stay as the first stretch left them, -/
theorem L4_v3 : (W4 m ρ c (Proc.devRef .tc main_v3) : IVec S1700000 32) = srcK (aEI m c) :=
  (W4_keep m ρ c main_v3 dec).trans ((W3_of m ρ c main_v3 dec).trans ((W2_of m ρ c main_v3 dec).trans (hostOps0_v3 (W0 m ρ c))))
theorem L4_v6 : (W4 m ρ c (Proc.devRef .tc main_v6) : IVec S1700000 32) = dstK (aEI m c) :=
  (W4_keep m ρ c main_v6 dec).trans ((W3_of m ρ c main_v6 dec).trans ((W2_of m ρ c main_v6 dec).trans (hostOps0_v6 (W0 m ρ c))))
/-- through the second region's exit, -/
theorem L8_v3 : (W8 m ρ c (Proc.devRef .tc main_v3) : IVec S1700000 32) = srcK (aEI m c) :=
  (W8_keep m ρ c main_v3 dec).trans ((W7_of m ρ c main_v3 dec).trans ((W6_keep m ρ c main_v3 dec).trans ((W5_of m ρ c main_v3 dec).trans (L4_v3 m ρ c))))
theorem L8_v6 : (W8 m ρ c (Proc.devRef .tc main_v6) : IVec S1700000 32) = dstK (aEI m c) :=
  (W8_keep m ρ c main_v6 dec).trans ((W7_of m ρ c main_v6 dec).trans ((W6_keep m ρ c main_v6 dec).trans ((W5_of m ρ c main_v6 dec).trans (L4_v6 m ρ c))))
/-- and the node factors' column through region 4's entry. -/
theorem L5_dis : (fun n : Fin 100000 => (W5 m ρ c (Proc.devRef .tc main_v15) : S100000x1.Idx → EReal) (ix2 n (0 : Fin 1))) = kDis m c := by
  rw [show (W5 m ρ c (Proc.devRef .tc main_v15) : S100000x1.Idx → EReal) = W3 m ρ c (Proc.devRef .tc main_v15) from
    (W5_of m ρ c main_v15 dec).trans (W4_keep m ρ c main_v15 dec)]
  exact L3_dis m ρ c
theorem L7_dis : (fun n : Fin 100000 => (W7 m ρ c (Proc.devRef .tc main_v15) : S100000x1.Idx → EReal) (ix2 n (0 : Fin 1))) = kDis m c := by
  rw [show (W7 m ρ c (Proc.devRef .tc main_v15) : S100000x1.Idx → EReal) = W5 m ρ c (Proc.devRef .tc main_v15) from
    (W7_of m ρ c main_v15 dec).trans (W6_keep m ρ c main_v15 dec)]
  exact L5_dis m ρ c
theorem L9_dis : (fun n : Fin 100000 => (W9 m ρ c (Proc.devRef .tc main_v15) : S100000x1.Idx → EReal) (ix2 n (0 : Fin 1))) = kDis m c := by
  rw [show (W9 m ρ c (Proc.devRef .tc main_v15) : S100000x1.Idx → EReal) = W7 m ρ c (Proc.devRef .tc main_v15) from
    (W9_of m ρ c main_v15 dec).trans (W8_keep m ρ c main_v15 dec)]
  exact L7_dis m ρ c
theorem L11_dis : (fun n : Fin 100000 => (W11 m ρ c (Proc.devRef .tc main_v15) : S100000x1.Idx → EReal) (ix2 n (0 : Fin 1))) = kDis m c := by
  rw [show (W11 m ρ c (Proc.devRef .tc main_v15) : S100000x1.Idx → EReal) = W9 m ρ c (Proc.devRef .tc main_v15) from
    (W11_of m ρ c main_v15 dec).trans (W10_keep m ρ c main_v15 dec)]
  exact L9_dis m ρ c

/-- Region 1's entry: the first edge sum and the first bias as a row. -/
theorem L5_v27 : (fun (n : Fin 100000) (k : Fin 64) => (W5 m ρ c (Proc.devRef .tc main_v27) : S100000x64.Idx → EReal) (ix2 n k)) = kRaw1 m c := by
  funext n k
  calc (W5 m ρ c (Proc.devRef .tc main_v27) : S100000x64.Idx → EReal) (ix2 n k)
      = Cert.Spec.kerRaw (Cert.Graph.gOf (by decide) (W4 m ρ c (Proc.devRef .tc main_v3) : IVec S1700000 32))
          (Cert.Graph.SOf (W4 m ρ c (Proc.devRef .tc main_v6) : IVec S1700000 32))
          (fun (n : Fin 100000) (j : Fin 64) => (W4 m ρ c (Proc.devRef .tc main_v16) : S100000x64.Idx → EReal) (ix2 n j)) n k := hostOps1_v27 (W4 m ρ c) n k
    _ = kRaw1 m c n k := by rw [L4_v3, L4_v6, L4_v16]; rfl
theorem L5_v28 : (fun k : Fin 64 => (W5 m ρ c (Proc.devRef .tc main_v28) : S1x64.Idx → EReal) (ix2 (0 : Fin 1) k)) = aB1 m c := by
  funext k
  calc (W5 m ρ c (Proc.devRef .tc main_v28) : S1x64.Idx → EReal) (ix2 (0 : Fin 1) k)
      = (W4 m ρ c (Proc.devRef .tc main_arg4) : S64.Idx → EReal) (ix1 k) := hostOps1_v28 (W4 m ρ c) k
    _ = aB1 m c k := by rw [show (W4 m ρ c (Proc.devRef .tc main_arg4) : S64.Idx → EReal) = m ((c : Thread nD τ).loc main_arg4) from W4_of0 m ρ c main_arg4 dec dec dec dec]

/-- Region 1's exit: the first aggregate's column sums and column sums of squares. -/
theorem L6_s : (fun j : Fin 64 => (W6 m ρ c (Proc.devRef .tc main_v29_0) : S1x64.Idx → EReal) (ix2 (0 : Fin 1) j)) = Cert.Spec.kerSum (kAgg1 m c) := by
  funext j
  have e : (W6 m ρ c (Proc.devRef .tc main_v29_0) : S1x64.Idx → EReal) = ((dat1 (B5 m ρ) c).arrAt 3 cfg1.N : S1x64.Idx → EReal) := W6_arr m ρ c 3
  calc (W6 m ρ c (Proc.devRef .tc main_v29_0) : S1x64.Idx → EReal) (ix2 (0 : Fin 1) j)
      = ((dat1 (B5 m ρ) c).arrAt 3 cfg1.N : S1x64.Idx → EReal) (ix2 (0 : Fin 1) j) := by rw [e]
    _ = Cert.Spec.kerSum (Cert.Spec.kerAgg (fun n : Fin 100000 => (W5 m ρ c (Proc.devRef .tc main_v15) : S100000x1.Idx → EReal) (ix2 n (0 : Fin 1)))
          (fun (n : Fin 100000) (k : Fin 64) => (W5 m ρ c (Proc.devRef .tc main_v27) : S100000x64.Idx → EReal) (ix2 n k))
          (fun k : Fin 64 => (W5 m ρ c (Proc.devRef .tc main_v28) : S1x64.Idx → EReal) (ix2 (0 : Fin 1) k))) j := arr1_sum (B5 m ρ) c j
    _ = Cert.Spec.kerSum (kAgg1 m c) j := by rw [L5_dis, L5_v27, L5_v28]; rfl
theorem L6_q : (fun j : Fin 64 => (W6 m ρ c (Proc.devRef .tc main_v29_1) : S1x64.Idx → EReal) (ix2 (0 : Fin 1) j)) = Cert.Spec.kerSq (kAgg1 m c) := by
  funext j
  have e : (W6 m ρ c (Proc.devRef .tc main_v29_1) : S1x64.Idx → EReal) = ((dat1 (B5 m ρ) c).arrAt 4 cfg1.N : S1x64.Idx → EReal) := W6_arr m ρ c 4
  calc (W6 m ρ c (Proc.devRef .tc main_v29_1) : S1x64.Idx → EReal) (ix2 (0 : Fin 1) j)
      = ((dat1 (B5 m ρ) c).arrAt 4 cfg1.N : S1x64.Idx → EReal) (ix2 (0 : Fin 1) j) := by rw [e]
    _ = Cert.Spec.kerSq (Cert.Spec.kerAgg (fun n : Fin 100000 => (W5 m ρ c (Proc.devRef .tc main_v15) : S100000x1.Idx → EReal) (ix2 n (0 : Fin 1)))
          (fun (n : Fin 100000) (k : Fin 64) => (W5 m ρ c (Proc.devRef .tc main_v27) : S100000x64.Idx → EReal) (ix2 n k))
          (fun k : Fin 64 => (W5 m ρ c (Proc.devRef .tc main_v28) : S1x64.Idx → EReal) (ix2 (0 : Fin 1) k))) j := arr1_sq (B5 m ρ) c j
    _ = Cert.Spec.kerSq (kAgg1 m c) j := by rw [L5_dis, L5_v27, L5_v28]; rfl

/-- The gain and the offset at region 1's exit (and at region 3's) are the arguments. -/
theorem L6_gam : (fun j : Fin 64 => (W6 m ρ c (Proc.devRef .tc main_arg7) : S64.Idx → EReal) (ix1 j)) = aGam m c := by
  rw [show (W6 m ρ c (Proc.devRef .tc main_arg7) : S64.Idx → EReal) = m ((c : Thread nD τ).loc main_arg7) from W6_of0 m ρ c main_arg7 dec dec dec dec dec dec]
theorem L6_bet : (fun j : Fin 64 => (W6 m ρ c (Proc.devRef .tc main_arg8) : S64.Idx → EReal) (ix1 j)) = aBet m c := by
  rw [show (W6 m ρ c (Proc.devRef .tc main_arg8) : S64.Idx → EReal) = m ((c : Thread nD τ).loc main_arg8) from W6_of0 m ρ c main_arg8 dec dec dec dec dec dec]
theorem L10_gam : (fun j : Fin 64 => (W10 m ρ c (Proc.devRef .tc main_arg7) : S64.Idx → EReal) (ix1 j)) = aGam m c := by
  rw [show (W10 m ρ c (Proc.devRef .tc main_arg7) : S64.Idx → EReal) = m ((c : Thread nD τ).loc main_arg7) from W10_of0 m ρ c main_arg7 dec dec dec dec dec dec dec dec dec dec]
theorem L10_bet : (fun j : Fin 64 => (W10 m ρ c (Proc.devRef .tc main_arg8) : S64.Idx → EReal) (ix1 j)) = aBet m c := by
  rw [show (W10 m ρ c (Proc.devRef .tc main_arg8) : S64.Idx → EReal) = m ((c : Thread nD τ).loc main_arg8) from W10_of0 m ρ c main_arg8 dec dec dec dec dec dec dec dec dec dec]

/-- Region 2's entry: the first layer's scale, shift and bias rows; the first edge sum still there. -/
theorem L7_v40 : (fun k : Fin 64 => (W7 m ρ c (Proc.devRef .tc main_v40) : S1x64.Idx → EReal) (ix2 (0 : Fin 1) k)) = kSc1 m c := by
  funext k
  calc (W7 m ρ c (Proc.devRef .tc main_v40) : S1x64.Idx → EReal) (ix2 (0 : Fin 1) k)
      = Cert.Spec.kerScale C EPS (fun j : Fin 64 => (W6 m ρ c (Proc.devRef .tc main_arg7) : S64.Idx → EReal) (ix1 j))
          (fun j : Fin 64 => (W6 m ρ c (Proc.devRef .tc main_v29_0) : S1x64.Idx → EReal) (ix2 (0 : Fin 1) j))
          (fun j : Fin 64 => (W6 m ρ c (Proc.devRef .tc main_v29_1) : S1x64.Idx → EReal) (ix2 (0 : Fin 1) j)) k := hostOps2_v40 (W6 m ρ c) k
    _ = kSc1 m c k := by rw [L6_gam, L6_s, L6_q]; rfl
theorem L7_v43 : (fun k : Fin 64 => (W7 m ρ c (Proc.devRef .tc main_v43) : S1x64.Idx → EReal) (ix2 (0 : Fin 1) k)) = kSh1 m c := by
  funext k
  calc (W7 m ρ c (Proc.devRef .tc main_v43) : S1x64.Idx → EReal) (ix2 (0 : Fin 1) k)
      = Cert.Spec.kerShift C EPS (fun j : Fin 64 => (W6 m ρ c (Proc.devRef .tc main_arg7) : S64.Idx → EReal) (ix1 j))
          (fun j : Fin 64 => (W6 m ρ c (Proc.devRef .tc main_arg8) : S64.Idx → EReal) (ix1 j))
          (fun j : Fin 64 => (W6 m ρ c (Proc.devRef .tc main_v29_0) : S1x64.Idx → EReal) (ix2 (0 : Fin 1) j))
          (fun j : Fin 64 => (W6 m ρ c (Proc.devRef .tc main_v29_1) : S1x64.Idx → EReal) (ix2 (0 : Fin 1) j)) k := hostOps2_v43 (W6 m ρ c) k
    _ = kSh1 m c k := by rw [L6_gam, L6_bet, L6_s, L6_q]; rfl
theorem L7_v44 : (fun k : Fin 64 => (W7 m ρ c (Proc.devRef .tc main_v44) : S1x64.Idx → EReal) (ix2 (0 : Fin 1) k)) = aB1 m c := by
  funext k
  calc (W7 m ρ c (Proc.devRef .tc main_v44) : S1x64.Idx → EReal) (ix2 (0 : Fin 1) k)
      = (W6 m ρ c (Proc.devRef .tc main_arg4) : S64.Idx → EReal) (ix1 k) := hostOps2_v44 (W6 m ρ c) k
    _ = aB1 m c k := by rw [show (W6 m ρ c (Proc.devRef .tc main_arg4) : S64.Idx → EReal) = m ((c : Thread nD τ).loc main_arg4) from W6_of0 m ρ c main_arg4 dec dec dec dec dec dec]
theorem L7_v27 : (fun (n : Fin 100000) (k : Fin 64) => (W7 m ρ c (Proc.devRef .tc main_v27) : S100000x64.Idx → EReal) (ix2 n k)) = kRaw1 m c := by
  rw [show (W7 m ρ c (Proc.devRef .tc main_v27) : S100000x64.Idx → EReal) = W5 m ρ c (Proc.devRef .tc main_v27) from
    (W7_of m ρ c main_v27 dec).trans (W6_keep m ρ c main_v27 dec)]
  exact L5_v27 m ρ c

/-- Region 2's exit: the pre-scaled projection of the first layer. -/
theorem L8_v45 : (fun (n : Fin 100000) (j : Fin 64) => (W8 m ρ c (Proc.devRef .tc main_v45) : S100000x64.Idx → EReal) (ix2 n j)) = kPre2 m c := by
  funext n j
  have e : (W8 m ρ c (Proc.devRef .tc main_v45) : S100000x64.Idx → EReal) = ((dat2 (B7 m ρ) c).arrAt 6 cfg2.N : S100000x64.Idx → EReal) := W8_arr m ρ c 6
  calc (W8 m ρ c (Proc.devRef .tc main_v45) : S100000x64.Idx → EReal) (ix2 n j)
      = ((dat2 (B7 m ρ) c).arrAt 6 cfg2.N : S100000x64.Idx → EReal) (ix2 n j) := by rw [e]
    _ = Cert.Spec.kerPre (fun n : Fin 100000 => (W7 m ρ c (Proc.devRef .tc main_v15) : S100000x1.Idx → EReal) (ix2 n (0 : Fin 1)))
          (Cert.Spec.kerBn (fun k : Fin 64 => (W7 m ρ c (Proc.devRef .tc main_v40) : S1x64.Idx → EReal) (ix2 (0 : Fin 1) k))
            (fun k : Fin 64 => (W7 m ρ c (Proc.devRef .tc main_v43) : S1x64.Idx → EReal) (ix2 (0 : Fin 1) k))
            (Cert.Spec.kerAgg (fun n : Fin 100000 => (W7 m ρ c (Proc.devRef .tc main_v15) : S100000x1.Idx → EReal) (ix2 n (0 : Fin 1)))
              (fun (n : Fin 100000) (k : Fin 64) => (W7 m ρ c (Proc.devRef .tc main_v27) : S100000x64.Idx → EReal) (ix2 n k))
              (fun k : Fin 64 => (W7 m ρ c (Proc.devRef .tc main_v44) : S1x64.Idx → EReal) (ix2 (0 : Fin 1) k))))
          (fun (k : Fin 64) (j : Fin 64) => (W7 m ρ c (Proc.devRef .tc main_arg5) : S64x64.Idx → EReal) (ix2 k j)) n j := arr2_out (B7 m ρ) c n j
    _ = kPre2 m c n j := by
      rw [L7_dis, L7_v40, L7_v43, L7_v27, L7_v44,
        show (W7 m ρ c (Proc.devRef .tc main_arg5) : S64x64.Idx → EReal) = m ((c : Thread nD τ).loc main_arg5) from W7_of0 m ρ c main_arg5 dec dec dec dec dec dec dec]
      rfl

/-- Region 3's entry: the second edge sum and the second bias as a row. -/
theorem L9_v56 : (fun (n : Fin 100000) (k : Fin 64) => (W9 m ρ c (Proc.devRef .tc main_v56) : S100000x64.Idx → EReal) (ix2 n k)) = kRaw2 m c := by
  funext n k
  calc (W9 m ρ c (Proc.devRef .tc main_v56) : S100000x64.Idx → EReal) (ix2 n k)
      = Cert.Spec.kerRaw (Cert.Graph.gOf (by decide) (W8 m ρ c (Proc.devRef .tc main_v3) : IVec S1700000 32))
          (Cert.Graph.SOf (W8 m ρ c (Proc.devRef .tc main_v6) : IVec S1700000 32))
          (fun (n : Fin 100000) (j : Fin 64) => (W8 m ρ c (Proc.devRef .tc main_v45) : S100000x64.Idx → EReal) (ix2 n j)) n k := hostOps3_v56 (W8 m ρ c) n k
    _ = kRaw2 m c n k := by rw [L8_v3, L8_v6, L8_v45]; rfl
theorem L9_v57 : (fun k : Fin 64 => (W9 m ρ c (Proc.devRef .tc main_v57) : S1x64.Idx → EReal) (ix2 (0 : Fin 1) k)) = aB2 m c := by
  funext k
  calc (W9 m ρ c (Proc.devRef .tc main_v57) : S1x64.Idx → EReal) (ix2 (0 : Fin 1) k)
      = (W8 m ρ c (Proc.devRef .tc main_arg6) : S64.Idx → EReal) (ix1 k) := hostOps3_v57 (W8 m ρ c) k
    _ = aB2 m c k := by rw [show (W8 m ρ c (Proc.devRef .tc main_arg6) : S64.Idx → EReal) = m ((c : Thread nD τ).loc main_arg6) from W8_of0 m ρ c main_arg6 dec dec dec dec dec dec dec dec]

/-- Region 3's exit: the second aggregate's column sums and column sums of squares. -/
theorem L10_s : (fun j : Fin 64 => (W10 m ρ c (Proc.devRef .tc main_v58_0) : S1x64.Idx → EReal) (ix2 (0 : Fin 1) j)) = Cert.Spec.kerSum (kAgg2 m c) := by
  funext j
  have e : (W10 m ρ c (Proc.devRef .tc main_v58_0) : S1x64.Idx → EReal) = ((dat3 (B9 m ρ) c).arrAt 3 cfg3.N : S1x64.Idx → EReal) := W10_arr m ρ c 3
  calc (W10 m ρ c (Proc.devRef .tc main_v58_0) : S1x64.Idx → EReal) (ix2 (0 : Fin 1) j)
      = ((dat3 (B9 m ρ) c).arrAt 3 cfg3.N : S1x64.Idx → EReal) (ix2 (0 : Fin 1) j) := by rw [e]
    _ = Cert.Spec.kerSum (Cert.Spec.kerAgg (fun n : Fin 100000 => (W9 m ρ c (Proc.devRef .tc main_v15) : S100000x1.Idx → EReal) (ix2 n (0 : Fin 1)))
          (fun (n : Fin 100000) (k : Fin 64) => (W9 m ρ c (Proc.devRef .tc main_v56) : S100000x64.Idx → EReal) (ix2 n k))
          (fun k : Fin 64 => (W9 m ρ c (Proc.devRef .tc main_v57) : S1x64.Idx → EReal) (ix2 (0 : Fin 1) k))) j := arr3_sum (B9 m ρ) c j
    _ = Cert.Spec.kerSum (kAgg2 m c) j := by rw [L9_dis, L9_v56, L9_v57]; rfl
theorem L10_q : (fun j : Fin 64 => (W10 m ρ c (Proc.devRef .tc main_v58_1) : S1x64.Idx → EReal) (ix2 (0 : Fin 1) j)) = Cert.Spec.kerSq (kAgg2 m c) := by
  funext j
  have e : (W10 m ρ c (Proc.devRef .tc main_v58_1) : S1x64.Idx → EReal) = ((dat3 (B9 m ρ) c).arrAt 4 cfg3.N : S1x64.Idx → EReal) := W10_arr m ρ c 4
  calc (W10 m ρ c (Proc.devRef .tc main_v58_1) : S1x64.Idx → EReal) (ix2 (0 : Fin 1) j)
      = ((dat3 (B9 m ρ) c).arrAt 4 cfg3.N : S1x64.Idx → EReal) (ix2 (0 : Fin 1) j) := by rw [e]
    _ = Cert.Spec.kerSq (Cert.Spec.kerAgg (fun n : Fin 100000 => (W9 m ρ c (Proc.devRef .tc main_v15) : S100000x1.Idx → EReal) (ix2 n (0 : Fin 1)))
          (fun (n : Fin 100000) (k : Fin 64) => (W9 m ρ c (Proc.devRef .tc main_v56) : S100000x64.Idx → EReal) (ix2 n k))
          (fun k : Fin 64 => (W9 m ρ c (Proc.devRef .tc main_v57) : S1x64.Idx → EReal) (ix2 (0 : Fin 1) k))) j := arr3_sq (B9 m ρ) c j
    _ = Cert.Spec.kerSq (kAgg2 m c) j := by rw [L9_dis, L9_v56, L9_v57]; rfl

/-- Region 4's entry: the second layer's scale, shift and bias rows, the batch vector as a column, the linear map's bias as
    a row; the second edge sum still there. -/
theorem L11_v69 : (fun k : Fin 64 => (W11 m ρ c (Proc.devRef .tc main_v69) : S1x64.Idx → EReal) (ix2 (0 : Fin 1) k)) = kSc2 m c := by
  funext k
  calc (W11 m ρ c (Proc.devRef .tc main_v69) : S1x64.Idx → EReal) (ix2 (0 : Fin 1) k)
      = Cert.Spec.kerScale C EPS (fun j : Fin 64 => (W10 m ρ c (Proc.devRef .tc main_arg7) : S64.Idx → EReal) (ix1 j))
          (fun j : Fin 64 => (W10 m ρ c (Proc.devRef .tc main_v58_0) : S1x64.Idx → EReal) (ix2 (0 : Fin 1) j))
          (fun j : Fin 64 => (W10 m ρ c (Proc.devRef .tc main_v58_1) : S1x64.Idx → EReal) (ix2 (0 : Fin 1) j)) k := hostOps4_v69 (W10 m ρ c) k
    _ = kSc2 m c k := by rw [L10_gam, L10_s, L10_q]; rfl
theorem L11_v72 : (fun k : Fin 64 => (W11 m ρ c (Proc.devRef .tc main_v72) : S1x64.Idx → EReal) (ix2 (0 : Fin 1) k)) = kSh2 m c := by
  funext k
  calc (W11 m ρ c (Proc.devRef .tc main_v72) : S1x64.Idx → EReal) (ix2 (0 : Fin 1) k)
      = Cert.Spec.kerShift C EPS (fun j : Fin 64 => (W10 m ρ c (Proc.devRef .tc main_arg7) : S64.Idx → EReal) (ix1 j))
          (fun j : Fin 64 => (W10 m ρ c (Proc.devRef .tc main_arg8) : S64.Idx → EReal) (ix1 j))
          (fun j : Fin 64 => (W10 m ρ c (Proc.devRef .tc main_v58_0) : S1x64.Idx → EReal) (ix2 (0 : Fin 1) j))
          (fun j : Fin 64 => (W10 m ρ c (Proc.devRef .tc main_v58_1) : S1x64.Idx → EReal) (ix2 (0 : Fin 1) j)) k := hostOps4_v72 (W10 m ρ c) k
    _ = kSh2 m c k := by rw [L10_gam, L10_bet, L10_s, L10_q]; rfl
theorem L11_v73 : (fun k : Fin 64 => (W11 m ρ c (Proc.devRef .tc main_v73) : S1x64.Idx → EReal) (ix2 (0 : Fin 1) k)) = aB2 m c := by
  funext k
  calc (W11 m ρ c (Proc.devRef .tc main_v73) : S1x64.Idx → EReal) (ix2 (0 : Fin 1) k)
      = (W10 m ρ c (Proc.devRef .tc main_arg6) : S64.Idx → EReal) (ix1 k) := hostOps4_v73 (W10 m ρ c) k
    _ = aB2 m c k := by rw [show (W10 m ρ c (Proc.devRef .tc main_arg6) : S64.Idx → EReal) = m ((c : Thread nD τ).loc main_arg6) from W10_of0 m ρ c main_arg6 dec dec dec dec dec dec dec dec dec dec]
theorem L11_v74 : (fun n : Fin 100000 => (W11 m ρ c (Proc.devRef .tc main_v74) : IVec S100000x1 32) (ix2 n (0 : Fin 1))) = fun n => aBatch m c (ix1 n) := by
  funext n
  calc (W11 m ρ c (Proc.devRef .tc main_v74) : IVec S100000x1 32) (ix2 n (0 : Fin 1))
      = (W10 m ρ c (Proc.devRef .tc main_arg2) : IVec S100000 32) (ix1 n) := hostOps4_v74 (W10 m ρ c) n
    _ = aBatch m c (ix1 n) := by rw [show (W10 m ρ c (Proc.devRef .tc main_arg2) : IVec S100000 32) = m ((c : Thread nD τ).loc main_arg2) from W10_of0 m ρ c main_arg2 dec dec dec dec dec dec dec dec dec dec]
theorem L11_v75 : (fun o : Fin 32 => (W11 m ρ c (Proc.devRef .tc main_v75) : S1x32.Idx → EReal) (ix2 (0 : Fin 1) o)) = aLb m c := by
  funext o
  calc (W11 m ρ c (Proc.devRef .tc main_v75) : S1x32.Idx → EReal) (ix2 (0 : Fin 1) o)
      = (W10 m ρ c (Proc.devRef .tc main_arg10) : S32.Idx → EReal) (ix1 o) := hostOps4_v75 (W10 m ρ c) o
    _ = aLb m c o := by rw [show (W10 m ρ c (Proc.devRef .tc main_arg10) : S32.Idx → EReal) = m ((c : Thread nD τ).loc main_arg10) from W10_of0 m ρ c main_arg10 dec dec dec dec dec dec dec dec dec dec]
theorem L11_v56 : (fun (n : Fin 100000) (k : Fin 64) => (W11 m ρ c (Proc.devRef .tc main_v56) : S100000x64.Idx → EReal) (ix2 n k)) = kRaw2 m c := by
  rw [show (W11 m ρ c (Proc.devRef .tc main_v56) : S100000x64.Idx → EReal) = W9 m ρ c (Proc.devRef .tc main_v56) from
    (W11_of m ρ c main_v56 dec).trans (W10_keep m ρ c main_v56 dec)]
  exact L9_v56 m ρ c

/-- THE RESULT ARRAY at the last boundary: the pooled, normalised second layer through the linear map. -/
theorem L12_v76 (q : Fin 128) (o : Fin 32) :
    (W12 m ρ c (Proc.devRef .tc main_v76) : S128x32.Idx → EReal) (ix2 q o)
      = Cert.Spec.kerHead (Cert.Graph.ohOf (aBatch m c)) (Ideal.ofBits .f32 0x3F800000#32) (Ideal.ofBits .bf16 0x3F80#16)
          (kLay2 m c) (aLw m c) (aLb m c) q o := by
  have e : (W12 m ρ c (Proc.devRef .tc main_v76) : S128x32.Idx → EReal) = ((dat4 (B11 m ρ) c).arrAt 8 cfg4.N : S128x32.Idx → EReal) := W12_arr m ρ c 8
  calc (W12 m ρ c (Proc.devRef .tc main_v76) : S128x32.Idx → EReal) (ix2 q o)
      = ((dat4 (B11 m ρ) c).arrAt 8 cfg4.N : S128x32.Idx → EReal) (ix2 q o) := by rw [e]
    _ = Cert.Spec.kerHead (fun (n : Fin 100000) (q : Fin 128) => if (fun n : Fin 100000 => (W11 m ρ c (Proc.devRef .tc main_v74) : IVec S100000x1 32) (ix2 n (0 : Fin 1))) n = BitVec.ofNat 32 q.val then (1 : EReal) else 0)
          (Ideal.ofBits .f32 0x3F800000#32) (Ideal.ofBits .bf16 0x3F80#16)
          (Cert.Spec.kerBn (fun k : Fin 64 => (W11 m ρ c (Proc.devRef .tc main_v69) : S1x64.Idx → EReal) (ix2 (0 : Fin 1) k))
            (fun k : Fin 64 => (W11 m ρ c (Proc.devRef .tc main_v72) : S1x64.Idx → EReal) (ix2 (0 : Fin 1) k))
            (Cert.Spec.kerAgg (fun n : Fin 100000 => (W11 m ρ c (Proc.devRef .tc main_v15) : S100000x1.Idx → EReal) (ix2 n (0 : Fin 1)))
              (fun (n : Fin 100000) (k : Fin 64) => (W11 m ρ c (Proc.devRef .tc main_v56) : S100000x64.Idx → EReal) (ix2 n k))
              (fun k : Fin 64 => (W11 m ρ c (Proc.devRef .tc main_v73) : S1x64.Idx → EReal) (ix2 (0 : Fin 1) k))))
          (fun (h : Fin 64) (o : Fin 32) => (W11 m ρ c (Proc.devRef .tc main_arg9) : S64x32.Idx → EReal) (ix2 h o))
          (fun o : Fin 32 => (W11 m ρ c (Proc.devRef .tc main_v75) : S1x32.Idx → EReal) (ix2 (0 : Fin 1) o)) q o := arr4_out (B11 m ρ) c q o
    _ = _ := by
      rw [L11_v74, L11_v69, L11_v72, L11_dis, L11_v56, L11_v73, L11_v75,
        show (W11 m ρ c (Proc.devRef .tc main_arg9) : S64x32.Idx → EReal) = m ((c : Thread nD τ).loc main_arg9) from W11_of0 m ρ c main_arg9 dec dec dec dec dec dec dec dec dec dec dec]
      rfl

end Stages

/-! ## The kernel's value -/

/-- THE KERNEL'S RESULT, entry by entry: the whole factored computation of the argument arrays as launched. -/
theorem ker_value (c : Dev nD) (q : Fin 128) (o : Fin 32) :
    (W12 m ρ c (Proc.devRef .tc main_v76) : S128x32.Idx → EReal) (ix2 q o)
      = Cert.Spec.kerOut (Cert.Graph.gOf (by decide) (srcK (aEI m c))) (Cert.Graph.SOf (dstK (aEI m c))) (fun n : Fin 100000 => disK (aEI m c) (ix1 n))
          (Cert.Graph.ohOf (aBatch m c))
          (Ideal.ofBits .f32 0x47C35000#32) (Ideal.ofBits .f32 0x3727C5AC#32) (Ideal.ofBits .f32 0x3F800000#32) (Ideal.ofBits .bf16 0x3F80#16)
          (aX m c) (aW1 m c) (aB1 m c) (aW2 m c) (aB2 m c) (aGam m c) (aBet m c) (aLw m c) (aLb m c) q o :=
  (L12_v76 m ρ c q o).trans rfl

end Cert.KernelIdeal.HandVal

end
-- ==== Proof.RefBn.lean ====
import proofs.«411316_j29850022707326_3_alg».proof.Proof.RefRead
import proofs.«411316_j29850022707326_3_alg».proof.Proof.Spec

/-! # The reference's two normalisation stretches are the specification's batch normalisation

Each stretch takes the column sums of its input, divides by the row count, subtracts the mean, squares, sums and divides
again, adds the offset, takes the inverse square root, scales by the weights, shifts by the biases and rectifies. Read
at one element, with the broadcasts resolved to the column they read, this is the specification's formula word for word;
the input stage stays closed. -/

noncomputable section

namespace Cert.ReferenceIdeal.RefValue

open scoped BigOperators
open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The first normalisation: stages v47 to v72 over the stage v46 -/

/-- A row vector broadcast over the rows is read at the column alone. -/
theorem row_v69_v70 (n : Fin 100000) (j : Fin 64) : idx_main_v69 (idx_main_v70 (ix2 n j)) = ix1 j :=
  funext fun a => Fin.ext (by match a with | ⟨0, _⟩ => rfl)
theorem row_v66_v67 (n : Fin 100000) (j : Fin 64) : idx_main_v66 (idx_main_v67 (ix2 n j)) = ix1 j :=
  funext fun a => Fin.ext (by match a with | ⟨0, _⟩ => rfl)
theorem row_v63_v64 (n : Fin 100000) (j : Fin 64) : idx_main_v63 (idx_main_v64 (ix2 n j)) = ix1 j :=
  funext fun a => Fin.ext (by match a with | ⟨0, _⟩ => rfl)
theorem row_v57_v58 (n : Fin 100000) (j : Fin 64) : idx_main_v57 (idx_main_v58 (ix2 n j)) = ix1 j :=
  funext fun a => Fin.ext (by match a with | ⟨0, _⟩ => rfl)
theorem row_v50_v51 (n : Fin 100000) (j : Fin 64) : idx_main_v50 (idx_main_v51 (ix2 n j)) = ix1 j :=
  funext fun a => Fin.ext (by match a with | ⟨0, _⟩ => rfl)
/-- The column sums run over the rows of one column. -/
theorem col_v47 (j : Fin 64) (k : Fin 100000) : idx_main_v47 (ix1 j) k = ix2 k j :=
  funext fun a => Fin.ext (by match a with | ⟨0, _⟩ => rfl | ⟨1, _⟩ => rfl)
theorem col_v54 (j : Fin 64) (k : Fin 100000) : idx_main_v54 (ix1 j) k = ix2 k j :=
  funext fun a => Fin.ext (by match a with | ⟨0, _⟩ => rfl | ⟨1, _⟩ => rfl)

/-- Stage v49 at column j: the column sum of the input from zero, divided by the row count — the specification's
batch mean of the input stage. -/
theorem bn1_mean (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal)) (j : Fin 64) :
    val_main_v49 (F := Ideal) x0 x1 x3 x4 (ix1 j)
      = Cert.Spec.refMean (Ideal.ofBits .f32 0x47C35000#32) (fun n j => val_main_v46 (F := Ideal) x0 x1 x3 x4 (ix2 n j)) j := by
  rw [val_main_v49_apply, Ideal.hostDivf_def, val_main_v47_apply, val_main_cst_9_apply, Ideal.ofBits_def,
    Ideal.ofBits_zero_f32, val_main_v48_apply, val_main_cst_10_apply, Ideal.ofBits_def]
  show _ = Ideal.div (0 + ∑ n : Fin 100000, val_main_v46 (F := Ideal) x0 x1 x3 x4 (ix2 n j)) (Ideal.ofBits .f32 0x47C35000#32)
  refine congrArg (fun s => Ideal.div (0 + s) (Ideal.ofBits .f32 0x47C35000#32)) (Finset.sum_congr rfl fun k _ => ?_)
  rw [col_v47]

/-- Stage v56 at column j: the column sum, from zero, of the squared deviations from the batch mean, divided by the
row count — the specification's mean squared deviation of the input stage. -/
theorem bn1_var (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal)) (j : Fin 64) :
    val_main_v56 (F := Ideal) x0 x1 x3 x4 (ix1 j)
      = Cert.Spec.refVar (Ideal.ofBits .f32 0x47C35000#32) (fun n j => val_main_v46 (F := Ideal) x0 x1 x3 x4 (ix2 n j)) j := by
  rw [val_main_v56_apply, Ideal.hostDivf_def, val_main_v54_apply, val_main_cst_11_apply, Ideal.ofBits_def,
    Ideal.ofBits_zero_f32, val_main_v55_apply, val_main_cst_12_apply, Ideal.ofBits_def]
  show _ = Ideal.div (0 + ∑ n : Fin 100000,
      (val_main_v46 (F := Ideal) x0 x1 x3 x4 (ix2 n j) - Cert.Spec.refMean (Ideal.ofBits .f32 0x47C35000#32) (fun n j => val_main_v46 (F := Ideal) x0 x1 x3 x4 (ix2 n j)) j)
        * (val_main_v46 (F := Ideal) x0 x1 x3 x4 (ix2 n j) - Cert.Spec.refMean (Ideal.ofBits .f32 0x47C35000#32) (fun n j => val_main_v46 (F := Ideal) x0 x1 x3 x4 (ix2 n j)) j)) (Ideal.ofBits .f32 0x47C35000#32)
  refine congrArg (fun s => Ideal.div (0 + s) (Ideal.ofBits .f32 0x47C35000#32)) (Finset.sum_congr rfl fun k _ => ?_)
  rw [col_v54, val_main_v53_apply, Ideal.mulf_def, val_main_v52_apply, Ideal.subf_def, val_main_v51_apply,
    val_main_v50_apply, row_v50_v51, bn1_mean]

/-- Stages v47 to v72 (column mean, mean squared deviation, inverse square root of the offset variance, scale by the
weights, shift by the biases, rectifier), read at row n and column j, are the batch normalisation and rectifier of the
specification applied to stage v46, which is not opened. -/
theorem bn1_apply (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 x7 x8 : (⟨S64, .f32⟩ : BufTy).Contents (Elt Ideal)) (n : Fin 100000) (j : Fin 64) :
    val_main_v72 (F := Ideal) x0 x1 x3 x4 x7 x8 (ix2 n j)
      = Cert.Spec.refBn (Ideal.ofBits .f32 0x47C35000#32) (Ideal.ofBits .f32 0x3727C5AC#32)
          (fun j => x7 (ix1 j)) (fun j => x8 (ix1 j)) (fun n j => val_main_v46 (F := Ideal) x0 x1 x3 x4 (ix2 n j)) n j := by
  rw [val_main_v72_apply, Ideal.maximumf_def, val_main_call1_v0_apply, val_main_call1_cst_apply, Ideal.ofBits_def,
    Ideal.ofBits_zero_f32,
    val_main_v71_apply, Ideal.addf_def, val_main_v70_apply, val_main_v69_apply, row_v69_v70,
    val_main_v68_apply, Ideal.mulf_def, val_main_v67_apply, val_main_v66_apply, row_v66_v67,
    val_main_v65_apply, Ideal.mulf_def, val_main_v64_apply, val_main_v63_apply, row_v63_v64,
    val_main_v62_apply, Ideal.hostUnary_rsqrt_def, val_main_v61_apply, Ideal.addf_def, val_main_v60_apply,
    val_main_cst_13_apply, Ideal.ofBits_def, bn1_var,
    val_main_v59_apply, Ideal.subf_def, val_main_v58_apply, val_main_v57_apply, row_v57_v58, bn1_mean]
  rfl

/-! ## The second normalisation: stages v90 to v115 over the stage v89 -/

/-- A row vector broadcast over the rows is read at the column alone. -/
theorem row_v112_v113 (n : Fin 100000) (j : Fin 64) : idx_main_v112 (idx_main_v113 (ix2 n j)) = ix1 j :=
  funext fun a => Fin.ext (by match a with | ⟨0, _⟩ => rfl)
theorem row_v109_v110 (n : Fin 100000) (j : Fin 64) : idx_main_v109 (idx_main_v110 (ix2 n j)) = ix1 j :=
  funext fun a => Fin.ext (by match a with | ⟨0, _⟩ => rfl)
theorem row_v106_v107 (n : Fin 100000) (j : Fin 64) : idx_main_v106 (idx_main_v107 (ix2 n j)) = ix1 j :=
  funext fun a => Fin.ext (by match a with | ⟨0, _⟩ => rfl)
theorem row_v100_v101 (n : Fin 100000) (j : Fin 64) : idx_main_v100 (idx_main_v101 (ix2 n j)) = ix1 j :=
  funext fun a => Fin.ext (by match a with | ⟨0, _⟩ => rfl)
theorem row_v93_v94 (n : Fin 100000) (j : Fin 64) : idx_main_v93 (idx_main_v94 (ix2 n j)) = ix1 j :=
  funext fun a => Fin.ext (by match a with | ⟨0, _⟩ => rfl)
/-- The column sums run over the rows of one column. -/
theorem col_v90 (j : Fin 64) (k : Fin 100000) : idx_main_v90 (ix1 j) k = ix2 k j :=
  funext fun a => Fin.ext (by match a with | ⟨0, _⟩ => rfl | ⟨1, _⟩ => rfl)
theorem col_v97 (j : Fin 64) (k : Fin 100000) : idx_main_v97 (ix1 j) k = ix2 k j :=
  funext fun a => Fin.ext (by match a with | ⟨0, _⟩ => rfl | ⟨1, _⟩ => rfl)

/-- Stage v92 at column j: the column sum of the input from zero, divided by the row count — the specification's
batch mean of the input stage. -/
theorem bn2_mean (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 x7 x8 : (⟨S64, .f32⟩ : BufTy).Contents (Elt Ideal)) (j : Fin 64) :
    val_main_v92 (F := Ideal) x0 x1 x3 x4 x5 x6 x7 x8 (ix1 j)
      = Cert.Spec.refMean (Ideal.ofBits .f32 0x47C35000#32) (fun n j => val_main_v89 (F := Ideal) x0 x1 x3 x4 x5 x6 x7 x8 (ix2 n j)) j := by
  rw [val_main_v92_apply, Ideal.hostDivf_def, val_main_v90_apply, val_main_cst_17_apply, Ideal.ofBits_def,
    Ideal.ofBits_zero_f32, val_main_v91_apply, val_main_cst_18_apply, Ideal.ofBits_def]
  show _ = Ideal.div (0 + ∑ n : Fin 100000, val_main_v89 (F := Ideal) x0 x1 x3 x4 x5 x6 x7 x8 (ix2 n j)) (Ideal.ofBits .f32 0x47C35000#32)
  refine congrArg (fun s => Ideal.div (0 + s) (Ideal.ofBits .f32 0x47C35000#32)) (Finset.sum_congr rfl fun k _ => ?_)
  rw [col_v90]

/-- Stage v99 at column j: the column sum, from zero, of the squared deviations from the batch mean, divided by the
row count — the specification's mean squared deviation of the input stage. -/
theorem bn2_var (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 x7 x8 : (⟨S64, .f32⟩ : BufTy).Contents (Elt Ideal)) (j : Fin 64) :
    val_main_v99 (F := Ideal) x0 x1 x3 x4 x5 x6 x7 x8 (ix1 j)
      = Cert.Spec.refVar (Ideal.ofBits .f32 0x47C35000#32) (fun n j => val_main_v89 (F := Ideal) x0 x1 x3 x4 x5 x6 x7 x8 (ix2 n j)) j := by
  rw [val_main_v99_apply, Ideal.hostDivf_def, val_main_v97_apply, val_main_cst_19_apply, Ideal.ofBits_def,
    Ideal.ofBits_zero_f32, val_main_v98_apply, val_main_cst_20_apply, Ideal.ofBits_def]
  show _ = Ideal.div (0 + ∑ n : Fin 100000,
      (val_main_v89 (F := Ideal) x0 x1 x3 x4 x5 x6 x7 x8 (ix2 n j) - Cert.Spec.refMean (Ideal.ofBits .f32 0x47C35000#32) (fun n j => val_main_v89 (F := Ideal) x0 x1 x3 x4 x5 x6 x7 x8 (ix2 n j)) j)
        * (val_main_v89 (F := Ideal) x0 x1 x3 x4 x5 x6 x7 x8 (ix2 n j) - Cert.Spec.refMean (Ideal.ofBits .f32 0x47C35000#32) (fun n j => val_main_v89 (F := Ideal) x0 x1 x3 x4 x5 x6 x7 x8 (ix2 n j)) j)) (Ideal.ofBits .f32 0x47C35000#32)
  refine congrArg (fun s => Ideal.div (0 + s) (Ideal.ofBits .f32 0x47C35000#32)) (Finset.sum_congr rfl fun k _ => ?_)
  rw [col_v97, val_main_v96_apply, Ideal.mulf_def, val_main_v95_apply, Ideal.subf_def, val_main_v94_apply,
    val_main_v93_apply, row_v93_v94, bn2_mean]

/-- Stages v90 to v115 (column mean, mean squared deviation, inverse square root of the offset variance, scale by the
weights, shift by the biases, rectifier), read at row n and column j, are the batch normalisation and rectifier of the
specification applied to stage v89, which is not opened. -/
theorem bn2_apply (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 x7 x8 : (⟨S64, .f32⟩ : BufTy).Contents (Elt Ideal)) (n : Fin 100000) (j : Fin 64) :
    val_main_v115 (F := Ideal) x0 x1 x3 x4 x5 x6 x7 x8 (ix2 n j)
      = Cert.Spec.refBn (Ideal.ofBits .f32 0x47C35000#32) (Ideal.ofBits .f32 0x3727C5AC#32)
          (fun j => x7 (ix1 j)) (fun j => x8 (ix1 j)) (fun n j => val_main_v89 (F := Ideal) x0 x1 x3 x4 x5 x6 x7 x8 (ix2 n j)) n j := by
  rw [val_main_v115_apply, Ideal.maximumf_def, val_main_call2_v0_apply, val_main_call2_cst_apply, Ideal.ofBits_def,
    Ideal.ofBits_zero_f32,
    val_main_v114_apply, Ideal.addf_def, val_main_v113_apply, val_main_v112_apply, row_v112_v113,
    val_main_v111_apply, Ideal.mulf_def, val_main_v110_apply, val_main_v109_apply, row_v109_v110,
    val_main_v108_apply, Ideal.mulf_def, val_main_v107_apply, val_main_v106_apply, row_v106_v107,
    val_main_v105_apply, Ideal.hostUnary_rsqrt_def, val_main_v104_apply, Ideal.addf_def, val_main_v103_apply,
    val_main_cst_21_apply, Ideal.ofBits_def, bn2_var,
    val_main_v102_apply, Ideal.subf_def, val_main_v101_apply, val_main_v100_apply, row_v100_v101, bn2_mean]
  rfl

end Cert.ReferenceIdeal.RefValue

end
-- ==== Proof.Consts.lean ====
import Idealize.ShloMosaic.PureOps.Ideal

/-! # The float constants the two programs spell, as the extended reals their words denote

The node count `100000.0`, the unit `1.0` in single and in brain-float precision, zero, and the variance offset
(a small positive real: only its sign matters here). -/

noncomputable section

namespace Cert.Consts

open Idealize.ShloMosaic

/-- `+0.0` denotes `0`. -/
theorem ofBits_zero : Ideal.ofBits .f32 0x00000000#32 = 0 := by
  simp [Ideal.ofBits, Ideal.ieee]

/-- `100000.0` denotes the real `100000`. -/
theorem ofBits_count : Ideal.ofBits .f32 0x47C35000#32 = ((100000 : ℝ) : EReal) := by
  simp [Ideal.ofBits, Ideal.ieee, -EReal.coe_mul]; norm_num

/-- `1.0` in single precision denotes `1`. -/
theorem ofBits_one : Ideal.ofBits .f32 0x3F800000#32 = 1 := by
  simp [Ideal.ofBits, Ideal.ieee, -EReal.coe_mul]; norm_num

/-- `1.0` in brain-float precision denotes `1`. -/
theorem ofBits_one_bf16 : Ideal.ofBits .bf16 0x3F80#16 = 1 := by
  simp [Ideal.ofBits, Ideal.ieee, -EReal.coe_mul]; norm_num

/-- The variance offset denotes a positive real. -/
theorem ofBits_eps_pos : ∃ r : ℝ, 0 < r ∧ Ideal.ofBits .f32 0x3727C5AC#32 = (r : EReal) := by
  refine ⟨_, ?_, by simp [Ideal.ofBits, Ideal.ieee, -EReal.coe_mul]; rfl⟩
  norm_num

end Cert.Consts

end
-- ==== Proof.RefHeadVal.lean ====
import proofs.«411316_j29850022707326_3_alg».proof.Proof.RefRead
import proofs.«411316_j29850022707326_3_alg».proof.Proof.Spec
import proofs.«411316_j29850022707326_3_alg».proof.Proof.Graph
import proofs.«411316_j29850022707326_3_alg».proof.Proof.Consts
import proofs.«411316_j29850022707326_3_alg».proof.Proof.LibGatherScatter

/-! # The reference's last stretch is the specification's mean pooling and linear map

The rows of the last layer are added into a zero table at the row their batch word names, ones are added into a zero
vector the same way, the table is divided by the count floored at one, multiplied by the weights and shifted by the
biases. An accumulating scatter into zeros at one row is the sum over the nodes whose word is that row, which is the
node set of that graph; read at one element the stretch is then the specification's formula word for word. The last
layer's stage stays closed. -/

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.StableHlo.Predicate

/-! ## Index equations -/

/-- The batch words kept as a column are read at the node. -/
theorem col_v117 (e : Fin 100000) : idx_main_v117 (ixP e) = ix1 e :=
  funext fun a => Fin.ext (by match a with | ⟨0, _⟩ => rfl)
theorem col_v121 (e : Fin 100000) : idx_main_v121 (ixP e) = ix1 e :=
  funext fun a => Fin.ext (by match a with | ⟨0, _⟩ => rfl)
/-- The floored count, kept as a column and broadcast along the rows, is read at the graph alone. -/
theorem row_v125_v126 (q : Fin 128) (k : Fin 64) : idx_main_v125 (idx_main_v126 (ix2 q k)) = ix1 q :=
  funext fun a => Fin.ext (by match a with | ⟨0, _⟩ => rfl)
/-- The biases, kept as a row and broadcast down the graphs, are read at the output column alone. -/
theorem row_v129_v130 (q : Fin 128) (o : Fin 32) : idx_main_v129 (idx_main_v130 (ix2 q o)) = ix1 o :=
  funext fun a => Fin.ext (by match a with | ⟨0, _⟩ => rfl)
/-- The product's left operand is read along the graph's row, the right one down the output's column. -/
theorem lidx_v128 (q : Fin 128) (o : Fin 32) (k : Fin 64) : lidx_main_v128 (ix2 q o) k = ix2 q k :=
  funext fun a => Fin.ext (by match a with | ⟨0, _⟩ => rfl | ⟨1, _⟩ => rfl)
theorem ridx_v128 (q : Fin 128) (o : Fin 32) (k : Fin 64) : ridx_main_v128 (ix2 q o) k = ix2 k o :=
  funext fun a => Fin.ext (by match a with | ⟨0, _⟩ => rfl | ⟨1, _⟩ => rfl)

/-! ## The two accumulating scatters at the program's dimension numbers -/

/-- The row scatter into a table of 128 rows: the table plus the sum of the update rows whose word names the row. -/
theorem rowScatter_at (z : FVec Ideal S128x64 .f32) (idx : IVec S100000x1 32) (u : FVec Ideal S100000x64 .f32)
    (q : Fin 128) (h : Fin 64) :
    Host.scatterAdd (F := Ideal) scatter_S128x64_S100000x1_S100000x64_1_0_0_1 z idx u (ix2 q h)
      = z (ix2 q h) + ∑ n ∈ Finset.univ.filter (fun n : Fin 100000 => (idx (ixP n)).toInt = (q.val : ℤ)), u (ix2 n h) :=
  Cert.LibGatherScatter.rowScatterAdd_apply _ rfl rfl rfl rfl z idx u q h

/-- The scatter into a vector of 128 entries: the vector plus the sum of the updates whose word names the entry. -/
theorem vecScatter_at (z : FVec Ideal S128 .f32) (idx : IVec S100000x1 32) (u : FVec Ideal S100000 .f32) (q : Fin 128) :
    Host.scatterAdd (F := Ideal) scatter_S128_S100000x1_S100000_n_0_0_1 z idx u (ix1 q)
      = z (ix1 q) + ∑ n ∈ Finset.univ.filter (fun n : Fin 100000 => (idx (ixP n)).toInt = (q.val : ℤ)), u (ix1 n) :=
  Cert.LibGatherScatter.vecScatterAdd_apply _ rfl rfl rfl rfl z idx u q

/-- The nodes whose word, read through the column of stage v117, names graph q are the graph's node set. -/
theorem nodes_v117 (x2 : (⟨S100000, .i32⟩ : BufTy).Contents (Elt Ideal)) (q : Fin 128) :
    (Finset.univ.filter fun n : Fin 100000 => (val_main_v117 (F := Ideal) x2 (ixP n)).toInt = (q.val : ℤ))
      = Cert.Graph.TOf x2 q :=
  Finset.filter_congr fun n _ => by rw [val_main_v117_apply, col_v117]

theorem nodes_v121 (x2 : (⟨S100000, .i32⟩ : BufTy).Contents (Elt Ideal)) (q : Fin 128) :
    (Finset.univ.filter fun n : Fin 100000 => (val_main_v121 (F := Ideal) x2 (ixP n)).toInt = (q.val : ℤ))
      = Cert.Graph.TOf x2 q :=
  Finset.filter_congr fun n _ => by rw [val_main_v121_apply, col_v121]

set_option maxHeartbeats 400000 in
/-- Stage v118 at graph q and column k: zero plus the sum of the last layer's rows over the graph's nodes. -/
theorem pool_apply (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 x7 x8 : (⟨S64, .f32⟩ : BufTy).Contents (Elt Ideal)) (q : Fin 128) (k : Fin 64) :
    val_main_v118 (F := Ideal) x0 x1 x2 x3 x4 x5 x6 x7 x8 (ix2 q k)
      = 0 + ∑ e ∈ Cert.Graph.TOf x2 q, val_main_v115 (F := Ideal) x0 x1 x3 x4 x5 x6 x7 x8 (ix2 e k) := by
  unfold val_main_v118
  rw [rowScatter_at, nodes_v117, val_main_v116_apply, val_main_cst_22_apply, Ideal.ofBits_def, Cert.Consts.ofBits_zero]

set_option maxHeartbeats 400000 in
/-- Stage v122 at graph q: zero plus the sum of the unit over the graph's nodes. -/
theorem count_apply (x2 : (⟨S100000, .i32⟩ : BufTy).Contents (Elt Ideal)) (q : Fin 128) :
    val_main_v122 (F := Ideal) x2 (ix1 q) = 0 + ∑ _e ∈ Cert.Graph.TOf x2 q, Ideal.ofBits .f32 0x3F800000#32 := by
  unfold val_main_v122
  rw [vecScatter_at, nodes_v121, val_main_v120_apply, val_main_cst_24_apply, Ideal.ofBits_def, Cert.Consts.ofBits_zero]
  refine congrArg (0 + ·) (Finset.sum_congr rfl fun e _ => ?_)
  rw [val_main_v119_apply, val_main_cst_23_apply, Ideal.ofBits_def]

set_option maxHeartbeats 400000 in
/-- Stage v124 at graph q: the node count floored at one. -/
theorem floor_apply (x2 : (⟨S100000, .i32⟩ : BufTy).Contents (Elt Ideal)) (q : Fin 128) :
    val_main_v124 (F := Ideal) x2 (ix1 q)
      = max (0 + ∑ _e ∈ Cert.Graph.TOf x2 q, Ideal.ofBits .f32 0x3F800000#32) (Ideal.ofBits .f32 0x3F800000#32) := by
  rw [val_main_v124_apply, Ideal.maximumf_def, count_apply, val_main_v123_apply, val_main_cst_25_apply, Ideal.ofBits_def]

set_option maxHeartbeats 400000 in
/-- Stage v127 at graph q and column k: the pooled sum over the floored count. -/
theorem mean_apply (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 x7 x8 : (⟨S64, .f32⟩ : BufTy).Contents (Elt Ideal)) (q : Fin 128) (k : Fin 64) :
    val_main_v127 (F := Ideal) x0 x1 x2 x3 x4 x5 x6 x7 x8 (ix2 q k)
      = Ideal.div (0 + ∑ e ∈ Cert.Graph.TOf x2 q, val_main_v115 (F := Ideal) x0 x1 x3 x4 x5 x6 x7 x8 (ix2 e k))
          (max (0 + ∑ _e ∈ Cert.Graph.TOf x2 q, Ideal.ofBits .f32 0x3F800000#32) (Ideal.ofBits .f32 0x3F800000#32)) := by
  rw [val_main_v127_apply, Ideal.hostDivf_def, pool_apply, val_main_v126_apply, val_main_v125_apply, row_v125_v126,
    floor_apply]

/-! ## The stretch -/

set_option maxHeartbeats 400000 in
/-- Stages v116 to v131 (pooling sums, node counts floored at one, division, product with the weights, biases), read at
graph q and output column o, are the mean pooling and linear map of the specification applied to stage v115, which is
not opened. -/
theorem head_apply (x0 : (⟨S100000x128, .f32⟩ : BufTy).Contents (Elt Ideal)) (x1 : (⟨S2x1600000, .i32⟩ : BufTy).Contents (Elt Ideal))
    (x2 : (⟨S100000, .i32⟩ : BufTy).Contents (Elt Ideal)) (x3 : (⟨S128x64, .f32⟩ : BufTy).Contents (Elt Ideal))
    (x4 : (⟨S64, .f32⟩ : BufTy).Contents (Elt Ideal)) (x5 : (⟨S64x64, .f32⟩ : BufTy).Contents (Elt Ideal))
    (x6 x7 x8 : (⟨S64, .f32⟩ : BufTy).Contents (Elt Ideal))
    (x9 : (⟨S64x32, .f32⟩ : BufTy).Contents (Elt Ideal)) (x10 : (⟨S32, .f32⟩ : BufTy).Contents (Elt Ideal)) (q : Fin 128) (o : Fin 32) :
    val_main_v131 (F := Ideal) x0 x1 x2 x3 x4 x5 x6 x7 x8 x9 x10 (ix2 q o)
      = Cert.Spec.refHead (Cert.Graph.TOf x2) (Ideal.ofBits .f32 0x3F800000#32)
          (fun n h => val_main_v115 (F := Ideal) x0 x1 x3 x4 x5 x6 x7 x8 (ix2 n h)) (fun h o => x9 (ix2 h o))
          (fun o => x10 (ix1 o)) q o := by
  show _ = (∑ h : Fin 64,
      Ideal.div (0 + ∑ n ∈ Cert.Graph.TOf x2 q, val_main_v115 (F := Ideal) x0 x1 x3 x4 x5 x6 x7 x8 (ix2 n h))
          (max (0 + ∑ _n ∈ Cert.Graph.TOf x2 q, Ideal.ofBits .f32 0x3F800000#32) (Ideal.ofBits .f32 0x3F800000#32))
        * x9 (ix2 h o)) + x10 (ix1 o)
  rw [val_main_v131_apply, Ideal.addf_def, val_main_v128_apply, val_main_v130_apply, val_main_v129_apply, row_v129_v130]
  refine congrArg (· + x10 (ix1 o)) (Finset.sum_congr rfl fun k _ => ?_)
  rw [lidx_v128, ridx_v128, mean_apply]

end Cert.ReferenceIdeal.RefValue

end
-- ==== Proof.RefValue.lean ====
import proofs.«411316_j29850022707326_3_alg».proof.Proof.RefRun
import proofs.«411316_j29850022707326_3_alg».proof.Proof.RefRead
import proofs.«411316_j29850022707326_3_alg».proof.Proof.Spec
import proofs.«411316_j29850022707326_3_alg».proof.Proof.Graph
import proofs.«411316_j29850022707326_3_alg».proof.Proof.LibGatherScatter
import proofs.«411316_j29850022707326_3_alg».proof.Proof.RefBn
import proofs.«411316_j29850022707326_3_alg».proof.Proof.RefHeadVal

/-! # The reference program computes the textbook two-layer graph convolution

The reference is read one named intermediate at a time, each at an index: the edge weight (the product of the inverse square
root degrees of an edge's two ends, each read by a gather at the wrapped word), a dense product, the gather of the
projected rows at the source words, the scatter-add over the target words, the bias; the column mean, the mean squared
deviation, the normalisation and the rectifier; then the second layer, the same; last the two scatter-adds over the
batch words (the sum of each graph's rows and the count of its nodes), the quotient by the count floored at one, the
linear map and its bias. Each intermediate is the corresponding function of `Cert.Spec` of the intermediate before
it, kept as an unopened function of the node and the column; the last theorem composes them into `Cert.Spec.refOut`. -/

noncomputable section

namespace Cert.ReferenceIdeal.RefValue

open Cert.ReferenceIdeal Cert.ReferenceIdeal.Read Idealize.ShloMosaic Idealize.ShloMosaic.ValueIdx
open Idealize.ShloMosaic.StableHlo.Predicate Cert.LibGatherScatter
open scoped BigOperators

/-! ## The graph's three vectors, as the program computes them from the edge list -/

/-- The source word of each edge: row 0 of the edge list, then the self loops `0 … N − 1`. -/
def srcOf (ei : IVec S2x1600000 32) : IVec S1700000 32 := val_main_v3 (F := Ideal) ei
/-- The target word of each edge: row 1 of the edge list, then the self loops. -/
def dstOf (ei : IVec S2x1600000 32) : IVec S1700000 32 := val_main_v6 (F := Ideal) ei
/-- The inverse square root of each node's in-degree, zero where the degree is not positive. -/
def disOf (ei : IVec S2x1600000 32) : FVec Ideal S100000 .f32 := val_main_v14 (F := Ideal) ei

/-- The node an edge reads, the node its target word reads as a gather index, the edges landing on a node, and the
    inverse square root degree by node. -/
abbrev gS (ei : IVec S2x1600000 32) : Fin 1700000 → Fin 100000 := Cert.Graph.gOf (by decide) (srcOf ei)
abbrev gD (ei : IVec S2x1600000 32) : Fin 1700000 → Fin 100000 := Cert.Graph.gOf (by decide) (dstOf ei)
abbrev eS (ei : IVec S2x1600000 32) : Fin 100000 → Finset (Fin 1700000) := Cert.Graph.SOf (dstOf ei)
abbrev dI (ei : IVec S2x1600000 32) : Fin 100000 → EReal := fun n => disOf ei (ix1 n)

/-- The node count, the variance offset and one, as the program's float words. -/
abbrev cN : EReal := Ideal.ofBits .f32 0x47C35000#32
abbrev cEps : EReal := Ideal.ofBits .f32 0x3727C5AC#32
abbrev cOne : EReal := Ideal.ofBits .f32 0x3F800000#32

/-- Two indices given by coordinates are equal when each coordinate is: rank one, rank two. -/
local macro "idx_rfl" : tactic =>
  `(tactic| exact funext fun a => Fin.ext (by match a with | ⟨0, _⟩ => rfl))
local macro "idx_rfl2" : tactic =>
  `(tactic| exact funext fun a => Fin.ext (by match a with | ⟨0, _⟩ => rfl | ⟨1, _⟩ => rfl))

/-! ## The gathers and the scatter-adds of this program, read at an index -/

/-- A gather of a vector over the nodes at a column of words reads the vector at the word, signed and clamped. -/
theorem gather1_at (t : FVec Ideal S100000 .f32) (idx : IVec S1700000x1 32) (e : Fin 1700000) :
    Host.gather gather_S100000_S1700000x1_S1700000_n_0_n_n_0_1_1 t idx (ix1 e)
      = t (ix1 ⟨min (idx (ixP e)).toInt.toNat (100000 - 1), by omega⟩) := by
  refine (congrArg (Host.gather gather_S100000_S1700000x1_S1700000_n_0_n_n_0_1_1 t idx) (ix1_eq_ofFin e)).trans ?_
  refine (gather_take _ rfl rfl rfl rfl t idx e (by decide)).trans ?_
  exact congrArg t (ix1_eq_ofFin _).symm

/-- A gather of rows reads, at edge `e` and column `j`, the row at the word, signed and clamped, at column `j`. -/
theorem gather2_at (t : FVec Ideal S100000x64 .f32) (idx : IVec S1700000x1 32) (e : Fin 1700000) (j : Fin 64) :
    Host.gather gather_S100000x64_S1700000x1_S1700000x64_1_0_n_n_0_1_164 t idx (ix2 e j)
      = t (ix2 ⟨min (idx (ixP e)).toInt.toNat (100000 - 1), by omega⟩ j) :=
  rowGather_apply _ rfl rfl rfl rfl rfl rfl rfl (by decide) t idx e j

/-- The scatter-add of edge rows into node rows: the sum over the edges whose word, read signed, is the node. -/
theorem scatter2_at (z : FVec Ideal S100000x64 .f32) (idx : IVec S1700000x1 32) (u : FVec Ideal S1700000x64 .f32)
    (n : Fin 100000) (j : Fin 64) :
    Host.scatterAdd (F := Ideal) scatter_S100000x64_S1700000x1_S1700000x64_1_0_0_1 z idx u (ix2 n j)
      = z (ix2 n j) + ∑ e ∈ Finset.univ.filter (fun e : Fin 1700000 => (idx (ixP e)).toInt = (n.val : ℤ)), u (ix2 e j) :=
  rowScatterAdd_apply _ rfl rfl rfl rfl z idx u n j

/-- The same two gathers when the column's word at `e` is a wrapped word `v`: the row read is `Cert.Graph.row` of `v`. -/
theorem gather1_row (t : FVec Ideal S100000 .f32) (idx : IVec S1700000x1 32) (e : Fin 1700000) (v : BitVec 32)
    (h : idx (ixP e) = Cert.Graph.wrap 100000 v) :
    Host.gather gather_S100000_S1700000x1_S1700000_n_0_n_n_0_1_1 t idx (ix1 e)
      = t (ix1 (Cert.Graph.row (N := 100000) (by decide) v)) := by
  rw [gather1_at]
  refine congrArg (fun r => t (ix1 r)) (Fin.ext ?_)
  show min (idx (ixP e)).toInt.toNat (100000 - 1) = min (Cert.Graph.wrap 100000 v).toInt.toNat (100000 - 1)
  rw [h]

theorem gather2_row (t : FVec Ideal S100000x64 .f32) (idx : IVec S1700000x1 32) (e : Fin 1700000) (j : Fin 64) (v : BitVec 32)
    (h : idx (ixP e) = Cert.Graph.wrap 100000 v) :
    Host.gather gather_S100000x64_S1700000x1_S1700000x64_1_0_n_n_0_1_164 t idx (ix2 e j)
      = t (ix2 (Cert.Graph.row (N := 100000) (by decide) v) j) := by
  rw [gather2_at]
  refine congrArg (fun r => t (ix2 r j)) (Fin.ext ?_)
  show min (idx (ixP e)).toInt.toNat (100000 - 1) = min (Cert.Graph.wrap 100000 v).toInt.toNat (100000 - 1)
  rw [h]

/-! ## The index columns: a word vector kept as a column, wrapped for a gather or as it is for a scatter-add -/

/-- The column the edge weight's first gather reads: the source word, wrapped. -/
theorem weightSrcCol_at (ei : IVec S2x1600000 32) (e : Fin 1700000) :
    val_main_v20 (F := Ideal) ei (ixP e) = Cert.Graph.wrap 100000 (srcOf ei (ix1 e)) := by
  rw [val_main_v20_apply, val_main_v19_apply, val_main_v16_apply, val_main_v18_apply, val_main_v15_apply,
    val_main_v17_apply, val_main_c_apply, val_main_c_3_apply]
  have hi : idx_main_v20 (ixP e) = ix1 e := by idx_rfl
  rw [hi]
  rfl

/-- The column the edge weight's second gather reads: the target word, wrapped. -/
theorem weightDstCol_at (ei : IVec S2x1600000 32) (e : Fin 1700000) :
    val_main_v27 (F := Ideal) ei (ixP e) = Cert.Graph.wrap 100000 (dstOf ei (ix1 e)) := by
  rw [val_main_v27_apply, val_main_v26_apply, val_main_v23_apply, val_main_v25_apply, val_main_v22_apply,
    val_main_v24_apply, val_main_c_4_apply, val_main_c_5_apply]
  have hi : idx_main_v27 (ixP e) = ix1 e := by idx_rfl
  rw [hi]
  rfl

/-- The column the first layer's row gather reads: the source word, wrapped. -/
theorem rowCol1_at (ei : IVec S2x1600000 32) (e : Fin 1700000) :
    val_main_v36 (F := Ideal) ei (ixP e) = Cert.Graph.wrap 100000 (srcOf ei (ix1 e)) := by
  rw [val_main_v36_apply, val_main_v35_apply, val_main_v32_apply, val_main_v34_apply, val_main_v31_apply,
    val_main_v33_apply, val_main_c_6_apply, val_main_c_7_apply]
  have hi : idx_main_v36 (ixP e) = ix1 e := by idx_rfl
  rw [hi]
  rfl

/-- The column the second layer's row gather reads: the source word, wrapped. -/
theorem rowCol2_at (ei : IVec S2x1600000 32) (e : Fin 1700000) :
    val_main_v79 (F := Ideal) ei (ixP e) = Cert.Graph.wrap 100000 (srcOf ei (ix1 e)) := by
  rw [val_main_v79_apply, val_main_v78_apply, val_main_v75_apply, val_main_v77_apply, val_main_v74_apply,
    val_main_v76_apply, val_main_c_14_apply, val_main_c_15_apply]
  have hi : idx_main_v79 (ixP e) = ix1 e := by idx_rfl
  rw [hi]
  rfl

/-- The column the first layer's scatter-add reads: the target word. -/
theorem landCol1_at (ei : IVec S2x1600000 32) (e : Fin 1700000) : val_main_v42 (F := Ideal) ei (ixP e) = dstOf ei (ix1 e) := by
  rw [val_main_v42_apply]
  exact congrArg (val_main_v6 (F := Ideal) ei) (by idx_rfl)

/-- The column the second layer's scatter-add reads: the target word. -/
theorem landCol2_at (ei : IVec S2x1600000 32) (e : Fin 1700000) : val_main_v85 (F := Ideal) ei (ixP e) = dstOf ei (ix1 e) := by
  rw [val_main_v85_apply]
  exact congrArg (val_main_v6 (F := Ideal) ei) (by idx_rfl)

/-! ## The edge weight -/

/-- The weight of edge `e`: the inverse square root degree of the node it reads times that of the node its target
    word reads. -/
theorem edgeWeight_at (ei : IVec S2x1600000 32) (e : Fin 1700000) :
    val_main_v29 (F := Ideal) ei (ix1 e) = dI ei (gS ei e) * dI ei (gD ei e) := by
  rw [val_main_v29_apply, Ideal.mulf_def]
  unfold val_main_v21 val_main_v28
  rw [gather1_row _ _ e _ (weightSrcCol_at ei e), gather1_row _ _ e _ (weightDstCol_at ei e)]
  rfl

/-! ## The first convolution -/

/-- The first dense product: row `n` of the features against column `j` of the weights. -/
theorem proj1_at (x : FVec Ideal S100000x128 .f32) (w1 : FVec Ideal S128x64 .f32) (n : Fin 100000) (j : Fin 64) :
    val_main_v30 (F := Ideal) x w1 (ix2 n j) = Cert.Spec.mm (fun n k => x (ix2 n k)) (fun k j => w1 (ix2 k j)) n j := by
  rw [val_main_v30_apply]
  show _ = ∑ k : Fin 128, x (ix2 n k) * w1 (ix2 k j)
  refine Finset.sum_congr rfl fun k _ => ?_
  have hl : lidx_main_v30 (ix2 n j) k = ix2 n k := by idx_rfl2
  have hr : ridx_main_v30 (ix2 n j) k = ix2 k j := by idx_rfl2
  rw [hl, hr]

/-- The first layer's message of edge `e` at column `j`: the projected row of the node the edge reads, times the
    edge's weight. -/
theorem message1_at (x : FVec Ideal S100000x128 .f32) (ei : IVec S2x1600000 32) (w1 : FVec Ideal S128x64 .f32)
    (e : Fin 1700000) (j : Fin 64) :
    val_main_v40 (F := Ideal) x ei w1 (ix2 e j)
      = Cert.Spec.mm (fun n k => x (ix2 n k)) (fun k j => w1 (ix2 k j)) (gS ei e) j * (dI ei (gS ei e) * dI ei (gD ei e)) := by
  rw [val_main_v40_apply, Ideal.mulf_def, val_main_v39_apply, val_main_v38_apply]
  have hi : idx_main_v38 (idx_main_v39 (ix2 e j)) = ix1 e := by idx_rfl
  rw [hi, edgeWeight_at]
  unfold val_main_v37
  rw [gather2_row _ _ e j _ (rowCol1_at ei e)]
  exact congrArg (· * (dI ei (gS ei e) * dI ei (gD ei e))) (proj1_at x w1 (gS ei e) j)

/-- The first convolution: the messages summed, from zero, over the edges landing on `n`, plus the bias. -/
theorem conv1_at (x : FVec Ideal S100000x128 .f32) (ei : IVec S2x1600000 32) (w1 : FVec Ideal S128x64 .f32)
    (b1 : FVec Ideal S64 .f32) (n : Fin 100000) (j : Fin 64) :
    val_main_v46 (F := Ideal) x ei w1 b1 (ix2 n j)
      = Cert.Spec.refConv (gS ei) (gD ei) (eS ei) (dI ei) (fun n k => x (ix2 n k)) (fun k j => w1 (ix2 k j))
          (fun j => b1 (ix1 j)) n j := by
  rw [val_main_v46_apply, Ideal.addf_def, val_main_v45_apply, val_main_v44_apply]
  have hb : idx_main_v44 (idx_main_v45 (ix2 n j)) = ix1 j := by idx_rfl
  rw [hb]
  unfold val_main_v43
  rw [scatter2_at, val_main_v41_apply, val_main_cst_8_apply, Ideal.ofBits_def, Ideal.ofBits_zero_f32]
  have hS : (Finset.univ.filter fun e : Fin 1700000 => (val_main_v42 (F := Ideal) ei (ixP e)).toInt = (n.val : ℤ)) = eS ei n :=
    Finset.filter_congr fun e _ => by rw [landCol1_at]
  rw [hS]
  refine congrArg (fun s => (0 + s) + b1 (ix1 j)) (Finset.sum_congr rfl fun e _ => ?_)
  exact message1_at x ei w1 e j

/-! ## The second convolution: the same, of the first layer's output -/

/-- The first layer's output, by node and column. -/
abbrev hid1 (x : FVec Ideal S100000x128 .f32) (ei : IVec S2x1600000 32) (w1 : FVec Ideal S128x64 .f32)
    (b1 γ β : FVec Ideal S64 .f32) : Fin 100000 → Fin 64 → EReal :=
  fun n k => val_main_v72 (F := Ideal) x ei w1 b1 γ β (ix2 n k)

/-- The second dense product: row `n` of the first layer's output against column `j` of the weights. -/
theorem proj2_at (x : FVec Ideal S100000x128 .f32) (ei : IVec S2x1600000 32) (w1 : FVec Ideal S128x64 .f32)
    (b1 : FVec Ideal S64 .f32) (w2 : FVec Ideal S64x64 .f32) (γ β : FVec Ideal S64 .f32) (n : Fin 100000) (j : Fin 64) :
    val_main_v73 (F := Ideal) x ei w1 b1 w2 γ β (ix2 n j)
      = Cert.Spec.mm (hid1 x ei w1 b1 γ β) (fun k j => w2 (ix2 k j)) n j := by
  rw [val_main_v73_apply]
  show _ = ∑ k : Fin 64, val_main_v72 (F := Ideal) x ei w1 b1 γ β (ix2 n k) * w2 (ix2 k j)
  refine Finset.sum_congr rfl fun k _ => ?_
  have hl : lidx_main_v73 (ix2 n j) k = ix2 n k := by idx_rfl2
  have hr : ridx_main_v73 (ix2 n j) k = ix2 k j := by idx_rfl2
  rw [hl, hr]

/-- The second layer's message of edge `e` at column `j`. -/
theorem message2_at (x : FVec Ideal S100000x128 .f32) (ei : IVec S2x1600000 32) (w1 : FVec Ideal S128x64 .f32)
    (b1 : FVec Ideal S64 .f32) (w2 : FVec Ideal S64x64 .f32) (γ β : FVec Ideal S64 .f32) (e : Fin 1700000) (j : Fin 64) :
    val_main_v83 (F := Ideal) x ei w1 b1 w2 γ β (ix2 e j)
      = Cert.Spec.mm (hid1 x ei w1 b1 γ β) (fun k j => w2 (ix2 k j)) (gS ei e) j * (dI ei (gS ei e) * dI ei (gD ei e)) := by
  rw [val_main_v83_apply, Ideal.mulf_def, val_main_v82_apply, val_main_v81_apply]
  have hi : idx_main_v81 (idx_main_v82 (ix2 e j)) = ix1 e := by idx_rfl
  rw [hi, edgeWeight_at]
  unfold val_main_v80
  rw [gather2_row _ _ e j _ (rowCol2_at ei e)]
  exact congrArg (· * (dI ei (gS ei e) * dI ei (gD ei e))) (proj2_at x ei w1 b1 w2 γ β (gS ei e) j)

/-- The second convolution: the messages summed, from zero, over the edges landing on `n`, plus the bias. -/
theorem conv2_at (x : FVec Ideal S100000x128 .f32) (ei : IVec S2x1600000 32) (w1 : FVec Ideal S128x64 .f32)
    (b1 : FVec Ideal S64 .f32) (w2 : FVec Ideal S64x64 .f32) (b2 γ β : FVec Ideal S64 .f32) (n : Fin 100000) (j : Fin 64) :
    val_main_v89 (F := Ideal) x ei w1 b1 w2 b2 γ β (ix2 n j)
      = Cert.Spec.refConv (gS ei) (gD ei) (eS ei) (dI ei) (hid1 x ei w1 b1 γ β) (fun k j => w2 (ix2 k j))
          (fun j => b2 (ix1 j)) n j := by
  rw [val_main_v89_apply, Ideal.addf_def, val_main_v88_apply, val_main_v87_apply]
  have hb : idx_main_v87 (idx_main_v88 (ix2 n j)) = ix1 j := by idx_rfl
  rw [hb]
  unfold val_main_v86
  rw [scatter2_at, val_main_v84_apply, val_main_cst_16_apply, Ideal.ofBits_def, Ideal.ofBits_zero_f32]
  have hS : (Finset.univ.filter fun e : Fin 1700000 => (val_main_v85 (F := Ideal) ei (ixP e)).toInt = (n.val : ℤ)) = eS ei n :=
    Finset.filter_congr fun e _ => by rw [landCol2_at]
  rw [hS]
  refine congrArg (fun s => (0 + s) + b2 (ix1 j)) (Finset.sum_congr rfl fun e _ => ?_)
  exact message2_at x ei w1 b1 w2 γ β e j

/-! ## The whole reference -/

/-- The reference's result at graph `q` and output column `o` is the textbook computation: two rounds of convolution,
    normalisation and rectifier over the graph read off the edge list, mean pooling over the batch, the linear map. Each
    stage is the specification's function of the stage before it, as a function of the node and the column. -/
theorem ref_value (x : FVec Ideal S100000x128 .f32) (ei : IVec S2x1600000 32) (batch : IVec S100000 32)
    (w1 : FVec Ideal S128x64 .f32) (b1 : FVec Ideal S64 .f32) (w2 : FVec Ideal S64x64 .f32) (b2 γ β : FVec Ideal S64 .f32)
    (lw : FVec Ideal S64x32 .f32) (lb : FVec Ideal S32 .f32) (q : Fin 128) (o : Fin 32) :
    val_main_v131 (F := Ideal) x ei batch w1 b1 w2 b2 γ β lw lb (ix2 q o)
      = Cert.Spec.refOut (Cert.Graph.gOf (by decide) (srcOf ei)) (Cert.Graph.gOf (by decide) (dstOf ei)) (Cert.Graph.SOf (dstOf ei))
          (fun n => disOf ei (ix1 n)) (Cert.Graph.TOf batch)
          (Ideal.ofBits .f32 0x47C35000#32) (Ideal.ofBits .f32 0x3727C5AC#32) (Ideal.ofBits .f32 0x3F800000#32)
          (fun n k => x (ix2 n k)) (fun k j => w1 (ix2 k j)) (fun j => b1 (ix1 j)) (fun k j => w2 (ix2 k j)) (fun j => b2 (ix1 j))
          (fun j => γ (ix1 j)) (fun j => β (ix1 j)) (fun h o => lw (ix2 h o)) (fun o => lb (ix1 o)) q o := by
  have c1 : (fun n j => val_main_v46 (F := Ideal) x ei w1 b1 (ix2 n j))
      = Cert.Spec.refConv (gS ei) (gD ei) (eS ei) (dI ei) (fun n k => x (ix2 n k)) (fun k j => w1 (ix2 k j)) (fun j => b1 (ix1 j)) :=
    funext fun n => funext fun j => conv1_at x ei w1 b1 n j
  have h1 : hid1 x ei w1 b1 γ β
      = Cert.Spec.refBn cN cEps (fun j => γ (ix1 j)) (fun j => β (ix1 j))
          (Cert.Spec.refConv (gS ei) (gD ei) (eS ei) (dI ei) (fun n k => x (ix2 n k)) (fun k j => w1 (ix2 k j)) (fun j => b1 (ix1 j))) :=
    funext fun n => funext fun j => (bn1_apply x ei w1 b1 γ β n j).trans
      (congrArg (fun a => Cert.Spec.refBn cN cEps (fun j => γ (ix1 j)) (fun j => β (ix1 j)) a n j) c1)
  have c2 : (fun n j => val_main_v89 (F := Ideal) x ei w1 b1 w2 b2 γ β (ix2 n j))
      = Cert.Spec.refConv (gS ei) (gD ei) (eS ei) (dI ei)
          (Cert.Spec.refBn cN cEps (fun j => γ (ix1 j)) (fun j => β (ix1 j))
            (Cert.Spec.refConv (gS ei) (gD ei) (eS ei) (dI ei) (fun n k => x (ix2 n k)) (fun k j => w1 (ix2 k j)) (fun j => b1 (ix1 j))))
          (fun k j => w2 (ix2 k j)) (fun j => b2 (ix1 j)) :=
    funext fun n => funext fun j => (conv2_at x ei w1 b1 w2 b2 γ β n j).trans
      (congrArg (fun a => Cert.Spec.refConv (gS ei) (gD ei) (eS ei) (dI ei) a (fun k j => w2 (ix2 k j)) (fun j => b2 (ix1 j)) n j) h1)
  have h2 : (fun n j => val_main_v115 (F := Ideal) x ei w1 b1 w2 b2 γ β (ix2 n j))
      = Cert.Spec.refBn cN cEps (fun j => γ (ix1 j)) (fun j => β (ix1 j))
          (Cert.Spec.refConv (gS ei) (gD ei) (eS ei) (dI ei)
            (Cert.Spec.refBn cN cEps (fun j => γ (ix1 j)) (fun j => β (ix1 j))
              (Cert.Spec.refConv (gS ei) (gD ei) (eS ei) (dI ei) (fun n k => x (ix2 n k)) (fun k j => w1 (ix2 k j)) (fun j => b1 (ix1 j))))
            (fun k j => w2 (ix2 k j)) (fun j => b2 (ix1 j))) :=
    funext fun n => funext fun j => (bn2_apply x ei w1 b1 w2 b2 γ β n j).trans
      (congrArg (fun a => Cert.Spec.refBn cN cEps (fun j => γ (ix1 j)) (fun j => β (ix1 j)) a n j) c2)
  exact (head_apply x ei batch w1 b1 w2 b2 γ β lw lb q o).trans
    (congrArg (fun a => Cert.Spec.refHead (Cert.Graph.TOf batch) cOne a (fun h o => lw (ix2 h o)) (fun o => lb (ix1 o)) q o) h2)

end Cert.ReferenceIdeal.RefValue

end
-- ==== Proof.SpecEq.lean ====
import proofs.«411316_j29850022707326_3_alg».proof.Proof.Spec
import Mathlib.Data.EReal.Operations
import Mathlib.Data.EReal.Inv
import Mathlib.Algebra.BigOperators.Group.Finset.Piecewise
import Mathlib.Algebra.BigOperators.Ring.Finset
import Mathlib.Algebra.Order.BigOperators.Group.Finset
import Mathlib.Data.Fintype.BigOperators
import Mathlib.Analysis.SpecialFunctions.Pow.Real
import Mathlib.Order.MinMax
import Mathlib.Tactic.Ring
import Mathlib.Tactic.FieldSimp

/-! # The factored order computes what the textbook order computes

On real inputs every intermediate quantity of both orders is a real number, so both computations can be read over the
reals, where they agree by distributivity (the edge sum), by the identity "mean of squares minus squared mean equals
mean squared deviation" (the variance; it uses that the divisor is the number of rows), by folding the normalisation
into one scale and one shift, and by reading a product with an indicator as a sum over its support (the pooling). -/

noncomputable section

namespace Cert.Spec

open scoped BigOperators
open Idealize.ShloMosaic (Ideal)

variable {N E D H O Q : ℕ}

/-! ## Real numbers inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rectifier of a real is a real. -/
theorem relu_coe (r : ℝ) : relu (r : EReal) = ((max r 0 : ℝ) : EReal) := by
  unfold relu
  rw [← EReal.coe_zero]
  exact (EReal.coe_strictMono.monotone.map_max).symm

/-- Dividing a real by the (positive) number of rows. -/
theorem div_natCast (hN : 0 < N) (x : ℝ) :
    Ideal.div (x : EReal) (((N : ℝ)) : EReal) = ((x * (1 / (N : ℝ)) : ℝ) : EReal) := by
  have h : (N : ℝ) ≠ 0 := by exact_mod_cast hN.ne'
  rw [Ideal.div_coe h, ← EReal.coe_mul]

/-- The inverse square root of a positive real. -/
theorem rsqrt_pos_coe {r : ℝ} (hr : 0 < r) : Ideal.rsqrt (r : EReal) = (((Real.sqrt r)⁻¹ : ℝ) : EReal) := by
  rw [Ideal.rsqrt_coe, if_neg (not_lt.mpr hr.le), if_neg hr.ne']

/-! ## The network over the reals -/

/-- A dense product over the reals. -/
def mmR {A B C : ℕ} (a : Fin A → Fin B → ℝ) (w : Fin B → Fin C → ℝ) : Fin A → Fin C → ℝ :=
  fun n j => ∑ k : Fin B, a n k * w k j

/-- One convolution over the reals, in the textbook order. -/
def convR (g gd : Fin E → Fin N) (S : Fin N → Finset (Fin E)) (d : Fin N → ℝ)
    (a : Fin N → Fin D → ℝ) (w : Fin D → Fin H → ℝ) (b : Fin H → ℝ) : Fin N → Fin H → ℝ :=
  fun n j => (∑ e ∈ S n, mmR a w (g e) j * (d (g e) * d (gd e))) + b j

/-- The batch mean of each column, over the reals. -/
def meanR (a : Fin N → Fin H → ℝ) : Fin H → ℝ := fun j => (∑ n : Fin N, a n j) * (1 / (N : ℝ))

/-- The mean squared deviation of each column, over the reals. -/
def varR (a : Fin N → Fin H → ℝ) : Fin H → ℝ :=
  fun j => (∑ n : Fin N, (a n j - meanR a j) * (a n j - meanR a j)) * (1 / (N : ℝ))

/-- Batch normalisation followed by the rectifier, over the reals. -/
def bnR (e : ℝ) (γ β : Fin H → ℝ) (a : Fin N → Fin H → ℝ) : Fin N → Fin H → ℝ :=
  fun n j => max (((a n j - meanR a j) * (Real.sqrt (varR a j + e))⁻¹) * γ j + β j) 0

/-! ## The convolution -/

theorem mm_coe {A B C : ℕ} (a : Fin A → Fin B → ℝ) (w : Fin B → Fin C → ℝ) (n : Fin A) (j : Fin C) :
    mm (fun n k => (a n k : EReal)) (fun k j => (w k j : EReal)) n j = ((mmR a w n j : ℝ) : EReal) := by
  simp only [mm, mmR, coe_sum, EReal.coe_mul]

/-- The textbook convolution of real data is the real convolution. -/
theorem refConv_coe (g gd : Fin E → Fin N) (S : Fin N → Finset (Fin E)) (d : Fin N → ℝ)
    (a : Fin N → Fin D → ℝ) (w : Fin D → Fin H → ℝ) (b : Fin H → ℝ) :
    refConv g gd S (fun n => (d n : EReal)) (fun n k => (a n k : EReal)) (fun k j => (w k j : EReal))
        (fun j => (b j : EReal))
      = fun n j => ((convR g gd S d a w b n j : ℝ) : EReal) := by
  funext n j
  simp only [refConv, convR, mm_coe, zero_add, coe_sum, EReal.coe_add, EReal.coe_mul]

/-- The factored convolution of real data is the same real convolution: the target's factor comes out of the edge
sum because every edge of the sum lands on that target. -/
theorem kerAgg_coe (g gd : Fin E → Fin N) (S : Fin N → Finset (Fin E)) (hgd : ∀ n, ∀ e ∈ S n, gd e = n)
    (d : Fin N → ℝ) (a : Fin N → Fin D → ℝ) (w : Fin D → Fin H → ℝ) (b : Fin H → ℝ) :
    kerAgg (fun n => (d n : EReal))
        (kerRaw g S (kerPre (fun n => (d n : EReal)) (fun n k => (a n k : EReal)) (fun k j => (w k j : EReal))))
        (fun j => (b j : EReal))
      = fun n j => ((convR g gd S d a w b n j : ℝ) : EReal) := by
  funext n j
  have hreal : (∑ e ∈ S n, mmR a w (g e) j * d (g e)) * d n + b j = convR g gd S d a w b n j := by
    unfold convR
    rw [Finset.sum_mul]
    congr 1
    apply Finset.sum_congr rfl
    intro e he
    rw [hgd n e he]
    ring
  rw [← hreal]
  simp only [kerAgg, kerRaw, kerPre, mm_coe, zero_add, coe_sum, EReal.coe_add, EReal.coe_mul]

/-! ## The statistics -/

theorem refMean_coe (hN : 0 < N) (a : Fin N → Fin H → ℝ) (j : Fin H) :
    refMean ((N : ℝ) : EReal) (fun n j => (a n j : EReal)) j = ((meanR a j : ℝ) : EReal) := by
  simp only [refMean, zero_add, ← coe_sum]
  exact div_natCast hN _

/-- The textbook mean squared deviation of real data is the real one. -/
theorem refVar_coe (hN : 0 < N) (a : Fin N → Fin H → ℝ) (j : Fin H) :
    refVar ((N : ℝ) : EReal) (fun n j => (a n j : EReal)) j = ((varR a j : ℝ) : EReal) := by
  simp only [refVar, refMean_coe hN, zero_add, ← EReal.coe_sub, ← EReal.coe_mul, ← coe_sum]
  exact div_natCast hN _

/-- A mean squared deviation is not negative. -/
theorem varR_nonneg (a : Fin N → Fin H → ℝ) (j : Fin H) : 0 ≤ varR a j := by
  unfold varR
  apply mul_nonneg
  · exact Finset.sum_nonneg (fun n _ => mul_self_nonneg _)
  · exact one_div_nonneg.mpr (Nat.cast_nonneg N)

/-- The sum of squared deviations from any centre, expanded. -/
theorem sum_sq_dev (f : Fin N → ℝ) (μ : ℝ) :
    ∑ n : Fin N, (f n - μ) * (f n - μ)
      = (∑ n : Fin N, f n * f n) - 2 * μ * (∑ n : Fin N, f n) + (N : ℝ) * (μ * μ) := by
  have h1 : ∀ n : Fin N, (f n - μ) * (f n - μ) = f n * f n - 2 * μ * f n + μ * μ := fun n => by ring
  rw [Finset.sum_congr rfl (fun n _ => h1 n), Finset.sum_add_distrib, Finset.sum_sub_distrib, ← Finset.mul_sum,
    Finset.sum_const, Finset.card_univ, Fintype.card_fin, nsmul_eq_mul]

/-- Mean of squares minus squared mean is the mean squared deviation. -/
theorem var_factored (hN : 0 < N) (a : Fin N → Fin H → ℝ) (j : Fin H) :
    (∑ n : Fin N, a n j * a n j) * (1 / (N : ℝ)) - meanR a j * meanR a j = varR a j := by
  have hN' : (N : ℝ) ≠ 0 := by exact_mod_cast hN.ne'
  unfold varR
  rw [sum_sq_dev]
  unfold meanR
  field_simp
  ring

/-! ## Batch normalisation -/

/-- The textbook normalisation of real data is the real normalisation. -/
theorem refBn_coe (hN : 0 < N) {e : ℝ} (he : 0 < e) (γ β : Fin H → ℝ) (a : Fin N → Fin H → ℝ) :
    refBn ((N : ℝ) : EReal) (e : EReal) (fun j => (γ j : EReal)) (fun j => (β j : EReal))
        (fun n j => (a n j : EReal))
      = fun n j => ((bnR e γ β a n j : ℝ) : EReal) := by
  funext n j
  have hpos : 0 < varR a j + e := add_pos_of_nonneg_of_pos (varR_nonneg a j) he
  simp only [refBn, refMean_coe hN, refVar_coe hN, ← EReal.coe_add, rsqrt_pos_coe hpos, ← EReal.coe_sub,
    ← EReal.coe_mul, relu_coe, bnR]

/-- The factored order's column sum over the number of rows is the real mean. -/
theorem kerMean_coe (hN : 0 < N) (a : Fin N → Fin H → ℝ) (j : Fin H) :
    Ideal.div (kerSum (fun n j => (a n j : EReal)) j) ((N : ℝ) : EReal) = ((meanR a j : ℝ) : EReal) := by
  simp only [kerSum, ← coe_sum]
  exact div_natCast hN _

/-- The factored order's column sum of squares over the number of rows is the real mean of squares. -/
theorem kerMeanSq_coe (hN : 0 < N) (a : Fin N → Fin H → ℝ) (j : Fin H) :
    Ideal.div (kerSq (fun n j => (a n j : EReal)) j) ((N : ℝ) : EReal)
      = (((∑ n : Fin N, a n j * a n j) * (1 / (N : ℝ)) : ℝ) : EReal) := by
  simp only [kerSq, ← EReal.coe_mul, ← coe_sum]
  exact div_natCast hN _

/-- The folded scale is the column's weight over the standard deviation. -/
theorem kerScale_coe (hN : 0 < N) {e : ℝ} (he : 0 < e) (γ : Fin H → ℝ) (a : Fin N → Fin H → ℝ) (j : Fin H) :
    kerScale ((N : ℝ) : EReal) (e : EReal) (fun j => (γ j : EReal)) (kerSum (fun n j => (a n j : EReal)))
        (kerSq (fun n j => (a n j : EReal))) j
      = ((γ j * (Real.sqrt (varR a j + e))⁻¹ : ℝ) : EReal) := by
  have hpos : 0 < varR a j + e := add_pos_of_nonneg_of_pos (varR_nonneg a j) he
  simp only [kerScale]
  rw [kerMean_coe hN, kerMeanSq_coe hN, ← EReal.coe_mul, ← EReal.coe_sub, var_factored hN, ← EReal.coe_add,
    rsqrt_pos_coe hpos, ← EReal.coe_mul]

/-- The folded shift. -/
theorem kerShift_coe (hN : 0 < N) {e : ℝ} (he : 0 < e) (γ β : Fin H → ℝ) (a : Fin N → Fin H → ℝ) (j : Fin H) :
    kerShift ((N : ℝ) : EReal) (e : EReal) (fun j => (γ j : EReal)) (fun j => (β j : EReal))
        (kerSum (fun n j => (a n j : EReal))) (kerSq (fun n j => (a n j : EReal))) j
      = ((β j - meanR a j * (γ j * (Real.sqrt (varR a j + e))⁻¹) : ℝ) : EReal) := by
  simp only [kerShift]
  rw [kerScale_coe hN he, kerMean_coe hN, ← EReal.coe_mul, ← EReal.coe_sub]

/-- The factored normalisation of real data is the same real normalisation. -/
theorem kerBn_coe (hN : 0 < N) {e : ℝ} (he : 0 < e) (γ β : Fin H → ℝ) (a : Fin N → Fin H → ℝ) :
    kerBn
        (kerScale ((N : ℝ) : EReal) (e : EReal) (fun j => (γ j : EReal)) (kerSum (fun n j => (a n j : EReal)))
          (kerSq (fun n j => (a n j : EReal))))
        (kerShift ((N : ℝ) : EReal) (e : EReal) (fun j => (γ j : EReal)) (fun j => (β j : EReal))
          (kerSum (fun n j => (a n j : EReal))) (kerSq (fun n j => (a n j : EReal))))
        (fun n j => (a n j : EReal))
      = fun n j => ((bnR e γ β a n j : ℝ) : EReal) := by
  funext n j
  simp only [kerBn]
  rw [kerScale_coe hN he, kerShift_coe hN he, ← EReal.coe_mul, ← EReal.coe_add, relu_coe]
  congr 1
  unfold bnR
  congr 1
  ring

/-! ## One layer -/

theorem kerLayer_coe (hN : 0 < N) {e : ℝ} (he : 0 < e) (g gd : Fin E → Fin N) (S : Fin N → Finset (Fin E))
    (hgd : ∀ n, ∀ e ∈ S n, gd e = n) (d : Fin N → ℝ) (a : Fin N → Fin D → ℝ) (w : Fin D → Fin H → ℝ)
    (b γ β : Fin H → ℝ) :
    kerLayer (fun n => (d n : EReal)) ((N : ℝ) : EReal) (e : EReal) (fun j => (γ j : EReal)) (fun j => (β j : EReal))
        (kerRaw g S (kerPre (fun n => (d n : EReal)) (fun n k => (a n k : EReal)) (fun k j => (w k j : EReal))))
        (fun j => (b j : EReal))
      = fun n j => ((bnR e γ β (convR g gd S d a w b) n j : ℝ) : EReal) := by
  unfold kerLayer
  rw [kerAgg_coe g gd S hgd]
  exact kerBn_coe hN he γ β _

/-- One textbook layer (convolution, normalisation, rectifier) of real data is the real layer. -/
theorem refLayer_coe (hN : 0 < N) {e : ℝ} (he : 0 < e) (g gd : Fin E → Fin N) (S : Fin N → Finset (Fin E))
    (d : Fin N → ℝ) (a : Fin N → Fin D → ℝ) (w : Fin D → Fin H → ℝ) (b γ β : Fin H → ℝ) :
    refBn ((N : ℝ) : EReal) (e : EReal) (fun j => (γ j : EReal)) (fun j => (β j : EReal))
        (refConv g gd S (fun n => (d n : EReal)) (fun n k => (a n k : EReal)) (fun k j => (w k j : EReal))
          (fun j => (b j : EReal)))
      = fun n j => ((bnR e γ β (convR g gd S d a w b) n j : ℝ) : EReal) := by
  rw [refConv_coe]
  exact refBn_coe hN he γ β _

/-! ## The pooling and the linear map -/

/-- A product with the indicator of a node set, summed over all nodes, is the sum over the set; so the two heads agree
on any data. -/
theorem head_eq (T : Fin Q → Finset (Fin N)) (oh : Fin N → Fin Q → EReal)
    (hoh : ∀ n q, oh n q = if n ∈ T q then 1 else 0) (one oneb : EReal) (hone : one = 1) (honeb : oneb = 1)
    (a : Fin N → Fin H → EReal) (lw : Fin H → Fin O → EReal) (lb : Fin O → EReal) :
    kerHead oh one oneb a lw lb = refHead T one a lw lb := by
  have hsum : ∀ (q : Fin Q) (f : Fin N → EReal), ∑ n : Fin N, oh n q * f n = 0 + ∑ n ∈ T q, f n := by
    intro q f
    have h1 : ∀ n : Fin N, oh n q * f n = if n ∈ T q then f n else 0 := by
      intro n
      rw [hoh]
      split_ifs
      · exact one_mul _
      · exact zero_mul _
    rw [zero_add, Finset.sum_congr rfl (fun n _ => h1 n), Finset.sum_ite_mem, Finset.univ_inter]
  subst hone honeb
  funext q o
  have hcnt : ∑ n : Fin N, oh n q * (1 : EReal) = 0 + ∑ n ∈ T q, (1 : EReal) := hsum q (fun _ => 1)
  have hpool : ∀ h : Fin H, ∑ n : Fin N, oh n q * a n h = 0 + ∑ n ∈ T q, a n h := fun h => hsum q (fun n => a n h)
  simp only [kerHead, refHead, hcnt, hpool]

/-! ## The whole network -/

theorem kerOut_eq_refOut {N E D H O Q : ℕ} (hN : 0 < N)
    (g gd : Fin E → Fin N) (S : Fin N → Finset (Fin E)) (hgd : ∀ n, ∀ e ∈ S n, gd e = n)
    (dis : Fin N → EReal) (hdis : ∀ n, ∃ r : ℝ, 0 ≤ r ∧ dis n = (r : EReal))
    (T : Fin Q → Finset (Fin N)) (oh : Fin N → Fin Q → EReal) (hoh : ∀ n q, oh n q = if n ∈ T q then 1 else 0)
    (c ε one oneb : EReal) (hc : c = ((N : ℝ) : EReal)) (hε : ∃ r : ℝ, 0 < r ∧ ε = (r : EReal)) (hone : one = 1)
    (honeb : oneb = 1)
    (x : Fin N → Fin D → EReal) (w1 : Fin D → Fin H → EReal) (b1 : Fin H → EReal) (w2 : Fin H → Fin H → EReal)
    (b2 : Fin H → EReal)
    (γ β : Fin H → EReal) (lw : Fin H → Fin O → EReal) (lb : Fin O → EReal)
    (hx : ∀ n k, ∃ r : ℝ, x n k = (r : EReal)) (hw1 : ∀ k j, ∃ r : ℝ, w1 k j = (r : EReal))
    (hb1 : ∀ j, ∃ r : ℝ, b1 j = (r : EReal))
    (hw2 : ∀ k j, ∃ r : ℝ, w2 k j = (r : EReal)) (hb2 : ∀ j, ∃ r : ℝ, b2 j = (r : EReal))
    (hγ : ∀ j, ∃ r : ℝ, γ j = (r : EReal)) (hβ : ∀ j, ∃ r : ℝ, β j = (r : EReal))
    (hlw : ∀ h o, ∃ r : ℝ, lw h o = (r : EReal)) (hlb : ∀ o, ∃ r : ℝ, lb o = (r : EReal)) :
    kerOut g S dis oh c ε one oneb x w1 b1 w2 b2 γ β lw lb = refOut g gd S dis T c ε one x w1 b1 w2 b2 γ β lw lb := by
  obtain ⟨e, he, rfl⟩ := hε
  choose d' _ hd' using hdis
  choose x' hx' using hx
  choose w1' hw1' using hw1
  choose b1' hb1' using hb1
  choose w2' hw2' using hw2
  choose b2' hb2' using hb2
  choose γ' hγ' using hγ
  choose β' hβ' using hβ
  obtain rfl : dis = fun n => (d' n : EReal) := funext hd'
  obtain rfl : x = fun n k => (x' n k : EReal) := funext fun n => funext fun k => hx' n k
  obtain rfl : w1 = fun k j => (w1' k j : EReal) := funext fun k => funext fun j => hw1' k j
  obtain rfl : b1 = fun j => (b1' j : EReal) := funext hb1'
  obtain rfl : w2 = fun k j => (w2' k j : EReal) := funext fun k => funext fun j => hw2' k j
  obtain rfl : b2 = fun j => (b2' j : EReal) := funext hb2'
  obtain rfl : γ = fun j => (γ' j : EReal) := funext hγ'
  obtain rfl : β = fun j => (β' j : EReal) := funext hβ'
  subst hc
  unfold kerOut refOut
  rw [kerLayer_coe hN he g gd S hgd d' x' w1' b1' γ' β', refLayer_coe hN he g gd S d' x' w1' b1' γ' β',
    kerLayer_coe hN he g gd S hgd d' _ w2' b2' γ' β', refLayer_coe hN he g gd S d' _ w2' b2' γ' β']
  exact head_eq T oh hoh one oneb hone honeb _ lw lb

end Cert.Spec

end
-- ==== Proof.GraphFacts.lean ====
import proofs.«411316_j29850022707326_3_alg».proof.Proof.Graph

/-! # Facts about the graph read off the index vectors

A word that reads a row number in range is neither wrapped nor clamped by a gather; an edge that lands on a node is
read by a gather of the target vector as that node; the one-hot matrix of the batch is the indicator of each graph's
node set. -/

noncomputable section

namespace Cert.Graph

open Idealize.ShloMosaic Idealize.ShloMosaic.ValueIdx

/-- A nonnegative word is not wrapped. -/
theorem wrap_of_nonneg (N : ℕ) (v : BitVec 32) (h : 0 ≤ v.toInt) : wrap N v = v := by
  have hs : v.slt 0#32 = false := by
    simp [BitVec.slt, h]
  simp [wrap, Scalar.select, IntOp.cmpi, hs]

/-- A word that reads the row number n, in range, is neither wrapped nor clamped. -/
theorem row_of_toInt {N : ℕ} (hN : 0 < N) (hN31 : N < 2^31) (v : BitVec 32) (n : Fin N)
    (h : v.toInt = (n.val : ℤ)) : row hN v = n := by
  have hw : wrap N v = v := wrap_of_nonneg N v (by rw [h]; exact Int.natCast_nonneg _)
  apply Fin.ext
  simp only [row, hw, h, Int.toNat_natCast]
  have := n.isLt
  omega

/-- An edge landing on a node is read by a gather of the target vector as that node. -/
theorem gd_of_mem {N E : ℕ} (hN : 0 < N) (hN31 : N < 2^31) (dst : (⟨1, ![E]⟩ : Shape).Idx → BitVec 32)
    (n : Fin N) (e : Fin E) (he : e ∈ SOf dst n) : gOf hN dst e = n := by
  have h : (dst (ix1 e)).toInt = (n.val : ℤ) := by
    simpa [SOf] using he
  exact row_of_toInt hN hN31 _ n h

/-- The word of a natural number below 2^31 reads that number. -/
theorem toInt_ofNat_of_lt {q : ℕ} (hq : q < 2^31) : (BitVec.ofNat 32 q).toInt = (q : ℤ) := by
  rw [BitVec.toInt_ofNat']
  apply Int.bmod_eq_of_le <;> omega

/-- The one-hot matrix is the indicator of each graph's node set. -/
theorem ohOf_eq {N Q : ℕ} (hQ : Q < 2^31) (batch : (⟨1, ![N]⟩ : Shape).Idx → BitVec 32) (n : Fin N) (q : Fin Q) :
    ohOf batch n q = if n ∈ TOf (Q := Q) batch q then 1 else 0 := by
  have hq : q.val < 2^31 := lt_trans q.isLt hQ
  have hiff : batch (ix1 n) = BitVec.ofNat 32 q.val ↔ n ∈ TOf (Q := Q) batch q := by
    simp only [TOf, Finset.mem_filter, Finset.mem_univ, true_and]
    rw [← toInt_ofNat_of_lt hq]
    exact BitVec.toInt_inj.symm
  simp only [ohOf]
  by_cases hb : batch (ix1 n) = BitVec.ofNat 32 q.val
  · rw [if_pos hb, if_pos (hiff.mp hb)]
  · rw [if_neg hb, if_neg (fun hm => hb (hiff.mpr hm))]

end Cert.Graph

end
-- ==== Proof.Finite.lean ====
import proofs.«411316_j29850022707326_3_alg».proof.Pre_finite_inputs
import proofs.«411316_j29850022707326_3_alg».proof.Proof.Gen.Pre_finite_inputs
import proofs.«411316_j29850022707326_3_alg».proof.Defs
import Idealize.ShloMosaic.Lib.ReduceAll
import Idealize.ShloMosaic.Lib.ValueIdx
import Idealize.ShloMosaic.PureOps.Ideal

noncomputable section

namespace Cert.FiniteInputs

open Idealize.ShloMosaic Idealize.SL.Sem Idealize.ShloMosaic.ValueIdx Cert.Pre_finite_inputs

/-! # The precondition read back: every float input is a real number

The precondition is the conjunction, over the float arguments, of "every element's absolute value is below `+∞`", each
computed as a reduction by `and` over all axes. At the ideal instance an extended real whose absolute value is below
`+∞` is neither infinity, so it is a real; a reduction by `and` that comes out 1 says so of every element. -/

/-- The scalar shape has one index. -/
instance : Subsingleton S_.Idx := ⟨fun a b => funext fun d => d.elim0⟩

/-- An extended real whose absolute value `max x (-x)` is below `+∞` is neither infinity: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern `0x7F800000` denotes `+∞`. -/
theorem inf_bits : Ideal.ofBits .f32 0x7F800000#32 = (⊤ : EReal) := by simp [Ideal.ofBits, Ideal.ieee]

/-- One element of `isfinite`: the ordered comparison `|x| < +∞` came out 1, so `x` is a real. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  rw [inf_bits] at h'
  unfold Ideal.cmp at h'
  by_contra hn
  simp [hn] at h'

/-- `jnp.isfinite(a).all()` read back: the reduce by `and` of `|a| < +∞` over all axes is 1, so every element is a real. -/
theorem all_real {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi (cmpf .olt (Host.absf a) (broadcastInDim s ![] hb (constant S_ .f32 0x7F800000#32)))
          init hr hu ix0 = 1#1) :
    ∀ i, ∃ r : ℝ, a i = (r : EReal) := fun i =>
  real_of_cmp (a i) (Host.reduce_andi_all _ init hr hu ix0 e i)

/-- The precondition `finite_inputs` at the ideal instance, read back: if it is 1 then every float input is a real at every index. -/
theorem finite_of_pre [Cert.Pre_finite_inputs.Facts] (a0 : FVec Ideal S100000x128 .f32) (a1 : IVec S2x1600000 32)
    (a2 : IVec S100000 32) (a3 : FVec Ideal S128x64 .f32) (a4 : FVec Ideal S64 .f32) (a5 : FVec Ideal S64x64 .f32)
    (a6 a7 a8 : FVec Ideal S64 .f32) (a9 : FVec Ideal S64x32 .f32) (a10 : FVec Ideal S32 .f32)
    (h : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal)) := by
  have h0 := congrFun h ix0
  dsimp only [fn, fn_part1, fn_part2] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_real _ _ _ a0 _ e0, all_real _ _ _ a3 _ e3, all_real _ _ _ a4 _ e4, all_real _ _ _ a5 _ e5,
    all_real _ _ _ a6 _ e6, all_real _ _ _ a7 _ e7, all_real _ _ _ a8 _ e8, all_real _ _ _ a9 _ e9,
    all_real _ _ _ a10 _ e10⟩

/-- The same over the idealized kernel's precondition: on every device, each float argument array of the initial memory is real everywhere. -/
theorem finite_of_PreKernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
    ∧ (∀ i, ∃ r : ℝ, (m ((c.tc : Thread Cert.KernelIdeal.nD Cert.KernelIdeal.τ).loc Cert.KernelIdeal.main_arg3)) i = (r : EReal))
    ∧ (∀ i, ∃ r : ℝ, (m ((c.tc : Thread Cert.KernelIdeal.nD Cert.KernelIdeal.τ).loc Cert.KernelIdeal.main_arg4)) i = (r : EReal))
    ∧ (∀ i, ∃ r : ℝ, (m ((c.tc : Thread Cert.KernelIdeal.nD Cert.KernelIdeal.τ).loc Cert.KernelIdeal.main_arg5)) i = (r : EReal))
    ∧ (∀ i, ∃ r : ℝ, (m ((c.tc : Thread Cert.KernelIdeal.nD Cert.KernelIdeal.τ).loc Cert.KernelIdeal.main_arg6)) i = (r : EReal))
    ∧ (∀ i, ∃ r : ℝ, (m ((c.tc : Thread Cert.KernelIdeal.nD Cert.KernelIdeal.τ).loc Cert.KernelIdeal.main_arg7)) i = (r : EReal))
    ∧ (∀ i, ∃ r : ℝ, (m ((c.tc : Thread Cert.KernelIdeal.nD Cert.KernelIdeal.τ).loc Cert.KernelIdeal.main_arg8)) i = (r : EReal))
    ∧ (∀ i, ∃ r : ℝ, (m ((c.tc : Thread Cert.KernelIdeal.nD Cert.KernelIdeal.τ).loc Cert.KernelIdeal.main_arg9)) i = (r : EReal))
    ∧ (∀ i, ∃ r : ℝ, (m ((c.tc : Thread Cert.KernelIdeal.nD Cert.KernelIdeal.τ).loc Cert.KernelIdeal.main_arg10)) i = (r : EReal)) :=
  finite_of_pre _ _ _ _ _ _ _ _ _ _ _ (hpre c)

end Cert.FiniteInputs
-- ==== Proof.Algebraic.lean ====
import proofs.«411316_j29850022707326_3_alg».proof.Proof.KI.KerValue
import proofs.«411316_j29850022707326_3_alg».proof.Proof.KI.FrameOf
import proofs.«411316_j29850022707326_3_alg».proof.Proof.KI.HostVal
import proofs.«411316_j29850022707326_3_alg».proof.Proof.RefValue
import proofs.«411316_j29850022707326_3_alg».proof.Proof.SpecEq
import proofs.«411316_j29850022707326_3_alg».proof.Proof.GraphFacts
import proofs.«411316_j29850022707326_3_alg».proof.Proof.Consts
import proofs.«411316_j29850022707326_3_alg».proof.Proof.Finite
import proofs.«411316_j29850022707326_3_alg».proof.Defs

set_option maxRecDepth 16384

/-! # The two programs end with the same result

The factored program's result array is read as the factored order of the computation and the reference program's as the
textbook order, both over the graph and the batch read off the same index vectors; on finite inputs the two orders
agree. The graph preparation (edge list with self loops, degrees, their inverse square roots) is the same text in both
programs, so the vectors the two readings mention are the same vectors. -/

noncomputable section

namespace Cert.Proof.Parts

open Idealize.ShloMosaic Idealize.ShloMosaic.ValueIdx Idealize.ShloMosaic.TcCoe Idealize.SL.Sem

/-- The node count, the variance offset and the two units, as both programs spell them. -/
abbrev C : EReal := Ideal.ofBits .f32 0x47C35000#32
abbrev EPS : EReal := Ideal.ofBits .f32 0x3727C5AC#32
abbrev ONE : EReal := Ideal.ofBits .f32 0x3F800000#32
abbrev ONEB : EReal := Ideal.ofBits .bf16 0x3F80#16

/-! ## One graph preparation, printed twice -/

/-- Both programs build the source words by the same operations. -/
theorem src_same (ei : (⟨2, ![2, 1600000]⟩ : Shape).Idx → BitVec 32) : Cert.ReferenceIdeal.RefValue.srcOf ei = Cert.KernelIdeal.HandVal.srcK ei := rfl
/-- Both programs build the target words by the same operations. -/
theorem dst_same (ei : (⟨2, ![2, 1600000]⟩ : Shape).Idx → BitVec 32) : Cert.ReferenceIdeal.RefValue.dstOf ei = Cert.KernelIdeal.HandVal.dstK ei := rfl
/-- Both programs take the inverse square roots of the in-degrees by the same operations. -/
theorem dis_same (ei : (⟨2, ![2, 1600000]⟩ : Shape).Idx → BitVec 32) : Cert.ReferenceIdeal.RefValue.disOf ei = Cert.KernelIdeal.HandVal.disK ei := rfl

/-! ## The two orders agree on this graph -/

/-- On real inputs, over the graph and the batch read off the index vectors, the factored order and the textbook order
    compute the same matrix. -/
theorem spec_eq (src dst : (⟨1, ![1700000]⟩ : Shape).Idx → BitVec 32) (dis : (⟨1, ![100000]⟩ : Shape).Idx → EReal)
    (hdis : ∀ n : Fin 100000, ∃ r : ℝ, 0 ≤ r ∧ dis (ix1 n) = (r : EReal))
    (batch : (⟨1, ![100000]⟩ : Shape).Idx → BitVec 32)
    (x : (⟨2, ![100000, 128]⟩ : Shape).Idx → EReal) (w1 : (⟨2, ![128, 64]⟩ : Shape).Idx → EReal)
    (b1 : (⟨1, ![64]⟩ : Shape).Idx → EReal) (w2 : (⟨2, ![64, 64]⟩ : Shape).Idx → EReal) (b2 γ β : (⟨1, ![64]⟩ : Shape).Idx → EReal)
    (lw : (⟨2, ![64, 32]⟩ : Shape).Idx → EReal) (lb : (⟨1, ![32]⟩ : Shape).Idx → EReal)
    (hx : ∀ i, ∃ r : ℝ, x i = (r : EReal)) (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) (hγ : ∀ i, ∃ r : ℝ, γ i = (r : EReal))
    (hβ : ∀ i, ∃ r : ℝ, β i = (r : EReal)) (hlw : ∀ i, ∃ r : ℝ, lw i = (r : EReal)) (hlb : ∀ i, ∃ r : ℝ, lb i = (r : EReal)) :
    Cert.Spec.kerOut (Cert.Graph.gOf (N := 100000) (by decide) src) (Cert.Graph.SOf dst) (fun n => dis (ix1 n))
        (Cert.Graph.ohOf (Q := 128) batch) C EPS ONE ONEB
        (fun n k => x (ix2 n k)) (fun k j => w1 (ix2 k j)) (fun j => b1 (ix1 j)) (fun k j => w2 (ix2 k j)) (fun j => b2 (ix1 j))
        (fun j => γ (ix1 j)) (fun j => β (ix1 j)) (fun h o => lw (ix2 h o)) (fun o => lb (ix1 o))
      = Cert.Spec.refOut (Cert.Graph.gOf (N := 100000) (by decide) src) (Cert.Graph.gOf (N := 100000) (by decide) dst)
        (Cert.Graph.SOf dst) (fun n => dis (ix1 n)) (Cert.Graph.TOf (Q := 128) batch) C EPS ONE
        (fun n k => x (ix2 n k)) (fun k j => w1 (ix2 k j)) (fun j => b1 (ix1 j)) (fun k j => w2 (ix2 k j)) (fun j => b2 (ix1 j))
        (fun j => γ (ix1 j)) (fun j => β (ix1 j)) (fun h o => lw (ix2 h o)) (fun o => lb (ix1 o)) := by
  exact Cert.Spec.kerOut_eq_refOut (by decide) _ _ _
    (fun n e he => Cert.Graph.gd_of_mem (by decide) (by decide) dst n e he) _ hdis _ _
    (fun n q => Cert.Graph.ohOf_eq (by decide) batch n q) _ _ _ _
    (Cert.Consts.ofBits_count.trans (by norm_num)) Cert.Consts.ofBits_eps_pos Cert.Consts.ofBits_one Cert.Consts.ofBits_one_bf16
    _ _ _ _ _ _ _ _ _
    (fun n k => hx _) (fun k j => hw1 _) (fun j => hb1 _) (fun k j => hw2 _) (fun j => hb2 _) (fun j => hγ _) (fun j => hβ _)
    (fun h o => hlw _) (fun o => hlb _)

/-! ## The factored program's run -/

/-- The result array ends at the last boundary's contents and no argument array is changed. -/
theorem kernel_half (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v76) = Cert.KernelIdeal.Hand.W12 m ρ c (Proc.devRef .tc Cert.KernelIdeal.main_v76)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun r h c =>
    ⟨h c _ (Cert.KernelIdeal.Hand.mem_ucH Cert.KernelIdeal.main_v76 (by decide)),
     (h c _ (Cert.KernelIdeal.Hand.mem_ucH Cert.KernelIdeal.main_arg0 (by decide))).trans (Cert.KernelIdeal.Hand.W12_keep_arg m ρ c Cert.KernelIdeal.main_arg0 (by decide) (by decide) (by decide) (by decide) (by decide) (by decide) (by decide) (by decide) (by decide) (by decide) (by decide) (by decide)),
     (h c _ (Cert.KernelIdeal.Hand.mem_ucH Cert.KernelIdeal.main_arg1 (by decide))).trans (Cert.KernelIdeal.Hand.W12_keep_arg m ρ c Cert.KernelIdeal.main_arg1 (by decide) (by decide) (by decide) (by decide) (by decide) (by decide) (by decide) (by decide) (by decide) (by decide) (by decide) (by decide)),
     (h c _ (Cert.KernelIdeal.Hand.mem_ucH Cert.KernelIdeal.main_arg2 (by decide))).trans (Cert.KernelIdeal.Hand.W12_keep_arg m ρ c Cert.KernelIdeal.main_arg2 (by decide) (by decide) (by decide) (by decide) (by decide) (by decide) (by decide) (by decide) (by decide) (by decide) (by decide) (by decide)),
     (h c _ (Cert.KernelIdeal.Hand.mem_ucH Cert.KernelIdeal.main_arg3 (by decide))).trans (Cert.KernelIdeal.Hand.W12_keep_arg m ρ c Cert.KernelIdeal.main_arg3 (by decide) (by decide) (by decide) (by decide) (by decide) (by decide) (by decide) (by decide) (by decide) (by decide) (by decide) (by decide)),
     (h c _ (Cert.KernelIdeal.Hand.mem_ucH Cert.KernelIdeal.main_arg4 (by decide))).trans (Cert.KernelIdeal.Hand.W12_keep_arg m ρ c Cert.KernelIdeal.main_arg4 (by decide) (by decide) (by decide) (by decide) (by decide) (by decide) (by decide) (by decide) (by decide) (by decide) (by decide) (by decide)),
     (h c _ (Cert.KernelIdeal.Hand.mem_ucH Cert.KernelIdeal.main_arg5 (by decide))).trans (Cert.KernelIdeal.Hand.W12_keep_arg m ρ c Cert.KernelIdeal.main_arg5 (by decide) (by decide) (by decide) (by decide) (by decide) (by decide) (by decide) (by decide) (by decide) (by decide) (by decide) (by decide)),
     (h c _ (Cert.KernelIdeal.Hand.mem_ucH Cert.KernelIdeal.main_arg6 (by decide))).trans (Cert.KernelIdeal.Hand.W12_keep_arg m ρ c Cert.KernelIdeal.main_arg6 (by decide) (by decide) (by decide) (by decide) (by decide) (by decide) (by decide) (by decide) (by decide) (by decide) (by decide) (by decide)),
     (h c _ (Cert.KernelIdeal.Hand.mem_ucH Cert.KernelIdeal.main_arg7 (by decide))).trans (Cert.KernelIdeal.Hand.W12_keep_arg m ρ c Cert.KernelIdeal.main_arg7 (by decide) (by decide) (by decide) (by decide) (by decide) (by decide) (by decide) (by decide) (by decide) (by decide) (by decide) (by decide)),
     (h c _ (Cert.KernelIdeal.Hand.mem_ucH Cert.KernelIdeal.main_arg8 (by decide))).trans (Cert.KernelIdeal.Hand.W12_keep_arg m ρ c Cert.KernelIdeal.main_arg8 (by decide) (by decide) (by decide) (by decide) (by decide) (by decide) (by decide) (by decide) (by decide) (by decide) (by decide) (by decide)),
     (h c _ (Cert.KernelIdeal.Hand.mem_ucH Cert.KernelIdeal.main_arg9 (by decide))).trans (Cert.KernelIdeal.Hand.W12_keep_arg m ρ c Cert.KernelIdeal.main_arg9 (by decide) (by decide) (by decide) (by decide) (by decide) (by decide) (by decide) (by decide) (by decide) (by decide) (by decide) (by decide)),
     (h c _ (Cert.KernelIdeal.Hand.mem_ucH Cert.KernelIdeal.main_arg10 (by decide))).trans (Cert.KernelIdeal.Hand.W12_keep_arg m ρ c Cert.KernelIdeal.main_arg10 (by decide) (by decide) (by decide) (by decide) (by decide) (by decide) (by decide) (by decide) (by decide) (by decide) (by decide) (by decide))⟩)
    (Cert.KernelIdeal.Hand.run m ρ)

/-! ## The results agree -/

/-- From memories agreeing on the arguments, the first of them finite everywhere, the reference program's result term is
    the contents the factored program leaves in its result array: element by element, the textbook order of the
    reference's arguments is the factored order of the same arguments. -/
theorem result_eq [hP : Cert.Pre_finite_inputs.Facts] (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v131 m' c = Cert.KernelIdeal.Hand.W12 m ρ c (Proc.devRef .tc Cert.KernelIdeal.main_v76) := by
  obtain ⟨e0, e1, e2, e3, e4, e5, e6, e7, e8, e9, e10⟩ := hagree
  obtain ⟨f0, f3, f4, f5, f6, f7, f8, f9, f10⟩ := Cert.FiniteInputs.finite_of_PreKernelIdeal m hpre c
  rw [Cert.ReferenceIdeal.Read.val_main_v131_eq, e0, e1, e2, e3, e4, e5, e6, e7, e8, e9, e10]
  funext i
  obtain ⟨q, o, rfl⟩ : ∃ q o, i = ix2 q o := ⟨i 0, i 1, eq_ix2 i⟩
  rw [Cert.ReferenceIdeal.RefValue.ref_value, src_same, dst_same, dis_same]
  refine Eq.trans ?_ (Cert.KernelIdeal.HandVal.ker_value m ρ c q o).symm
  exact (congrFun (congrFun (spec_eq _ _ _ (Cert.KernelIdeal.HandVal.disK_real _) _ _ _ _ _ _ _ _ _ _ f0 f3 f4 f5 f6 f7 f8 f9 f10) q) o).symm

/-- THE ALGEBRAIC CLAIM. At the ideal instance, from memories agreeing on the arguments and finite inputs, both programs
    run, their results are equal element by element, and neither changes an argument. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.KernelIdeal.Hand.W12 m ρ c (Proc.devRef .tc Cert.KernelIdeal.main_v76), kernel_half m ρ, ?_⟩
  exact (θ_run Cert.ReferenceIdeal.defs _ _).mono (fun r h c => ⟨(h c).1.trans (result_eq m ρ m' hpre c (hagree c)), (h c).2⟩)
    (Cert.ReferenceIdeal.Value.run (F := Ideal) m' ρ')

end Cert.Proof.Parts

end
-- ==== Proof.lean ====
/-
  A two-layer graph convolution network with batch normalisation, mean pooling over a batch of graphs and a final linear
  map, computed by five kernel regions among stretches of host operations, against its textbook form on the host.

  Both programs read the edge list with self loops appended, the in-degree of every node, and `dis`, its inverse square
  root (zero for an isolated node; none exists once the self loops are there). The textbook form scales the message
  along an edge by `dis (source) * dis (target)`, sums the messages at the target and adds the bias; it normalises every
  column with the batch mean and the mean squared deviation; it pools by summing over each graph's nodes and dividing by
  the node count; then the linear map. The kernels scale a projected row by `dis` of its own node BEFORE the edge sum
  and by `dis` of the target AFTER it (the factor does not depend on the edge once the target is fixed); they take
  the variance as the mean of squares minus the squared mean, and fold mean, variance, scale and offset into one
  multiplier and one shift per column; they pool by a product with the one-hot matrix of the batch, accumulated over
  twenty blocks of nodes in a scratch buffer, and divide at the last block. Over the extended reals every quantity is a
  finite real as soon as the float inputs are finite, and the two orders agree: distributivity for the factored
  normalisation, `(1/N) Σ (a - μ)² = (1/N) Σ a² - μ²` with `μ = (1/N) Σ a` and `N` the number of rows for the
  variance, `((a - μ) r) γ + β = a (γ r) + (β - μ (γ r))` for the folded normalisation, and a sum of `oh n q * a n` over
  all nodes is the sum of `a n` over graph `q`'s nodes.

  The frames: @main is twelve items; the buffer contents at each boundary are a fold from the launch memory, no item
  writes an argument, and each region's body obligation is its kernel's run on whole staging buffers (the statistics
  kernels carry their two outputs from point to point, the pooling kernel its two scratch buffers). The same text serves
  the word-level program and the idealized one. `preserves` is trivial: the idealization rewrote no operation.
-/
import proofs.«411316_j29850022707326_3_alg».proof.Defs
import proofs.«411316_j29850022707326_3_alg».proof.Proof.Gen.Kernel
import proofs.«411316_j29850022707326_3_alg».proof.Proof.Gen.KernelIdeal
import proofs.«411316_j29850022707326_3_alg».proof.Proof.Gen.ReferenceIdeal
import proofs.«411316_j29850022707326_3_alg».proof.Proof.Gen.Pre_finite_inputs
import proofs.«411316_j29850022707326_3_alg».proof.Proof.KI.FrameOf
import proofs.«411316_j29850022707326_3_alg».proof.Proof.KB.FrameOf
import proofs.«411316_j29850022707326_3_alg».proof.Proof.RefRun
import proofs.«411316_j29850022707326_3_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    -- the word-level program runs, faults nowhere and leaves its arguments as launched
    fun m ρ _ => Cert.Kernel.Hand.frame m ρ,
    -- so does the idealized program
    fun m ρ _ => Cert.KernelIdeal.Hand.frame m ρ,
    -- and the reference: its run with the result dropped
    fun m ρ _ => (θ_run Cert.ReferenceIdeal.defs _ _).mono (fun _ h c => (h c).2) (Cert.ReferenceIdeal.Value.run (F := Ideal) m ρ),
    -- the idealization rewrote nothing
    trivial,
    -- the two idealized programs end with equal results
    Cert.Proof.Parts.algebraic⟩

end Cert.Proof

end
